-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S2x800000 : Shape := ⟨2, ![2, 800000]⟩
abbrev S2x1000 : Shape := ⟨2, ![2, 1000]⟩
abbrev S800000x32 : Shape := ⟨2, ![800000, 32]⟩
abbrev S20000 : Shape := ⟨1, ![20000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S32x32 : Shape := ⟨2, ![32, 32]⟩
abbrev S32 : Shape := ⟨1, ![32]⟩
abbrev S170x10 : Shape := ⟨2, ![170, 10]⟩
abbrev S10x2 : Shape := ⟨2, ![10, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S170x10 : S_.BroadcastsInDim S170x10 (![] : Fin 0 → Fin S170x10.rank)
  reducesTo_S170x10_S_d0_1 : S170x10.ReducesTo [0, 1] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part7 {F : FTy → Type} [FloatOps F] (main_arg2 : IVec S2x800000 32) (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  let main_v124 : IVec S1x800000 32 := (extractStridedSlice S1x800000 ![0, 0] · slices_S2x800000_S1x800000_0_0) main_arg2
  let main_v125 : IVec S800000 32 := shapeCast S800000 main_v124 shapeCasts_S1x800000_S800000
  let main_c_48 : IVec S_ 32 := constantI S_ 32 4294917296#32
  let main_v126 : IVec S800000 32 := broadcastInDim S800000 ![] bcast_S_S800000 main_c_48
  let main_v127 : IVec S800000 1 := cmpi .sge main_v125 main_v126
  let main_c_49 : IVec S_ 1 := constantI S_ 1 1#1
  let main_v128 : IVec S_ 1 := (fun x v => Host.reduce IntOp.andi x v reducesTo_S800000_S_d0 h_S_) main_v127 main_c_49
  let main_v129 : IVec S_ 1 := andi main_v123 main_v128
  let main_v130 : IVec S1x800000 32 := (extractStridedSlice S1x800000 ![0, 0] · slices_S2x800000_S1x800000_0_0) main_arg2
  let main_v131 : IVec S800000 32 := shapeCast S800000 main_v130 shapeCasts_S1x800000_S800000
  let main_c_50 : IVec S_ 32 := constantI S_ 32 50000#32
  let main_v132 : IVec S800000 32 := broadcastInDim S800000 ![] bcast_S_S800000 main_c_50
  let main_v133 : IVec S800000 1 := cmpi .slt main_v131 main_v132
  let main_c_51 : IVec S_ 1 := constantI S_ 1 1#1
  let main_v134 : IVec S_ 1 := (fun x v => Host.reduce IntOp.andi x v reducesTo_S800000_S_d0 h_S_) main_v133 main_c_51
  let main_v135 : IVec S_ 1 := andi main_v129 main_v134
  main_v135

def fn_part6 {F : FTy → Type} [FloatOps F] (main_arg2 : IVec S2x800000 32) (main_arg26 : FVec F S170x10 .f32) (main_arg27 : FVec F S10 .f32) (main_arg28 : FVec F S10x2 .f32) (main_arg29 : FVec F S2 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_v104 : FVec F S170x10 .f32 := Host.absf main_arg26
  let main_cst_40 : FVec F S_ .f32 := constant S_ .f32 0x7F800000#32
  let main_v105 : FVec F S170x10 .f32 := broadcastInDim S170x10 ![] bcast_S_S170x10 main_cst_40
  let main_v106 : IVec S170x10 1 := cmpf .olt main_v104 main_v105
  let main_c_41 : IVec S_ 1 := constantI S_ 1 1#1
  let main_v107 : IVec S_ 1 := (fun x v => Host.reduce IntOp.andi x v reducesTo_S170x10_S_d0_1 h_S_) main_v106 main_c_41
  let main_v108 : IVec S_ 1 := andi main_v103 main_v107
  let main_v109 : FVec F S10 .f32 := Host.absf main_arg27
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  let main_v114 : FVec F S10x2 .f32 := Host.absf main_arg28
  let main_cst_44 : FVec F S_ .f32 := constant S_ .f32 0x7F800000#32
  let main_v115 : FVec F S10x2 .f32 := broadcastInDim S10x2 ![] bcast_S_S10x2 main_cst_44
  let main_v116 : IVec S10x2 1 := cmpf .olt main_v114 main_v115
  let main_c_45 : IVec S_ 1 := constantI S_ 1 1#1
  let main_v117 : IVec S_ 1 := (fun x v => Host.reduce IntOp.andi x v reducesTo_S10x2_S_d0_1 h_S_) main_v116 main_c_45
  let main_v118 : IVec S_ 1 := andi main_v113 main_v117
  let main_v119 : FVec F S2 .f32 := Host.absf main_arg29
  fn_part7 (F := F) main_arg2 main_v118 main_v119

def fn_part5 {F : FTy → Type} [FloatOps F] (main_arg2 : IVec S2x800000 32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) (main_v83 : IVec S_ 1) (main_v84 : FVec F S170x10 .f32) (main_cst_32 : FVec F S_ .f32) : IVec S_ 1 :=
  let main_v85 : FVec F S170x10 .f32 := broadcastInDim S170x10 ![] bcast_S_S170x10 main_cst_32
  let main_v86 : IVec S170x10 1 := cmpf .olt main_v84 main_v85
  let main_c_33 : IVec S_ 1 := constantI S_ 1 1#1
  let main_v87 : IVec S_ 1 := (fun x v => Host.reduce IntOp.andi x v reducesTo_S170x10_S_d0_1 h_S_) main_v86 main_c_33
  let main_v88 : IVec S_ 1 := andi main_v83 main_v87
  let main_v89 : FVec F S10 .f32 := Host.absf main_arg23
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S170x10 .f32 := Host.absf main_arg24
  let main_cst_36 : FVec F S_ .f32 := constant S_ .f32 0x7F800000#32
  let main_v95 : FVec F S170x10 .f32 := broadcastInDim S170x10 ![] bcast_S_S170x10 main_cst_36
  let main_v96 : IVec S170x10 1 := cmpf .olt main_v94 main_v95
  let main_c_37 : IVec S_ 1 := constantI S_ 1 1#1
  let main_v97 : IVec S_ 1 := (fun x v => Host.reduce IntOp.andi x v reducesTo_S170x10_S_d0_1 h_S_) main_v96 main_c_37
  let main_v98 : IVec S_ 1 := andi main_v93 main_v97
  let main_v99 : FVec F S10 .f32 := Host.absf main_arg25
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg2 main_arg26 main_arg27 main_arg28 main_arg29 main_v98 main_v101 main_c_39

def fn_part4 {F : FTy → Type} [FloatOps F] (main_arg2 : IVec S2x800000 32) (main_arg19 : FVec F S32 .f32) (main_arg20 : FVec F S170x10 .f32) (main_arg21 : FVec F S10 .f32) (main_arg22 : FVec F S170x10 .f32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) (main_v63 : IVec S_ 1) (main_v67 : IVec S_ 1) : IVec S_ 1 :=
  let main_v68 : IVec S_ 1 := andi main_v63 main_v67
  let main_v69 : FVec F S32 .f32 := Host.absf main_arg19
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S170x10 .f32 := Host.absf main_arg20
  let main_cst_28 : FVec F S_ .f32 := constant S_ .f32 0x7F800000#32
  let main_v75 : FVec F S170x10 .f32 := broadcastInDim S170x10 ![] bcast_S_S170x10 main_cst_28
  let main_v76 : IVec S170x10 1 := cmpf .olt main_v74 main_v75
  let main_c_29 : IVec S_ 1 := constantI S_ 1 1#1
  let main_v77 : IVec S_ 1 := (fun x v => Host.reduce IntOp.andi x v reducesTo_S170x10_S_d0_1 h_S_) main_v76 main_c_29
  let main_v78 : IVec S_ 1 := andi main_v73 main_v77
  let main_v79 : FVec F S10 .f32 := Host.absf main_arg21
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S170x10 .f32 := Host.absf main_arg22
  let main_cst_32 : FVec F S_ .f32 := constant S_ .f32 0x7F800000#32
  fn_part5 (F := F) main_arg2 main_arg23 main_arg24 main_arg25 main_arg26 main_arg27 main_arg28 main_arg29 main_v83 main_v84 main_cst_32

def fn_part3 {F : FTy → Type} [FloatOps F] (main_arg2 : IVec S2x800000 32) (main_arg16 : FVec F S128 .f32) (main_arg17 : FVec F S32 .f32) (main_arg18 : FVec F S32 .f32) (main_arg19 : FVec F S32 .f32) (main_arg20 : FVec F S170x10 .f32) (main_arg21 : FVec F S10 .f32) (main_arg22 : FVec F S170x10 .f32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S32 .f32 := Host.absf main_arg17
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg18
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg19 main_arg20 main_arg21 main_arg22 main_arg23 main_arg24 main_arg25 main_arg26 main_arg27 main_arg28 main_arg29 main_v63 main_v67

def fn_part2 {F : FTy → Type} [FloatOps F] (main_arg2 : IVec S2x800000 32) (main_arg12 : FVec F S32x32 .f32) (main_arg13 : FVec F S32 .f32) (main_arg14 : FVec F S128 .f32) (main_arg15 : FVec F S128 .f32) (main_arg16 : FVec F S128 .f32) (main_arg17 : FVec F S32 .f32) (main_arg18 : FVec F S32 .f32) (main_arg19 : FVec F S32 .f32) (main_arg20 : FVec F S170x10 .f32) (main_arg21 : FVec F S10 .f32) (main_arg22 : FVec F S170x10 .f32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) (main_v33 : IVec S_ 1) : IVec S_ 1 :=
  let main_v34 : FVec F S32x32 .f32 := Host.absf main_arg12
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg13
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg2 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S2x800000 32) (main_arg9 : FVec F S128 .f32) (main_arg10 : FVec F S128x10 .f32) (main_arg11 : FVec F S10 .f32) (main_arg12 : FVec F S32x32 .f32) (main_arg13 : FVec F S32 .f32) (main_arg14 : FVec F S128 .f32) (main_arg15 : FVec F S128 .f32) (main_arg16 : FVec F S128 .f32) (main_arg17 : FVec F S32 .f32) (main_arg18 : FVec F S32 .f32) (main_arg19 : FVec F S32 .f32) (main_arg20 : FVec F S170x10 .f32) (main_arg21 : FVec F S10 .f32) (main_arg22 : FVec F S170x10 .f32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg10
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg11
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg2 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : FVec F S50000x1 .f32) (main_arg2 : IVec S2x800000 32) (main_arg3 : IVec S2x1000 32) (main_arg4 : IVec S2x1000 32) (main_arg5 : IVec S2x1000 32) (main_arg6 : FVec F S800000x32 .f32) (main_arg7 : IVec S20000 32) (main_arg8 : FVec F S128x128 .f32) (main_arg9 : FVec F S128 .f32) (main_arg10 : FVec F S128x10 .f32) (main_arg11 : FVec F S10 .f32) (main_arg12 : FVec F S32x32 .f32) (main_arg13 : FVec F S32 .f32) (main_arg14 : FVec F S128 .f32) (main_arg15 : FVec F S128 .f32) (main_arg16 : FVec F S128 .f32) (main_arg17 : FVec F S32 .f32) (main_arg18 : FVec F S32 .f32) (main_arg19 : FVec F S32 .f32) (main_arg20 : FVec F S170x10 .f32) (main_arg21 : FVec F S10 .f32) (main_arg22 : FVec F S170x10 .f32) (main_arg23 : FVec F S10 .f32) (main_arg24 : FVec F S170x10 .f32) (main_arg25 : FVec F S10 .f32) (main_arg26 : FVec F S170x10 .f32) (main_arg27 : FVec F S10 .f32) (main_arg28 : FVec F S10x2 .f32) (main_arg29 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S800000x32 .f32 := Host.absf main_arg6
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S50000x1 : Shape := ⟨2, ![50000, 1]⟩
abbrev S2x800000 : Shape := ⟨2, ![2, 800000]⟩
abbrev S2x1000 : Shape := ⟨2, ![2, 1000]⟩
abbrev S800000x32 : Shape := ⟨2, ![800000, 32]⟩
abbrev S20000 : Shape := ⟨1, ![20000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S32x32 : Shape := ⟨2, ![32, 32]⟩
abbrev S32 : Shape := ⟨1, ![32]⟩
abbrev S170x10 : Shape := ⟨2, ![170, 10]⟩
abbrev S10x2 : Shape := ⟨2, ![10, 2]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S1x10 : Shape := ⟨2, ![1, 10]⟩
abbrev S1x32 : Shape := ⟨2, ![1, 32]⟩
abbrev S5000x128 : Shape := ⟨2, ![5000, 128]⟩
abbrev S_ : Shape := ⟨0, ![]⟩
abbrev S50000x10 : Shape := ⟨2, ![50000, 10]⟩
abbrev S5000x10 : Shape := ⟨2, ![5000, 10]⟩
abbrev S16000x32 : Shape := ⟨2, ![16000, 32]⟩
abbrev S50000x138 : Shape := ⟨2, ![50000, 138]⟩
abbrev S800000x1 : Shape := ⟨2, ![800000, 1]⟩
abbrev S1 : Shape := ⟨1, ![1]⟩
abbrev S1x1 : Shape := ⟨2, ![1, 1]⟩
abbrev S800000x138 : Shape := ⟨2, ![800000, 138]⟩
abbrev S138x10 : Shape := ⟨2, ![138, 10]⟩
abbrev S32x10 : Shape := ⟨2, ![32, 10]⟩
abbrev S800000x10 : Shape := ⟨2, ![800000, 10]⟩
abbrev S8000x138 : Shape := ⟨2, ![8000, 138]⟩
abbrev S8000x32 : Shape := ⟨2, ![8000, 32]⟩
abbrev S8000x10 : Shape := ⟨2, ![8000, 10]⟩
abbrev S50000x2 : Shape := ⟨2, ![50000, 2]⟩
abbrev S1x2 : Shape := ⟨2, ![1, 2]⟩
abbrev S20000x1 : Shape := ⟨2, ![20000, 1]⟩
abbrev S20000x2 : Shape := ⟨2, ![20000, 2]⟩

abbrev nBuf : Space → Nat
  | .hbm => 246
  | .vmem => 68
  | .smem => 0
  | _ => 0

abbrev hbmTy0_0 (i : Nat) : BufTy := match i % 128 with
  | 0 => ⟨S50000x128, .f32⟩
  | 1 => ⟨S50000x1, .f32⟩
  | 2 => ⟨S2x800000, .i32⟩
  | 3 => ⟨S2x1000, .i32⟩
  | 4 => ⟨S2x1000, .i32⟩
  | 5 => ⟨S2x1000, .i32⟩
  | 6 => ⟨S800000x32, .f32⟩
  | 7 => ⟨S20000, .i32⟩
  | 8 => ⟨S128x128, .f32⟩
  | 9 => ⟨S128, .f32⟩
  | 10 => ⟨S128x10, .f32⟩
  | 11 => ⟨S10, .f32⟩
  | 12 => ⟨S32x32, .f32⟩
  | 13 => ⟨S32, .f32⟩
  | 14 => ⟨S128, .f32⟩
  | 15 => ⟨S128, .f32⟩
  | 16 => ⟨S128, .f32⟩
  | 17 => ⟨S32, .f32⟩
  | 18 => ⟨S32, .f32⟩
  | 19 => ⟨S32, .f32⟩
  | 20 => ⟨S170x10, .f32⟩
  | 21 => ⟨S10, .f32⟩
  | 22 => ⟨S170x10, .f32⟩
  | 23 => ⟨S10, .f32⟩
  | 24 => ⟨S170x10, .f32⟩
  | 25 => ⟨S10, .f32⟩
  | 26 => ⟨S170x10, .f32⟩
  | 27 => ⟨S10, .f32⟩
  | 28 => ⟨S10x2, .f32⟩
  | 29 => ⟨S2, .f32⟩
  | 30 => ⟨S1x800000, .i32⟩
  | 31 => ⟨S800000, .i32⟩
  | 32 => ⟨S1x800000, .i32⟩
  | 33 => ⟨S800000, .i32⟩
  | 34 => ⟨S1x128, .f32⟩
  | 35 => ⟨S1x10, .f32⟩
  | 36 => ⟨S1x32, .f32⟩
  | 37 => ⟨S1x128, .f32⟩
  | 38 => ⟨S1x128, .f32⟩
  | 39 => ⟨S1x128, .f32⟩
  | 40 => ⟨S1x32, .f32⟩
  | 41 => ⟨S1x32, .f32⟩
  | 42 => ⟨S1x32, .f32⟩
  | 43 => ⟨S50000x128, .f32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x10, .f32⟩
  | 61 => ⟨S800000x32, .f32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .f32⟩
  | 68 => ⟨S1x32, .f32⟩
  | 69 => ⟨S800000x32, .f32⟩
  | 70 => ⟨S800000x32, .f32⟩
  | 71 => ⟨S800000x32, .f32⟩
  | 72 => ⟨S_, .f32⟩
  | 73 => ⟨S32, .f32⟩
  | 74 => ⟨S1x32, .f32⟩
  | 75 => ⟨S_, .f32⟩
  | 76 => ⟨S1x32, .f32⟩
  | 77 => ⟨S1x32, .f32⟩
  | 78 => ⟨S800000x32, .f32⟩
  | 79 => ⟨S50000x138, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S1, .i32⟩
  | 89 => ⟨S_, .i32⟩
  | 90 => ⟨S800000x1, .i32⟩
  | 91 => ⟨S800000x1, .i1⟩
  | 92 => ⟨S1x1, .i32⟩
  | 93 => ⟨S800000x1, .i32⟩
  | 94 => ⟨S800000x1, .i1⟩
  | 95 => ⟨S800000x1, .i1⟩
  | 96 => ⟨S_, .i1⟩
  | 97 => ⟨S800000, .i1⟩
  | 98 => ⟨S800000x138, .f32⟩
  | 99 => ⟨S800000x138, .i1⟩
  | 100 => ⟨S_, .f32⟩
  | 101 => ⟨S800000x138, .f32⟩
  | 102 => ⟨S800000x138, .f32⟩
  | 103 => ⟨S138x10, .f32⟩
  | 104 => ⟨S32x10, .f32⟩
  | 105 => ⟨S1x10, .f32⟩
  | 106 => ⟨S800000x10, .f32⟩
  | 107 => ⟨S_, .f32⟩
  | 108 => ⟨S50000x10, .f32⟩
  | 109 => ⟨S800000x1, .i32⟩
  | 110 => ⟨S50000x10, .f32⟩
  | 111 => ⟨S_, .f32⟩
  | 112 => ⟨S50000x10, .f32⟩
  | 113 => ⟨S50000x10, .f32⟩
  | 114 => ⟨S50000x138, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S1, .i32⟩
  | 124 => ⟨S_, .i32⟩
  | 125 => ⟨S800000x1, .i32⟩
  | 126 => ⟨S800000x1, .i1⟩
  | 127 => ⟨S1x1, .i32⟩
  | _ => ⟨S50000x128, .f32⟩

abbrev hbmTy0_1 (i : Nat) : BufTy := match i % 128 with
  | 0 => ⟨S800000x1, .i32⟩
  | 1 => ⟨S800000x1, .i1⟩
  | 2 => ⟨S800000x1, .i1⟩
  | 3 => ⟨S_, .i1⟩
  | 4 => ⟨S800000, .i1⟩
  | 5 => ⟨S800000x138, .f32⟩
  | 6 => ⟨S800000x138, .i1⟩
  | 7 => ⟨S_, .f32⟩
  | 8 => ⟨S800000x138, .f32⟩
  | 9 => ⟨S800000x138, .f32⟩
  | 10 => ⟨S138x10, .f32⟩
  | 11 => ⟨S32x10, .f32⟩
  | 12 => ⟨S1x10, .f32⟩
  | 13 => ⟨S800000x10, .f32⟩
  | 14 => ⟨S_, .f32⟩
  | 15 => ⟨S50000x10, .f32⟩
  | 16 => ⟨S800000x1, .i32⟩
  | 17 => ⟨S50000x10, .f32⟩
  | 18 => ⟨S_, .f32⟩
  | 19 => ⟨S50000x10, .f32⟩
  | 20 => ⟨S50000x10, .f32⟩
  | 21 => ⟨S50000x138, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x138, .f32⟩
  | 41 => ⟨S800000x138, .i1⟩
  | 42 => ⟨S_, .f32⟩
  | 43 => ⟨S800000x138, .f32⟩
  | 44 => ⟨S800000x138, .f32⟩
  | 45 => ⟨S138x10, .f32⟩
  | 46 => ⟨S32x10, .f32⟩
  | 47 => ⟨S1x10, .f32⟩
  | 48 => ⟨S800000x10, .f32⟩
  | 49 => ⟨S_, .f32⟩
  | 50 => ⟨S50000x10, .f32⟩
  | 51 => ⟨S800000x1, .i32⟩
  | 52 => ⟨S50000x10, .f32⟩
  | 53 => ⟨S_, .f32⟩
  | 54 => ⟨S50000x10, .f32⟩
  | 55 => ⟨S50000x10, .f32⟩
  | 56 => ⟨S50000x138, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000x138, .f32⟩
  | 76 => ⟨S800000x138, .i1⟩
  | 77 => ⟨S_, .f32⟩
  | 78 => ⟨S800000x138, .f32⟩
  | 79 => ⟨S800000x138, .f32⟩
  | 80 => ⟨S138x10, .f32⟩
  | 81 => ⟨S32x10, .f32⟩
  | 82 => ⟨S1x10, .f32⟩
  | 83 => ⟨S800000x10, .f32⟩
  | 84 => ⟨S_, .f32⟩
  | 85 => ⟨S50000x10, .f32⟩
  | 86 => ⟨S800000x1, .i32⟩
  | 87 => ⟨S50000x10, .f32⟩
  | 88 => ⟨S_, .f32⟩
  | 89 => ⟨S50000x10, .f32⟩
  | 90 => ⟨S50000x10, .f32⟩
  | 91 => ⟨S50000x2, .f32⟩
  | 92 => ⟨S1x2, .f32⟩
  | 93 => ⟨S50000x2, .f32⟩
  | 94 => ⟨S50000x2, .f32⟩
  | 95 => ⟨S_, .i32⟩
  | 96 => ⟨S20000, .i32⟩
  | 97 => ⟨S20000, .i1⟩
  | 98 => ⟨S_, .i32⟩
  | 99 => ⟨S20000, .i32⟩
  | 100 => ⟨S20000, .i32⟩
  | 101 => ⟨S20000, .i32⟩
  | 102 => ⟨S20000x1, .i32⟩
  | 103 => ⟨S20000x2, .f32⟩
  | 104 => ⟨S_, .f32⟩
  | 105 => ⟨S20000, .f32⟩
  | 106 => ⟨S_, .f32⟩
  | 107 => ⟨S20000, .f32⟩
  | 108 => ⟨S20000, .f32⟩
  | 109 => ⟨S20000x1, .f32⟩
  | 110 => ⟨S20000x2, .f32⟩
  | 111 => ⟨S20000x2, .f32⟩
  | 112 => ⟨S20000x2, .f32⟩
  | 113 => ⟨S_, .f32⟩
  | 114 => ⟨S20000, .f32⟩
  | 115 => ⟨S20000x1, .f32⟩
  | 116 => ⟨S20000x2, .f32⟩
  | 117 => ⟨S20000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x10, .f32⟩
  | .local _ .vmem, ⟨14, _⟩ => ⟨S1x10, .f32⟩
  | .local _ .vmem, ⟨15, _⟩ => ⟨S5000x10, .f32⟩
  | .local _ .vmem, ⟨16, _⟩ => ⟨S5000x10, .f32⟩
  | .local _ .vmem, ⟨17, _⟩ => ⟨S16000x32, .f32⟩
  | .local _ .vmem, ⟨18, _⟩ => ⟨S16000x32, .f32⟩
  | .local _ .vmem, ⟨19, _⟩ => ⟨S32x32, .f32⟩
  | .local _ .vmem, ⟨20, _⟩ => ⟨S1x32, .f32⟩
  | .local _ .vmem, ⟨21, _⟩ => ⟨S16000x32, .f32⟩
  | .local _ .vmem, ⟨22, _⟩ => ⟨S16000x32, .f32⟩
  | .local _ .vmem, ⟨23, _⟩ => ⟨S16000x32, .f32⟩
  | .local _ .vmem, ⟨24, _⟩ => ⟨S16000x32, .f32⟩
  | .local _ .vmem, ⟨25, _⟩ => ⟨S1x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S16000x32, .f32⟩
  | .local _ .vmem, ⟨31, _⟩ => ⟨S16000x32, .f32⟩
  | .local _ .vmem, ⟨32, _⟩ => ⟨S8000x138, .f32⟩
  | .local _ .vmem, ⟨33, _⟩ => ⟨S8000x138, .f32⟩
  | .local _ .vmem, ⟨34, _⟩ => ⟨S8000x32, .f32⟩
  | .local _ .vmem, ⟨35, _⟩ => ⟨S8000x32, .f32⟩
  | .local _ .vmem, ⟨36, _⟩ => ⟨S138x10, .f32⟩
  | .local _ .vmem, ⟨37, _⟩ => ⟨S32x10, .f32⟩
  | .local _ .vmem, ⟨38, _⟩ => ⟨S1x10, .f32⟩
  | .local _ .vmem, ⟨39, _⟩ => ⟨S8000x10, .f32⟩
  | .local _ .vmem, ⟨40, _⟩ => ⟨S8000x10, .f32⟩
  | .local _ .vmem, ⟨41, _⟩ => ⟨S8000x138, .f32⟩
  | .local _ .vmem, ⟨42, _⟩ => ⟨S8000x138, .f32⟩
  | .local _ .vmem, ⟨43, _⟩ => ⟨S8000x32, .f32⟩
  | .local _ .vmem, ⟨44, _⟩ => ⟨S8000x32, .f32⟩
  | .local _ .vmem, ⟨45, _⟩ => ⟨S138x10, .f32⟩
  | .local _ .vmem, ⟨46, _⟩ => ⟨S32x10, .f32⟩
  | .local _ .vmem, ⟨47, _⟩ => ⟨S1x10, .f32⟩
  | .local _ .vmem, ⟨48, _⟩ => ⟨S8000x10, .f32⟩
  | .local _ .vmem, ⟨49, _⟩ => ⟨S8000x10, .f32⟩
  | .local _ .vmem, ⟨50, _⟩ => ⟨S8000x138, .f32⟩
  | .local _ .vmem, ⟨51, _⟩ => ⟨S8000x138, .f32⟩
  | .local _ .vmem, ⟨52, _⟩ => ⟨S8000x32, .f32⟩
  | .local _ .vmem, ⟨53, _⟩ => ⟨S8000x32, .f32⟩
  | .local _ .vmem, ⟨54, _⟩ => ⟨S138x10, .f32⟩
  | .local _ .vmem, ⟨55, _⟩ => ⟨S32x10, .f32⟩
  | .local _ .vmem, ⟨56, _⟩ => ⟨S1x10, .f32⟩
  | .local _ .vmem, ⟨57, _⟩ => ⟨S8000x10, .f32⟩
  | .local _ .vmem, ⟨58, _⟩ => ⟨S8000x10, .f32⟩
  | .local _ .vmem, ⟨59, _⟩ => ⟨S8000x138, .f32⟩
  | .local _ .vmem, ⟨60, _⟩ => ⟨S8000x138, .f32⟩
  | .local _ .vmem, ⟨61, _⟩ => ⟨S8000x32, .f32⟩
  | .local _ .vmem, ⟨62, _⟩ => ⟨S8000x32, .f32⟩
  | .local _ .vmem, ⟨63, _⟩ => ⟨S138x10, .f32⟩
  | .local _ .vmem, ⟨64, _⟩ => ⟨S32x10, .f32⟩
  | .local _ .vmem, ⟨65, _⟩ => ⟨S1x10, .f32⟩
  | .local _ .vmem, ⟨66, _⟩ => ⟨S8000x10, .f32⟩
  | .local _ .vmem, ⟨67, _⟩ => ⟨S8000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call0_c : Ref sig .tc := ⟨.hbm, 80, rfl⟩
abbrev main_call0_v0 : Ref sig .tc := ⟨.hbm, 81, rfl⟩
abbrev main_call0_v1 : Ref sig .tc := ⟨.hbm, 82, rfl⟩
abbrev main_call0_c_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_c_1 : Ref sig .tc := ⟨.hbm, 88, rfl⟩
abbrev main_call0_c_2 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_3 : Ref sig .tc := ⟨.hbm, 96, rfl⟩
abbrev main_call0_v12 : Ref sig .tc := ⟨.hbm, 97, rfl⟩
abbrev main_call0_v13 : Ref sig .tc := ⟨.hbm, 98, rfl⟩
abbrev main_call0_v14 : Ref sig .tc := ⟨.hbm, 99, rfl⟩
abbrev main_call0_cst : Ref sig .tc := ⟨.hbm, 100, rfl⟩
abbrev main_call0_v15 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_7 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_call1_cst : Ref sig .tc := ⟨.hbm, 111, rfl⟩
abbrev main_call1_v0 : Ref sig .tc := ⟨.hbm, 112, rfl⟩
abbrev main_v50 : Ref sig .tc := ⟨.hbm, 113, rfl⟩
abbrev main_v51 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_cst_8 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_call3_cst : Ref sig .tc := ⟨.hbm, 146, rfl⟩
abbrev main_call3_v0 : Ref sig .tc := ⟨.hbm, 147, rfl⟩
abbrev main_v60 : Ref sig .tc := ⟨.hbm, 148, rfl⟩
abbrev main_v61 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_v14 : Ref sig .tc := ⟨.hbm, 169, rfl⟩
abbrev main_call4_cst : Ref sig .tc := ⟨.hbm, 170, rfl⟩
abbrev main_call4_v15 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_cst_9 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_call5_cst : Ref sig .tc := ⟨.hbm, 181, rfl⟩
abbrev main_call5_v0 : Ref sig .tc := ⟨.hbm, 182, rfl⟩
abbrev main_v70 : Ref sig .tc := ⟨.hbm, 183, rfl⟩
abbrev main_v71 : Ref sig .tc := ⟨.hbm, 184, rfl⟩
abbrev main_call6_c : Ref sig .tc := ⟨.hbm, 185, rfl⟩
abbrev main_call6_v0 : Ref sig .tc := ⟨.hbm, 186, rfl⟩
abbrev main_call6_v1 : Ref sig .tc := ⟨.hbm, 187, rfl⟩
abbrev main_call6_c_0 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_call6_v5 : Ref sig .tc := ⟨.hbm, 192, rfl⟩
abbrev main_call6_c_1 : Ref sig .tc := ⟨.hbm, 193, rfl⟩
abbrev main_call6_c_2 : Ref sig .tc := ⟨.hbm, 194, rfl⟩
abbrev main_call6_v6 : Ref sig .tc := ⟨.hbm, 195, rfl⟩
abbrev main_call6_v7 : Ref sig .tc := ⟨.hbm, 196, rfl⟩
abbrev main_call6_v8 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_c_3 : Ref sig .tc := ⟨.hbm, 201, rfl⟩
abbrev main_call6_v12 : Ref sig .tc := ⟨.hbm, 202, rfl⟩
abbrev main_call6_v13 : Ref sig .tc := ⟨.hbm, 203, rfl⟩
abbrev main_call6_v14 : Ref sig .tc := ⟨.hbm, 204, rfl⟩
abbrev main_call6_cst : Ref sig .tc := ⟨.hbm, 205, rfl⟩
abbrev main_call6_v15 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_cst_10 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_call7_cst : Ref sig .tc := ⟨.hbm, 216, rfl⟩
abbrev main_call7_v0 : Ref sig .tc := ⟨.hbm, 217, rfl⟩
abbrev main_v80 : Ref sig .tc := ⟨.hbm, 218, rfl⟩
abbrev main_v81 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_c : Ref sig .tc := ⟨.hbm, 223, rfl⟩
abbrev main_v85 : Ref sig .tc := ⟨.hbm, 224, rfl⟩
abbrev main_v86 : Ref sig .tc := ⟨.hbm, 225, rfl⟩
abbrev main_c_11 : Ref sig .tc := ⟨.hbm, 226, rfl⟩
abbrev main_v87 : Ref sig .tc := ⟨.hbm, 227, rfl⟩
abbrev main_v88 : Ref sig .tc := ⟨.hbm, 228, rfl⟩
abbrev main_v89 : Ref sig .tc := ⟨.hbm, 229, rfl⟩
abbrev main_v90 : Ref sig .tc := ⟨.hbm, 230, rfl⟩
abbrev main_v91 : Ref sig .tc := ⟨.hbm, 231, rfl⟩
abbrev main_cst_12 : Ref sig .tc := ⟨.hbm, 232, rfl⟩
abbrev main_v92 : Ref sig .tc := ⟨.hbm, 233, rfl⟩
abbrev main_cst_13 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_cst_14 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S16000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x138 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S138x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x138 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S138x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x10 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x138 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S138x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S8000x10 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x138 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S138x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x10 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  shapeCasts_S10_S1x10 : S10.ShapeCasts S1x10
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  inb_S16000x32_S16000x32_0_0 : ∀ a, (![0, 0] : Fin 2 → Nat) a + S16000x32.size a ≤ S16000x32.size a
  h_S16000x32 : 0 < S16000x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  reducesTo_S800000x32_S32_d0 : S800000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  bcast_S1x32_S800000x32_0_1 : S1x32.BroadcastsInDim S800000x32 (![0, 1] : Fin 2 → Fin S800000x32.rank)
  shapeCasts_S16000x32_S16000x32 : S16000x32.ShapeCasts S16000x32
  concatenates_S50000x128_S50000x10_S50000x138_d1 : Shape.Concatenates [S50000x128, S50000x10] S50000x138 1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x138_0 : S800000.BroadcastsInDim S800000x138 (![0] : Fin 1 → Fin S800000x138.rank)
  bcast_S_S800000x138 : S_.BroadcastsInDim S800000x138 (![] : Fin 0 → Fin S800000x138.rank)
  slices_S170x10_S138x10_0_0 : S170x10.Slices ![0, 0] S138x10
  slices_S170x10_S32x10_138_0 : S170x10.Slices ![138, 0] S32x10
  inb_S8000x138_S8000x138_0_0 : ∀ a, (![0, 0] : Fin 2 → Nat) a + S8000x138.size a ≤ S8000x138.size a
  h_S8000x138 : 0 < S8000x138.numel
  shapeCasts_S8000x138_S8000x138 : S8000x138.ShapeCasts S8000x138
  inb_S138x10_S138x10_0_0 : ∀ a, (![0, 0] : Fin 2 → Nat) a + S138x10.size a ≤ S138x10.size a
  h_S138x10 : 0 < S138x10.numel
  shapeCasts_S138x10_S138x10 : S138x10.ShapeCasts S138x10
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  broadcasts_S1x10_S8000x10 : S1x10.Broadcasts S8000x10
  inb_S8000x10_S8000x10_0_0 : ∀ a, (![0, 0] : Fin 2 → Nat) a + S8000x10.size a ≤ S8000x10.size a
  h_S8000x10 : 0 < S8000x10.numel
  bcast_S_S50000x10 : S_.BroadcastsInDim S50000x10 (![] : Fin 0 → Fin S50000x10.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S20000 : S_.BroadcastsInDim S20000 (![] : Fin 0 → Fin S20000.rank)
  bcast_S20000_S20000x1_0 : S20000.BroadcastsInDim S20000x1 (![0] : Fin 1 → Fin S20000x1.rank)
  reducesTo_S20000x2_S20000_d1 : S20000x2.ReducesTo [1] S20000
  bcast_S20000x1_S20000x2_0_1 : S20000x1.BroadcastsInDim S20000x2 (![0, 1] : Fin 2 → Fin S20000x2.rank)
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  dot_S16000x32_S32x32_S16000x32_1_0_0_1_n_n_wf : DotDims.WF S16000x32 S32x32 S16000x32 [1] [0] [0] [1] [] []
  gather_S50000x138_S800000x1_S800000x138_1_0_n_n_0_1_1138_wf : GatherDims.WF S50000x138 S800000x1 S800000x138 [1] [0] [] [0] [] 1 ![1, 138]
  dot_S8000x138_S138x10_S8000x10_1_0_0_1_n_n_wf : DotDims.WF S8000x138 S138x10 S8000x10 [1] [0] [0] [1] [] []
  dot_S8000x32_S32x10_S8000x10_1_0_0_1_n_n_wf : DotDims.WF S8000x32 S32x10 S8000x10 [1] [0] [0] [1] [] []
  scatter_S50000x10_S800000x1_S800000x10_1_0_0_1_wf : ScatterDims.WF S50000x10 S800000x1 S800000x10 [1] [0] [0] 1
  dot_S50000x10_S10x2_S50000x2_1_0_0_1_n_n_wf : DotDims.WF S50000x10 S10x2 S50000x2 [1] [0] [0] [1] [] []
  gather_S50000x2_S20000x1_S20000x2_1_0_n_n_0_1_12_wf : GatherDims.WF S50000x2 S20000x1 S20000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x10.size a ≤ S128x10.size a
  hwx1_6 : ∀ i : grid1.Coords, EltTy.bits .f32 = 32 ∨ (Rect.block (s := S128x10) S128x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x10.size a ≤ S50000x10.size a
  hwx1_8 : ∀ i : grid1.Coords, EltTy.bits .f32 = 32 ∨ (Rect.block (s := S50000x10) S5000x10.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x32.size a ≤ S800000x32.size a
  hwx2_0 : ∀ i : grid2.Coords, EltTy.bits .f32 = 32 ∨ (Rect.block (s := S800000x32) S16000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16000x32.size a ≤ S800000x32.size a
  hwx2_3 : ∀ i : grid2.Coords, EltTy.bits .f32 = 32 ∨ (Rect.block (s := S800000x32) S16000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x32.size a ≤ S800000x32.size a
  hwx3_0 : ∀ i : grid3.Coords, EltTy.bits .f32 = 32 ∨ (Rect.block (s := S800000x32) S16000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S16000x32.size a ≤ S800000x32.size a
  hwx3_6 : ∀ i : grid3.Coords, EltTy.bits .f32 = 32 ∨ (Rect.block (s := S800000x32) S16000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x138.size a ≤ S800000x138.size a
  hwx4_0 : ∀ i : grid4.Coords, EltTy.bits .f32 = 32 ∨ (Rect.block (s := S800000x138) S8000x138.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x32.size a ≤ S800000x32.size a
  hwx4_1 : ∀ i : grid4.Coords, EltTy.bits .f32 = 32 ∨ (Rect.block (s := S800000x32) S8000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S138x10.size a ≤ S138x10.size a
  hwx4_2 : ∀ i : grid4.Coords, EltTy.bits .f32 = 32 ∨ (Rect.block (s := S138x10) S138x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x10.size a ≤ S32x10.size a
  hwx4_3 : ∀ i : grid4.Coords, EltTy.bits .f32 = 32 ∨ (Rect.block (s := S32x10) S32x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x10.size a ≤ S800000x10.size a
  hwx4_5 : ∀ i : grid4.Coords, EltTy.bits .f32 = 32 ∨ (Rect.block (s := S800000x10) S8000x10.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x138.size a ≤ S800000x138.size a
  hwx5_0 : ∀ i : grid5.Coords, EltTy.bits .f32 = 32 ∨ (Rect.block (s := S800000x138) S8000x138.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x32.size a ≤ S800000x32.size a
  hwx5_1 : ∀ i : grid5.Coords, EltTy.bits .f32 = 32 ∨ (Rect.block (s := S800000x32) S8000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S138x10.size a ≤ S138x10.size a
  hwx5_2 : ∀ i : grid5.Coords, EltTy.bits .f32 = 32 ∨ (Rect.block (s := S138x10) S138x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x10.size a ≤ S800000x10.size a
  hwx5_5 : ∀ i : grid5.Coords, EltTy.bits .f32 = 32 ∨ (Rect.block (s := S800000x10) S8000x10.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x138.size a ≤ S800000x138.size a
  hwx6_0 : ∀ i : grid6.Coords, EltTy.bits .f32 = 32 ∨ (Rect.block (s := S800000x138) S8000x138.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x32.size a ≤ S800000x32.size a
  hwx6_1 : ∀ i : grid6.Coords, EltTy.bits .f32 = 32 ∨ (Rect.block (s := S800000x32) S8000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S138x10.size a ≤ S138x10.size a
  hwx6_2 : ∀ i : grid6.Coords, EltTy.bits .f32 = 32 ∨ (Rect.block (s := S138x10) S138x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x10.size a ≤ S32x10.size a
  hwx6_3 : ∀ i : grid6.Coords, EltTy.bits .f32 = 32 ∨ (Rect.block (s := S32x10) S32x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8000x10.size a ≤ S800000x10.size a
  hwx6_5 : ∀ i : grid6.Coords, EltTy.bits .f32 = 32 ∨ (Rect.block (s := S800000x10) S8000x10.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x138.size a ≤ S800000x138.size a
  hwx7_0 : ∀ i : grid7.Coords, EltTy.bits .f32 = 32 ∨ (Rect.block (s := S800000x138) S8000x138.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x32.size a ≤ S800000x32.size a
  hwx7_1 : ∀ i : grid7.Coords, EltTy.bits .f32 = 32 ∨ (Rect.block (s := S800000x32) S8000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S138x10.size a ≤ S138x10.size a
  hwx7_2 : ∀ i : grid7.Coords, EltTy.bits .f32 = 32 ∨ (Rect.block (s := S138x10) S138x10.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x10.size a ≤ S32x10.size a
  hwx7_3 : ∀ i : grid7.Coords, EltTy.bits .f32 = 32 ∨ (Rect.block (s := S32x10) S32x10.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x10.size a ≤ S1x10.size a
  hwx7_4 : ∀ i : grid7.Coords, EltTy.bits .f32 = 32 ∨ (Rect.block (s := S1x10) S1x10.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x10.size a ≤ S800000x10.size a
  hwx7_5 : ∀ i : grid7.Coords, EltTy.bits .f32 = 32 ∨ (Rect.block (s := S800000x10) S8000x10.size (cc7_transform_5 i) (hinb7_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def gather_S50000x138_S800000x1_S800000x138_1_0_n_n_0_1_1138 : GatherDims S50000x138 S800000x1 S800000x138 where
  offsetDims := [1]
  collapsedSliceDims := [0]
  operandBatchingDims := []
  startIndicesBatchingDims := []
  startIndexMap := [0]
  indexVectorDim := 1
  sliceSizes := ![1, 138]
  wf := gather_S50000x138_S800000x1_S800000x138_1_0_n_n_0_1_1138_wf
def dot_S8000x138_S138x10_S8000x10_1_0_0_1_n_n : DotDims S8000x138 S138x10 S8000x10 where
  lhsContracting := [1]
  rhsContracting := [0]
  lhsNonContracting := [0]
  rhsNonContracting := [1]
  lhsBatch := []
  rhsBatch := []
  wf := dot_S8000x138_S138x10_S8000x10_1_0_0_1_n_n_wf
def dot_S8000x32_S32x10_S8000x10_1_0_0_1_n_n : DotDims S8000x32 S32x10 S8000x10 where
  lhsContracting := [1]
  rhsContracting := [0]
  lhsNonContracting := [0]
  rhsNonContracting := [1]
  lhsBatch := []
  rhsBatch := []
  wf := dot_S8000x32_S32x10_S8000x10_1_0_0_1_n_n_wf
def scatter_S50000x10_S800000x1_S800000x10_1_0_0_1 : ScatterDims S50000x10 S800000x1 S800000x10 where
  updateWindowDims := [1]
  insertedWindowDims := [0]
  scatterDimsToOperandDims := [0]
  indexVectorDim := 1
  wf := scatter_S50000x10_S800000x1_S800000x10_1_0_0_1_wf
def dot_S50000x10_S10x2_S50000x2_1_0_0_1_n_n : DotDims S50000x10 S10x2 S50000x2 where
  lhsContracting := [1]
  rhsContracting := [0]
  lhsNonContracting := [0]
  rhsNonContracting := [1]
  lhsBatch := []
  rhsBatch := []
  wf := dot_S50000x10_S10x2_S50000x2_1_0_0_1_n_n_wf
def gather_S50000x2_S20000x1_S20000x2_1_0_n_n_0_1_12 : GatherDims S50000x2 S20000x1 S20000x2 where
  offsetDims := [1]
  collapsedSliceDims := [0]
  operandBatchingDims := []
  startIndicesBatchingDims := []
  startIndexMap := [0]
  indexVectorDim := 1
  sliceSizes := ![1, 2]
  wf := gather_S50000x2_S20000x1_S20000x2_1_0_n_n_0_1_12_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S5000x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg6) S16000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S16000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S16000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v12) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S16000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v42) S8000x138.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S8000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S138x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S32x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S8000x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v52) S8000x138.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S8000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S138x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S32x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S8000x10.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v62) S8000x138.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v40) S8000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63) S138x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64) S32x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v66) S8000x10.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v72) S8000x138.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S8000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S138x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v74) S32x10.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S1x10.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v76) S8000x10.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S2x800000 : Shape := ⟨2, ![2, 800000]⟩
abbrev S2x1000 : Shape := ⟨2, ![2, 1000]⟩
abbrev S800000x32 : Shape := ⟨2, ![800000, 32]⟩
abbrev S20000 : Shape := ⟨1, ![20000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S32x32 : Shape := ⟨2, ![32, 32]⟩
abbrev S32 : Shape := ⟨1, ![32]⟩
abbrev S170x10 : Shape := ⟨2, ![170, 10]⟩
abbrev S10x2 : Shape := ⟨2, ![10, 2]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S50000x10 : Shape := ⟨2, ![50000, 10]⟩
abbrev S1x10 : Shape := ⟨2, ![1, 10]⟩
abbrev S1x32 : Shape := ⟨2, ![1, 32]⟩
abbrev S50000x138 : Shape := ⟨2, ![50000, 138]⟩
abbrev S800000x1 : Shape := ⟨2, ![800000, 1]⟩
abbrev S800000x138 : Shape := ⟨2, ![800000, 138]⟩
abbrev S800000x170 : Shape := ⟨2, ![800000, 170]⟩
abbrev S800000x10 : Shape := ⟨2, ![800000, 10]⟩
abbrev S50000x2 : Shape := ⟨2, ![50000, 2]⟩
abbrev S1x2 : Shape := ⟨2, ![1, 2]⟩
abbrev S20000x1 : Shape := ⟨2, ![20000, 1]⟩
abbrev S20000x2 : Shape := ⟨2, ![20000, 2]⟩

abbrev nBuf : Space → Nat
  | .hbm => 222
  | .vmem => 0
  | .smem => 0
  | _ => 0

abbrev hbmTy0_0 (i : Nat) : BufTy := match i % 128 with
  | 0 => ⟨S50000x128, .f32⟩
  | 1 => ⟨S50000x1, .f32⟩
  | 2 => ⟨S2x800000, .i32⟩
  | 3 => ⟨S2x1000, .i32⟩
  | 4 => ⟨S2x1000, .i32⟩
  | 5 => ⟨S2x1000, .i32⟩
  | 6 => ⟨S800000x32, .f32⟩
  | 7 => ⟨S20000, .i32⟩
  | 8 => ⟨S128x128, .f32⟩
  | 9 => ⟨S128, .f32⟩
  | 10 => ⟨S128x10, .f32⟩
  | 11 => ⟨S10, .f32⟩
  | 12 => ⟨S32x32, .f32⟩
  | 13 => ⟨S32, .f32⟩
  | 14 => ⟨S128, .f32⟩
  | 15 => ⟨S128, .f32⟩
  | 16 => ⟨S128, .f32⟩
  | 17 => ⟨S32, .f32⟩
  | 18 => ⟨S32, .f32⟩
  | 19 => ⟨S32, .f32⟩
  | 20 => ⟨S170x10, .f32⟩
  | 21 => ⟨S10, .f32⟩
  | 22 => ⟨S170x10, .f32⟩
  | 23 => ⟨S10, .f32⟩
  | 24 => ⟨S170x10, .f32⟩
  | 25 => ⟨S10, .f32⟩
  | 26 => ⟨S170x10, .f32⟩
  | 27 => ⟨S10, .f32⟩
  | 28 => ⟨S10x2, .f32⟩
  | 29 => ⟨S2, .f32⟩
  | 30 => ⟨S1x800000, .i32⟩
  | 31 => ⟨S800000, .i32⟩
  | 32 => ⟨S1x800000, .i32⟩
  | 33 => ⟨S800000, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S50000x128, .f32⟩
  | 47 => ⟨S50000x128, .f32⟩
  | 48 => ⟨S50000x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S50000x10, .f32⟩
  | 68 => ⟨S1x10, .f32⟩
  | 69 => ⟨S50000x10, .f32⟩
  | 70 => ⟨S50000x10, .f32⟩
  | 71 => ⟨S_, .f32⟩
  | 72 => ⟨S50000x10, .f32⟩
  | 73 => ⟨S50000x10, .f32⟩
  | 74 => ⟨S800000x32, .f32⟩
  | 75 => ⟨S1x32, .f32⟩
  | 76 => ⟨S800000x32, .f32⟩
  | 77 => ⟨S800000x32, .f32⟩
  | 78 => ⟨S_, .f32⟩
  | 79 => ⟨S32, .f32⟩
  | 80 => ⟨S1x32, .f32⟩
  | 81 => ⟨S_, .f32⟩
  | 82 => ⟨S1x32, .f32⟩
  | 83 => ⟨S1x32, .f32⟩
  | 84 => ⟨S1x32, .f32⟩
  | 85 => ⟨S1x32, .f32⟩
  | 86 => ⟨S800000x32, .f32⟩
  | 87 => ⟨S800000x32, .f32⟩
  | 88 => ⟨S800000x32, .f32⟩
  | 89 => ⟨S_, .f32⟩
  | 90 => ⟨S32, .f32⟩
  | 91 => ⟨S1x32, .f32⟩
  | 92 => ⟨S_, .f32⟩
  | 93 => ⟨S1x32, .f32⟩
  | 94 => ⟨S1x32, .f32⟩
  | 95 => ⟨S_, .f32⟩
  | 96 => ⟨S1x32, .f32⟩
  | 97 => ⟨S1x32, .f32⟩
  | 98 => ⟨S1x32, .f32⟩
  | 99 => ⟨S800000x32, .f32⟩
  | 100 => ⟨S800000x32, .f32⟩
  | 101 => ⟨S1x32, .f32⟩
  | 102 => ⟨S800000x32, .f32⟩
  | 103 => ⟨S800000x32, .f32⟩
  | 104 => ⟨S1x32, .f32⟩
  | 105 => ⟨S800000x32, .f32⟩
  | 106 => ⟨S800000x32, .f32⟩
  | 107 => ⟨S50000x138, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x138, .f32⟩
  | 117 => ⟨S800000x170, .f32⟩
  | 118 => ⟨S800000x10, .f32⟩
  | 119 => ⟨S1x10, .f32⟩
  | 120 => ⟨S800000x10, .f32⟩
  | 121 => ⟨S800000x10, .f32⟩
  | 122 => ⟨S_, .f32⟩
  | 123 => ⟨S50000x10, .f32⟩
  | 124 => ⟨S800000x1, .i32⟩
  | 125 => ⟨S50000x10, .f32⟩
  | 126 => ⟨S_, .f32⟩
  | 127 => ⟨S50000x10, .f32⟩
  | _ => ⟨S50000x128, .f32⟩

abbrev hbmTy0_1 (i : Nat) : BufTy := match i % 128 with
  | 0 => ⟨S50000x10, .f32⟩
  | 1 => ⟨S50000x138, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x138, .f32⟩
  | 11 => ⟨S800000x170, .f32⟩
  | 12 => ⟨S800000x10, .f32⟩
  | 13 => ⟨S1x10, .f32⟩
  | 14 => ⟨S800000x10, .f32⟩
  | 15 => ⟨S800000x10, .f32⟩
  | 16 => ⟨S_, .f32⟩
  | 17 => ⟨S50000x10, .f32⟩
  | 18 => ⟨S800000x1, .i32⟩
  | 19 => ⟨S50000x10, .f32⟩
  | 20 => ⟨S_, .f32⟩
  | 21 => ⟨S50000x10, .f32⟩
  | 22 => ⟨S50000x10, .f32⟩
  | 23 => ⟨S50000x138, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x138, .f32⟩
  | 33 => ⟨S800000x170, .f32⟩
  | 34 => ⟨S800000x10, .f32⟩
  | 35 => ⟨S1x10, .f32⟩
  | 36 => ⟨S800000x10, .f32⟩
  | 37 => ⟨S800000x10, .f32⟩
  | 38 => ⟨S_, .f32⟩
  | 39 => ⟨S50000x10, .f32⟩
  | 40 => ⟨S800000x1, .i32⟩
  | 41 => ⟨S50000x10, .f32⟩
  | 42 => ⟨S_, .f32⟩
  | 43 => ⟨S50000x10, .f32⟩
  | 44 => ⟨S50000x10, .f32⟩
  | 45 => ⟨S50000x138, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x138, .f32⟩
  | 55 => ⟨S800000x170, .f32⟩
  | 56 => ⟨S800000x10, .f32⟩
  | 57 => ⟨S1x10, .f32⟩
  | 58 => ⟨S800000x10, .f32⟩
  | 59 => ⟨S800000x10, .f32⟩
  | 60 => ⟨S_, .f32⟩
  | 61 => ⟨S50000x10, .f32⟩
  | 62 => ⟨S800000x1, .i32⟩
  | 63 => ⟨S50000x10, .f32⟩
  | 64 => ⟨S_, .f32⟩
  | 65 => ⟨S50000x10, .f32⟩
  | 66 => ⟨S50000x10, .f32⟩
  | 67 => ⟨S50000x2, .f32⟩
  | 68 => ⟨S1x2, .f32⟩
  | 69 => ⟨S50000x2, .f32⟩
  | 70 => ⟨S50000x2, .f32⟩
  | 71 => ⟨S_, .i32⟩
  | 72 => ⟨S20000, .i32⟩
  | 73 => ⟨S20000, .i1⟩
  | 74 => ⟨S_, .i32⟩
  | 75 => ⟨S20000, .i32⟩
  | 76 => ⟨S20000, .i32⟩
  | 77 => ⟨S20000, .i32⟩
  | 78 => ⟨S20000x1, .i32⟩
  | 79 => ⟨S20000x2, .f32⟩
  | 80 => ⟨S_, .f32⟩
  | 81 => ⟨S20000, .f32⟩
  | 82 => ⟨S_, .f32⟩
  | 83 => ⟨S20000, .f32⟩
  | 84 => ⟨S20000, .f32⟩
  | 85 => ⟨S20000x1, .f32⟩
  | 86 => ⟨S20000x2, .f32⟩
  | 87 => ⟨S20000x2, .f32⟩
  | 88 => ⟨S20000x2, .f32⟩
  | 89 => ⟨S_, .f32⟩
  | 90 => ⟨S20000, .f32⟩
  | 91 => ⟨S20000x1, .f32⟩
  | 92 => ⟨S20000x2, .f32⟩
  | 93 => ⟨S20000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_cst_0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call0_cst : Ref sig .tc := ⟨.hbm, 71, rfl⟩
abbrev main_call0_v0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_v41 : Ref sig .tc := ⟨.hbm, 79, rfl⟩
abbrev main_v42 : Ref sig .tc := ⟨.hbm, 80, rfl⟩
abbrev main_cst_5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_6 : Ref sig .tc := ⟨.hbm, 89, rfl⟩
abbrev main_v50 : Ref sig .tc := ⟨.hbm, 90, rfl⟩
abbrev main_v51 : Ref sig .tc := ⟨.hbm, 91, rfl⟩
abbrev main_cst_7 : Ref sig .tc := ⟨.hbm, 92, rfl⟩
abbrev main_v52 : Ref sig .tc := ⟨.hbm, 93, rfl⟩
abbrev main_v53 : Ref sig .tc := ⟨.hbm, 94, rfl⟩
abbrev main_cst_8 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c : Ref sig .tc := ⟨.hbm, 108, rfl⟩
abbrev main_v66 : Ref sig .tc := ⟨.hbm, 109, rfl⟩
abbrev main_v67 : Ref sig .tc := ⟨.hbm, 110, rfl⟩
abbrev main_c_9 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_10 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call1_cst : Ref sig .tc := ⟨.hbm, 126, rfl⟩
abbrev main_call1_v0 : Ref sig .tc := ⟨.hbm, 127, rfl⟩
abbrev main_v81 : Ref sig .tc := ⟨.hbm, 128, rfl⟩
abbrev main_v82 : Ref sig .tc := ⟨.hbm, 129, rfl⟩
abbrev main_c_11 : Ref sig .tc := ⟨.hbm, 130, rfl⟩
abbrev main_v83 : Ref sig .tc := ⟨.hbm, 131, rfl⟩
abbrev main_v84 : Ref sig .tc := ⟨.hbm, 132, rfl⟩
abbrev main_c_12 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_13 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call2_cst : Ref sig .tc := ⟨.hbm, 148, rfl⟩
abbrev main_call2_v0 : Ref sig .tc := ⟨.hbm, 149, rfl⟩
abbrev main_v98 : Ref sig .tc := ⟨.hbm, 150, rfl⟩
abbrev main_v99 : Ref sig .tc := ⟨.hbm, 151, rfl⟩
abbrev main_c_14 : Ref sig .tc := ⟨.hbm, 152, rfl⟩
abbrev main_v100 : Ref sig .tc := ⟨.hbm, 153, rfl⟩
abbrev main_v101 : Ref sig .tc := ⟨.hbm, 154, rfl⟩
abbrev main_c_15 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_16 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_call3_cst : Ref sig .tc := ⟨.hbm, 170, rfl⟩
abbrev main_call3_v0 : Ref sig .tc := ⟨.hbm, 171, rfl⟩
abbrev main_v115 : Ref sig .tc := ⟨.hbm, 172, rfl⟩
abbrev main_v116 : Ref sig .tc := ⟨.hbm, 173, rfl⟩
abbrev main_c_17 : Ref sig .tc := ⟨.hbm, 174, rfl⟩
abbrev main_v117 : Ref sig .tc := ⟨.hbm, 175, rfl⟩
abbrev main_v118 : Ref sig .tc := ⟨.hbm, 176, rfl⟩
abbrev main_c_18 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_19 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_call4_cst : Ref sig .tc := ⟨.hbm, 192, rfl⟩
abbrev main_call4_v0 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_20 : Ref sig .tc := ⟨.hbm, 199, rfl⟩
abbrev main_v137 : Ref sig .tc := ⟨.hbm, 200, rfl⟩
abbrev main_v138 : Ref sig .tc := ⟨.hbm, 201, rfl⟩
abbrev main_c_21 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_22 : Ref sig .tc := ⟨.hbm, 208, rfl⟩
abbrev main_v144 : Ref sig .tc := ⟨.hbm, 209, rfl⟩
abbrev main_cst_23 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_24 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  reducesTo_S800000x32_S32_d0 : S800000x32.ReducesTo [0] S32
  bcast_S_S1x32 : S_.BroadcastsInDim S1x32 (![] : Fin 0 → Fin S1x32.rank)
  concatenates_S50000x128_S50000x10_S50000x138_d1 : Shape.Concatenates [S50000x128, S50000x10] S50000x138 1
  bcast_S_S800000 : S_.BroadcastsInDim S800000 (![] : Fin 0 → Fin S800000.rank)
  bcast_S800000_S800000x1_0 : S800000.BroadcastsInDim S800000x1 (![0] : Fin 1 → Fin S800000x1.rank)
  concatenates_S800000x138_S800000x32_S800000x170_d1 : Shape.Concatenates [S800000x138, S800000x32] S800000x170 1
  bcast_S1x10_S800000x10_0_1 : S1x10.BroadcastsInDim S800000x10 (![0, 1] : Fin 2 → Fin S800000x10.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S20000 : S_.BroadcastsInDim S20000 (![] : Fin 0 → Fin S20000.rank)
  bcast_S20000_S20000x1_0 : S20000.BroadcastsInDim S20000x1 (![0] : Fin 1 → Fin S20000x1.rank)
  reducesTo_S20000x2_S20000_d1 : S20000x2.ReducesTo [1] S20000
  bcast_S20000x1_S20000x2_0_1 : S20000x1.BroadcastsInDim S20000x2 (![0, 1] : Fin 2 → Fin S20000x2.rank)
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []
  dot_S800000x32_S32x32_S800000x32_1_0_0_1_n_n_wf : DotDims.WF S800000x32 S32x32 S800000x32 [1] [0] [0] [1] [] []
  gather_S50000x138_S800000x1_S800000x138_1_0_n_n_0_1_1138_wf : GatherDims.WF S50000x138 S800000x1 S800000x138 [1] [0] [] [0] [] 1 ![1, 138]
  dot_S800000x170_S170x10_S800000x10_1_0_0_1_n_n_wf : DotDims.WF S800000x170 S170x10 S800000x10 [1] [0] [0] [1] [] []
  scatter_S50000x10_S800000x1_S800000x10_1_0_0_1_wf : ScatterDims.WF S50000x10 S800000x1 S800000x10 [1] [0] [0] 1
  dot_S50000x10_S10x2_S50000x2_1_0_0_1_n_n_wf : DotDims.WF S50000x10 S10x2 S50000x2 [1] [0] [0] [1] [] []
  gather_S50000x2_S20000x1_S20000x2_1_0_n_n_0_1_12_wf : GatherDims.WF S50000x2 S20000x1 S20000x2 [1] [0] [] [0] [] 1 ![1, 2]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x138_S800000x1_S800000x138_1_0_n_n_0_1_1138 : GatherDims S50000x138 S800000x1 S800000x138 where
  offsetDims := [1]
  collapsedSliceDims := [0]
  operandBatchingDims := []
  startIndicesBatchingDims := []
  startIndexMap := [0]
  indexVectorDim := 1
  sliceSizes := ![1, 138]
  wf := gather_S50000x138_S800000x1_S800000x138_1_0_n_n_0_1_1138_wf
def dot_S800000x170_S170x10_S800000x10_1_0_0_1_n_n : DotDims S800000x170 S170x10 S800000x10 where
  lhsContracting := [1]
  rhsContracting := [0]
  lhsNonContracting := [0]
  rhsNonContracting := [1]
  lhsBatch := []
  rhsBatch := []
  wf := dot_S800000x170_S170x10_S800000x10_1_0_0_1_n_n_wf
def scatter_S50000x10_S800000x1_S800000x10_1_0_0_1 : ScatterDims S50000x10 S800000x1 S800000x10 where
  updateWindowDims := [1]
  insertedWindowDims := [0]
  scatterDimsToOperandDims := [0]
  indexVectorDim := 1
  wf := scatter_S50000x10_S800000x1_S800000x10_1_0_0_1_wf
def dot_S50000x10_S10x2_S50000x2_1_0_0_1_n_n : DotDims S50000x10 S10x2 S50000x2 where
  lhsContracting := [1]
  rhsContracting := [0]
  lhsNonContracting := [0]
  rhsNonContracting := [1]
  lhsBatch := []
  rhsBatch := []
  wf := dot_S50000x10_S10x2_S50000x2_1_0_0_1_n_n_wf
def gather_S50000x2_S20000x1_S20000x2_1_0_n_n_0_1_12 : GatherDims S50000x2 S20000x1 S20000x2 where
  offsetDims := [1]
  collapsedSliceDims := [0]
  operandBatchingDims := []
  startIndicesBatchingDims := []
  startIndexMap := [0]
  indexVectorDim := 1
  sliceSizes := ![1, 2]
  wf := gather_S50000x2_S20000x1_S20000x2_1_0_n_n_0_1_12_wf

class Facts : Prop extends Facts₀ where

variable [Facts]
-- ==== Proof.RefOps.lean ====
/-
  The reference program's 192 host operations as four lists, one per printed window of @main, with the facts a run
  of them needs: @main is their straight line, every buffer they touch is a TensorCore buffer, none allocates, the
  buffer contents after all of them is the four windows' folds composed, and no operation writes an argument.
-/
import proofs.«423839_j69329362092378_2_alg».proof.Proof.Gen.ReferenceIdeal
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window

A call of @relu contributes its three operations at the call site, over that call's record: the zero, its
broadcast, the maximum with the operand. -/

/-- The first window: the two rows of the edge table, the node features' linear layer and its normalisation
    (mean, centred square, variance, reciprocal root, scale and shift), the projection to ten columns and its
    @relu, then the edge features' linear layer and the first half of its normalisation. -/
abbrev ops0 : List (HloOp τ sig (Elt F)) :=
  [ unary main_arg2 main_v0 (extractStridedSlice S1x800000 ![0, 0] · slices_S2x800000_S1x800000_0_0),
    reshape main_v0 main_v1 rfl shapeCasts_S1x800000_S800000,
    unary main_arg2 main_v2 (extractStridedSlice S1x800000 ![1, 0] · slices_S2x800000_S1x800000_1_0),
    reshape main_v2 main_v3 rfl shapeCasts_S1x800000_S800000,
    binary main_arg0 main_arg8 main_v4 (fun l r => Host.dotGeneral dot_S50000x128_S128x128_S50000x128_1_0_0_1_n_n none l r),
    unary main_arg9 main_v5 (broadcastInDim S1x128 ![1] bcast_S128_S1x128_1),
    unary main_v5 main_v6 (broadcastInDim S50000x128 ![0, 1] bcast_S1x128_S50000x128_0_1),
    binary main_v4 main_v6 main_v7 addf,
    nullary main_cst (constant S_ .f32 0x00000000#32),
    binary main_v7 main_cst main_v8 (fun x v => Host.reduceAdd x v reducesTo_S50000x128_S128_d0 h_S_),
    unary main_v8 main_v9 (broadcastInDim S1x128 ![1] bcast_S128_S1x128_1),
    nullary main_cst_0 (constant S_ .f32 0x47435000#32),
    unary main_cst_0 main_v10 (broadcastInDim S1x128 ![] bcast_S_S1x128),
    binary main_v9 main_v10 main_v11 Host.divf,
    unary main_arg16 main_v12 (broadcastInDim S1x128 ![1] bcast_S128_S1x128_1),
    binary main_v12 main_v11 main_v13 mulf,
    unary main_v13 main_v14 (broadcastInDim S50000x128 ![0, 1] bcast_S1x128_S50000x128_0_1),
    binary main_v7 main_v14 main_v15 subf,
    binary main_v15 main_v15 main_v16 mulf,
    nullary main_cst_1 (constant S_ .f32 0x00000000#32),
    binary main_v16 main_cst_1 main_v17 (fun x v => Host.reduceAdd x v reducesTo_S50000x128_S128_d0 h_S_),
    unary main_v17 main_v18 (broadcastInDim S1x128 ![1] bcast_S128_S1x128_1),
    nullary main_cst_2 (constant S_ .f32 0x47435000#32),
    unary main_cst_2 main_v19 (broadcastInDim S1x128 ![] bcast_S_S1x128),
    binary main_v18 main_v19 main_v20 Host.divf,
    nullary main_cst_3 (constant S_ .f32 0x3727C5AC#32),
    unary main_cst_3 main_v21 (broadcastInDim S1x128 ![] bcast_S_S1x128),
    binary main_v20 main_v21 main_v22 addf,
    unary main_v22 main_v23 Host.rsqrt,
    unary main_v23 main_v24 (broadcastInDim S50000x128 ![0, 1] bcast_S1x128_S50000x128_0_1),
    binary main_v15 main_v24 main_v25 mulf,
    unary main_arg14 main_v26 (broadcastInDim S1x128 ![1] bcast_S128_S1x128_1),
    unary main_v26 main_v27 (broadcastInDim S50000x128 ![0, 1] bcast_S1x128_S50000x128_0_1),
    binary main_v25 main_v27 main_v28 mulf,
    unary main_arg15 main_v29 (broadcastInDim S1x128 ![1] bcast_S128_S1x128_1),
    unary main_v29 main_v30 (broadcastInDim S50000x128 ![0, 1] bcast_S1x128_S50000x128_0_1),
    binary main_v28 main_v30 main_v31 addf,
    binary main_v31 main_arg10 main_v32 (fun l r => Host.dotGeneral dot_S50000x128_S128x10_S50000x10_1_0_0_1_n_n none l r),
    unary main_arg11 main_v33 (broadcastInDim S1x10 ![1] bcast_S10_S1x10_1),
    unary main_v33 main_v34 (broadcastInDim S50000x10 ![0, 1] bcast_S1x10_S50000x10_0_1),
    binary main_v32 main_v34 main_v35 addf,
    TRef.nullary main_call0.cst (constant S_ .f32 0x00000000#32),
    TRef.unary main_call0.cst main_call0.v0 (broadcastInDim S50000x10 ![] bcast_S_S50000x10),
    TRef.binary (.of main_v35) main_call0.v0 main_call0.v1 maximumf,
    binary main_arg6 main_arg12 main_v37 (fun l r => Host.dotGeneral dot_S800000x32_S32x32_S800000x32_1_0_0_1_n_n none l r),
    unary main_arg13 main_v38 (broadcastInDim S1x32 ![1] bcast_S32_S1x32_1),
    unary main_v38 main_v39 (broadcastInDim S800000x32 ![0, 1] bcast_S1x32_S800000x32_0_1),
    binary main_v37 main_v39 main_v40 addf,
    nullary main_cst_4 (constant S_ .f32 0x00000000#32),
    binary main_v40 main_cst_4 main_v41 (fun x v => Host.reduceAdd x v reducesTo_S800000x32_S32_d0 h_S_),
    unary main_v41 main_v42 (broadcastInDim S1x32 ![1] bcast_S32_S1x32_1),
    nullary main_cst_5 (constant S_ .f32 0x49435000#32),
    unary main_cst_5 main_v43 (broadcastInDim S1x32 ![] bcast_S_S1x32),
    binary main_v42 main_v43 main_v44 Host.divf,
    unary main_arg19 main_v45 (broadcastInDim S1x32 ![1] bcast_S32_S1x32_1),
    binary main_v45 main_v44 main_v46 mulf,
    unary main_v46 main_v47 (broadcastInDim S800000x32 ![0, 1] bcast_S1x32_S800000x32_0_1),
    binary main_v40 main_v47 main_v48 subf,
    binary main_v48 main_v48 main_v49 mulf,
    nullary main_cst_6 (constant S_ .f32 0x00000000#32),
    binary main_v49 main_cst_6 main_v50 (fun x v => Host.reduceAdd x v reducesTo_S800000x32_S32_d0 h_S_),
    unary main_v50 main_v51 (broadcastInDim S1x32 ![1] bcast_S32_S1x32_1) ]

/-- The second window: the rest of the edge features' normalisation, then the first two message layers — the node
    table of 138 columns, the source index wrapped into range, the gather, the 170-column edge rows, the linear
    layer, the scatter-add onto the target nodes and its @relu — and the start of the third. -/
abbrev ops1 : List (HloOp τ sig (Elt F)) :=
  [ nullary main_cst_7 (constant S_ .f32 0x49435000#32),
    unary main_cst_7 main_v52 (broadcastInDim S1x32 ![] bcast_S_S1x32),
    binary main_v51 main_v52 main_v53 Host.divf,
    nullary main_cst_8 (constant S_ .f32 0x3727C5AC#32),
    unary main_cst_8 main_v54 (broadcastInDim S1x32 ![] bcast_S_S1x32),
    binary main_v53 main_v54 main_v55 addf,
    unary main_v55 main_v56 Host.rsqrt,
    unary main_v56 main_v57 (broadcastInDim S800000x32 ![0, 1] bcast_S1x32_S800000x32_0_1),
    binary main_v48 main_v57 main_v58 mulf,
    unary main_arg17 main_v59 (broadcastInDim S1x32 ![1] bcast_S32_S1x32_1),
    unary main_v59 main_v60 (broadcastInDim S800000x32 ![0, 1] bcast_S1x32_S800000x32_0_1),
    binary main_v58 main_v60 main_v61 mulf,
    unary main_arg18 main_v62 (broadcastInDim S1x32 ![1] bcast_S32_S1x32_1),
    unary main_v62 main_v63 (broadcastInDim S800000x32 ![0, 1] bcast_S1x32_S800000x32_0_1),
    binary main_v61 main_v63 main_v64 addf,
    binary main_arg0 main_v36 main_v65 (fun a b => concatenate S50000x138 1 [⟨S50000x128, a⟩, ⟨S50000x10, b⟩] concatenates_S50000x128_S50000x10_S50000x138_d1),
    nullary main_c (constantI S_ 32 0#32),
    unary main_c main_v66 (broadcastInDim S800000 ![] bcast_S_S800000),
    binary main_v1 main_v66 main_v67 (cmpi .slt),
    nullary main_c_9 (constantI S_ 32 50000#32),
    unary main_c_9 main_v68 (broadcastInDim S800000 ![] bcast_S_S800000),
    binary main_v1 main_v68 main_v69 addi,
    ternary main_v67 main_v69 main_v1 main_v70 select,
    unary main_v70 main_v71 (broadcastInDim S800000x1 ![0] bcast_S800000_S800000x1_0),
    binary main_v65 main_v71 main_v72 (fun x i => Host.gather gather_S50000x138_S800000x1_S800000x138_1_0_n_n_0_1_1138 x i),
    binary main_v72 main_v64 main_v73 (fun a b => concatenate S800000x170 1 [⟨S800000x138, a⟩, ⟨S800000x32, b⟩] concatenates_S800000x138_S800000x32_S800000x170_d1),
    binary main_v73 main_arg20 main_v74 (fun l r => Host.dotGeneral dot_S800000x170_S170x10_S800000x10_1_0_0_1_n_n none l r),
    unary main_arg21 main_v75 (broadcastInDim S1x10 ![1] bcast_S10_S1x10_1),
    unary main_v75 main_v76 (broadcastInDim S800000x10 ![0, 1] bcast_S1x10_S800000x10_0_1),
    binary main_v74 main_v76 main_v77 addf,
    nullary main_cst_10 (constant S_ .f32 0x00000000#32),
    unary main_cst_10 main_v78 (broadcastInDim S50000x10 ![] bcast_S_S50000x10),
    unary main_v3 main_v79 (broadcastInDim S800000x1 ![0] bcast_S800000_S800000x1_0),
    ternary main_v78 main_v79 main_v77 main_v80 (fun x i u => Host.scatterAdd scatter_S50000x10_S800000x1_S800000x10_1_0_0_1 x i u),
    TRef.nullary main_call1.cst (constant S_ .f32 0x00000000#32),
    TRef.unary main_call1.cst main_call1.v0 (broadcastInDim S50000x10 ![] bcast_S_S50000x10),
    TRef.binary (.of main_v80) main_call1.v0 main_call1.v1 maximumf,
    binary main_arg0 main_v81 main_v82 (fun a b => concatenate S50000x138 1 [⟨S50000x128, a⟩, ⟨S50000x10, b⟩] concatenates_S50000x128_S50000x10_S50000x138_d1),
    nullary main_c_11 (constantI S_ 32 0#32),
    unary main_c_11 main_v83 (broadcastInDim S800000 ![] bcast_S_S800000),
    binary main_v1 main_v83 main_v84 (cmpi .slt),
    nullary main_c_12 (constantI S_ 32 50000#32),
    unary main_c_12 main_v85 (broadcastInDim S800000 ![] bcast_S_S800000),
    binary main_v1 main_v85 main_v86 addi,
    ternary main_v84 main_v86 main_v1 main_v87 select,
    unary main_v87 main_v88 (broadcastInDim S800000x1 ![0] bcast_S800000_S800000x1_0),
    binary main_v82 main_v88 main_v89 (fun x i => Host.gather gather_S50000x138_S800000x1_S800000x138_1_0_n_n_0_1_1138 x i),
    binary main_v89 main_v64 main_v90 (fun a b => concatenate S800000x170 1 [⟨S800000x138, a⟩, ⟨S800000x32, b⟩] concatenates_S800000x138_S800000x32_S800000x170_d1),
    binary main_v90 main_arg22 main_v91 (fun l r => Host.dotGeneral dot_S800000x170_S170x10_S800000x10_1_0_0_1_n_n none l r),
    unary main_arg23 main_v92 (broadcastInDim S1x10 ![1] bcast_S10_S1x10_1),
    unary main_v92 main_v93 (broadcastInDim S800000x10 ![0, 1] bcast_S1x10_S800000x10_0_1),
    binary main_v91 main_v93 main_v94 addf,
    nullary main_cst_13 (constant S_ .f32 0x00000000#32),
    unary main_cst_13 main_v95 (broadcastInDim S50000x10 ![] bcast_S_S50000x10),
    unary main_v3 main_v96 (broadcastInDim S800000x1 ![0] bcast_S800000_S800000x1_0),
    ternary main_v95 main_v96 main_v94 main_v97 (fun x i u => Host.scatterAdd scatter_S50000x10_S800000x1_S800000x10_1_0_0_1 x i u),
    TRef.nullary main_call2.cst (constant S_ .f32 0x00000000#32),
    TRef.unary main_call2.cst main_call2.v0 (broadcastInDim S50000x10 ![] bcast_S_S50000x10),
    TRef.binary (.of main_v97) main_call2.v0 main_call2.v1 maximumf,
    binary main_arg0 main_v98 main_v99 (fun a b => concatenate S50000x138 1 [⟨S50000x128, a⟩, ⟨S50000x10, b⟩] concatenates_S50000x128_S50000x10_S50000x138_d1),
    nullary main_c_14 (constantI S_ 32 0#32),
    unary main_c_14 main_v100 (broadcastInDim S800000 ![] bcast_S_S800000),
    binary main_v1 main_v100 main_v101 (cmpi .slt),
    nullary main_c_15 (constantI S_ 32 50000#32) ]

/-- The third window: the rest of the third message layer, the fourth, the last @relu and the projection to two
    columns, the picked rows gathered at their wrapped indices, and the softmax over each row up to the row sums. -/
abbrev ops2 : List (HloOp τ sig (Elt F)) :=
  [ unary main_c_15 main_v102 (broadcastInDim S800000 ![] bcast_S_S800000),
    binary main_v1 main_v102 main_v103 addi,
    ternary main_v101 main_v103 main_v1 main_v104 select,
    unary main_v104 main_v105 (broadcastInDim S800000x1 ![0] bcast_S800000_S800000x1_0),
    binary main_v99 main_v105 main_v106 (fun x i => Host.gather gather_S50000x138_S800000x1_S800000x138_1_0_n_n_0_1_1138 x i),
    binary main_v106 main_v64 main_v107 (fun a b => concatenate S800000x170 1 [⟨S800000x138, a⟩, ⟨S800000x32, b⟩] concatenates_S800000x138_S800000x32_S800000x170_d1),
    binary main_v107 main_arg24 main_v108 (fun l r => Host.dotGeneral dot_S800000x170_S170x10_S800000x10_1_0_0_1_n_n none l r),
    unary main_arg25 main_v109 (broadcastInDim S1x10 ![1] bcast_S10_S1x10_1),
    unary main_v109 main_v110 (broadcastInDim S800000x10 ![0, 1] bcast_S1x10_S800000x10_0_1),
    binary main_v108 main_v110 main_v111 addf,
    nullary main_cst_16 (constant S_ .f32 0x00000000#32),
    unary main_cst_16 main_v112 (broadcastInDim S50000x10 ![] bcast_S_S50000x10),
    unary main_v3 main_v113 (broadcastInDim S800000x1 ![0] bcast_S800000_S800000x1_0),
    ternary main_v112 main_v113 main_v111 main_v114 (fun x i u => Host.scatterAdd scatter_S50000x10_S800000x1_S800000x10_1_0_0_1 x i u),
    TRef.nullary main_call3.cst (constant S_ .f32 0x00000000#32),
    TRef.unary main_call3.cst main_call3.v0 (broadcastInDim S50000x10 ![] bcast_S_S50000x10),
    TRef.binary (.of main_v114) main_call3.v0 main_call3.v1 maximumf,
    binary main_arg0 main_v115 main_v116 (fun a b => concatenate S50000x138 1 [⟨S50000x128, a⟩, ⟨S50000x10, b⟩] concatenates_S50000x128_S50000x10_S50000x138_d1),
    nullary main_c_17 (constantI S_ 32 0#32),
    unary main_c_17 main_v117 (broadcastInDim S800000 ![] bcast_S_S800000),
    binary main_v1 main_v117 main_v118 (cmpi .slt),
    nullary main_c_18 (constantI S_ 32 50000#32),
    unary main_c_18 main_v119 (broadcastInDim S800000 ![] bcast_S_S800000),
    binary main_v1 main_v119 main_v120 addi,
    ternary main_v118 main_v120 main_v1 main_v121 select,
    unary main_v121 main_v122 (broadcastInDim S800000x1 ![0] bcast_S800000_S800000x1_0),
    binary main_v116 main_v122 main_v123 (fun x i => Host.gather gather_S50000x138_S800000x1_S800000x138_1_0_n_n_0_1_1138 x i),
    binary main_v123 main_v64 main_v124 (fun a b => concatenate S800000x170 1 [⟨S800000x138, a⟩, ⟨S800000x32, b⟩] concatenates_S800000x138_S800000x32_S800000x170_d1),
    binary main_v124 main_arg26 main_v125 (fun l r => Host.dotGeneral dot_S800000x170_S170x10_S800000x10_1_0_0_1_n_n none l r),
    unary main_arg27 main_v126 (broadcastInDim S1x10 ![1] bcast_S10_S1x10_1),
    unary main_v126 main_v127 (broadcastInDim S800000x10 ![0, 1] bcast_S1x10_S800000x10_0_1),
    binary main_v125 main_v127 main_v128 addf,
    nullary main_cst_19 (constant S_ .f32 0x00000000#32),
    unary main_cst_19 main_v129 (broadcastInDim S50000x10 ![] bcast_S_S50000x10),
    unary main_v3 main_v130 (broadcastInDim S800000x1 ![0] bcast_S800000_S800000x1_0),
    ternary main_v129 main_v130 main_v128 main_v131 (fun x i u => Host.scatterAdd scatter_S50000x10_S800000x1_S800000x10_1_0_0_1 x i u),
    TRef.nullary main_call4.cst (constant S_ .f32 0x00000000#32),
    TRef.unary main_call4.cst main_call4.v0 (broadcastInDim S50000x10 ![] bcast_S_S50000x10),
    TRef.binary (.of main_v131) main_call4.v0 main_call4.v1 maximumf,
    binary main_v132 main_arg28 main_v133 (fun l r => Host.dotGeneral dot_S50000x10_S10x2_S50000x2_1_0_0_1_n_n none l r),
    unary main_arg29 main_v134 (broadcastInDim S1x2 ![1] bcast_S2_S1x2_1),
    unary main_v134 main_v135 (broadcastInDim S50000x2 ![0, 1] bcast_S1x2_S50000x2_0_1),
    binary main_v133 main_v135 main_v136 addf,
    nullary main_c_20 (constantI S_ 32 0#32),
    unary main_c_20 main_v137 (broadcastInDim S20000 ![] bcast_S_S20000),
    binary main_arg7 main_v137 main_v138 (cmpi .slt),
    nullary main_c_21 (constantI S_ 32 50000#32),
    unary main_c_21 main_v139 (broadcastInDim S20000 ![] bcast_S_S20000),
    binary main_arg7 main_v139 main_v140 addi,
    ternary main_v138 main_v140 main_arg7 main_v141 select,
    unary main_v141 main_v142 (broadcastInDim S20000x1 ![0] bcast_S20000_S20000x1_0),
    binary main_v136 main_v142 main_v143 (fun x i => Host.gather gather_S50000x2_S20000x1_S20000x2_1_0_n_n_0_1_12 x i),
    nullary main_cst_22 (constant S_ .f32 0xFF800000#32),
    binary main_v143 main_cst_22 main_v144 (fun x v => Host.reduce FloatOps.maximumf x v reducesTo_S20000x2_S20000_d1 h_S_),
    nullary main_cst_23 (constant S_ .f32 0xFF800000#32),
    unary main_cst_23 main_v145 (broadcastInDim S20000 ![] bcast_S_S20000),
    binary main_v145 main_v144 main_v146 maximumf,
    unary main_v146 main_v147 (broadcastInDim S20000x1 ![0] bcast_S20000_S20000x1_0),
    unary main_v147 main_v148 (broadcastInDim S20000x2 ![0, 1] bcast_S20000x1_S20000x2_0_1),
    binary main_v143 main_v148 main_v149 subf,
    unary main_v149 main_v150 Host.exp,
    nullary main_cst_24 (constant S_ .f32 0x00000000#32),
    binary main_v150 main_cst_24 main_v151 (fun x v => Host.reduceAdd x v reducesTo_S20000x2_S20000_d1 h_S_),
    unary main_v151 main_v152 (broadcastInDim S20000x1 ![0] bcast_S20000_S20000x1_0) ]

/-- The last window: the row sums broadcast back and the quotient. -/
abbrev ops3 : List (HloOp τ sig (Elt F)) :=
  [ unary main_v152 main_v153 (broadcastInDim S20000x2 ![0, 1] bcast_S20000x1_S20000x2_0_1),
    binary main_v150 main_v153 main_v154 Host.divf ]

/-- @main's 192 operations, in order. -/
abbrev ops : List (HloOp τ sig (Elt F)) := ops0 ++ ops1 ++ ops2 ++ ops3

/-! ## @main is their straight line -/

/-- A window is one chain of steps, and so is its list's line: a call's body unfolds to its three steps and the
    sequencing reassociates by computation. -/
theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
theorem main_part3_eq (c : Dev nD) : main_part3 (F := F) c = seq ops3 := rfl

/-- @main runs its four windows in order, each the straight line of its list; lines run one after the other are
    their concatenation run as one. -/
theorem main_eq (c : Dev nD) : main (F := F) c = StableHlo.seq ops := by
  unfold main
  rw [main_part0_eq c, main_part1_eq c, main_part2_eq c, main_part3_eq c]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every buffer touched is a TensorCore buffer, and no operation allocates -/

/-- One conjunct per operation, each by the fact of its builder. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    unary_bufs_sub .., binary_bufs_sub .., unary_bufs_sub .., binary_bufs_sub .., binary_bufs_sub .., nullary_bufs_sub ..,
    binary_bufs_sub .., unary_bufs_sub ..⟩
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    nullary_bufs_sub .., unary_bufs_sub .., binary_bufs_sub .., nullary_bufs_sub ..⟩
theorem ops2_sub : (ops2 : List (HloOp τ sig (Elt F))).Forall fun op => op.bufs ⊆ tcRefs τ sig :=
  ⟨unary_bufs_sub .., binary_bufs_sub .., ternary_bufs_sub .., unary_bufs_sub .., binary_bufs_sub .., binary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub ..⟩
theorem ops3_sub : (ops3 : List (HloOp τ sig (Elt F))).Forall fun op => op.bufs ⊆ tcRefs τ sig :=
  ⟨unary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

/-- No operation of the window allocates a buffer. -/
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp
    (List.forall_append.mpr ⟨List.forall_append.mpr ⟨List.forall_append.mpr ⟨ops0_fresh, ops1_fresh⟩, ops2_fresh⟩, ops3_fresh⟩)

/-! ## The run -/

/-- On every device, for any float values, from any memory with zero counters: every weakly fair execution of @main
    terminates, and every final state has each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The fold, window by window -/

/-- The fold over the concatenation is the last window's fold over the third's over the second's over the first's. -/
theorem after_split (V : Valuation τ sig (Elt F)) :
    StableHlo.after ops V = StableHlo.after ops3 (StableHlo.after ops2 (StableHlo.after ops1 (StableHlo.after ops0 V))) := by
  simp only [ops, StableHlo.after_append]

/-! ## No operation writes an argument

Every operation writes one buffer, a value of @main or of a call; none of them is one of the thirty arguments. -/

/-- @main's thirty arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29]

/-- The buffer each operation of the window writes differs from every argument: which reference is which is decided. -/
theorem ops0_writes : (ops0 : List (HloOp τ sig (Elt F))).Forall fun op =>
    ∀ r ∈ argRefs, (Proc.devRef .tc r : DevRef τ sig) ∉ op.writes := by
  simp only [List.Forall, nullary_writes, unary_writes, binary_writes, ternary_writes, reshape_writes, Finset.mem_singleton]
  repeat' apply And.intro
  all_goals exact fun r hr => devRef_ne_of_ne ((by decide : ∀ r ∈ argRefs, r ≠ _) r hr)
theorem ops1_writes : (ops1 : List (HloOp τ sig (Elt F))).Forall fun op =>
    ∀ r ∈ argRefs, (Proc.devRef .tc r : DevRef τ sig) ∉ op.writes := by
  simp only [List.Forall, nullary_writes, unary_writes, binary_writes, ternary_writes, reshape_writes, Finset.mem_singleton]
  repeat' apply And.intro
  all_goals exact fun r hr => devRef_ne_of_ne ((by decide : ∀ r ∈ argRefs, r ≠ _) r hr)
theorem ops2_writes : (ops2 : List (HloOp τ sig (Elt F))).Forall fun op =>
    ∀ r ∈ argRefs, (Proc.devRef .tc r : DevRef τ sig) ∉ op.writes := by
  simp only [List.Forall, nullary_writes, unary_writes, binary_writes, ternary_writes, reshape_writes, Finset.mem_singleton]
  repeat' apply And.intro
  all_goals exact fun r hr => devRef_ne_of_ne ((by decide : ∀ r ∈ argRefs, r ≠ _) r hr)
theorem ops3_writes : (ops3 : List (HloOp τ sig (Elt F))).Forall fun op =>
    ∀ r ∈ argRefs, (Proc.devRef .tc r : DevRef τ sig) ∉ op.writes := by
  simp only [List.Forall, nullary_writes, unary_writes, binary_writes, ternary_writes, reshape_writes, Finset.mem_singleton]
  repeat' apply And.intro
  all_goals exact fun r hr => devRef_ne_of_ne ((by decide : ∀ r ∈ argRefs, r ≠ _) r hr)

/-- An argument's buffer is as before after all the operations: the fold walks back through the four windows, none
    of which writes it. -/
theorem after_arg (V : Valuation τ sig (Elt F)) {r : Ref sig .tc} (hr : r ∈ argRefs) :
    after ops V (Proc.devRef .tc r) = V (Proc.devRef .tc r) :=
  (congrFun (after_split V) _).trans <|
    (after_of_forall_not_mem ops3 _ fun op h => List.forall_iff_forall_mem.mp ops3_writes op h r hr).trans <|
    (after_of_forall_not_mem ops2 _ fun op h => List.forall_iff_forall_mem.mp ops2_writes op h r hr).trans <|
    (after_of_forall_not_mem ops1 _ fun op h => List.forall_iff_forall_mem.mp ops1_writes op h r hr).trans <|
    after_of_forall_not_mem ops0 V fun op h => List.forall_iff_forall_mem.mp ops0_writes op h r hr

theorem after_main_arg0 (V : Valuation τ sig (Elt F)) :
    after ops V (Proc.devRef .tc main_arg0) = V (Proc.devRef .tc main_arg0) := after_arg V (by decide)
theorem after_main_arg1 (V : Valuation τ sig (Elt F)) :
    after ops V (Proc.devRef .tc main_arg1) = V (Proc.devRef .tc main_arg1) := after_arg V (by decide)
theorem after_main_arg2 (V : Valuation τ sig (Elt F)) :
    after ops V (Proc.devRef .tc main_arg2) = V (Proc.devRef .tc main_arg2) := after_arg V (by decide)
theorem after_main_arg3 (V : Valuation τ sig (Elt F)) :
    after ops V (Proc.devRef .tc main_arg3) = V (Proc.devRef .tc main_arg3) := after_arg V (by decide)
theorem after_main_arg4 (V : Valuation τ sig (Elt F)) :
    after ops V (Proc.devRef .tc main_arg4) = V (Proc.devRef .tc main_arg4) := after_arg V (by decide)
theorem after_main_arg5 (V : Valuation τ sig (Elt F)) :
    after ops V (Proc.devRef .tc main_arg5) = V (Proc.devRef .tc main_arg5) := after_arg V (by decide)
theorem after_main_arg6 (V : Valuation τ sig (Elt F)) :
    after ops V (Proc.devRef .tc main_arg6) = V (Proc.devRef .tc main_arg6) := after_arg V (by decide)
theorem after_main_arg7 (V : Valuation τ sig (Elt F)) :
    after ops V (Proc.devRef .tc main_arg7) = V (Proc.devRef .tc main_arg7) := after_arg V (by decide)
theorem after_main_arg8 (V : Valuation τ sig (Elt F)) :
    after ops V (Proc.devRef .tc main_arg8) = V (Proc.devRef .tc main_arg8) := after_arg V (by decide)
theorem after_main_arg9 (V : Valuation τ sig (Elt F)) :
    after ops V (Proc.devRef .tc main_arg9) = V (Proc.devRef .tc main_arg9) := after_arg V (by decide)
theorem after_main_arg10 (V : Valuation τ sig (Elt F)) :
    after ops V (Proc.devRef .tc main_arg10) = V (Proc.devRef .tc main_arg10) := after_arg V (by decide)
theorem after_main_arg11 (V : Valuation τ sig (Elt F)) :
    after ops V (Proc.devRef .tc main_arg11) = V (Proc.devRef .tc main_arg11) := after_arg V (by decide)
theorem after_main_arg12 (V : Valuation τ sig (Elt F)) :
    after ops V (Proc.devRef .tc main_arg12) = V (Proc.devRef .tc main_arg12) := after_arg V (by decide)
theorem after_main_arg13 (V : Valuation τ sig (Elt F)) :
    after ops V (Proc.devRef .tc main_arg13) = V (Proc.devRef .tc main_arg13) := after_arg V (by decide)
theorem after_main_arg14 (V : Valuation τ sig (Elt F)) :
    after ops V (Proc.devRef .tc main_arg14) = V (Proc.devRef .tc main_arg14) := after_arg V (by decide)
theorem after_main_arg15 (V : Valuation τ sig (Elt F)) :
    after ops V (Proc.devRef .tc main_arg15) = V (Proc.devRef .tc main_arg15) := after_arg V (by decide)
theorem after_main_arg16 (V : Valuation τ sig (Elt F)) :
    after ops V (Proc.devRef .tc main_arg16) = V (Proc.devRef .tc main_arg16) := after_arg V (by decide)
theorem after_main_arg17 (V : Valuation τ sig (Elt F)) :
    after ops V (Proc.devRef .tc main_arg17) = V (Proc.devRef .tc main_arg17) := after_arg V (by decide)
theorem after_main_arg18 (V : Valuation τ sig (Elt F)) :
    after ops V (Proc.devRef .tc main_arg18) = V (Proc.devRef .tc main_arg18) := after_arg V (by decide)
theorem after_main_arg19 (V : Valuation τ sig (Elt F)) :
    after ops V (Proc.devRef .tc main_arg19) = V (Proc.devRef .tc main_arg19) := after_arg V (by decide)
theorem after_main_arg20 (V : Valuation τ sig (Elt F)) :
    after ops V (Proc.devRef .tc main_arg20) = V (Proc.devRef .tc main_arg20) := after_arg V (by decide)
theorem after_main_arg21 (V : Valuation τ sig (Elt F)) :
    after ops V (Proc.devRef .tc main_arg21) = V (Proc.devRef .tc main_arg21) := after_arg V (by decide)
theorem after_main_arg22 (V : Valuation τ sig (Elt F)) :
    after ops V (Proc.devRef .tc main_arg22) = V (Proc.devRef .tc main_arg22) := after_arg V (by decide)
theorem after_main_arg23 (V : Valuation τ sig (Elt F)) :
    after ops V (Proc.devRef .tc main_arg23) = V (Proc.devRef .tc main_arg23) := after_arg V (by decide)
theorem after_main_arg24 (V : Valuation τ sig (Elt F)) :
    after ops V (Proc.devRef .tc main_arg24) = V (Proc.devRef .tc main_arg24) := after_arg V (by decide)
theorem after_main_arg25 (V : Valuation τ sig (Elt F)) :
    after ops V (Proc.devRef .tc main_arg25) = V (Proc.devRef .tc main_arg25) := after_arg V (by decide)
theorem after_main_arg26 (V : Valuation τ sig (Elt F)) :
    after ops V (Proc.devRef .tc main_arg26) = V (Proc.devRef .tc main_arg26) := after_arg V (by decide)
theorem after_main_arg27 (V : Valuation τ sig (Elt F)) :
    after ops V (Proc.devRef .tc main_arg27) = V (Proc.devRef .tc main_arg27) := after_arg V (by decide)
theorem after_main_arg28 (V : Valuation τ sig (Elt F)) :
    after ops V (Proc.devRef .tc main_arg28) = V (Proc.devRef .tc main_arg28) := after_arg V (by decide)
theorem after_main_arg29 (V : Valuation τ sig (Elt F)) :
    after ops V (Proc.devRef .tc main_arg29) = V (Proc.devRef .tc main_arg29) := after_arg V (by decide)

end Cert.ReferenceIdeal.RunP

end
-- ==== Proof.RefChunk0.lean ====
/-
  The first sixty statements of the reference: the two index rows, the node branch through its second linear layer and positive part, the edge linear layer, its column means and the centred edge array.
  From any contents of the buffers in which the arguments these statements read hold given arrays, and every buffer
  written earlier and read here holds its stage of the arguments, the buffers written here and read later hold theirs.
-/
import proofs.«423839_j69329362092378_2_alg».proof.Proof.RefOps
import proofs.«423839_j69329362092378_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The arguments

No operation of the chunk writes an argument of @main, so each argument's buffer is after the chunk as before it. -/

/-- An argument of @main is as it was before the chunk. -/
private theorem keep0 (V : Valuation τ sig (Elt F)) {r : Ref sig .tc} (hr : r ∈ argRefs) :
    after ops0 V (Proc.devRef .tc r) = V (Proc.devRef .tc r) :=
  after_of_forall_not_mem ops0 V fun op h => List.forall_iff_forall_mem.mp (ops0_writes (F := F)) op h r hr

/-! ## The five arrays the later statements read

Each is read off the fold: an operation's result at its own buffer is its function of its operands' contents, every
other buffer is as before it, and what the walk back to the arguments leaves is the stage's own composed term. -/

/-- Row 0 of the edge table, as a vector. -/
private theorem read_v1 (V : Valuation τ sig (Elt F)) :
    after ops0 V (Proc.devRef .tc main_v1) = Cert.ReferenceIdeal.ReadP.val_main_v1 (F := F) (V (Proc.devRef .tc main_arg2)) := by
  after_results_simp; rfl

/-- Row 1 of the edge table, as a vector. -/
private theorem read_v3 (V : Valuation τ sig (Elt F)) :
    after ops0 V (Proc.devRef .tc main_v3) = Cert.ReferenceIdeal.ReadP.val_main_v3 (F := F) (V (Proc.devRef .tc main_arg2)) := by
  after_results_simp; rfl

/-- The node branch: linear layer, normalisation over the nodes, projection to ten columns, positive part. -/
private theorem read_v36 (V : Valuation τ sig (Elt F)) :
    after ops0 V (Proc.devRef .tc main_v36) = Cert.ReferenceIdeal.ReadP.val_main_v36 (F := F) (V (Proc.devRef .tc main_arg0)) (V (Proc.devRef .tc main_arg8)) (V (Proc.devRef .tc main_arg9)) (V (Proc.devRef .tc main_arg10)) (V (Proc.devRef .tc main_arg11)) (V (Proc.devRef .tc main_arg14)) (V (Proc.devRef .tc main_arg15)) (V (Proc.devRef .tc main_arg16)) := by
  after_results_simp; rfl

/-- The edge linear layer minus its scaled column means. -/
private theorem read_v48 (V : Valuation τ sig (Elt F)) :
    after ops0 V (Proc.devRef .tc main_v48) = Cert.ReferenceIdeal.ReadP.val_main_v48 (F := F) (V (Proc.devRef .tc main_arg6)) (V (Proc.devRef .tc main_arg12)) (V (Proc.devRef .tc main_arg13)) (V (Proc.devRef .tc main_arg19)) := by
  after_results_simp; rfl

/-- The column sums of the squared centred edge array, as a row. -/
private theorem read_v51 (V : Valuation τ sig (Elt F)) :
    after ops0 V (Proc.devRef .tc main_v51) = Cert.ReferenceIdeal.ReadP.val_main_v51 (F := F) (V (Proc.devRef .tc main_arg6)) (V (Proc.devRef .tc main_arg12)) (V (Proc.devRef .tc main_arg13)) (V (Proc.devRef .tc main_arg19)) := by
  after_results_simp; rfl

theorem chunk0 (V : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F)) (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x19 : (⟨S32, .f32⟩ : BufTy).Contents (Elt F))
    (ha0 : V (Proc.devRef .tc main_arg0) = x0)
    (ha2 : V (Proc.devRef .tc main_arg2) = x2)
    (ha6 : V (Proc.devRef .tc main_arg6) = x6)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha19 : V (Proc.devRef .tc main_arg19) = x19) :
    after ops0 V (Proc.devRef .tc main_v1) = Cert.ReferenceIdeal.ReadP.val_main_v1 (F := F) x2
    ∧ after ops0 V (Proc.devRef .tc main_v3) = Cert.ReferenceIdeal.ReadP.val_main_v3 (F := F) x2
    ∧ after ops0 V (Proc.devRef .tc main_v36) = Cert.ReferenceIdeal.ReadP.val_main_v36 (F := F) x0 x8 x9 x10 x11 x14 x15 x16
    ∧ after ops0 V (Proc.devRef .tc main_v48) = Cert.ReferenceIdeal.ReadP.val_main_v48 (F := F) x6 x12 x13 x19
    ∧ after ops0 V (Proc.devRef .tc main_v51) = Cert.ReferenceIdeal.ReadP.val_main_v51 (F := F) x6 x12 x13 x19 := by
  subst ha0 ha2 ha6 ha8 ha9 ha10 ha11 ha12 ha13 ha14 ha15 ha16 ha19
  exact ⟨read_v1 V, read_v3 V, read_v36 V, read_v48 V, read_v51 V⟩

/-! No operation of these statements writes an argument array. -/

theorem keep0_arg0 (V : Valuation τ sig (Elt F)) :
    after ops0 V (Proc.devRef .tc main_arg0) = V (Proc.devRef .tc main_arg0) := keep0 V (by decide)

theorem keep0_arg17 (V : Valuation τ sig (Elt F)) :
    after ops0 V (Proc.devRef .tc main_arg17) = V (Proc.devRef .tc main_arg17) := keep0 V (by decide)

theorem keep0_arg18 (V : Valuation τ sig (Elt F)) :
    after ops0 V (Proc.devRef .tc main_arg18) = V (Proc.devRef .tc main_arg18) := keep0 V (by decide)

theorem keep0_arg20 (V : Valuation τ sig (Elt F)) :
    after ops0 V (Proc.devRef .tc main_arg20) = V (Proc.devRef .tc main_arg20) := keep0 V (by decide)

theorem keep0_arg21 (V : Valuation τ sig (Elt F)) :
    after ops0 V (Proc.devRef .tc main_arg21) = V (Proc.devRef .tc main_arg21) := keep0 V (by decide)

theorem keep0_arg22 (V : Valuation τ sig (Elt F)) :
    after ops0 V (Proc.devRef .tc main_arg22) = V (Proc.devRef .tc main_arg22) := keep0 V (by decide)

theorem keep0_arg23 (V : Valuation τ sig (Elt F)) :
    after ops0 V (Proc.devRef .tc main_arg23) = V (Proc.devRef .tc main_arg23) := keep0 V (by decide)

theorem keep0_arg7 (V : Valuation τ sig (Elt F)) :
    after ops0 V (Proc.devRef .tc main_arg7) = V (Proc.devRef .tc main_arg7) := keep0 V (by decide)

theorem keep0_arg24 (V : Valuation τ sig (Elt F)) :
    after ops0 V (Proc.devRef .tc main_arg24) = V (Proc.devRef .tc main_arg24) := keep0 V (by decide)

theorem keep0_arg25 (V : Valuation τ sig (Elt F)) :
    after ops0 V (Proc.devRef .tc main_arg25) = V (Proc.devRef .tc main_arg25) := keep0 V (by decide)

theorem keep0_arg26 (V : Valuation τ sig (Elt F)) :
    after ops0 V (Proc.devRef .tc main_arg26) = V (Proc.devRef .tc main_arg26) := keep0 V (by decide)

theorem keep0_arg27 (V : Valuation τ sig (Elt F)) :
    after ops0 V (Proc.devRef .tc main_arg27) = V (Proc.devRef .tc main_arg27) := keep0 V (by decide)

theorem keep0_arg28 (V : Valuation τ sig (Elt F)) :
    after ops0 V (Proc.devRef .tc main_arg28) = V (Proc.devRef .tc main_arg28) := keep0 V (by decide)

theorem keep0_arg29 (V : Valuation τ sig (Elt F)) :
    after ops0 V (Proc.devRef .tc main_arg29) = V (Proc.devRef .tc main_arg29) := keep0 V (by decide)

end Cert.ReferenceIdeal.RunP

end
-- ==== Proof.RefChunk1.lean ====
/-
  The next sixty statements: the edge normalisation finished, message layers 1 and 2, and the start of layer 3.
  From any contents of the buffers in which the arguments these statements read hold given arrays, and every buffer
  written earlier and read here holds its stage of the arguments, the buffers written here and read later hold theirs.
-/
import proofs.«423839_j69329362092378_2_alg».proof.Proof.RefOps
import proofs.«423839_j69329362092378_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The window in six stretches

The window is cut before every concatenation, so that inside a stretch a concatenation's operands are buffers the
stretch does not write: what a stretch leaves in a buffer is then one composed term over the contents it started from. -/

/-- The edge features' normalisation from the variance's sum on: the mean of squares, the reciprocal root, scale and shift. -/
private abbrev st0 : List (HloOp τ sig (Elt F)) :=
  [ nullary main_cst_7 (constant S_ .f32 0x49435000#32),
    unary main_cst_7 main_v52 (broadcastInDim S1x32 ![] bcast_S_S1x32),
    binary main_v51 main_v52 main_v53 Host.divf,
    nullary main_cst_8 (constant S_ .f32 0x3727C5AC#32),
    unary main_cst_8 main_v54 (broadcastInDim S1x32 ![] bcast_S_S1x32),
    binary main_v53 main_v54 main_v55 addf,
    unary main_v55 main_v56 Host.rsqrt,
    unary main_v56 main_v57 (broadcastInDim S800000x32 ![0, 1] bcast_S1x32_S800000x32_0_1),
    binary main_v48 main_v57 main_v58 mulf,
    unary main_arg17 main_v59 (broadcastInDim S1x32 ![1] bcast_S32_S1x32_1),
    unary main_v59 main_v60 (broadcastInDim S800000x32 ![0, 1] bcast_S1x32_S800000x32_0_1),
    binary main_v58 main_v60 main_v61 mulf,
    unary main_arg18 main_v62 (broadcastInDim S1x32 ![1] bcast_S32_S1x32_1),
    unary main_v62 main_v63 (broadcastInDim S800000x32 ![0, 1] bcast_S1x32_S800000x32_0_1),
    binary main_v61 main_v63 main_v64 addf ]

/-- The first message layer up to its gathered rows: the node table of 138 columns, the source index wrapped into range, the gather. -/
private abbrev st1 : List (HloOp τ sig (Elt F)) :=
  [ binary main_arg0 main_v36 main_v65 (fun a b => concatenate S50000x138 1 [⟨S50000x128, a⟩, ⟨S50000x10, b⟩] concatenates_S50000x128_S50000x10_S50000x138_d1),
    nullary main_c (constantI S_ 32 0#32),
    unary main_c main_v66 (broadcastInDim S800000 ![] bcast_S_S800000),
    binary main_v1 main_v66 main_v67 (cmpi .slt),
    nullary main_c_9 (constantI S_ 32 50000#32),
    unary main_c_9 main_v68 (broadcastInDim S800000 ![] bcast_S_S800000),
    binary main_v1 main_v68 main_v69 addi,
    ternary main_v67 main_v69 main_v1 main_v70 select,
    unary main_v70 main_v71 (broadcastInDim S800000x1 ![0] bcast_S800000_S800000x1_0),
    binary main_v65 main_v71 main_v72 (fun x i => Host.gather gather_S50000x138_S800000x1_S800000x138_1_0_n_n_0_1_1138 x i) ]

/-- The rest of the first message layer: the 170-column edge rows, the linear layer, the sum onto the target nodes, the maximum with zero. -/
private abbrev st2 : List (HloOp τ sig (Elt F)) :=
  [ binary main_v72 main_v64 main_v73 (fun a b => concatenate S800000x170 1 [⟨S800000x138, a⟩, ⟨S800000x32, b⟩] concatenates_S800000x138_S800000x32_S800000x170_d1),
    binary main_v73 main_arg20 main_v74 (fun l r => Host.dotGeneral dot_S800000x170_S170x10_S800000x10_1_0_0_1_n_n none l r),
    unary main_arg21 main_v75 (broadcastInDim S1x10 ![1] bcast_S10_S1x10_1),
    unary main_v75 main_v76 (broadcastInDim S800000x10 ![0, 1] bcast_S1x10_S800000x10_0_1),
    binary main_v74 main_v76 main_v77 addf,
    nullary main_cst_10 (constant S_ .f32 0x00000000#32),
    unary main_cst_10 main_v78 (broadcastInDim S50000x10 ![] bcast_S_S50000x10),
    unary main_v3 main_v79 (broadcastInDim S800000x1 ![0] bcast_S800000_S800000x1_0),
    ternary main_v78 main_v79 main_v77 main_v80 (fun x i u => Host.scatterAdd scatter_S50000x10_S800000x1_S800000x10_1_0_0_1 x i u),
    TRef.nullary main_call1.cst (constant S_ .f32 0x00000000#32),
    TRef.unary main_call1.cst main_call1.v0 (broadcastInDim S50000x10 ![] bcast_S_S50000x10),
    TRef.binary (.of main_v80) main_call1.v0 main_call1.v1 maximumf ]

/-- The second message layer up to its gathered rows. -/
private abbrev st3 : List (HloOp τ sig (Elt F)) :=
  [ binary main_arg0 main_v81 main_v82 (fun a b => concatenate S50000x138 1 [⟨S50000x128, a⟩, ⟨S50000x10, b⟩] concatenates_S50000x128_S50000x10_S50000x138_d1),
    nullary main_c_11 (constantI S_ 32 0#32),
    unary main_c_11 main_v83 (broadcastInDim S800000 ![] bcast_S_S800000),
    binary main_v1 main_v83 main_v84 (cmpi .slt),
    nullary main_c_12 (constantI S_ 32 50000#32),
    unary main_c_12 main_v85 (broadcastInDim S800000 ![] bcast_S_S800000),
    binary main_v1 main_v85 main_v86 addi,
    ternary main_v84 main_v86 main_v1 main_v87 select,
    unary main_v87 main_v88 (broadcastInDim S800000x1 ![0] bcast_S800000_S800000x1_0),
    binary main_v82 main_v88 main_v89 (fun x i => Host.gather gather_S50000x138_S800000x1_S800000x138_1_0_n_n_0_1_1138 x i) ]

/-- The rest of the second message layer. -/
private abbrev st4 : List (HloOp τ sig (Elt F)) :=
  [ binary main_v89 main_v64 main_v90 (fun a b => concatenate S800000x170 1 [⟨S800000x138, a⟩, ⟨S800000x32, b⟩] concatenates_S800000x138_S800000x32_S800000x170_d1),
    binary main_v90 main_arg22 main_v91 (fun l r => Host.dotGeneral dot_S800000x170_S170x10_S800000x10_1_0_0_1_n_n none l r),
    unary main_arg23 main_v92 (broadcastInDim S1x10 ![1] bcast_S10_S1x10_1),
    unary main_v92 main_v93 (broadcastInDim S800000x10 ![0, 1] bcast_S1x10_S800000x10_0_1),
    binary main_v91 main_v93 main_v94 addf,
    nullary main_cst_13 (constant S_ .f32 0x00000000#32),
    unary main_cst_13 main_v95 (broadcastInDim S50000x10 ![] bcast_S_S50000x10),
    unary main_v3 main_v96 (broadcastInDim S800000x1 ![0] bcast_S800000_S800000x1_0),
    ternary main_v95 main_v96 main_v94 main_v97 (fun x i u => Host.scatterAdd scatter_S50000x10_S800000x1_S800000x10_1_0_0_1 x i u),
    TRef.nullary main_call2.cst (constant S_ .f32 0x00000000#32),
    TRef.unary main_call2.cst main_call2.v0 (broadcastInDim S50000x10 ![] bcast_S_S50000x10),
    TRef.binary (.of main_v97) main_call2.v0 main_call2.v1 maximumf ]

/-- The start of the third message layer: its node table, the sign test of the source index, and the node count. -/
private abbrev st5 : List (HloOp τ sig (Elt F)) :=
  [ binary main_arg0 main_v98 main_v99 (fun a b => concatenate S50000x138 1 [⟨S50000x128, a⟩, ⟨S50000x10, b⟩] concatenates_S50000x128_S50000x10_S50000x138_d1),
    nullary main_c_14 (constantI S_ 32 0#32),
    unary main_c_14 main_v100 (broadcastInDim S800000 ![] bcast_S_S800000),
    binary main_v1 main_v100 main_v101 (cmpi .slt),
    nullary main_c_15 (constantI S_ 32 50000#32) ]

/-- The window is its six stretches in order. -/
private theorem ops1_stretches :
    (ops1 : List (HloOp τ sig (Elt F))) = st0 ++ (st1 ++ (st2 ++ (st3 ++ (st4 ++ st5)))) := rfl

/-- The fold over the window is the stretches' folds, one after the other. -/
private theorem after_ops1 (V : Valuation τ sig (Elt F)) :
    after ops1 V = after st5 (after st4 (after st3 (after st2 (after st1 (after st0 V))))) := by
  rw [ops1_stretches, after_append, after_append, after_append, after_append, after_append]

/-! ## What the stretches leave alone -/

/-- The buffers read after the first stretch that it does not write. -/
private abbrev carried0 : List (Ref sig .tc) :=
  [main_arg0, main_arg20, main_arg21, main_arg22, main_arg23, main_v1, main_v3, main_v36]

/-- The buffers read in or after a later stretch that none of the later stretches writes. -/
private abbrev carried : List (Ref sig .tc) :=
  [main_arg0, main_arg20, main_arg21, main_arg22, main_arg23, main_v1, main_v3, main_v64]

/-- The buffer each operation of a stretch writes differs from every carried one: which reference is which is decided. -/
private theorem st0_writes : (st0 : List (HloOp τ sig (Elt F))).Forall fun op =>
    ∀ r ∈ carried0, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried0, r ≠ _) r hr)
private theorem st1_writes : (st1 : List (HloOp τ sig (Elt F))).Forall fun op =>
    ∀ r ∈ carried, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried, r ≠ _) r hr)
private theorem st2_writes : (st2 : List (HloOp τ sig (Elt F))).Forall fun op =>
    ∀ r ∈ carried, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried, r ≠ _) r hr)
private theorem st3_writes : (st3 : List (HloOp τ sig (Elt F))).Forall fun op =>
    ∀ r ∈ carried, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried, r ≠ _) r hr)
private theorem st4_writes : (st4 : List (HloOp τ sig (Elt F))).Forall fun op =>
    ∀ r ∈ carried, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried, r ≠ _) r hr)
private theorem st5_writes : (st5 : List (HloOp τ sig (Elt F))).Forall fun op =>
    ∀ r ∈ carried, (Proc.devRef .tc r : DevRef τ sig) ∉ op.writes := by
  simp only [List.Forall, nullary_writes, unary_writes, binary_writes, ternary_writes, Finset.mem_singleton]
  repeat' apply And.intro
  all_goals exact fun r hr => devRef_ne_of_ne ((by decide : ∀ r ∈ carried, r ≠ _) r hr)

/-- A carried buffer holds after a stretch what it held before it. -/
private theorem st0_keep (W : Valuation τ sig (Elt F)) {r : Ref sig .tc} (hr : r ∈ carried0) :
    after st0 W (Proc.devRef .tc r) = W (Proc.devRef .tc r) :=
  after_of_forall_not_mem st0 W fun op h => List.forall_iff_forall_mem.mp st0_writes op h r hr
private theorem st1_keep (W : Valuation τ sig (Elt F)) {r : Ref sig .tc} (hr : r ∈ carried) :
    after st1 W (Proc.devRef .tc r) = W (Proc.devRef .tc r) :=
  after_of_forall_not_mem st1 W fun op h => List.forall_iff_forall_mem.mp st1_writes op h r hr
private theorem st2_keep (W : Valuation τ sig (Elt F)) {r : Ref sig .tc} (hr : r ∈ carried) :
    after st2 W (Proc.devRef .tc r) = W (Proc.devRef .tc r) :=
  after_of_forall_not_mem st2 W fun op h => List.forall_iff_forall_mem.mp st2_writes op h r hr
private theorem st3_keep (W : Valuation τ sig (Elt F)) {r : Ref sig .tc} (hr : r ∈ carried) :
    after st3 W (Proc.devRef .tc r) = W (Proc.devRef .tc r) :=
  after_of_forall_not_mem st3 W fun op h => List.forall_iff_forall_mem.mp st3_writes op h r hr
private theorem st4_keep (W : Valuation τ sig (Elt F)) {r : Ref sig .tc} (hr : r ∈ carried) :
    after st4 W (Proc.devRef .tc r) = W (Proc.devRef .tc r) :=
  after_of_forall_not_mem st4 W fun op h => List.forall_iff_forall_mem.mp st4_writes op h r hr
private theorem st5_keep (W : Valuation τ sig (Elt F)) {r : Ref sig .tc} (hr : r ∈ carried) :
    after st5 W (Proc.devRef .tc r) = W (Proc.devRef .tc r) :=
  after_of_forall_not_mem st5 W fun op h => List.forall_iff_forall_mem.mp st5_writes op h r hr

/-! ## What each stretch writes

Each is read off the stretch's fold: the operations' functions composed over the contents the stretch started from,
which is the stage's definition unfolded as far as the stretch goes. -/

/-- The first stretch leaves the normalised edge features. -/
private theorem st0_v64 (W : Valuation τ sig (Elt F))
    (x6 : (⟨S800000x32, .f32⟩ : BufTy).Contents (Elt F)) (x12 : (⟨S32x32, .f32⟩ : BufTy).Contents (Elt F)) (x13 x17 x18 x19 : (⟨S32, .f32⟩ : BufTy).Contents (Elt F))
    (h48 : W (Proc.devRef .tc main_v48) = ReadP.val_main_v48 (F := F) x6 x12 x13 x19)
    (h51 : W (Proc.devRef .tc main_v51) = ReadP.val_main_v51 (F := F) x6 x12 x13 x19)
    (h17 : W (Proc.devRef .tc main_arg17) = x17) (h18 : W (Proc.devRef .tc main_arg18) = x18) :
    after st0 W (Proc.devRef .tc main_v64) = ReadP.val_main_v64 (F := F) x6 x12 x13 x17 x18 x19 := by
  after_results_simp; rw [h48, h51, h17, h18]; rfl

/-- The second leaves the first layer's gathered node rows. -/
private theorem st1_v72 (W : Valuation τ sig (Elt F))
    (x0 : (⟨S50000x128, .f32⟩ : BufTy).Contents (Elt F)) (x2 : (⟨S2x800000, .i32⟩ : BufTy).Contents (Elt F)) (x8 : (⟨S128x128, .f32⟩ : BufTy).Contents (Elt F)) (x9 : (⟨S128, .f32⟩ : BufTy).Contents (Elt F))
    (x10 : (⟨S128x10, .f32⟩ : BufTy).Contents (Elt F)) (x11 : (⟨S10, .f32⟩ : BufTy).Contents (Elt F)) (x14 x15 x16 : (⟨S128, .f32⟩ : BufTy).Contents (Elt F))
    (h0 : W (Proc.devRef .tc main_arg0) = x0)
    (h36 : W (Proc.devRef .tc main_v36) = ReadP.val_main_v36 (F := F) x0 x8 x9 x10 x11 x14 x15 x16)
    (h1 : W (Proc.devRef .tc main_v1) = ReadP.val_main_v1 (F := F) x2) :
    after st1 W (Proc.devRef .tc main_v72) = ReadP.val_main_v72 (F := F) x0 x2 x8 x9 x10 x11 x14 x15 x16 := by
  after_results_simp; rw [h0, h36, h1]; rfl

/-- The third leaves the first layer's node features. -/
private theorem st2_v81 (W : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F))
    (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 x15 x16 : (⟨S128, .f32⟩ : BufTy).Contents (Elt F)) (x17 x18 x19 : (⟨S32, .f32⟩ : BufTy).Contents (Elt F))
    (x20 : (⟨S170x10, .f32⟩ : BufTy).Contents (Elt F)) (x21 : (⟨S10, .f32⟩ : BufTy).Contents (Elt F))
    (h72 : W (Proc.devRef .tc main_v72) = ReadP.val_main_v72 (F := F) x0 x2 x8 x9 x10 x11 x14 x15 x16)
    (h64 : W (Proc.devRef .tc main_v64) = ReadP.val_main_v64 (F := F) x6 x12 x13 x17 x18 x19)
    (h20 : W (Proc.devRef .tc main_arg20) = x20) (h21 : W (Proc.devRef .tc main_arg21) = x21)
    (h3 : W (Proc.devRef .tc main_v3) = ReadP.val_main_v3 (F := F) x2) :
    after st2 W (Proc.devRef .tc main_v81) = ReadP.val_main_v81 (F := F) x0 x2 x6 x8 x9 x10 x11 x12 x13 x14 x15 x16 x17 x18 x19 x20 x21 := by
  after_results_simp; rw [h72, h64, h20, h21, h3]; rfl

/-- The fourth leaves the second layer's gathered node rows. -/
private theorem st3_v89 (W : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F))
    (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 x15 x16 : (⟨S128, .f32⟩ : BufTy).Contents (Elt F)) (x17 x18 x19 : (⟨S32, .f32⟩ : BufTy).Contents (Elt F))
    (x20 : (⟨S170x10, .f32⟩ : BufTy).Contents (Elt F)) (x21 : (⟨S10, .f32⟩ : BufTy).Contents (Elt F))
    (h0 : W (Proc.devRef .tc main_arg0) = x0)
    (h81 : W (Proc.devRef .tc main_v81) = ReadP.val_main_v81 (F := F) x0 x2 x6 x8 x9 x10 x11 x12 x13 x14 x15 x16 x17 x18 x19 x20 x21)
    (h1 : W (Proc.devRef .tc main_v1) = ReadP.val_main_v1 (F := F) x2) :
    after st3 W (Proc.devRef .tc main_v89) = ReadP.val_main_v89 (F := F) x0 x2 x6 x8 x9 x10 x11 x12 x13 x14 x15 x16 x17 x18 x19 x20 x21 := by
  after_results_simp; rw [h0, h81, h1]; rfl

/-- The fifth leaves the second layer's node features. -/
private theorem st4_v98 (W : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F))
    (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 x15 x16 : (⟨S128, .f32⟩ : BufTy).Contents (Elt F)) (x17 x18 x19 : (⟨S32, .f32⟩ : BufTy).Contents (Elt F))
    (x20 : (⟨S170x10, .f32⟩ : BufTy).Contents (Elt F)) (x21 : (⟨S10, .f32⟩ : BufTy).Contents (Elt F)) (x22 : (⟨S170x10, .f32⟩ : BufTy).Contents (Elt F)) (x23 : (⟨S10, .f32⟩ : BufTy).Contents (Elt F))
    (h89 : W (Proc.devRef .tc main_v89) = ReadP.val_main_v89 (F := F) x0 x2 x6 x8 x9 x10 x11 x12 x13 x14 x15 x16 x17 x18 x19 x20 x21)
    (h64 : W (Proc.devRef .tc main_v64) = ReadP.val_main_v64 (F := F) x6 x12 x13 x17 x18 x19)
    (h22 : W (Proc.devRef .tc main_arg22) = x22) (h23 : W (Proc.devRef .tc main_arg23) = x23)
    (h3 : W (Proc.devRef .tc main_v3) = ReadP.val_main_v3 (F := F) x2) :
    after st4 W (Proc.devRef .tc main_v98) = ReadP.val_main_v98 (F := F) x0 x2 x6 x8 x9 x10 x11 x12 x13 x14 x15 x16 x17 x18 x19 x20 x21 x22 x23 := by
  after_results_simp; rw [h89, h64, h22, h23, h3]; rfl

/-- The last leaves the third layer's node table, -/
private theorem st5_v99 (W : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F))
    (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 x15 x16 : (⟨S128, .f32⟩ : BufTy).Contents (Elt F)) (x17 x18 x19 : (⟨S32, .f32⟩ : BufTy).Contents (Elt F))
    (x20 : (⟨S170x10, .f32⟩ : BufTy).Contents (Elt F)) (x21 : (⟨S10, .f32⟩ : BufTy).Contents (Elt F)) (x22 : (⟨S170x10, .f32⟩ : BufTy).Contents (Elt F)) (x23 : (⟨S10, .f32⟩ : BufTy).Contents (Elt F))
    (h0 : W (Proc.devRef .tc main_arg0) = x0)
    (h98 : W (Proc.devRef .tc main_v98) = ReadP.val_main_v98 (F := F) x0 x2 x6 x8 x9 x10 x11 x12 x13 x14 x15 x16 x17 x18 x19 x20 x21 x22 x23) :
    after st5 W (Proc.devRef .tc main_v99) = ReadP.val_main_v99 (F := F) x0 x2 x6 x8 x9 x10 x11 x12 x13 x14 x15 x16 x17 x18 x19 x20 x21 x22 x23 := by
  after_results_simp; rw [h0, h98]; rfl

/-- the sign test of the source index, -/
private theorem st5_v101 (W : Valuation τ sig (Elt F)) (x2 : (⟨S2x800000, .i32⟩ : BufTy).Contents (Elt F))
    (h1 : W (Proc.devRef .tc main_v1) = ReadP.val_main_v1 (F := F) x2) :
    after st5 W (Proc.devRef .tc main_v101) = ReadP.val_main_v101 (F := F) x2 := by
  after_results_simp; rw [h1]; rfl

/-- and the node count. -/
private theorem st5_c_15 (W : Valuation τ sig (Elt F)) :
    after st5 W (Proc.devRef .tc main_c_15) = ReadP.val_main_c_15 (F := F) := by
  after_results_simp; rfl

/-! ## The window -/

theorem chunk1 (V : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x8 : (⟨S128x128, .f32⟩ : BufTy).Contents (Elt F)) (x9 : (⟨S128, .f32⟩ : BufTy).Contents (Elt F)) (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S32, .f32⟩ : BufTy).Contents (Elt F)) (x18 : (⟨S32, .f32⟩ : BufTy).Contents (Elt F)) (x19 : (⟨S32, .f32⟩ : BufTy).Contents (Elt F)) (x20 : (⟨S170x10, .f32⟩ : BufTy).Contents (Elt F)) (x21 : (⟨S10, .f32⟩ : BufTy).Contents (Elt F)) (x22 : (⟨S170x10, .f32⟩ : BufTy).Contents (Elt F)) (x23 : (⟨S10, .f32⟩ : BufTy).Contents (Elt F))
    (ha0 : V (Proc.devRef .tc main_arg0) = x0)
    (ha17 : V (Proc.devRef .tc main_arg17) = x17)
    (ha18 : V (Proc.devRef .tc main_arg18) = x18)
    (ha20 : V (Proc.devRef .tc main_arg20) = x20)
    (ha21 : V (Proc.devRef .tc main_arg21) = x21)
    (ha22 : V (Proc.devRef .tc main_arg22) = x22)
    (ha23 : V (Proc.devRef .tc main_arg23) = x23)
    (h_v1 : V (Proc.devRef .tc main_v1) = Cert.ReferenceIdeal.ReadP.val_main_v1 (F := F) x2)
    (h_v3 : V (Proc.devRef .tc main_v3) = Cert.ReferenceIdeal.ReadP.val_main_v3 (F := F) x2)
    (h_v36 : V (Proc.devRef .tc main_v36) = Cert.ReferenceIdeal.ReadP.val_main_v36 (F := F) x0 x8 x9 x10 x11 x14 x15 x16)
    (h_v48 : V (Proc.devRef .tc main_v48) = Cert.ReferenceIdeal.ReadP.val_main_v48 (F := F) x6 x12 x13 x19)
    (h_v51 : V (Proc.devRef .tc main_v51) = Cert.ReferenceIdeal.ReadP.val_main_v51 (F := F) x6 x12 x13 x19) :
    after ops1 V (Proc.devRef .tc main_c_15) = Cert.ReferenceIdeal.ReadP.val_main_c_15 (F := F)
    ∧ after ops1 V (Proc.devRef .tc main_v1) = Cert.ReferenceIdeal.ReadP.val_main_v1 (F := F) x2
    ∧ after ops1 V (Proc.devRef .tc main_v3) = Cert.ReferenceIdeal.ReadP.val_main_v3 (F := F) x2
    ∧ after ops1 V (Proc.devRef .tc main_v64) = Cert.ReferenceIdeal.ReadP.val_main_v64 (F := F) x6 x12 x13 x17 x18 x19
    ∧ after ops1 V (Proc.devRef .tc main_v99) = Cert.ReferenceIdeal.ReadP.val_main_v99 (F := F) x0 x2 x6 x8 x9 x10 x11 x12 x13 x14 x15 x16 x17 x18 x19 x20 x21 x22 x23
    ∧ after ops1 V (Proc.devRef .tc main_v101) = Cert.ReferenceIdeal.ReadP.val_main_v101 (F := F) x2 := by
  rw [after_ops1]
  -- the contents between the stretches
  generalize hW1 : after st0 V = W1
  generalize hW2 : after st1 W1 = W2
  generalize hW3 : after st2 W2 = W3
  generalize hW4 : after st3 W3 = W4
  generalize hW5 : after st4 W4 = W5
  -- a carried buffer holds throughout what it held after the first stretch, and before it if that does not write it
  have k1 : ∀ {r : Ref sig .tc}, r ∈ carried0 → W1 (Proc.devRef .tc r) = V (Proc.devRef .tc r) :=
    fun hr => by rw [← hW1]; exact st0_keep V hr
  have k2 : ∀ {r : Ref sig .tc}, r ∈ carried → W2 (Proc.devRef .tc r) = W1 (Proc.devRef .tc r) :=
    fun hr => by rw [← hW2]; exact st1_keep W1 hr
  have k3 : ∀ {r : Ref sig .tc}, r ∈ carried → W3 (Proc.devRef .tc r) = W1 (Proc.devRef .tc r) :=
    fun hr => by rw [← hW3]; exact (st2_keep W2 hr).trans (k2 hr)
  have k4 : ∀ {r : Ref sig .tc}, r ∈ carried → W4 (Proc.devRef .tc r) = W1 (Proc.devRef .tc r) :=
    fun hr => by rw [← hW4]; exact (st3_keep W3 hr).trans (k3 hr)
  have k5 : ∀ {r : Ref sig .tc}, r ∈ carried → W5 (Proc.devRef .tc r) = W1 (Proc.devRef .tc r) :=
    fun hr => by rw [← hW5]; exact (st4_keep W4 hr).trans (k4 hr)
  have k6 : ∀ {r : Ref sig .tc}, r ∈ carried → after st5 W5 (Proc.devRef .tc r) = W1 (Proc.devRef .tc r) :=
    fun hr => (st5_keep W5 hr).trans (k5 hr)
  -- after the first stretch
  have b0 : W1 (Proc.devRef .tc main_arg0) = x0 := (k1 (by decide)).trans ha0
  have b1 : W1 (Proc.devRef .tc main_v1) = ReadP.val_main_v1 (F := F) x2 := (k1 (by decide)).trans h_v1
  have b3 : W1 (Proc.devRef .tc main_v3) = ReadP.val_main_v3 (F := F) x2 := (k1 (by decide)).trans h_v3
  have b64 : W1 (Proc.devRef .tc main_v64) = ReadP.val_main_v64 (F := F) x6 x12 x13 x17 x18 x19 := by
    rw [← hW1]; exact st0_v64 V x6 x12 x13 x17 x18 x19 h_v48 h_v51 ha17 ha18
  -- the first message layer
  have b72 : W2 (Proc.devRef .tc main_v72) = ReadP.val_main_v72 (F := F) x0 x2 x8 x9 x10 x11 x14 x15 x16 := by
    rw [← hW2]; exact st1_v72 W1 x0 x2 x8 x9 x10 x11 x14 x15 x16 b0 ((k1 (by decide)).trans h_v36) b1
  have b81 : W3 (Proc.devRef .tc main_v81) = ReadP.val_main_v81 (F := F) x0 x2 x6 x8 x9 x10 x11 x12 x13 x14 x15 x16 x17 x18 x19 x20 x21 := by
    rw [← hW3]
    exact st2_v81 W2 x0 x2 x6 x8 x9 x10 x11 x12 x13 x14 x15 x16 x17 x18 x19 x20 x21 b72 ((k2 (by decide)).trans b64)
      ((k2 (by decide)).trans ((k1 (by decide)).trans ha20)) ((k2 (by decide)).trans ((k1 (by decide)).trans ha21))
      ((k2 (by decide)).trans b3)
  -- the second
  have b89 : W4 (Proc.devRef .tc main_v89) = ReadP.val_main_v89 (F := F) x0 x2 x6 x8 x9 x10 x11 x12 x13 x14 x15 x16 x17 x18 x19 x20 x21 := by
    rw [← hW4]; exact st3_v89 W3 x0 x2 x6 x8 x9 x10 x11 x12 x13 x14 x15 x16 x17 x18 x19 x20 x21 ((k3 (by decide)).trans b0) b81 ((k3 (by decide)).trans b1)
  have b98 : W5 (Proc.devRef .tc main_v98) = ReadP.val_main_v98 (F := F) x0 x2 x6 x8 x9 x10 x11 x12 x13 x14 x15 x16 x17 x18 x19 x20 x21 x22 x23 := by
    rw [← hW5]
    exact st4_v98 W4 x0 x2 x6 x8 x9 x10 x11 x12 x13 x14 x15 x16 x17 x18 x19 x20 x21 x22 x23 b89 ((k4 (by decide)).trans b64)
      ((k4 (by decide)).trans ((k1 (by decide)).trans ha22)) ((k4 (by decide)).trans ((k1 (by decide)).trans ha23))
      ((k4 (by decide)).trans b3)
  -- the start of the third, and what is carried out of the window
  exact ⟨st5_c_15 W5, (k6 (by decide)).trans b1, (k6 (by decide)).trans b3, (k6 (by decide)).trans b64,
    st5_v99 W5 x0 x2 x6 x8 x9 x10 x11 x12 x13 x14 x15 x16 x17 x18 x19 x20 x21 x22 x23 ((k5 (by decide)).trans b0) b98, st5_v101 W5 x2 ((k5 (by decide)).trans b1)⟩

/-! No operation of these statements writes an argument array. -/

theorem keep1_arg0 (V : Valuation τ sig (Elt F)) :
    after ops1 V (Proc.devRef .tc main_arg0) = V (Proc.devRef .tc main_arg0) := by
  exact after_of_forall_not_mem ops1 V fun op h => List.forall_iff_forall_mem.mp ops1_writes op h main_arg0 (by decide)

theorem keep1_arg7 (V : Valuation τ sig (Elt F)) :
    after ops1 V (Proc.devRef .tc main_arg7) = V (Proc.devRef .tc main_arg7) := by
  exact after_of_forall_not_mem ops1 V fun op h => List.forall_iff_forall_mem.mp ops1_writes op h main_arg7 (by decide)

theorem keep1_arg24 (V : Valuation τ sig (Elt F)) :
    after ops1 V (Proc.devRef .tc main_arg24) = V (Proc.devRef .tc main_arg24) := by
  exact after_of_forall_not_mem ops1 V fun op h => List.forall_iff_forall_mem.mp ops1_writes op h main_arg24 (by decide)

theorem keep1_arg25 (V : Valuation τ sig (Elt F)) :
    after ops1 V (Proc.devRef .tc main_arg25) = V (Proc.devRef .tc main_arg25) := by
  exact after_of_forall_not_mem ops1 V fun op h => List.forall_iff_forall_mem.mp ops1_writes op h main_arg25 (by decide)

theorem keep1_arg26 (V : Valuation τ sig (Elt F)) :
    after ops1 V (Proc.devRef .tc main_arg26) = V (Proc.devRef .tc main_arg26) := by
  exact after_of_forall_not_mem ops1 V fun op h => List.forall_iff_forall_mem.mp ops1_writes op h main_arg26 (by decide)

theorem keep1_arg27 (V : Valuation τ sig (Elt F)) :
    after ops1 V (Proc.devRef .tc main_arg27) = V (Proc.devRef .tc main_arg27) := by
  exact after_of_forall_not_mem ops1 V fun op h => List.forall_iff_forall_mem.mp ops1_writes op h main_arg27 (by decide)

theorem keep1_arg28 (V : Valuation τ sig (Elt F)) :
    after ops1 V (Proc.devRef .tc main_arg28) = V (Proc.devRef .tc main_arg28) := by
  exact after_of_forall_not_mem ops1 V fun op h => List.forall_iff_forall_mem.mp ops1_writes op h main_arg28 (by decide)

theorem keep1_arg29 (V : Valuation τ sig (Elt F)) :
    after ops1 V (Proc.devRef .tc main_arg29) = V (Proc.devRef .tc main_arg29) := by
  exact after_of_forall_not_mem ops1 V fun op h => List.forall_iff_forall_mem.mp ops1_writes op h main_arg29 (by decide)

end Cert.ReferenceIdeal.RunP

end
-- ==== Proof.RefChunk2.lean ====
/-
  The last sixty-two statements: message layers 3 and 4, the last linear layer, the lookup of the picked rows and the softmax.
  From any contents of the buffers in which the arguments these statements read hold given arrays, and every buffer
  written earlier and read here holds its stage of the arguments, the buffers written here and read later hold theirs.
-/
import proofs.«423839_j69329362092378_2_alg».proof.Proof.RefOps
import proofs.«423839_j69329362092378_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The third window in six stretches

The window's sixty-four statements are one chain: each message layer looks the sender's row up, joins the
edge's features to it, applies a linear map and a bias, adds the edges' rows into their receivers' rows
and clips at zero; the last linear layer, the lookup of the picked rows and the softmax follow. The chain
is cut where a joined array or a lookup starts from values already there, so that inside a stretch every
joined array is built from contents the stretch is given. -/

/-- The sender index of every edge wrapped into range (fifty thousand added where it is negative), and the
    third layer's node rows looked up at it. -/
private abbrev sa : List (HloOp τ sig (Elt F)) :=
  [ unary main_c_15 main_v102 (broadcastInDim S800000 ![] bcast_S_S800000),
    binary main_v1 main_v102 main_v103 addi,
    ternary main_v101 main_v103 main_v1 main_v104 select,
    unary main_v104 main_v105 (broadcastInDim S800000x1 ![0] bcast_S800000_S800000x1_0),
    binary main_v99 main_v105 main_v106 (fun x i => Host.gather gather_S50000x138_S800000x1_S800000x138_1_0_n_n_0_1_1138 x i) ]

/-- The third message layer: the edge's features joined to the sender's row, the linear map and its bias,
    the edges' rows added into their receivers' rows of a zero array, and the clip at zero. -/
private abbrev sb : List (HloOp τ sig (Elt F)) :=
  [ binary main_v106 main_v64 main_v107 (fun a b => concatenate S800000x170 1 [⟨S800000x138, a⟩, ⟨S800000x32, b⟩] concatenates_S800000x138_S800000x32_S800000x170_d1),
    binary main_v107 main_arg24 main_v108 (fun l r => Host.dotGeneral dot_S800000x170_S170x10_S800000x10_1_0_0_1_n_n none l r),
    unary main_arg25 main_v109 (broadcastInDim S1x10 ![1] bcast_S10_S1x10_1),
    unary main_v109 main_v110 (broadcastInDim S800000x10 ![0, 1] bcast_S1x10_S800000x10_0_1),
    binary main_v108 main_v110 main_v111 addf,
    nullary main_cst_16 (constant S_ .f32 0x00000000#32),
    unary main_cst_16 main_v112 (broadcastInDim S50000x10 ![] bcast_S_S50000x10),
    unary main_v3 main_v113 (broadcastInDim S800000x1 ![0] bcast_S800000_S800000x1_0),
    ternary main_v112 main_v113 main_v111 main_v114 (fun x i u => Host.scatterAdd scatter_S50000x10_S800000x1_S800000x10_1_0_0_1 x i u),
    TRef.nullary main_call3.cst (constant S_ .f32 0x00000000#32),
    TRef.unary main_call3.cst main_call3.v0 (broadcastInDim S50000x10 ![] bcast_S_S50000x10),
    TRef.binary (.of main_v114) main_call3.v0 main_call3.v1 maximumf ]

/-- The node features joined to the third layer's result, the sender index wrapped into range again (the
    comparison with zero is made anew here), and the joined rows looked up at it. -/
private abbrev sc : List (HloOp τ sig (Elt F)) :=
  [ binary main_arg0 main_v115 main_v116 (fun a b => concatenate S50000x138 1 [⟨S50000x128, a⟩, ⟨S50000x10, b⟩] concatenates_S50000x128_S50000x10_S50000x138_d1),
    nullary main_c_17 (constantI S_ 32 0#32),
    unary main_c_17 main_v117 (broadcastInDim S800000 ![] bcast_S_S800000),
    binary main_v1 main_v117 main_v118 (cmpi .slt),
    nullary main_c_18 (constantI S_ 32 50000#32),
    unary main_c_18 main_v119 (broadcastInDim S800000 ![] bcast_S_S800000),
    binary main_v1 main_v119 main_v120 addi,
    ternary main_v118 main_v120 main_v1 main_v121 select,
    unary main_v121 main_v122 (broadcastInDim S800000x1 ![0] bcast_S800000_S800000x1_0),
    binary main_v116 main_v122 main_v123 (fun x i => Host.gather gather_S50000x138_S800000x1_S800000x138_1_0_n_n_0_1_1138 x i) ]

/-- The fourth message layer, as the third. -/
private abbrev sd : List (HloOp τ sig (Elt F)) :=
  [ binary main_v123 main_v64 main_v124 (fun a b => concatenate S800000x170 1 [⟨S800000x138, a⟩, ⟨S800000x32, b⟩] concatenates_S800000x138_S800000x32_S800000x170_d1),
    binary main_v124 main_arg26 main_v125 (fun l r => Host.dotGeneral dot_S800000x170_S170x10_S800000x10_1_0_0_1_n_n none l r),
    unary main_arg27 main_v126 (broadcastInDim S1x10 ![1] bcast_S10_S1x10_1),
    unary main_v126 main_v127 (broadcastInDim S800000x10 ![0, 1] bcast_S1x10_S800000x10_0_1),
    binary main_v125 main_v127 main_v128 addf,
    nullary main_cst_19 (constant S_ .f32 0x00000000#32),
    unary main_cst_19 main_v129 (broadcastInDim S50000x10 ![] bcast_S_S50000x10),
    unary main_v3 main_v130 (broadcastInDim S800000x1 ![0] bcast_S800000_S800000x1_0),
    ternary main_v129 main_v130 main_v128 main_v131 (fun x i u => Host.scatterAdd scatter_S50000x10_S800000x1_S800000x10_1_0_0_1 x i u),
    TRef.nullary main_call4.cst (constant S_ .f32 0x00000000#32),
    TRef.unary main_call4.cst main_call4.v0 (broadcastInDim S50000x10 ![] bcast_S_S50000x10),
    TRef.binary (.of main_v131) main_call4.v0 main_call4.v1 maximumf ]

/-- The last linear layer (two columns) and its bias, the picked node index wrapped into range, and the
    picked rows looked up. -/
private abbrev se : List (HloOp τ sig (Elt F)) :=
  [ binary main_v132 main_arg28 main_v133 (fun l r => Host.dotGeneral dot_S50000x10_S10x2_S50000x2_1_0_0_1_n_n none l r),
    unary main_arg29 main_v134 (broadcastInDim S1x2 ![1] bcast_S2_S1x2_1),
    unary main_v134 main_v135 (broadcastInDim S50000x2 ![0, 1] bcast_S1x2_S50000x2_0_1),
    binary main_v133 main_v135 main_v136 addf,
    nullary main_c_20 (constantI S_ 32 0#32),
    unary main_c_20 main_v137 (broadcastInDim S20000 ![] bcast_S_S20000),
    binary main_arg7 main_v137 main_v138 (cmpi .slt),
    nullary main_c_21 (constantI S_ 32 50000#32),
    unary main_c_21 main_v139 (broadcastInDim S20000 ![] bcast_S_S20000),
    binary main_arg7 main_v139 main_v140 addi,
    ternary main_v138 main_v140 main_arg7 main_v141 select,
    unary main_v141 main_v142 (broadcastInDim S20000x1 ![0] bcast_S20000_S20000x1_0),
    binary main_v136 main_v142 main_v143 (fun x i => Host.gather gather_S50000x2_S20000x1_S20000x2_1_0_n_n_0_1_12 x i) ]

/-- The softmax up to its denominator: each picked row's maximum, the row less its maximum, the
    exponential, and the row sums as a column. -/
private abbrev sf : List (HloOp τ sig (Elt F)) :=
  [ nullary main_cst_22 (constant S_ .f32 0xFF800000#32),
    binary main_v143 main_cst_22 main_v144 (fun x v => Host.reduce FloatOps.maximumf x v reducesTo_S20000x2_S20000_d1 h_S_),
    nullary main_cst_23 (constant S_ .f32 0xFF800000#32),
    unary main_cst_23 main_v145 (broadcastInDim S20000 ![] bcast_S_S20000),
    binary main_v145 main_v144 main_v146 maximumf,
    unary main_v146 main_v147 (broadcastInDim S20000x1 ![0] bcast_S20000_S20000x1_0),
    unary main_v147 main_v148 (broadcastInDim S20000x2 ![0, 1] bcast_S20000x1_S20000x2_0_1),
    binary main_v143 main_v148 main_v149 subf,
    unary main_v149 main_v150 Host.exp,
    nullary main_cst_24 (constant S_ .f32 0x00000000#32),
    binary main_v150 main_cst_24 main_v151 (fun x v => Host.reduceAdd x v reducesTo_S20000x2_S20000_d1 h_S_),
    unary main_v151 main_v152 (broadcastInDim S20000x1 ![0] bcast_S20000_S20000x1_0) ]

/-- The window is the six stretches in a row. -/
private theorem ops2_cut : (ops2 : List (HloOp τ sig (Elt F))) = sa ++ (sb ++ (sc ++ (sd ++ (se ++ sf)))) := rfl

/-! ## What a stretch leaves alone

A stretch writes only the buffers of its own statements; any other reference holds afterwards what it held
before. Later stretches read the arguments, the two rows of the edge table and the normalised edge features
across the earlier ones by these. -/

private theorem keep_a (W : Valuation τ sig (Elt F)) {r : Ref sig .tc}
    (hr : r ∉ [main_v102, main_v103, main_v104, main_v105, main_v106]) :
    after sa W (Proc.devRef .tc r) = W (Proc.devRef .tc r) :=
  after_of_forall_not_mem (b := Proc.devRef .tc r) sa W (List.forall_iff_forall_mem.mp (by
    simp only [sa, List.Forall, nullary_writes, unary_writes, binary_writes, ternary_writes, Finset.mem_singleton]
    repeat' apply And.intro
    all_goals exact devRef_ne_of_ne (fun h => hr (by subst h; decide))))

private theorem keep_b (W : Valuation τ sig (Elt F)) {r : Ref sig .tc}
    (hr : r ∉ [main_v107, main_v108, main_v109, main_v110, main_v111, main_cst_16, main_v112, main_v113, main_v114,
      main_call3_cst, main_call3_v0, main_v115]) :
    after sb W (Proc.devRef .tc r) = W (Proc.devRef .tc r) :=
  after_of_forall_not_mem (b := Proc.devRef .tc r) sb W (List.forall_iff_forall_mem.mp (by
    simp only [sb, List.Forall, nullary_writes, unary_writes, binary_writes, ternary_writes, Finset.mem_singleton]
    repeat' apply And.intro
    all_goals exact devRef_ne_of_ne (fun h => hr (by subst h; decide))))

private theorem keep_c (W : Valuation τ sig (Elt F)) {r : Ref sig .tc}
    (hr : r ∉ [main_v116, main_c_17, main_v117, main_v118, main_c_18, main_v119, main_v120, main_v121, main_v122,
      main_v123]) :
    after sc W (Proc.devRef .tc r) = W (Proc.devRef .tc r) :=
  after_of_forall_not_mem (b := Proc.devRef .tc r) sc W (List.forall_iff_forall_mem.mp (by
    simp only [sc, List.Forall, nullary_writes, unary_writes, binary_writes, ternary_writes, Finset.mem_singleton]
    repeat' apply And.intro
    all_goals exact devRef_ne_of_ne (fun h => hr (by subst h; decide))))

private theorem keep_d (W : Valuation τ sig (Elt F)) {r : Ref sig .tc}
    (hr : r ∉ [main_v124, main_v125, main_v126, main_v127, main_v128, main_cst_19, main_v129, main_v130, main_v131,
      main_call4_cst, main_call4_v0, main_v132]) :
    after sd W (Proc.devRef .tc r) = W (Proc.devRef .tc r) :=
  after_of_forall_not_mem (b := Proc.devRef .tc r) sd W (List.forall_iff_forall_mem.mp (by
    simp only [sd, List.Forall, nullary_writes, unary_writes, binary_writes, ternary_writes, Finset.mem_singleton]
    repeat' apply And.intro
    all_goals exact devRef_ne_of_ne (fun h => hr (by subst h; decide))))

/-! ## What a stretch writes

From contents in which the buffers a stretch reads hold their stages of the arguments, the buffer a later
stretch reads holds its stage: the statements' functions applied in order are that stage's definition,
opened one level at a time. -/

section Stretches

variable {x0 : (⟨S50000x128, .f32⟩ : BufTy).Contents (Elt F)} {x2 : (⟨S2x800000, .i32⟩ : BufTy).Contents (Elt F)}
  {x6 : (⟨S800000x32, .f32⟩ : BufTy).Contents (Elt F)} {x7 : (⟨S20000, .i32⟩ : BufTy).Contents (Elt F)}
  {x8 : (⟨S128x128, .f32⟩ : BufTy).Contents (Elt F)} {x9 : (⟨S128, .f32⟩ : BufTy).Contents (Elt F)}
  {x10 : (⟨S128x10, .f32⟩ : BufTy).Contents (Elt F)} {x11 : (⟨S10, .f32⟩ : BufTy).Contents (Elt F)}
  {x12 : (⟨S32x32, .f32⟩ : BufTy).Contents (Elt F)} {x13 : (⟨S32, .f32⟩ : BufTy).Contents (Elt F)}
  {x14 x15 x16 : (⟨S128, .f32⟩ : BufTy).Contents (Elt F)} {x17 x18 x19 : (⟨S32, .f32⟩ : BufTy).Contents (Elt F)}
  {x20 : (⟨S170x10, .f32⟩ : BufTy).Contents (Elt F)} {x21 : (⟨S10, .f32⟩ : BufTy).Contents (Elt F)}
  {x22 : (⟨S170x10, .f32⟩ : BufTy).Contents (Elt F)} {x23 : (⟨S10, .f32⟩ : BufTy).Contents (Elt F)}
  {x24 : (⟨S170x10, .f32⟩ : BufTy).Contents (Elt F)} {x25 : (⟨S10, .f32⟩ : BufTy).Contents (Elt F)}
  {x26 : (⟨S170x10, .f32⟩ : BufTy).Contents (Elt F)} {x27 : (⟨S10, .f32⟩ : BufTy).Contents (Elt F)}
  {x28 : (⟨S10x2, .f32⟩ : BufTy).Contents (Elt F)} {x29 : (⟨S2, .f32⟩ : BufTy).Contents (Elt F)}

private theorem sa_v106 (W : Valuation τ sig (Elt F))
    (hc : W (Proc.devRef .tc main_c_15) = ReadP.val_main_c_15 (F := F))
    (h1 : W (Proc.devRef .tc main_v1) = ReadP.val_main_v1 (F := F) x2)
    (h101 : W (Proc.devRef .tc main_v101) = ReadP.val_main_v101 (F := F) x2)
    (h99 : W (Proc.devRef .tc main_v99) = ReadP.val_main_v99 (F := F) x0 x2 x6 x8 x9 x10 x11 x12 x13 x14 x15 x16 x17 x18 x19 x20 x21 x22 x23) :
    after sa W (Proc.devRef .tc main_v106) = ReadP.val_main_v106 (F := F) x0 x2 x6 x8 x9 x10 x11 x12 x13 x14 x15 x16 x17 x18 x19 x20 x21 x22 x23 := by
  after_results
  rw [hc, h1, h101, h99]
  rfl

private theorem sb_v115 (W : Valuation τ sig (Elt F))
    (h106 : W (Proc.devRef .tc main_v106) = ReadP.val_main_v106 (F := F) x0 x2 x6 x8 x9 x10 x11 x12 x13 x14 x15 x16 x17 x18 x19 x20 x21 x22 x23)
    (h64 : W (Proc.devRef .tc main_v64) = ReadP.val_main_v64 (F := F) x6 x12 x13 x17 x18 x19)
    (h3 : W (Proc.devRef .tc main_v3) = ReadP.val_main_v3 (F := F) x2)
    (ha24 : W (Proc.devRef .tc main_arg24) = x24)
    (ha25 : W (Proc.devRef .tc main_arg25) = x25) :
    after sb W (Proc.devRef .tc main_v115) = ReadP.val_main_v115 (F := F) x0 x2 x6 x8 x9 x10 x11 x12 x13 x14 x15 x16 x17 x18 x19 x20 x21 x22 x23 x24 x25 := by
  after_results
  rw [h106, h64, h3, ha24, ha25]
  rfl

private theorem sc_v123 (W : Valuation τ sig (Elt F))
    (h115 : W (Proc.devRef .tc main_v115) = ReadP.val_main_v115 (F := F) x0 x2 x6 x8 x9 x10 x11 x12 x13 x14 x15 x16 x17 x18 x19 x20 x21 x22 x23 x24 x25)
    (h1 : W (Proc.devRef .tc main_v1) = ReadP.val_main_v1 (F := F) x2)
    (ha0 : W (Proc.devRef .tc main_arg0) = x0) :
    after sc W (Proc.devRef .tc main_v123) = ReadP.val_main_v123 (F := F) x0 x2 x6 x8 x9 x10 x11 x12 x13 x14 x15 x16 x17 x18 x19 x20 x21 x22 x23 x24 x25 := by
  after_results
  rw [h115, h1, ha0]
  rfl

private theorem sd_v132 (W : Valuation τ sig (Elt F))
    (h123 : W (Proc.devRef .tc main_v123) = ReadP.val_main_v123 (F := F) x0 x2 x6 x8 x9 x10 x11 x12 x13 x14 x15 x16 x17 x18 x19 x20 x21 x22 x23 x24 x25)
    (h64 : W (Proc.devRef .tc main_v64) = ReadP.val_main_v64 (F := F) x6 x12 x13 x17 x18 x19)
    (h3 : W (Proc.devRef .tc main_v3) = ReadP.val_main_v3 (F := F) x2)
    (ha26 : W (Proc.devRef .tc main_arg26) = x26)
    (ha27 : W (Proc.devRef .tc main_arg27) = x27) :
    after sd W (Proc.devRef .tc main_v132) = ReadP.val_main_v132 (F := F) x0 x2 x6 x8 x9 x10 x11 x12 x13 x14 x15 x16 x17 x18 x19 x20 x21 x22 x23 x24 x25 x26 x27 := by
  after_results
  rw [h123, h64, h3, ha26, ha27]
  rfl

private theorem se_v143 (W : Valuation τ sig (Elt F))
    (h132 : W (Proc.devRef .tc main_v132) = ReadP.val_main_v132 (F := F) x0 x2 x6 x8 x9 x10 x11 x12 x13 x14 x15 x16 x17 x18 x19 x20 x21 x22 x23 x24 x25 x26 x27)
    (ha28 : W (Proc.devRef .tc main_arg28) = x28)
    (ha29 : W (Proc.devRef .tc main_arg29) = x29)
    (ha7 : W (Proc.devRef .tc main_arg7) = x7) :
    after se W (Proc.devRef .tc main_v143) = ReadP.val_main_v143 (F := F) x0 x2 x6 x7 x8 x9 x10 x11 x12 x13 x14 x15 x16 x17 x18 x19 x20 x21 x22 x23 x24 x25 x26 x27 x28 x29 := by
  after_results
  rw [h132, ha28, ha29, ha7]
  rfl

/-- The softmax's numerator: the picked rows less their row maximum, exponentiated. -/
private theorem sf_v150 (W : Valuation τ sig (Elt F))
    (h143 : W (Proc.devRef .tc main_v143) = ReadP.val_main_v143 (F := F) x0 x2 x6 x7 x8 x9 x10 x11 x12 x13 x14 x15 x16 x17 x18 x19 x20 x21 x22 x23 x24 x25 x26 x27 x28 x29) :
    after sf W (Proc.devRef .tc main_v150) = ReadP.val_main_v150 (F := F) x0 x2 x6 x7 x8 x9 x10 x11 x12 x13 x14 x15 x16 x17 x18 x19 x20 x21 x22 x23 x24 x25 x26 x27 x28 x29 := by
  after_results
  rw [h143]
  rfl

/-- The softmax's denominator, as a column: the numerator's row sums. -/
private theorem sf_v152 (W : Valuation τ sig (Elt F))
    (h143 : W (Proc.devRef .tc main_v143) = ReadP.val_main_v143 (F := F) x0 x2 x6 x7 x8 x9 x10 x11 x12 x13 x14 x15 x16 x17 x18 x19 x20 x21 x22 x23 x24 x25 x26 x27 x28 x29) :
    after sf W (Proc.devRef .tc main_v152) = ReadP.val_main_v152 (F := F) x0 x2 x6 x7 x8 x9 x10 x11 x12 x13 x14 x15 x16 x17 x18 x19 x20 x21 x22 x23 x24 x25 x26 x27 x28 x29 := by
  after_results
  rw [h143]
  rfl

/-- The last window: the quotient of the numerator by the row sums broadcast back. -/
private theorem last_v154 (W : Valuation τ sig (Elt F))
    (h150 : W (Proc.devRef .tc main_v150) = ReadP.val_main_v150 (F := F) x0 x2 x6 x7 x8 x9 x10 x11 x12 x13 x14 x15 x16 x17 x18 x19 x20 x21 x22 x23 x24 x25 x26 x27 x28 x29)
    (h152 : W (Proc.devRef .tc main_v152) = ReadP.val_main_v152 (F := F) x0 x2 x6 x7 x8 x9 x10 x11 x12 x13 x14 x15 x16 x17 x18 x19 x20 x21 x22 x23 x24 x25 x26 x27 x28 x29) :
    after ops3 W (Proc.devRef .tc main_v154) = ReadP.val_main_v154 (F := F) x0 x2 x6 x7 x8 x9 x10 x11 x12 x13 x14 x15 x16 x17 x18 x19 x20 x21 x22 x23 x24 x25 x26 x27 x28 x29 := by
  after_results
  rw [h150, h152]
  rfl

end Stretches

/-! ## The chain

Stretch by stretch: the stage the stretch writes, and the buffers later stretches read carried across it. -/

theorem chunk2 (V : Valuation τ sig (Elt F))
    (x0 : (⟨S50000x128, .f32⟩ : BufTy).Contents (Elt F)) (x2 : (⟨S2x800000, .i32⟩ : BufTy).Contents (Elt F)) (x6 : (⟨S800000x32, .f32⟩ : BufTy).Contents (Elt F)) (x7 : (⟨S20000, .i32⟩ : BufTy).Contents (Elt F)) (x8 : (⟨S128x128, .f32⟩ : BufTy).Contents (Elt F)) (x9 : (⟨S128, .f32⟩ : BufTy).Contents (Elt F)) (x10 : (⟨S128x10, .f32⟩ : BufTy).Contents (Elt F)) (x11 : (⟨S10, .f32⟩ : BufTy).Contents (Elt F)) (x12 : (⟨S32x32, .f32⟩ : BufTy).Contents (Elt F)) (x13 : (⟨S32, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S32, .f32⟩ : BufTy).Contents (Elt F)) (x18 : (⟨S32, .f32⟩ : BufTy).Contents (Elt F)) (x19 : (⟨S32, .f32⟩ : BufTy).Contents (Elt F)) (x20 : (⟨S170x10, .f32⟩ : BufTy).Contents (Elt F)) (x21 : (⟨S10, .f32⟩ : BufTy).Contents (Elt F)) (x22 : (⟨S170x10, .f32⟩ : BufTy).Contents (Elt F)) (x23 : (⟨S10, .f32⟩ : BufTy).Contents (Elt F)) (x24 : (⟨S170x10, .f32⟩ : BufTy).Contents (Elt F)) (x25 : (⟨S10, .f32⟩ : BufTy).Contents (Elt F)) (x26 : (⟨S170x10, .f32⟩ : BufTy).Contents (Elt F)) (x27 : (⟨S10, .f32⟩ : BufTy).Contents (Elt F)) (x28 : (⟨S10x2, .f32⟩ : BufTy).Contents (Elt F)) (x29 : (⟨S2, .f32⟩ : BufTy).Contents (Elt F))
    (ha0 : V (Proc.devRef .tc main_arg0) = x0)
    (ha7 : V (Proc.devRef .tc main_arg7) = x7)
    (ha24 : V (Proc.devRef .tc main_arg24) = x24)
    (ha25 : V (Proc.devRef .tc main_arg25) = x25)
    (ha26 : V (Proc.devRef .tc main_arg26) = x26)
    (ha27 : V (Proc.devRef .tc main_arg27) = x27)
    (ha28 : V (Proc.devRef .tc main_arg28) = x28)
    (ha29 : V (Proc.devRef .tc main_arg29) = x29)
    (h_c_15 : V (Proc.devRef .tc main_c_15) = Cert.ReferenceIdeal.ReadP.val_main_c_15 (F := F))
    (h_v1 : V (Proc.devRef .tc main_v1) = Cert.ReferenceIdeal.ReadP.val_main_v1 (F := F) x2)
    (h_v3 : V (Proc.devRef .tc main_v3) = Cert.ReferenceIdeal.ReadP.val_main_v3 (F := F) x2)
    (h_v64 : V (Proc.devRef .tc main_v64) = Cert.ReferenceIdeal.ReadP.val_main_v64 (F := F) x6 x12 x13 x17 x18 x19)
    (h_v99 : V (Proc.devRef .tc main_v99) = Cert.ReferenceIdeal.ReadP.val_main_v99 (F := F) x0 x2 x6 x8 x9 x10 x11 x12 x13 x14 x15 x16 x17 x18 x19 x20 x21 x22 x23)
    (h_v101 : V (Proc.devRef .tc main_v101) = Cert.ReferenceIdeal.ReadP.val_main_v101 (F := F) x2) :
    after ops3 (after ops2 V) (Proc.devRef .tc main_v154) = Cert.ReferenceIdeal.ReadP.val_main_v154 (F := F) x0 x2 x6 x7 x8 x9 x10 x11 x12 x13 x14 x15 x16 x17 x18 x19 x20 x21 x22 x23 x24 x25 x26 x27 x28 x29 := by
  rw [ops2_cut]
  simp only [after_append]
  -- the sender rows of the third layer
  have h106 := sa_v106 V h_c_15 h_v1 h_v101 h_v99
  replace h_v64 := (keep_a V (r := main_v64) (by decide)).trans h_v64
  replace h_v3 := (keep_a V (r := main_v3) (by decide)).trans h_v3
  replace h_v1 := (keep_a V (r := main_v1) (by decide)).trans h_v1
  replace ha0 := (keep_a V (r := main_arg0) (by decide)).trans ha0
  replace ha7 := (keep_a V (r := main_arg7) (by decide)).trans ha7
  replace ha24 := (keep_a V (r := main_arg24) (by decide)).trans ha24
  replace ha25 := (keep_a V (r := main_arg25) (by decide)).trans ha25
  replace ha26 := (keep_a V (r := main_arg26) (by decide)).trans ha26
  replace ha27 := (keep_a V (r := main_arg27) (by decide)).trans ha27
  replace ha28 := (keep_a V (r := main_arg28) (by decide)).trans ha28
  replace ha29 := (keep_a V (r := main_arg29) (by decide)).trans ha29
  generalize after sa V = W1 at h106 h_v64 h_v3 h_v1 ha0 ha7 ha24 ha25 ha26 ha27 ha28 ha29 ⊢
  -- the third message layer
  have h115 := sb_v115 W1 h106 h_v64 h_v3 ha24 ha25
  replace h_v64 := (keep_b W1 (r := main_v64) (by decide)).trans h_v64
  replace h_v3 := (keep_b W1 (r := main_v3) (by decide)).trans h_v3
  replace h_v1 := (keep_b W1 (r := main_v1) (by decide)).trans h_v1
  replace ha0 := (keep_b W1 (r := main_arg0) (by decide)).trans ha0
  replace ha7 := (keep_b W1 (r := main_arg7) (by decide)).trans ha7
  replace ha26 := (keep_b W1 (r := main_arg26) (by decide)).trans ha26
  replace ha27 := (keep_b W1 (r := main_arg27) (by decide)).trans ha27
  replace ha28 := (keep_b W1 (r := main_arg28) (by decide)).trans ha28
  replace ha29 := (keep_b W1 (r := main_arg29) (by decide)).trans ha29
  generalize after sb W1 = W2 at h115 h_v64 h_v3 h_v1 ha0 ha7 ha26 ha27 ha28 ha29 ⊢
  -- the sender rows of the fourth layer
  have h123 := sc_v123 W2 h115 h_v1 ha0
  replace h_v64 := (keep_c W2 (r := main_v64) (by decide)).trans h_v64
  replace h_v3 := (keep_c W2 (r := main_v3) (by decide)).trans h_v3
  replace ha7 := (keep_c W2 (r := main_arg7) (by decide)).trans ha7
  replace ha26 := (keep_c W2 (r := main_arg26) (by decide)).trans ha26
  replace ha27 := (keep_c W2 (r := main_arg27) (by decide)).trans ha27
  replace ha28 := (keep_c W2 (r := main_arg28) (by decide)).trans ha28
  replace ha29 := (keep_c W2 (r := main_arg29) (by decide)).trans ha29
  generalize after sc W2 = W3 at h123 h_v64 h_v3 ha7 ha26 ha27 ha28 ha29 ⊢
  -- the fourth message layer
  have h132 := sd_v132 W3 h123 h_v64 h_v3 ha26 ha27
  replace ha7 := (keep_d W3 (r := main_arg7) (by decide)).trans ha7
  replace ha28 := (keep_d W3 (r := main_arg28) (by decide)).trans ha28
  replace ha29 := (keep_d W3 (r := main_arg29) (by decide)).trans ha29
  generalize after sd W3 = W4 at h132 ha7 ha28 ha29 ⊢
  -- the last linear layer and the picked rows, then the softmax
  have h143 := se_v143 W4 h132 ha28 ha29 ha7
  exact last_v154 _ (sf_v150 _ h143) (sf_v152 _ h143)

end Cert.ReferenceIdeal.RunP

end
-- ==== Proof.RefRun.lean ====
/-
  The reference program's run: every weakly fair execution of its 192 host operations terminates with the result
  array at the last stage of the reference's chain, as a function of the launch contents of the argument arrays, and
  with every argument array as launched.
-/
import proofs.«423839_j69329362092378_2_alg».proof.Proof.RefRead
import proofs.«423839_j69329362092378_2_alg».proof.Proof.RefOps
import proofs.«423839_j69329362092378_2_alg».proof.Proof.RefChunk0
import proofs.«423839_j69329362092378_2_alg».proof.Proof.RefChunk1
import proofs.«423839_j69329362092378_2_alg».proof.Proof.RefChunk2

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: the result is the last stage of the arguments, and the
    arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154) =
        Cert.ReferenceIdeal.ReadP.val_main_v154 (F := F)
        (m ((c.tc : Thread nD τ).loc main_arg0))
        (m ((c.tc : Thread nD τ).loc main_arg2))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21))
        (m ((c.tc : Thread nD τ).loc main_arg22))
        (m ((c.tc : Thread nD τ).loc main_arg23))
        (m ((c.tc : Thread nD τ).loc main_arg24))
        (m ((c.tc : Thread nD τ).loc main_arg25))
        (m ((c.tc : Thread nD τ).loc main_arg26))
        (m ((c.tc : Thread nD τ).loc main_arg27))
        (m ((c.tc : Thread nD τ).loc main_arg28))
        (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) := by
  refine (θ_run defs _ _).mono (fun r h c => ⟨(h c main_v154).trans ?_,
      (h c main_arg0).trans ((after_main_arg0 (F := F) (launchContents m c)).trans rfl),
      (h c main_arg1).trans ((after_main_arg1 (F := F) (launchContents m c)).trans rfl),
      (h c main_arg2).trans ((after_main_arg2 (F := F) (launchContents m c)).trans rfl),
      (h c main_arg3).trans ((after_main_arg3 (F := F) (launchContents m c)).trans rfl),
      (h c main_arg4).trans ((after_main_arg4 (F := F) (launchContents m c)).trans rfl),
      (h c main_arg5).trans ((after_main_arg5 (F := F) (launchContents m c)).trans rfl),
      (h c main_arg6).trans ((after_main_arg6 (F := F) (launchContents m c)).trans rfl),
      (h c main_arg7).trans ((after_main_arg7 (F := F) (launchContents m c)).trans rfl),
      (h c main_arg8).trans ((after_main_arg8 (F := F) (launchContents m c)).trans rfl),
      (h c main_arg9).trans ((after_main_arg9 (F := F) (launchContents m c)).trans rfl),
      (h c main_arg10).trans ((after_main_arg10 (F := F) (launchContents m c)).trans rfl),
      (h c main_arg11).trans ((after_main_arg11 (F := F) (launchContents m c)).trans rfl),
      (h c main_arg12).trans ((after_main_arg12 (F := F) (launchContents m c)).trans rfl),
      (h c main_arg13).trans ((after_main_arg13 (F := F) (launchContents m c)).trans rfl),
      (h c main_arg14).trans ((after_main_arg14 (F := F) (launchContents m c)).trans rfl),
      (h c main_arg15).trans ((after_main_arg15 (F := F) (launchContents m c)).trans rfl),
      (h c main_arg16).trans ((after_main_arg16 (F := F) (launchContents m c)).trans rfl),
      (h c main_arg17).trans ((after_main_arg17 (F := F) (launchContents m c)).trans rfl),
      (h c main_arg18).trans ((after_main_arg18 (F := F) (launchContents m c)).trans rfl),
      (h c main_arg19).trans ((after_main_arg19 (F := F) (launchContents m c)).trans rfl),
      (h c main_arg20).trans ((after_main_arg20 (F := F) (launchContents m c)).trans rfl),
      (h c main_arg21).trans ((after_main_arg21 (F := F) (launchContents m c)).trans rfl),
      (h c main_arg22).trans ((after_main_arg22 (F := F) (launchContents m c)).trans rfl),
      (h c main_arg23).trans ((after_main_arg23 (F := F) (launchContents m c)).trans rfl),
      (h c main_arg24).trans ((after_main_arg24 (F := F) (launchContents m c)).trans rfl),
      (h c main_arg25).trans ((after_main_arg25 (F := F) (launchContents m c)).trans rfl),
      (h c main_arg26).trans ((after_main_arg26 (F := F) (launchContents m c)).trans rfl),
      (h c main_arg27).trans ((after_main_arg27 (F := F) (launchContents m c)).trans rfl),
      (h c main_arg28).trans ((after_main_arg28 (F := F) (launchContents m c)).trans rfl),
      (h c main_arg29).trans ((after_main_arg29 (F := F) (launchContents m c)).trans rfl)⟩) (run_after (F := F) m ρ)
  -- the operations in their three stretches, each handing the next the buffers it reads
  rw [after_split]
  obtain ⟨h0_v1, h0_v3, h0_v36, h0_v48, h0_v51⟩ := chunk0 (F := F) (launchContents m c)
    (m ((c.tc : Thread nD τ).loc main_arg0)) (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg19))
    rfl rfl rfl rfl rfl rfl rfl rfl rfl rfl rfl rfl rfl
  obtain ⟨h1_c_15, h1_v1, h1_v3, h1_v64, h1_v99, h1_v101⟩ := chunk1 (F := F) (after ops0 (launchContents m c))
    (m ((c.tc : Thread nD τ).loc main_arg0)) (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    ((keep0_arg0 (F := F) (launchContents m c)).trans rfl)
    ((keep0_arg17 (F := F) (launchContents m c)).trans rfl)
    ((keep0_arg18 (F := F) (launchContents m c)).trans rfl)
    ((keep0_arg20 (F := F) (launchContents m c)).trans rfl)
    ((keep0_arg21 (F := F) (launchContents m c)).trans rfl)
    ((keep0_arg22 (F := F) (launchContents m c)).trans rfl)
    ((keep0_arg23 (F := F) (launchContents m c)).trans rfl)
    h0_v1 h0_v3 h0_v36 h0_v48 h0_v51
  exact chunk2 (F := F) (after ops1 (after ops0 (launchContents m c)))
    (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
    ((keep1_arg0 (F := F) (after ops0 (launchContents m c))).trans ((keep0_arg0 (F := F) (launchContents m c)).trans rfl))
    ((keep1_arg7 (F := F) (after ops0 (launchContents m c))).trans ((keep0_arg7 (F := F) (launchContents m c)).trans rfl))
    ((keep1_arg24 (F := F) (after ops0 (launchContents m c))).trans ((keep0_arg24 (F := F) (launchContents m c)).trans rfl))
    ((keep1_arg25 (F := F) (after ops0 (launchContents m c))).trans ((keep0_arg25 (F := F) (launchContents m c)).trans rfl))
    ((keep1_arg26 (F := F) (after ops0 (launchContents m c))).trans ((keep0_arg26 (F := F) (launchContents m c)).trans rfl))
    ((keep1_arg27 (F := F) (after ops0 (launchContents m c))).trans ((keep0_arg27 (F := F) (launchContents m c)).trans rfl))
    ((keep1_arg28 (F := F) (after ops0 (launchContents m c))).trans ((keep0_arg28 (F := F) (launchContents m c)).trans rfl))
    ((keep1_arg29 (F := F) (after ops0 (launchContents m c))).trans ((keep0_arg29 (F := F) (launchContents m c)).trans rfl))
    h1_c_15 h1_v1 h1_v3 h1_v64 h1_v99 h1_v101

end Cert.ReferenceIdeal.RunP

end
-- ==== Proof.Stage.Y0.lean ====
/-
  The first linear layer on the node features, computed block of rows by block of rows, is the whole product x·W0 with the bias added to every row.
-/
import proofs.«423839_j69329362092378_2_alg».proof.Defs
import proofs.«423839_j69329362092378_2_alg».proof.Proof.Gen.KernelIdeal.Frame
import proofs.«423839_j69329362092378_2_alg».proof.Proof.RefRead

set_option maxRecDepth 16384

noncomputable section

namespace Cert.KernelIdeal.Stages

open Cert.KernelIdeal Cert.KernelIdeal.Gen
open Idealize.ShloMosaic Idealize.ShloMosaic.TcCoe Idealize.SL.Sem

variable [hPre : Cert.Pre_finite_inputs.Facts]
variable (m : (ℓ : Loc nD τ sig) → Buf (Elt Ideal) ℓ) (ρ : Dev nD → PrngReg)

namespace NodeLin

/-- Row `j 0`, column `k` of a block of rows. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of the weight matrix. -/
abbrev colAt (j : S5000x128.Idx) (k : Fin 128) : S128x128.Idx := fun a => match a with
  | ⟨0, _⟩ => ⟨k.val, k.isLt⟩
  | ⟨1, _⟩ => ⟨(j 1).val, (j 1).isLt⟩
/-- Column `j 1` of the one-row bias. -/
abbrev biasAt (j : S5000x128.Idx) : S1x128.Idx := fun a => match a with
  | ⟨0, _⟩ => ⟨0, Nat.one_pos⟩
  | ⟨1, _⟩ => ⟨(j 1).val, (j 1).isLt⟩

/-- In the product of a block of rows with the weights, the left factor's row is the result's row. -/
theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column is the summation index. -/
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the summation index. -/
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor's column is the result's column. -/
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `j 0`, column `j 1` of its block: the row of the features times the column of the weights, plus the bias of that column. -/
theorem pay_apply (x0 : Vec Ideal S5000x128 .f32) (x1 : Vec Ideal S128x128 .f32) (x2 : Vec Ideal S1x128 .f32) (j : S5000x128.Idx) :
    (k0_pay1 (F := Ideal) x0 x1 x2) j = (∑ k : Fin 128, x0 (rowAt j k) * x1 (colAt j k)) + x2 (biasAt j) := by
  unfold k0_pay1
  rw [ValueIdx.addf_apply]
  refine congrArg₂ (· + ·) ?_ ?_
  · refine (Ideal.matmul_constant_zero_apply dot_S5000x128_S128x128_S5000x128_1_0_0_1_n_n none
      (truncf .bf16 x0 bitsLt_bf16_f32) (truncf .bf16 x1 bitsLt_bf16_f32) j).trans ?_
    rw [← Equiv.sum_comp (ValueIdx.contrEquiv1 dot_S5000x128_S128x128_S5000x128_1_0_0_1_n_n 128 rfl rfl).symm]
    refine Finset.sum_congr rfl fun k _ => ?_
    have hk := ValueIdx.contrEquiv1_symm_val dot_S5000x128_S128x128_S5000x128_1_0_0_1_n_n 128 rfl rfl k
    have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
      match a with
      | ⟨0, _⟩ => exact lhs_ax0 _ _
      | ⟨1, _⟩ => exact (lhs_ax1 _ _).trans hk)
    have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
      match a with
      | ⟨0, _⟩ => exact (rhs_ax0 _ _).trans hk
      | ⟨1, _⟩ => exact rhs_ax1 _ _)
    rw [el, er, ValueIdx.truncf_apply, ValueIdx.truncf_apply]
  · rw [shapeCast_self]
    exact broadcastTo_apply x2 broadcasts_S1x128_S5000x128 j (biasAt j) (fun a => match a with
      | ⟨0, _⟩ => by show 0 = if (1 : Nat) = 1 then 0 else _; rw [if_pos rfl]
      | ⟨1, _⟩ => by show (j 1).val = if (128 : Nat) = 1 then 0 else (j 1).val; rw [if_neg (by decide)])

/-- The zero offsets of a whole-block access. -/
theorem zeroOff : (![0, 0] : Fin 2 → Nat) = fun _ => 0 := funext fun a => by fin_cases a <;> rfl

/-- The host operations before the region leave the node features as launched. -/
theorem feat_entry (c : Dev nD) : V1 m ρ c main_arg0 = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- and the weights as launched. -/
theorem wt_entry (c : Dev nD) : V1 m ρ c main_arg8 = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The one-row bias the region reads is the launched bias vector laid out as a row. -/
theorem bias_entry (c : Dev nD) : (V1 m ρ c main_v4 : S1x128.Idx → EReal) =
    shapeCast S1x128 (m ((c : Thread nD τ).loc main_arg9) : S128.Idx → EReal) shapeCasts_S128_S1x128 := by
  show StableHlo.after hostOps0 (W0 m ρ c) (Proc.devRef .tc main_v4) = _
  after_results
  rfl

/-- The bias vector laid out as one row, read at a column, is the vector read there. -/
theorem row_of_vec (b : S128.Idx → EReal) (y : S1x128.Idx) (k : S128.Idx) (hk : (k 0).val = (y 1).val) :
    shapeCast S1x128 b shapeCasts_S128_S1x128 y = b k := by
  refine shapeCast_apply b shapeCasts_S128_S1x128 y k ?_
  rw [Shape.rowMajor_val_one, Shape.rowMajor_val_two]
  have h0 : (y 0).val < 1 := (y 0).isLt
  show (k 0).val = (y 0).val * 128 + (y 1).val
  omega

/-- Where each window's block sits at point `t`: the features' and the result's blocks are the same block of rows, block `t`; the weights and the bias are read whole. -/
theorem idx_rel : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point `t` writes back is its block of rows of x·W0 + b0. -/
theorem flushed_eq (c : Dev nD) (t : Fin cfg0.N) :
    (dat0 (V1 m ρ) c).flushed 3 t = ((cfg0.win 3).blk t).view.read (Elt Ideal)
      (Cert.ReferenceIdeal.ReadP.val_main_v7 (F := Ideal)
        (m ((c : Thread nD τ).loc main_arg0)) (m ((c : Thread nD τ).loc main_arg8)) (m ((c : Thread nD τ).loc main_arg9))) := by
  show (cfg0.win 3).cut (grid0.coords t) ((dat0 (V1 m ρ) c).after 3 t) = _
  rw [after0_3]
  unfold out0_3
  rw [View.canon_unit_zero zeroOff]
  simp only [View.ld_unit_zero (S := S5000x128) zeroOff, View.ld_unit_zero (S := S128x128) zeroOff, View.ld_unit_zero (S := S1x128) zeroOff]
  funext j
  show k0_pay1 (F := Ideal) (iblk0 (V1 m ρ) c 0 t) (iblk0 (V1 m ρ) c 1 t) (iblk0 (V1 m ρ) c 2 t) j
    = Cert.ReferenceIdeal.ReadP.val_main_v7 (F := Ideal) (m ((c : Thread nD τ).loc main_arg0)) (m ((c : Thread nD τ).loc main_arg8)) (m ((c : Thread nD τ).loc main_arg9)) (((cfg0.win 3).blk t).view.emb j)
  refine (pay_apply _ _ _ j).trans ?_
  rw [Cert.ReferenceIdeal.ReadP.val_main_v7_apply, Cert.ReferenceIdeal.ReadP.val_main_v4_apply, Cert.ReferenceIdeal.ReadP.val_main_v6_apply, Cert.ReferenceIdeal.ReadP.val_main_v5_apply, Ideal.addf_def]
  obtain ⟨e00, e01, e10, e11, e20, e21, e31, e30⟩ := idx_rel t
  refine congrArg₂ (· + ·) (Finset.sum_congr rfl fun k _ => congrArg₂ (· * ·) ?_ ?_) ?_
  · show V1 m ρ c main_arg0 (((cfg0.win 0).blk t).view.emb (rowAt j k)) = _
    rw [feat_entry]
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V1 m ρ c main_arg8 (((cfg0.win 1).blk t).view.emb (colAt j k)) = _
    rw [wt_entry]
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V1 m ρ c main_v4 (((cfg0.win 2).blk t).view.emb (biasAt j)) = _
    rw [bias_entry]
    refine row_of_vec _ _ _ ?_
    show win0_3.index t (1 : Fin 2) * 128 + 1 * (j 1).val = win0_2.index t (1 : Fin 2) * 128 + 1 * (j 1).val
    omega

/-- An index of the result is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Every row of the result is in the block of rows of the point numbered by the row's quotient by 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by rw [show cfg0.N = 10 from N_0]; omega⟩, flush0_3 _, ?_⟩
  rw [mem_blk]
  obtain ⟨-, -, -, -, -, -, e31, e30⟩ := idx_rel ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

end NodeLin

/-- The node features after the first linear layer, x·W0 + b0. -/
theorem y0 (c : Dev nD) :
    W2 m ρ c (Proc.devRef .tc main_v13) =
      Cert.ReferenceIdeal.ReadP.val_main_v7 (F := Ideal)
        (m ((c : Thread nD τ).loc main_arg0))
        (m ((c : Thread nD τ).loc main_arg8))
        (m ((c : Thread nD τ).loc main_arg9)) :=
  (W2_arr m ρ c 3).trans
    ((dat0 (V1 m ρ) c).arrAt_eq_of_cover 3 _ (fun t _ => NodeLin.flushed_eq m ρ c t) NodeLin.cover)

end Cert.KernelIdeal.Stages

end
-- ==== Proof.Stage.Stats0.lean ====
/-
  The column means of the node array and of its squared centred copy: the same sums and quotients on both sides, taken of equal arrays.
-/
import proofs.«423839_j69329362092378_2_alg».proof.Defs
import proofs.«423839_j69329362092378_2_alg».proof.Proof.Stage.Y0

set_option maxRecDepth 16384

noncomputable section

namespace Cert.KernelIdeal.Stages

open Cert.KernelIdeal Cert.KernelIdeal.Gen
open Idealize.ShloMosaic Idealize.ShloMosaic.TcCoe Idealize.SL.Sem

variable [hPre : Cert.Pre_finite_inputs.Facts]
variable (m : (ℓ : Loc nD τ sig) → Buf (Elt Ideal) ℓ) (ρ : Dev nD → PrngReg)

/-- The scale vector laid out as one row of 128 entries is that vector repeated along a new leading axis of length one:
    entry (0, j) of either is entry j of the vector. -/
theorem scale0 (c : Dev nD) :
    W2 m ρ c (Proc.devRef .tc main_v9) =
      Cert.ReferenceIdeal.ReadP.val_main_v12 (F := Ideal) (m ((c : Thread nD τ).loc main_arg16)) := by
  refine (W2_of_ne m ρ c main_v9 (by decide)).trans ?_
  show StableHlo.after hostOps0 (W0 m ρ c) (Proc.devRef .tc main_v9) = _
  after_results
  funext (i : S1x128.Idx)
  rw [Cert.ReferenceIdeal.ReadP.val_main_v12_apply]
  show shapeCast S1x128 (m ((c : Thread nD τ).loc main_arg16)) shapeCasts_S128_S1x128 i = _
  refine shapeCast_apply (s := S128) (t := S1x128) _ _ i (Cert.ReferenceIdeal.ReadP.idx_main_v12 i) ?_
  rw [Shape.rowMajor_val_one, Shape.rowMajor_val_two]
  have h0 : (i 0).val < 1 := (i 0).isLt
  show (i 1).val = (i 0).val * 128 + (i 1).val
  omega

/-- The column means of that array. -/
theorem mean0 (c : Dev nD) :
    W3 m ρ c (Proc.devRef .tc main_v17) =
      Cert.ReferenceIdeal.ReadP.val_main_v11 (F := Ideal)
        (m ((c : Thread nD τ).loc main_arg0))
        (m ((c : Thread nD τ).loc main_arg8))
        (m ((c : Thread nD τ).loc main_arg9)) := by
  show StableHlo.after hostOps1 (W2 m ρ c) (Proc.devRef .tc main_v17) = _
  after_results
  rw [y0 m ρ c]
  unfold Cert.ReferenceIdeal.ReadP.val_main_v11 Cert.ReferenceIdeal.ReadP.val_main_v9 Cert.ReferenceIdeal.ReadP.val_main_v8
    Cert.ReferenceIdeal.ReadP.val_main_v10 Cert.ReferenceIdeal.ReadP.val_main_cst Cert.ReferenceIdeal.ReadP.val_main_cst_0
  generalize Cert.ReferenceIdeal.ReadP.val_main_v7 (F := Ideal) _ _ _ = y
  rfl

/-- The column means of the squared centred array. -/
theorem var0 (c : Dev nD) :
    W3 m ρ c (Proc.devRef .tc main_v25) =
      Cert.ReferenceIdeal.ReadP.val_main_v20 (F := Ideal)
        (m ((c : Thread nD τ).loc main_arg0))
        (m ((c : Thread nD τ).loc main_arg8))
        (m ((c : Thread nD τ).loc main_arg9))
        (m ((c : Thread nD τ).loc main_arg16)) := by
  show StableHlo.after hostOps1 (W2 m ρ c) (Proc.devRef .tc main_v25) = _
  after_results
  rw [y0 m ρ c, scale0 m ρ c]
  unfold Cert.ReferenceIdeal.ReadP.val_main_v20 Cert.ReferenceIdeal.ReadP.val_main_v18 Cert.ReferenceIdeal.ReadP.val_main_v17
    Cert.ReferenceIdeal.ReadP.val_main_v16 Cert.ReferenceIdeal.ReadP.val_main_v15 Cert.ReferenceIdeal.ReadP.val_main_v14
    Cert.ReferenceIdeal.ReadP.val_main_v13 Cert.ReferenceIdeal.ReadP.val_main_v11 Cert.ReferenceIdeal.ReadP.val_main_v9
    Cert.ReferenceIdeal.ReadP.val_main_v8 Cert.ReferenceIdeal.ReadP.val_main_v10 Cert.ReferenceIdeal.ReadP.val_main_v19
    Cert.ReferenceIdeal.ReadP.val_main_cst Cert.ReferenceIdeal.ReadP.val_main_cst_0 Cert.ReferenceIdeal.ReadP.val_main_cst_1
    Cert.ReferenceIdeal.ReadP.val_main_cst_2
  generalize Cert.ReferenceIdeal.ReadP.val_main_v7 (F := Ideal) _ _ _ = y
  generalize Cert.ReferenceIdeal.ReadP.val_main_v12 (F := Ideal) _ = g
  rfl

end Cert.KernelIdeal.Stages

end
-- ==== Proof.Stage.X1.lean ====
/-
  Each block of rows is centred, scaled by the inverse root of the variance plus epsilon, weighted, shifted, multiplied into W0_2, shifted again and cut at zero: row by row the reference's chain.
-/
import proofs.«423839_j69329362092378_2_alg».proof.Defs
import proofs.«423839_j69329362092378_2_alg».proof.Proof.Stage.Stats0
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.ValueIdx

variable [hPre : Cert.Pre_finite_inputs.Facts]

/-- The two zero offsets of a whole block. -/
theorem hz2 : (![0, 0] : Fin 2 → Nat) = fun _ => 0 := funext fun a => by fin_cases a <;> rfl

/-! ## The product of a block of rows with the weight matrix, entry by entry -/

theorem lhs_x1_0 (i : S5000x10.Idx) (q : dot_S5000x128_S128x10_S5000x10_1_0_0_1_n_n.contr.Idx) :
    (dot_S5000x128_S128x10_S5000x10_1_0_0_1_n_n.lhsIdx i q 0).val = (i 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
theorem lhs_x1_1 (i : S5000x10.Idx) (q : dot_S5000x128_S128x10_S5000x10_1_0_0_1_n_n.contr.Idx) :
    (dot_S5000x128_S128x10_S5000x10_1_0_0_1_n_n.lhsIdx i q 1).val = (q ⟨0, by decide⟩).val :=
  dot_S5000x128_S128x10_S5000x10_1_0_0_1_n_n.lhsIdx_val_of_single rfl i q
theorem rhs_x1_0 (i : S5000x10.Idx) (q : dot_S5000x128_S128x10_S5000x10_1_0_0_1_n_n.contr.Idx) :
    (dot_S5000x128_S128x10_S5000x10_1_0_0_1_n_n.rhsIdx i q 0).val = (q ⟨0, by decide⟩).val :=
  dot_S5000x128_S128x10_S5000x10_1_0_0_1_n_n.rhsIdx_val_of_single rfl i q
theorem rhs_x1_1 (i : S5000x10.Idx) (q : dot_S5000x128_S128x10_S5000x10_1_0_0_1_n_n.contr.Idx) :
    (dot_S5000x128_S128x10_S5000x10_1_0_0_1_n_n.rhsIdx i q 1).val = (i 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-- Entry (p, q) of the product is the sum over the shared axis of row p times column q. -/
theorem matmul_x1_apply (a : FVec Ideal S5000x128 .bf16) (w : FVec Ideal S128x10 .bf16) (p : Fin 5000) (q : Fin 10) :
    matmul dot_S5000x128_S128x10_S5000x10_1_0_0_1_n_n none a w (constant S5000x10 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x10_S5000x10_1_0_0_1_n_n 128 rfl rfl).symm]
  refine Finset.sum_congr rfl fun k _ => ?_
  have hk := ValueIdx.contrEquiv1_symm_val dot_S5000x128_S128x10_S5000x10_1_0_0_1_n_n 128 rfl rfl k
  have el : dot_S5000x128_S128x10_S5000x10_1_0_0_1_n_n.lhsIdx (ix2 p q) ((ValueIdx.contrEquiv1 dot_S5000x128_S128x10_S5000x10_1_0_0_1_n_n 128 rfl rfl).symm k) = ix2 p k := funext fun a => Fin.ext (by
    match a with
    | ⟨0, _⟩ => exact lhs_x1_0 _ _
    | ⟨1, _⟩ => exact (lhs_x1_1 _ _).trans hk)
  have er : dot_S5000x128_S128x10_S5000x10_1_0_0_1_n_n.rhsIdx (ix2 p q) ((ValueIdx.contrEquiv1 dot_S5000x128_S128x10_S5000x10_1_0_0_1_n_n 128 rfl rfl).symm k) = ix2 k q := funext fun a => Fin.ext (by
    match a with
    | ⟨0, _⟩ => exact (rhs_x1_0 _ _).trans hk
    | ⟨1, _⟩ => exact rhs_x1_1 _ _)
  rw [el, er]

/-! ## The body's payload at an entry -/

/-- One entry of what the body stores: the row centred, scaled by the inverse root of the variance plus epsilon, weighted,
    shifted, multiplied into the weight matrix, shifted again and cut at zero. -/
theorem pay_apply (x0 : Vec Ideal S5000x128 .f32) (ms mean var nw nb : Vec Ideal S1x128 .f32)
    (w : Vec Ideal S128x10 .f32) (b : Vec Ideal S1x10 .f32) (p : Fin 5000) (q : Fin 10) :
    (k1_pay1 (F := Ideal) x0 ms mean var nw nb w b) (ix2 p q)
      = max ((∑ k : Fin 128, ((((x0 (ix2 p k) - ms (ix2 (0 : Fin 1) k) * mean (ix2 (0 : Fin 1) k))
              * Ideal.rsqrt (var (ix2 (0 : Fin 1) k) + Ideal.ofBits .f32 0x3727C5AC#32)) * nw (ix2 (0 : Fin 1) k)) + nb (ix2 (0 : Fin 1) k))
            * w (ix2 k q)) + b (ix2 (0 : Fin 1) q)) (Ideal.ofBits .f32 0x00000000#32) := by
  unfold k1_pay1
  simp only [maximumf_apply, addf_apply, broadcast_apply, matmul_x1_apply, broadcastTo_1b_ab_apply, shapeCast_self,
    truncf_apply, mulf_apply, subf_apply]
  rfl

/-! ## The specification: the whole array the region leaves, entry by entry -/

/-- Row by row: the features centred by the scaled mean, scaled by the inverse root of the variance plus epsilon, weighted and
    shifted, then through the linear layer and the positive part. -/
def x1Spec (Y : Vec Ideal S50000x128 .f32) (MS MEAN VAR NW NB : Vec Ideal S1x128 .f32) (Wt : Vec Ideal S128x10 .f32)
    (Bv : Vec Ideal S1x10 .f32) : Vec Ideal S50000x10 .f32 := fun i =>
  max ((∑ k : Fin 128, ((((Y (ix2 (⟨(i 0).val, idx2_lt0 i⟩ : Fin 50000) k) - MS (ix2 (0 : Fin 1) k) * MEAN (ix2 (0 : Fin 1) k))
          * Ideal.rsqrt (VAR (ix2 (0 : Fin 1) k) + Ideal.ofBits .f32 0x3727C5AC#32)) * NW (ix2 (0 : Fin 1) k)) + NB (ix2 (0 : Fin 1) k))
        * Wt (ix2 k (⟨(i 1).val, idx2_lt1 i⟩ : Fin 10))) + Bv (ix2 (0 : Fin 1) (⟨(i 1).val, idx2_lt1 i⟩ : Fin 10)))
    (Ideal.ofBits .f32 0x00000000#32)

/-- The payload on a block whose rows are rows T·5000 … T·5000 + 4999 of the array is the specification on those rows. -/
theorem pay_eq_spec (x0 : Vec Ideal S5000x128 .f32) (ms mean var nw nb : Vec Ideal S1x128 .f32)
    (w : Vec Ideal S128x10 .f32) (b : Vec Ideal S1x10 .f32) (Y : Vec Ideal S50000x128 .f32) (T : Nat)
    (hx0 : ∀ (p : Fin 5000) (k : Fin 128) (P : Fin 50000), P.val = T * 5000 + p.val → x0 (ix2 p k) = Y (ix2 P k))
    (y : S5000x10.Idx) (i : S50000x10.Idx) (hi0 : (i 0).val = T * 5000 + (y 0).val) (hi1 : (i 1).val = (y 1).val) :
    k1_pay1 (F := Ideal) x0 ms mean var nw nb w b y = x1Spec Y ms mean var nw nb w b i := by
  obtain ⟨p, q, rfl⟩ : ∃ (p : Fin 5000) (q : Fin 10), y = ix2 p q := ⟨y 0, y 1, eq_ix2 y⟩
  have hq : (⟨(i 1).val, idx2_lt1 i⟩ : Fin 10) = q := Fin.ext hi1
  rw [pay_apply]
  unfold x1Spec
  rw [hq]
  refine congrArg (fun s => max (s + b (ix2 (0 : Fin 1) q)) (Ideal.ofBits .f32 0x00000000#32)) (Finset.sum_congr rfl fun k _ => ?_)
  rw [hx0 p k ⟨(i 0).val, idx2_lt0 i⟩ hi0]

/-! ## The blocks of the region's windows -/

/-- The printed index maps, decided over the grid: the two row windows move one block of rows per point, every other window
    stays on its one block. -/
theorem idx1_facts : ∀ t : Fin cfg1.N, win1_0.index t (0 : Fin 2) = t.val
    ∧ win1_0.index t (1 : Fin 2) = 0
    ∧ win1_8.index t (0 : Fin 2) = t.val
    ∧ win1_8.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- An entry of a block that sits at block index zero on both axes has, in the array, the coordinates it has in the block. -/
theorem emb_eq_self_of_index_zero {n0 n1 j0 j1 : Nat} (h0 : j0 = 0) (h1 : j1 = 0) (x e : (⟨2, ![n0, n1]⟩ : Shape).Idx)
    (he0 : (e 0).val = j0 * n0 + 1 * (x 0).val) (he1 : (e 1).val = j1 * n1 + 1 * (x 1).val) : e = x := by
  subst h0 h1
  funext a
  apply Fin.ext
  match a with
  | ⟨0, _⟩ => show (e 0).val = (x 0).val; omega
  | ⟨1, _⟩ => show (e 1).val = (x 1).val; omega

section Region
variable (V : (c : Dev nD) → (b : Ref sig .tc) → Buf (Elt Ideal) ((c : Thread nD τ).loc b))

/-- The feature window's block at point t is rows t·5000 … t·5000 + 4999 of its array. -/
theorem iblk1_0_apply (c : Dev nD) (t : Fin cfg1.N) (p : Fin 5000) (k : Fin 128) (P : Fin 50000)
    (hP : P.val = t.val * 5000 + p.val) :
    (iblk1 V c 0 t : Vec Ideal S5000x128 .f32) (ix2 p k) = (V c main_v13 : Vec Ideal S50000x128 .f32) (ix2 P k) := by
  obtain ⟨e00, e01, -⟩ := idx1_facts t
  unfold iblk1
  rw [View.read_apply]
  show V c main_v13 _ = V c main_v13 _
  congr 1
  funext a
  apply Fin.ext
  match a with
  | ⟨0, _⟩ => show win1_0.index t (0 : Fin 2) * 5000 + 1 * p.val = P.val; rw [e00, hP]; omega
  | ⟨1, _⟩ => show win1_0.index t (1 : Fin 2) * 128 + 1 * k.val = k.val; rw [e01]; omega

/-- The mean's window: its one block is the whole row. -/
theorem iblk1_1_eq (c : Dev nD) (t : Fin cfg1.N) :
    (iblk1 V c 1 t : Vec Ideal S1x128 .f32) = (V c main_v17 : Vec Ideal S1x128 .f32) := by
  obtain ⟨-, -, -, -, e10, e11, -⟩ := idx1_facts t
  funext x
  unfold iblk1
  rw [View.read_apply]
  show V c main_v17 _ = V c main_v17 x
  exact congrArg (V c main_v17) (emb_eq_self_of_index_zero (n0 := 1) (n1 := 128) e10 e11 x _ rfl rfl)

/-- The variance's window likewise. -/
theorem iblk1_2_eq (c : Dev nD) (t : Fin cfg1.N) :
    (iblk1 V c 2 t : Vec Ideal S1x128 .f32) = (V c main_v25 : Vec Ideal S1x128 .f32) := by
  obtain ⟨-, -, -, -, -, -, e20, e21, -⟩ := idx1_facts t
  funext x
  unfold iblk1
  rw [View.read_apply]
  show V c main_v25 _ = V c main_v25 x
  exact congrArg (V c main_v25) (emb_eq_self_of_index_zero (n0 := 1) (n1 := 128) e20 e21 x _ rfl rfl)

/-- The weight row's window likewise. -/
theorem iblk1_3_eq (c : Dev nD) (t : Fin cfg1.N) :
    (iblk1 V c 3 t : Vec Ideal S1x128 .f32) = (V c main_v7 : Vec Ideal S1x128 .f32) := by
  obtain ⟨-, -, -, -, -, -, -, -, e30, e31, -⟩ := idx1_facts t
  funext x
  unfold iblk1
  rw [View.read_apply]
  show V c main_v7 _ = V c main_v7 x
  exact congrArg (V c main_v7) (emb_eq_self_of_index_zero (n0 := 1) (n1 := 128) e30 e31 x _ rfl rfl)

/-- The shift row's window likewise. -/
theorem iblk1_4_eq (c : Dev nD) (t : Fin cfg1.N) :
    (iblk1 V c 4 t : Vec Ideal S1x128 .f32) = (V c main_v8 : Vec Ideal S1x128 .f32) := by
  obtain ⟨-, -, -, -, -, -, -, -, -, -, e40, e41, -⟩ := idx1_facts t
  funext x
  unfold iblk1
  rw [View.read_apply]
  show V c main_v8 _ = V c main_v8 x
  exact congrArg (V c main_v8) (emb_eq_self_of_index_zero (n0 := 1) (n1 := 128) e40 e41 x _ rfl rfl)

/-- The mean-scale row's window likewise. -/
theorem iblk1_5_eq (c : Dev nD) (t : Fin cfg1.N) :
    (iblk1 V c 5 t : Vec Ideal S1x128 .f32) = (V c main_v9 : Vec Ideal S1x128 .f32) := by
  obtain ⟨-, -, -, -, -, -, -, -, -, -, -, -, e50, e51, -⟩ := idx1_facts t
  funext x
  unfold iblk1
  rw [View.read_apply]
  show V c main_v9 _ = V c main_v9 x
  exact congrArg (V c main_v9) (emb_eq_self_of_index_zero (n0 := 1) (n1 := 128) e50 e51 x _ rfl rfl)

/-- The weight matrix's window: its one block is the whole matrix. -/
theorem iblk1_6_eq (c : Dev nD) (t : Fin cfg1.N) :
    (iblk1 V c 6 t : Vec Ideal S128x10 .f32) = (V c main_arg10 : Vec Ideal S128x10 .f32) := by
  obtain ⟨-, -, -, -, -, -, -, -, -, -, -, -, -, -, e60, e61, -⟩ := idx1_facts t
  funext x
  unfold iblk1
  rw [View.read_apply]
  show V c main_arg10 _ = V c main_arg10 x
  exact congrArg (V c main_arg10) (emb_eq_self_of_index_zero (n0 := 128) (n1 := 10) e60 e61 x _ rfl rfl)

/-- The second layer's bias row's window: its one block is the whole row. -/
theorem iblk1_7_eq (c : Dev nD) (t : Fin cfg1.N) :
    (iblk1 V c 7 t : Vec Ideal S1x10 .f32) = (V c main_v5 : Vec Ideal S1x10 .f32) := by
  obtain ⟨-, -, -, -, -, -, -, -, -, -, -, -, -, -, -, -, e70, e71⟩ := idx1_facts t
  funext x
  unfold iblk1
  rw [View.read_apply]
  show V c main_v5 _ = V c main_v5 x
  exact congrArg (V c main_v5) (emb_eq_self_of_index_zero (n0 := 1) (n1 := 10) e70 e71 x _ rfl rfl)

/-! ## What a point writes back, and the array after the last point -/

/-- What point t writes back is block t of the specification of the arrays the region is entered with. -/
theorem flushed_eq (c : Dev nD) (t : Fin cfg1.N) :
    (dat1 V c).flushed 8 t = ((cfg1.win 8).blk t).view.read (Elt Ideal)
      (x1Spec (V c main_v13) (V c main_v9) (V c main_v17) (V c main_v25) (V c main_v7) (V c main_v8) (V c main_arg10) (V c main_v5)) := by
  obtain ⟨-, -, e80, e81, -⟩ := idx1_facts t
  show (cfg1.win 8).cut (grid1.coords t) ((dat1 V c).after 8 t) = _
  rw [after1_8]
  unfold out1_8
  rw [View.canon_unit_zero hz2]
  simp only [View.ld_unit_zero (S := S5000x128) hz2, View.ld_unit_zero (S := S1x128) hz2, View.ld_unit_zero (S := S128x10) hz2,
    View.ld_unit_zero (S := S1x10) hz2]
  rw [iblk1_1_eq V c t, iblk1_2_eq V c t, iblk1_3_eq V c t, iblk1_4_eq V c t, iblk1_5_eq V c t, iblk1_6_eq V c t, iblk1_7_eq V c t]
  funext y
  refine pay_eq_spec _ _ _ _ _ _ _ _ (V c main_v13) t.val (fun p k P hP => iblk1_0_apply V c t p k P hP) y
    (((cfg1.win 8).blk t).view.emb y) ?_ ?_
  · show win1_8.index t (0 : Fin 2) * 5000 + 1 * (y 0).val = t.val * 5000 + (y 0).val
    rw [e80]; omega
  · show win1_8.index t (1 : Fin 2) * 10 + 1 * (y 1).val = (y 1).val
    rw [e81]; omega

/-- An entry of the result array is in point t's block iff each coordinate is in the block's range on its axis. -/
theorem mem_blk8 (t : Fin cfg1.N) (i : S50000x10.Idx) :
    i ∈ ((cfg1.win 8).blk t).view.set ↔ ∀ a : Fin 2, win1_8.index t a * S5000x10.size a ≤ (i a).val ∧ (i a).val < win1_8.index t a * S5000x10.size a + S5000x10.size a := by
  show i ∈ ((View.whole main_v26).slice (win1_8.rect t)).set ↔ _
  rw [View.set_slice_whole, Rect.mem_set_unit]
  exact Iff.rfl

/-- Row r of the result array lies in the block of point r / 5000: the ten blocks of rows fill the array. -/
theorem cover8 (i : S50000x10.Idx) :
    ∃ t : Fin cfg1.N, (cfg1.win 8).flush t = true ∧ i ∈ ((cfg1.win 8).blk t).view.set := by
  have hi0 : (i 0).val < 50000 := idx2_lt0 i
  have hi1 : (i 1).val < 10 := idx2_lt1 i
  obtain ⟨t, ht⟩ : ∃ t : Fin cfg1.N, t.val = (i 0).val / 5000 :=
    ⟨⟨(i 0).val / 5000, by show (i 0).val / 5000 < 10; omega⟩, rfl⟩
  obtain ⟨-, -, e80, e81, -⟩ := idx1_facts t
  refine ⟨t, flush1_8 t, ?_⟩
  rw [mem_blk8]
  intro a
  match a with
  | ⟨0, _⟩ =>
    show win1_8.index t (0 : Fin 2) * 5000 ≤ (i 0).val ∧ (i 0).val < win1_8.index t (0 : Fin 2) * 5000 + 5000
    rw [e80, ht]; omega
  | ⟨1, _⟩ =>
    show win1_8.index t (1 : Fin 2) * 10 ≤ (i 1).val ∧ (i 1).val < win1_8.index t (1 : Fin 2) * 10 + 10
    rw [e81]; omega

/-- So the result array ends holding the specification of the arrays the region is entered with. -/
theorem final8 (c : Dev nD) :
    (dat1 V c).arrAt 8 cfg1.N
      = x1Spec (V c main_v13) (V c main_v9) (V c main_v17) (V c main_v25) (V c main_v7) (V c main_v8) (V c main_arg10) (V c main_v5) :=
  (dat1 V c).arrAt_eq_of_cover 8 _ (fun t _ => flushed_eq V c t) cover8

end Region

/-! ## The reference's chain read at an entry -/

/-- Entry (P, k) of the reference's normalised features. -/
theorem ref_row_apply (A0 : (⟨Cert.ReferenceIdeal.S50000x128, .f32⟩ : BufTy).Contents (Elt Ideal))
    (A8 : (⟨Cert.ReferenceIdeal.S128x128, .f32⟩ : BufTy).Contents (Elt Ideal))
    (A9 A14 A15 A16 : (⟨Cert.ReferenceIdeal.S128, .f32⟩ : BufTy).Contents (Elt Ideal)) (P : Fin 50000) (k : Fin 128) :
    Cert.ReferenceIdeal.ReadP.val_main_v31 (F := Ideal) A0 A8 A9 A14 A15 A16 (ix2 P k)
      = (((Cert.ReferenceIdeal.ReadP.val_main_v7 (F := Ideal) A0 A8 A9 (ix2 P k)
            - A16 (ix1 k) * Cert.ReferenceIdeal.ReadP.val_main_v11 (F := Ideal) A0 A8 A9 (ix2 (0 : Fin 1) k))
          * Ideal.rsqrt (Cert.ReferenceIdeal.ReadP.val_main_v20 (F := Ideal) A0 A8 A9 A16 (ix2 (0 : Fin 1) k) + Ideal.ofBits .f32 0x3727C5AC#32))
          * A14 (ix1 k))
        + A15 (ix1 k) := by
  have e14 : Cert.ReferenceIdeal.ReadP.idx_main_v14 (ix2 P k) = ix2 (0 : Fin 1) k :=
    funext fun a => Fin.ext (by match a with | ⟨0, _⟩ => rfl | ⟨1, _⟩ => rfl)
  have e24 : Cert.ReferenceIdeal.ReadP.idx_main_v24 (ix2 P k) = ix2 (0 : Fin 1) k :=
    funext fun a => Fin.ext (by match a with | ⟨0, _⟩ => rfl | ⟨1, _⟩ => rfl)
  have e27 : Cert.ReferenceIdeal.ReadP.idx_main_v27 (ix2 P k) = ix2 (0 : Fin 1) k :=
    funext fun a => Fin.ext (by match a with | ⟨0, _⟩ => rfl | ⟨1, _⟩ => rfl)
  have e30 : Cert.ReferenceIdeal.ReadP.idx_main_v30 (ix2 P k) = ix2 (0 : Fin 1) k :=
    funext fun a => Fin.ext (by match a with | ⟨0, _⟩ => rfl | ⟨1, _⟩ => rfl)
  have e12 : Cert.ReferenceIdeal.ReadP.idx_main_v12 (ix2 (0 : Fin 1) k) = ix1 k :=
    funext fun a => Fin.ext (by match a with | ⟨0, _⟩ => rfl)
  have e26 : Cert.ReferenceIdeal.ReadP.idx_main_v26 (ix2 (0 : Fin 1) k) = ix1 k :=
    funext fun a => Fin.ext (by match a with | ⟨0, _⟩ => rfl)
  have e29 : Cert.ReferenceIdeal.ReadP.idx_main_v29 (ix2 (0 : Fin 1) k) = ix1 k :=
    funext fun a => Fin.ext (by match a with | ⟨0, _⟩ => rfl)
  rw [Cert.ReferenceIdeal.ReadP.val_main_v31_apply, Cert.ReferenceIdeal.ReadP.val_main_v28_apply,
    Cert.ReferenceIdeal.ReadP.val_main_v25_apply, Cert.ReferenceIdeal.ReadP.val_main_v15_apply,
    Cert.ReferenceIdeal.ReadP.val_main_v14_apply, Cert.ReferenceIdeal.ReadP.val_main_v13_apply,
    Cert.ReferenceIdeal.ReadP.val_main_v12_apply, Cert.ReferenceIdeal.ReadP.val_main_v24_apply,
    Cert.ReferenceIdeal.ReadP.val_main_v23_apply, Cert.ReferenceIdeal.ReadP.val_main_v22_apply,
    Cert.ReferenceIdeal.ReadP.val_main_v21_apply, Cert.ReferenceIdeal.ReadP.val_main_cst_3_apply,
    Cert.ReferenceIdeal.ReadP.val_main_v27_apply, Cert.ReferenceIdeal.ReadP.val_main_v26_apply,
    Cert.ReferenceIdeal.ReadP.val_main_v30_apply, Cert.ReferenceIdeal.ReadP.val_main_v29_apply,
    e14, e24, e27, e30, e12, e26, e29]
  rfl

/-- The reference's result is the specification of its own earlier stages and of the parameter vectors as rows. -/
theorem ref_eq_spec (A0 : (⟨Cert.ReferenceIdeal.S50000x128, .f32⟩ : BufTy).Contents (Elt Ideal))
    (A8 : (⟨Cert.ReferenceIdeal.S128x128, .f32⟩ : BufTy).Contents (Elt Ideal))
    (A9 : (⟨Cert.ReferenceIdeal.S128, .f32⟩ : BufTy).Contents (Elt Ideal))
    (A10 : (⟨Cert.ReferenceIdeal.S128x10, .f32⟩ : BufTy).Contents (Elt Ideal))
    (A11 : (⟨Cert.ReferenceIdeal.S10, .f32⟩ : BufTy).Contents (Elt Ideal))
    (A14 A15 A16 : (⟨Cert.ReferenceIdeal.S128, .f32⟩ : BufTy).Contents (Elt Ideal)) :
    Cert.ReferenceIdeal.ReadP.val_main_v36 (F := Ideal) A0 A8 A9 A10 A11 A14 A15 A16
      = x1Spec (Cert.ReferenceIdeal.ReadP.val_main_v7 (F := Ideal) A0 A8 A9) (shapeCast S1x128 A16 shapeCasts_S128_S1x128)
          (Cert.ReferenceIdeal.ReadP.val_main_v11 (F := Ideal) A0 A8 A9) (Cert.ReferenceIdeal.ReadP.val_main_v20 (F := Ideal) A0 A8 A9 A16)
          (shapeCast S1x128 A14 shapeCasts_S128_S1x128) (shapeCast S1x128 A15 shapeCasts_S128_S1x128) A10
          (shapeCast S1x10 A11 shapeCasts_S10_S1x10) := by
  funext i
  obtain ⟨P, q, rfl⟩ : ∃ (P : Fin 50000) (q : Fin 10), i = ix2 P q := ⟨i 0, i 1, eq_ix2 i⟩
  have el : ∀ k : Fin 128, Cert.ReferenceIdeal.ReadP.lidx_main_v32 (ix2 P q) k = ix2 P k := fun k =>
    funext fun a => Fin.ext (by match a with | ⟨0, _⟩ => rfl | ⟨1, _⟩ => rfl)
  have er : ∀ k : Fin 128, Cert.ReferenceIdeal.ReadP.ridx_main_v32 (ix2 P q) k = ix2 k q := fun k =>
    funext fun a => Fin.ext (by match a with | ⟨0, _⟩ => rfl | ⟨1, _⟩ => rfl)
  have e3 : Cert.ReferenceIdeal.ReadP.idx_main_v33 (Cert.ReferenceIdeal.ReadP.idx_main_v34 (ix2 P q)) = ix1 q :=
    funext fun a => Fin.ext (by match a with | ⟨0, _⟩ => rfl)
  rw [Cert.ReferenceIdeal.ReadP.val_main_v36_apply, Cert.ReferenceIdeal.ReadP.val_main_v35_apply,
    Cert.ReferenceIdeal.ReadP.val_main_v32_apply, Cert.ReferenceIdeal.ReadP.val_main_v34_apply,
    Cert.ReferenceIdeal.ReadP.val_main_v33_apply, Cert.ReferenceIdeal.ReadP.val_main_call0_v0_apply,
    Cert.ReferenceIdeal.ReadP.val_main_call0_cst_apply, e3]
  unfold x1Spec
  simp only [el, er, ref_row_apply, shapeCast_a_1a_apply]
  rfl

/-! ## The arrays the region is entered with -/

variable (m : (ℓ : Loc nD τ sig) → Buf (Elt Ideal) ℓ) (ρ : Dev nD → PrngReg)

/-- No operation of a stretch writes the buffer: its membership in each operation's written set is refuted reference by reference. -/
local macro "unwritten_by" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The features after the first layer come through the statistics stretch untouched. -/
theorem entry_v13 (c : Dev nD) :
    W3 m ρ c (Proc.devRef .tc main_v13) = Cert.ReferenceIdeal.ReadP.val_main_v7 (F := Ideal)
      (m ((c : Thread nD τ).loc main_arg0)) (m ((c : Thread nD τ).loc main_arg8)) (m ((c : Thread nD τ).loc main_arg9)) :=
  (StableHlo.after_of_forall_not_mem (b := Proc.devRef .tc main_v13) _ _ (by unwritten_by hostOps1)).trans (y0 m ρ c)

/-- The weight vector, reshaped to a row before the first region, is still that row at the second region's entry. -/
theorem entry_v7 (c : Dev nD) :
    W3 m ρ c (Proc.devRef .tc main_v7)
      = (shapeCast S1x128 (m ((c : Thread nD τ).loc main_arg14)) shapeCasts_S128_S1x128 : Vec Ideal S1x128 .f32) :=
  calc W3 m ρ c (Proc.devRef .tc main_v7)
    _ = W2 m ρ c (Proc.devRef .tc main_v7) :=
        StableHlo.after_of_forall_not_mem (b := Proc.devRef .tc main_v7) _ _ (by unwritten_by hostOps1)
    _ = W1 m ρ c (Proc.devRef .tc main_v7) := W2_of_ne m ρ c main_v7 (by decide)
    _ = _ := by
      show StableHlo.after hostOps0 (W0 m ρ c) (Proc.devRef .tc main_v7) = _
      after_results
      rfl

/-- The shift vector likewise. -/
theorem entry_v8 (c : Dev nD) :
    W3 m ρ c (Proc.devRef .tc main_v8)
      = (shapeCast S1x128 (m ((c : Thread nD τ).loc main_arg15)) shapeCasts_S128_S1x128 : Vec Ideal S1x128 .f32) :=
  calc W3 m ρ c (Proc.devRef .tc main_v8)
    _ = W2 m ρ c (Proc.devRef .tc main_v8) :=
        StableHlo.after_of_forall_not_mem (b := Proc.devRef .tc main_v8) _ _ (by unwritten_by hostOps1)
    _ = W1 m ρ c (Proc.devRef .tc main_v8) := W2_of_ne m ρ c main_v8 (by decide)
    _ = _ := by
      show StableHlo.after hostOps0 (W0 m ρ c) (Proc.devRef .tc main_v8) = _
      after_results
      rfl

/-- The mean-scale vector likewise. -/
theorem entry_v9 (c : Dev nD) :
    W3 m ρ c (Proc.devRef .tc main_v9)
      = (shapeCast S1x128 (m ((c : Thread nD τ).loc main_arg16)) shapeCasts_S128_S1x128 : Vec Ideal S1x128 .f32) :=
  calc W3 m ρ c (Proc.devRef .tc main_v9)
    _ = W2 m ρ c (Proc.devRef .tc main_v9) :=
        StableHlo.after_of_forall_not_mem (b := Proc.devRef .tc main_v9) _ _ (by unwritten_by hostOps1)
    _ = W1 m ρ c (Proc.devRef .tc main_v9) := W2_of_ne m ρ c main_v9 (by decide)
    _ = _ := by
      show StableHlo.after hostOps0 (W0 m ρ c) (Proc.devRef .tc main_v9) = _
      after_results
      rfl

/-- The second layer's bias vector likewise. -/
theorem entry_v5 (c : Dev nD) :
    W3 m ρ c (Proc.devRef .tc main_v5)
      = (shapeCast S1x10 (m ((c : Thread nD τ).loc main_arg11)) shapeCasts_S10_S1x10 : Vec Ideal S1x10 .f32) :=
  calc W3 m ρ c (Proc.devRef .tc main_v5)
    _ = W2 m ρ c (Proc.devRef .tc main_v5) :=
        StableHlo.after_of_forall_not_mem (b := Proc.devRef .tc main_v5) _ _ (by unwritten_by hostOps1)
    _ = W1 m ρ c (Proc.devRef .tc main_v5) := W2_of_ne m ρ c main_v5 (by decide)
    _ = _ := by
      show StableHlo.after hostOps0 (W0 m ρ c) (Proc.devRef .tc main_v5) = _
      after_results
      rfl

/-- The second layer's weight matrix is an argument no stretch and no region writes. -/
theorem entry_arg10 (c : Dev nD) :
    W3 m ρ c (Proc.devRef .tc main_arg10) = m ((c : Thread nD τ).loc main_arg10) :=
  calc W3 m ρ c (Proc.devRef .tc main_arg10)
    _ = W2 m ρ c (Proc.devRef .tc main_arg10) :=
        StableHlo.after_of_forall_not_mem (b := Proc.devRef .tc main_arg10) _ _ (by unwritten_by hostOps1)
    _ = W1 m ρ c (Proc.devRef .tc main_arg10) := W2_of_ne m ρ c main_arg10 (by decide)
    _ = W0 m ρ c (Proc.devRef .tc main_arg10) :=
        StableHlo.after_of_forall_not_mem (b := Proc.devRef .tc main_arg10) _ _ (by unwritten_by hostOps0)
    _ = m ((c : Thread nD τ).loc main_arg10) := rfl

/-! ## The region's result -/

/-- The normalised node features through the second linear layer and the positive part. -/
theorem x1 (c : Dev nD) :
    W4 m ρ c (Proc.devRef .tc main_v26) =
      Cert.ReferenceIdeal.ReadP.val_main_v36 (F := Ideal)
        (m ((c : Thread nD τ).loc main_arg0))
        (m ((c : Thread nD τ).loc main_arg8))
        (m ((c : Thread nD τ).loc main_arg9))
        (m ((c : Thread nD τ).loc main_arg10))
        (m ((c : Thread nD τ).loc main_arg11))
        (m ((c : Thread nD τ).loc main_arg14))
        (m ((c : Thread nD τ).loc main_arg15))
        (m ((c : Thread nD τ).loc main_arg16)) := by
  refine (W4_arr m ρ c 8).trans ?_
  rw [final8 (V3 m ρ) c, ref_eq_spec]
  show x1Spec (W3 m ρ c (Proc.devRef .tc main_v13)) (W3 m ρ c (Proc.devRef .tc main_v9)) (W3 m ρ c (Proc.devRef .tc main_v17))
      (W3 m ρ c (Proc.devRef .tc main_v25)) (W3 m ρ c (Proc.devRef .tc main_v7)) (W3 m ρ c (Proc.devRef .tc main_v8))
      (W3 m ρ c (Proc.devRef .tc main_arg10)) (W3 m ρ c (Proc.devRef .tc main_v5)) = _
  rw [entry_v13 m ρ c, entry_v9 m ρ c, mean0 m ρ c, var0 m ρ c, entry_v7 m ρ c, entry_v8 m ρ c, entry_arg10 m ρ c, entry_v5 m ρ c]

end Cert.KernelIdeal.Stages

end
-- ==== Proof.Stage.Y0e.lean ====
/-
  The linear layer on the edge features, block of rows by block of rows, is the whole product with the bias added to every row.
-/
import proofs.«423839_j69329362092378_2_alg».proof.Defs
import proofs.«423839_j69329362092378_2_alg».proof.Proof.Gen.KernelIdeal.Frame
import proofs.«423839_j69329362092378_2_alg».proof.Proof.RefRead

set_option maxRecDepth 16384

noncomputable section

namespace Cert.KernelIdeal.Stages

open Cert.KernelIdeal Cert.KernelIdeal.Gen
open Idealize.ShloMosaic Idealize.ShloMosaic.TcCoe Idealize.SL.Sem

variable [hPre : Cert.Pre_finite_inputs.Facts]
variable (m : (ℓ : Loc nD τ sig) → Buf (Elt Ideal) ℓ) (ρ : Dev nD → PrngReg)
namespace EdgeLin

/-! ### Reading the body's value at one entry of a block of edges -/

/-- Entry `k` of the edge row that `j` lies in. -/
abbrev lhsAt (j : S16000x32.Idx) (k : Fin 32) : S16000x32.Idx := fun a => match a with
  | ⟨0, _⟩ => ⟨(j 0).val, (j 0).isLt⟩
  | ⟨1, _⟩ => ⟨k.val, k.isLt⟩
/-- Entry `k` of the weight column that `j` lies in. -/
abbrev rhsAt (j : S16000x32.Idx) (k : Fin 32) : S32x32.Idx := fun a => match a with
  | ⟨0, _⟩ => ⟨k.val, k.isLt⟩
  | ⟨1, _⟩ => ⟨(j 1).val, (j 1).isLt⟩
/-- The bias entry over the column that `j` lies in. -/
abbrev bAt (j : S16000x32.Idx) : S1x32.Idx := fun a => match a with
  | ⟨0, _⟩ => ⟨0, Nat.one_pos⟩
  | ⟨1, _⟩ => ⟨(j 1).val, (j 1).isLt⟩

/-- The left factor is read in the result's row, -/
theorem lrow (i : S16000x32.Idx) (q : dot_S16000x32_S32x32_S16000x32_1_0_0_1_n_n.contr.Idx) :
    (dot_S16000x32_S32x32_S16000x32_1_0_0_1_n_n.lhsIdx i q 0).val = (i 0).val := by
  unfold DotDims.lhsIdx
  rw [dif_neg (show ¬(0 : Fin S16000x32.rank) ∈ dot_S16000x32_S32x32_S16000x32_1_0_0_1_n_n.lhsBatch by decide), dif_pos (show (0 : Fin S16000x32.rank) ∈ dot_S16000x32_S32x32_S16000x32_1_0_0_1_n_n.lhsNonContracting by decide)]
  rfl
/-- at the summation index; -/
theorem lcol (i : S16000x32.Idx) (q : dot_S16000x32_S32x32_S16000x32_1_0_0_1_n_n.contr.Idx) :
    (dot_S16000x32_S32x32_S16000x32_1_0_0_1_n_n.lhsIdx i q 1).val = (q ⟨0, by decide⟩).val :=
  dot_S16000x32_S32x32_S16000x32_1_0_0_1_n_n.lhsIdx_val_of_single rfl i q
/-- the right factor at the summation index, -/
theorem rrow (i : S16000x32.Idx) (q : dot_S16000x32_S32x32_S16000x32_1_0_0_1_n_n.contr.Idx) :
    (dot_S16000x32_S32x32_S16000x32_1_0_0_1_n_n.rhsIdx i q 0).val = (q ⟨0, by decide⟩).val :=
  dot_S16000x32_S32x32_S16000x32_1_0_0_1_n_n.rhsIdx_val_of_single rfl i q
/-- in the result's column. -/
theorem rcol (i : S16000x32.Idx) (q : dot_S16000x32_S32x32_S16000x32_1_0_0_1_n_n.contr.Idx) :
    (dot_S16000x32_S32x32_S16000x32_1_0_0_1_n_n.rhsIdx i q 1).val = (i 1).val := by
  unfold DotDims.rhsIdx
  rw [dif_neg (show ¬(1 : Fin S32x32.rank) ∈ dot_S16000x32_S32x32_S16000x32_1_0_0_1_n_n.rhsBatch by decide), dif_pos (show (1 : Fin S32x32.rank) ∈ dot_S16000x32_S32x32_S16000x32_1_0_0_1_n_n.rhsNonContracting by decide)]
  rfl

/-- One entry of what the body stores: the edge's 32 features against the weight column, summed, and the column's bias added. -/
theorem body_at (e : Vec Ideal S16000x32 .f32) (w : Vec Ideal S32x32 .f32) (b : Vec Ideal S1x32 .f32) (j : S16000x32.Idx) :
    (k2_pay1 (F := Ideal) e w b) j = (∑ k : Fin 32, e (lhsAt j k) * w (rhsAt j k)) + b (bAt j) := by
  unfold k2_pay1
  rw [ValueIdx.addf_apply]
  have hsum : matmul (F := Ideal) dot_S16000x32_S32x32_S16000x32_1_0_0_1_n_n none (truncf .bf16 e bitsLt_bf16_f32) (truncf .bf16 w bitsLt_bf16_f32)
      (constant S16000x32 .f32 0x00000000#32) j = ∑ k : Fin 32, e (lhsAt j k) * w (rhsAt j k) := by
    refine (Ideal.matmul_constant_zero_apply dot_S16000x32_S32x32_S16000x32_1_0_0_1_n_n none
      (truncf .bf16 e bitsLt_bf16_f32) (truncf .bf16 w bitsLt_bf16_f32) j).trans ?_
    rw [← Equiv.sum_comp (ValueIdx.contrEquiv1 dot_S16000x32_S32x32_S16000x32_1_0_0_1_n_n 32 rfl rfl).symm]
    refine Finset.sum_congr rfl fun k _ => ?_
    have hk := ValueIdx.contrEquiv1_symm_val dot_S16000x32_S32x32_S16000x32_1_0_0_1_n_n 32 rfl rfl k
    have el : dot_S16000x32_S32x32_S16000x32_1_0_0_1_n_n.lhsIdx j ((ValueIdx.contrEquiv1 dot_S16000x32_S32x32_S16000x32_1_0_0_1_n_n 32 rfl rfl).symm k) = lhsAt j k := funext fun a => Fin.ext (by
      match a with
      | ⟨0, _⟩ => exact lrow _ _
      | ⟨1, _⟩ => exact (lcol _ _).trans hk)
    have er : dot_S16000x32_S32x32_S16000x32_1_0_0_1_n_n.rhsIdx j ((ValueIdx.contrEquiv1 dot_S16000x32_S32x32_S16000x32_1_0_0_1_n_n 32 rfl rfl).symm k) = rhsAt j k := funext fun a => Fin.ext (by
      match a with
      | ⟨0, _⟩ => exact (rrow _ _).trans hk
      | ⟨1, _⟩ => exact rcol _ _)
    rw [el, er, ValueIdx.truncf_apply, ValueIdx.truncf_apply]
  have hbias : broadcastTo S16000x32 (shapeCast S1x32 b shapeCasts_S1x32_S1x32) broadcasts_S1x32_S16000x32 j = b (bAt j) := by
    rw [shapeCast_self]
    exact broadcastTo_apply b broadcasts_S1x32_S16000x32 j (bAt j) (fun a => match a with
      | ⟨0, _⟩ => by show 0 = if (1 : Nat) = 1 then 0 else _; rw [if_pos rfl]
      | ⟨1, _⟩ => by show (j 1).val = if (32 : Nat) = 1 then 0 else (j 1).val; rw [if_neg (by decide)])
  rw [hsum, hbias]

/-! ### What the region finds in the three arrays it reads -/

/-- A buffer that neither of the two earlier regions holds as an array, and that the host operations between them do not write, is at this region's entry what it was at the first region's entry. -/
theorem back_two_regions (c : Dev nD) (b : Ref sig .tc) (h1 : ∀ w, Pipeline.arrRef spec1 w ≠ b)
    (hmid : W3 m ρ c (Proc.devRef .tc b) = W2 m ρ c (Proc.devRef .tc b)) (h0 : ∀ w, Pipeline.arrRef spec0 w ≠ b) :
    V4 m ρ c b = V1 m ρ c b :=
  (W4_of_ne m ρ c b h1).trans (hmid.trans (W2_of_ne m ρ c b h0))

/-- The edge features are as launched. -/
theorem edges_entry (c : Dev nD) : V4 m ρ c main_arg6 = m ((c : Thread nD τ).loc main_arg6) :=
  (back_two_regions m ρ c main_arg6 (by decide)
    (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (by decide)).trans
  ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- The edge weights are as launched. -/
theorem weights_entry (c : Dev nD) : V4 m ρ c main_arg12 = m ((c : Thread nD τ).loc main_arg12) :=
  (back_two_regions m ρ c main_arg12 (by decide)
    (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (by decide)).trans
  ((StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- The one-row bias is the launched bias vector, reshaped by the first host operations and untouched since. -/
theorem bias_row_entry (c : Dev nD) : (V4 m ρ c main_v6 : S1x32.Idx → EReal) =
    shapeCast S1x32 (m ((c : Thread nD τ).loc main_arg13) : S32.Idx → EReal) shapeCasts_S32_S1x32 := by
  rw [back_two_regions m ρ c main_v6 (by decide)
    (StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) (by decide)]
  show StableHlo.after hostOps0 (W0 m ρ c) (Proc.devRef .tc main_v6) = _
  after_results
  rfl

/-- A 32-vector written as one row and read at a column gives the vector's entry there. -/
theorem one_row_read (v : S32.Idx → EReal) (y : S1x32.Idx) (k : S32.Idx) (hk : (k 0).val = (y 1).val) :
    shapeCast S1x32 v shapeCasts_S32_S1x32 y = v k := by
  refine shapeCast_apply v shapeCasts_S32_S1x32 y k ?_
  rw [Shape.rowMajor_val_one, Shape.rowMajor_val_two]
  have h0 : (y 0).val < 1 := (y 0).isLt
  show (k 0).val = (y 0).val * 32 + (y 1).val
  omega

/-! ### The write-backs, and the array they leave -/

/-- Every access of the body is of a whole staging buffer: its offsets are zero. -/
theorem noOff : (![0, 0] : Fin 2 → Nat) = fun _ => 0 := funext fun a => by fin_cases a <;> rfl

/-- At point `t` the edge block and the result block are both block `t` of rows; the weights and the bias row are the whole of their arrays. -/
theorem where_blocks : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Point `t` writes back rows 16000·t … 16000·t + 15999 of the edge features times the weights plus the bias. -/
theorem written_back (c : Dev nD) (t : Fin cfg2.N) :
    (dat2 (V4 m ρ) c).flushed 3 t = ((cfg2.win 3).blk t).view.read (Elt Ideal)
      (Cert.ReferenceIdeal.ReadP.val_main_v40 (F := Ideal) (m ((c : Thread nD τ).loc main_arg6)) (m ((c : Thread nD τ).loc main_arg12)) (m ((c : Thread nD τ).loc main_arg13))) := by
  show (cfg2.win 3).cut (grid2.coords t) ((dat2 (V4 m ρ) c).after 3 t) = _
  rw [after2_3]
  unfold out2_3
  rw [View.canon_unit_zero noOff]
  simp only [View.ld_unit_zero (S := S16000x32) noOff, View.ld_unit_zero (S := S32x32) noOff, View.ld_unit_zero (S := S1x32) noOff]
  funext j
  show k2_pay1 (F := Ideal) (iblk2 (V4 m ρ) c 0 t) (iblk2 (V4 m ρ) c 1 t) (iblk2 (V4 m ρ) c 2 t) j
    = Cert.ReferenceIdeal.ReadP.val_main_v40 (F := Ideal) (m ((c : Thread nD τ).loc main_arg6)) (m ((c : Thread nD τ).loc main_arg12)) (m ((c : Thread nD τ).loc main_arg13)) (((cfg2.win 3).blk t).view.emb j)
  refine (body_at _ _ _ j).trans ?_
  rw [Cert.ReferenceIdeal.ReadP.val_main_v40_apply, Cert.ReferenceIdeal.ReadP.val_main_v37_apply, Cert.ReferenceIdeal.ReadP.val_main_v39_apply, Cert.ReferenceIdeal.ReadP.val_main_v38_apply, Ideal.addf_def]
  obtain ⟨o0, o1, a0, a1, b0, b1, d0, d1⟩ := where_blocks t
  have hE : ∀ k : Fin 32, iblk2 (V4 m ρ) c 0 t (lhsAt j k)
      = m ((c : Thread nD τ).loc main_arg6) (Cert.ReferenceIdeal.ReadP.lidx_main_v37 (((cfg2.win 3).blk t).view.emb j) k) := fun k => by
    show V4 m ρ c main_arg6 (((cfg2.win 0).blk t).view.emb (lhsAt j k)) = _
    rw [edges_entry]
    refine congrArg _ (funext fun a => Fin.ext ?_)
    match a with
    | ⟨0, _⟩ => show win2_0.index t (0 : Fin 2) * 16000 + 1 * (j 0).val = win2_3.index t (0 : Fin 2) * 16000 + 1 * (j 0).val; omega
    | ⟨1, _⟩ => show win2_0.index t (1 : Fin 2) * 32 + 1 * k.val = k.val; omega
  have hW : ∀ k : Fin 32, iblk2 (V4 m ρ) c 1 t (rhsAt j k)
      = m ((c : Thread nD τ).loc main_arg12) (Cert.ReferenceIdeal.ReadP.ridx_main_v37 (((cfg2.win 3).blk t).view.emb j) k) := fun k => by
    show V4 m ρ c main_arg12 (((cfg2.win 1).blk t).view.emb (rhsAt j k)) = _
    rw [weights_entry]
    refine congrArg _ (funext fun a => Fin.ext ?_)
    match a with
    | ⟨0, _⟩ => show win2_1.index t (0 : Fin 2) * 32 + 1 * k.val = k.val; omega
    | ⟨1, _⟩ => show win2_1.index t (1 : Fin 2) * 32 + 1 * (j 1).val = win2_3.index t (1 : Fin 2) * 32 + 1 * (j 1).val; omega
  have hB : iblk2 (V4 m ρ) c 2 t (bAt j)
      = m ((c : Thread nD τ).loc main_arg13) (Cert.ReferenceIdeal.ReadP.idx_main_v38 (Cert.ReferenceIdeal.ReadP.idx_main_v39 (((cfg2.win 3).blk t).view.emb j))) := by
    show V4 m ρ c main_v6 (((cfg2.win 2).blk t).view.emb (bAt j)) = _
    rw [bias_row_entry]
    refine one_row_read _ _ _ ?_
    show win2_3.index t (1 : Fin 2) * 32 + 1 * (j 1).val = win2_2.index t (1 : Fin 2) * 32 + 1 * (j 1).val
    omega
  rw [hB]
  exact congrArg (· + _) (Finset.sum_congr rfl fun k _ => by rw [hE k, hW k])

/-- Membership in point `t`'s result block, axis by axis. -/
theorem in_block (t : Fin cfg2.N) (i : S800000x32.Idx) :
    i ∈ ((cfg2.win 3).blk t).view.set ↔ ∀ a : Fin 2, win2_3.index t a * S16000x32.size a ≤ (i a).val ∧ (i a).val < win2_3.index t a * S16000x32.size a + S16000x32.size a := by
  show i ∈ ((View.whole main_v27).slice (win2_3.rect t)).set ↔ _
  rw [View.set_slice_whole, Rect.mem_set_unit]
  exact Iff.rfl

/-- Row `r` of the result is written back by point `r / 16000`: the fifty blocks of rows fill the array. -/
theorem all_rows_written (i : S800000x32.Idx) :
    ∃ t : Fin cfg2.N, (cfg2.win 3).flush t = true ∧ i ∈ ((cfg2.win 3).blk t).view.set := by
  have hr : (i 0).val < 800000 := (i 0).isLt
  have hc : (i 1).val < 32 := (i 1).isLt
  have hq : (i 0).val / 16000 < cfg2.N := by rw [show cfg2.N = 50 from N_2]; omega
  obtain ⟨o0, o1, -⟩ := where_blocks ⟨(i 0).val / 16000, hq⟩
  refine ⟨⟨(i 0).val / 16000, hq⟩, flush2_3 _, (in_block _ i).mpr fun a => ?_⟩
  match a with
  | ⟨0, _⟩ =>
    show win2_3.index _ (0 : Fin 2) * 16000 ≤ (i 0).val ∧ (i 0).val < win2_3.index _ (0 : Fin 2) * 16000 + 16000
    rw [o0]; show (i 0).val / 16000 * 16000 ≤ (i 0).val ∧ (i 0).val < (i 0).val / 16000 * 16000 + 16000; omega
  | ⟨1, _⟩ =>
    show win2_3.index _ (1 : Fin 2) * 32 ≤ (i 1).val ∧ (i 1).val < win2_3.index _ (1 : Fin 2) * 32 + 32
    rw [o1]; omega

end EdgeLin

/-- The edge features after their linear layer. -/
theorem y0e (c : Dev nD) :
    W5 m ρ c (Proc.devRef .tc main_v27) =
      Cert.ReferenceIdeal.ReadP.val_main_v40 (F := Ideal)
        (m ((c : Thread nD τ).loc main_arg6))
        (m ((c : Thread nD τ).loc main_arg12))
        (m ((c : Thread nD τ).loc main_arg13)) :=
  (W5_arr m ρ c 3).trans
    ((dat2 (V4 m ρ) c).arrAt_eq_of_cover 3 _ (fun t _ => EdgeLin.written_back m ρ c t) EdgeLin.all_rows_written)

end Cert.KernelIdeal.Stages

end
-- ==== Proof.Stage.StatsE.lean ====
/-
  The column means of the edge array and of its squared centred copy.
-/
import proofs.«423839_j69329362092378_2_alg».proof.Defs
import proofs.«423839_j69329362092378_2_alg».proof.Proof.Stage.Y0e

set_option maxRecDepth 16384

noncomputable section

namespace Cert.KernelIdeal.Stages

open Cert.KernelIdeal Cert.KernelIdeal.Gen
open Idealize.ShloMosaic Idealize.ShloMosaic.TcCoe Idealize.SL.Sem

variable [hPre : Cert.Pre_finite_inputs.Facts]
variable (m : (ℓ : Loc nD τ sig) → Buf (Elt Ideal) ℓ) (ρ : Dev nD → PrngReg)

/-- The edge scale vector laid out as one row of 32 entries is that vector repeated along a new leading axis of length
    one: entry (0, j) of either is entry j of the vector. Nothing between the launch and the third region's exit writes
    that row, so it is still what the first stretch of host operations made of the argument. -/
theorem scaleE (c : Dev nD) :
    W5 m ρ c (Proc.devRef .tc main_v12) =
      Cert.ReferenceIdeal.ReadP.val_main_v45 (F := Ideal) (m ((c : Thread nD τ).loc main_arg19)) := by
  refine (W5_of_ne m ρ c main_v12 (by decide)).trans ?_
  refine (W4_of_ne m ρ c main_v12 (by decide)).trans ?_
  refine (StableHlo.after_of_forall_not_mem (b := Proc.devRef .tc main_v12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W2_of_ne m ρ c main_v12 (by decide)).trans ?_
  show StableHlo.after hostOps0 (W0 m ρ c) (Proc.devRef .tc main_v12) = _
  after_results
  funext (i : S1x32.Idx)
  rw [Cert.ReferenceIdeal.ReadP.val_main_v45_apply]
  show shapeCast S1x32 (m ((c : Thread nD τ).loc main_arg19)) shapeCasts_S32_S1x32 i = _
  refine shapeCast_apply (s := S32) (t := S1x32) _ _ i (Cert.ReferenceIdeal.ReadP.idx_main_v45 i) ?_
  rw [Shape.rowMajor_val_one, Shape.rowMajor_val_two]
  have h0 : (i 0).val < 1 := (i 0).isLt
  show (i 1).val = (i 0).val * 32 + (i 1).val
  omega

/-- The column means of that array. -/
theorem meane (c : Dev nD) :
    W6 m ρ c (Proc.devRef .tc main_v31) =
      Cert.ReferenceIdeal.ReadP.val_main_v44 (F := Ideal)
        (m ((c : Thread nD τ).loc main_arg6))
        (m ((c : Thread nD τ).loc main_arg12))
        (m ((c : Thread nD τ).loc main_arg13)) := by
  show StableHlo.after hostOps3 (W5 m ρ c) (Proc.devRef .tc main_v31) = _
  after_results
  rw [y0e m ρ c]
  unfold Cert.ReferenceIdeal.ReadP.val_main_v44 Cert.ReferenceIdeal.ReadP.val_main_v42 Cert.ReferenceIdeal.ReadP.val_main_v41
    Cert.ReferenceIdeal.ReadP.val_main_v43 Cert.ReferenceIdeal.ReadP.val_main_cst_4 Cert.ReferenceIdeal.ReadP.val_main_cst_5
  generalize Cert.ReferenceIdeal.ReadP.val_main_v40 (F := Ideal) _ _ _ = y
  rfl

/-- The column means of the squared centred array. -/
theorem vare (c : Dev nD) :
    W6 m ρ c (Proc.devRef .tc main_v39) =
      Cert.ReferenceIdeal.ReadP.val_main_v53 (F := Ideal)
        (m ((c : Thread nD τ).loc main_arg6))
        (m ((c : Thread nD τ).loc main_arg12))
        (m ((c : Thread nD τ).loc main_arg13))
        (m ((c : Thread nD τ).loc main_arg19)) := by
  show StableHlo.after hostOps3 (W5 m ρ c) (Proc.devRef .tc main_v39) = _
  after_results
  rw [y0e m ρ c, scaleE m ρ c]
  unfold Cert.ReferenceIdeal.ReadP.val_main_v53 Cert.ReferenceIdeal.ReadP.val_main_v51 Cert.ReferenceIdeal.ReadP.val_main_v50
    Cert.ReferenceIdeal.ReadP.val_main_v49 Cert.ReferenceIdeal.ReadP.val_main_v48 Cert.ReferenceIdeal.ReadP.val_main_v47
    Cert.ReferenceIdeal.ReadP.val_main_v46 Cert.ReferenceIdeal.ReadP.val_main_v44 Cert.ReferenceIdeal.ReadP.val_main_v42
    Cert.ReferenceIdeal.ReadP.val_main_v41 Cert.ReferenceIdeal.ReadP.val_main_v43 Cert.ReferenceIdeal.ReadP.val_main_v52
    Cert.ReferenceIdeal.ReadP.val_main_cst_4 Cert.ReferenceIdeal.ReadP.val_main_cst_5 Cert.ReferenceIdeal.ReadP.val_main_cst_6
    Cert.ReferenceIdeal.ReadP.val_main_cst_7
  generalize Cert.ReferenceIdeal.ReadP.val_main_v40 (F := Ideal) _ _ _ = y
  generalize Cert.ReferenceIdeal.ReadP.val_main_v45 (F := Ideal) _ = g
  rfl

end Cert.KernelIdeal.Stages

end
-- ==== Proof.Stage.Ea.lean ====
/-
  Each block of edge rows is centred, scaled by the inverse root of the variance plus epsilon, weighted and shifted: entry by entry the reference's chain.
-/
import proofs.«423839_j69329362092378_2_alg».proof.Defs
import proofs.«423839_j69329362092378_2_alg».proof.Proof.Stage.StatsE
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.ValueIdx

variable [hPre : Cert.Pre_finite_inputs.Facts]
variable (m : (ℓ : Loc nD τ sig) → Buf (Elt Ideal) ℓ) (ρ : Dev nD → PrngReg)

namespace Ea

/-! ## One entry of the kernel's block and of the reference's array -/

/-- The body's stored value at entry `(p, q)` of a block: the row entry centred by the running-mean weight times the
    column mean, scaled by the inverse root of the column variance plus the small constant, weighted and shifted. -/
theorem pay_apply (x0 : Vec Ideal S16000x32 .f32) (x1 x2 x3 x4 x5 : Vec Ideal S1x32 .f32) (p : Fin 16000) (q : Fin 32) :
    k3_pay1 (F := Ideal) x0 x5 x1 x2 x3 x4 (ix2 p q)
      = (x0 (ix2 p q) - x5 (ix2 (0 : Fin 1) q) * x1 (ix2 (0 : Fin 1) q))
          * Ideal.rsqrt (x2 (ix2 (0 : Fin 1) q) + Ideal.ofBits .f32 0x3727C5AC#32)
          * x3 (ix2 (0 : Fin 1) q) + x4 (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

open Cert.ReferenceIdeal.ReadP in
/-- The reference's chain from the linear layer's output to the normalised array, read at entry `(r, q)`: the same
    expression, of the column statistics at `(0, q)` and of the three parameter vectors at `q`. -/
theorem ref_apply (x6 : (⟨S800000x32, .f32⟩ : BufTy).Contents (Elt Ideal)) (x12 : (⟨S32x32, .f32⟩ : BufTy).Contents (Elt Ideal))
    (x13 x17 x18 x19 : (⟨S32, .f32⟩ : BufTy).Contents (Elt Ideal)) (r : Fin 800000) (q : Fin 32) :
    val_main_v64 (F := Ideal) x6 x12 x13 x17 x18 x19 (ix2 r q)
      = (val_main_v40 (F := Ideal) x6 x12 x13 (ix2 r q) - x19 (ix1 q) * val_main_v44 (F := Ideal) x6 x12 x13 (ix2 (0 : Fin 1) q))
          * Ideal.rsqrt (val_main_v53 (F := Ideal) x6 x12 x13 x19 (ix2 (0 : Fin 1) q) + Ideal.ofBits .f32 0x3727C5AC#32)
          * x17 (ix1 q) + x18 (ix1 q) := by
  rw [val_main_v64_apply, val_main_v61_apply, val_main_v58_apply, val_main_v48_apply, val_main_v47_apply,
    val_main_v46_apply, val_main_v45_apply, val_main_v57_apply, val_main_v56_apply, val_main_v55_apply,
    val_main_v54_apply, val_main_cst_8_apply, val_main_v60_apply, val_main_v59_apply, val_main_v63_apply,
    val_main_v62_apply]
  have e47 : idx_main_v47 (ix2 r q) = ix2 (0 : Fin 1) q :=
    funext fun a => Fin.ext (by match a with | ⟨0, _⟩ => rfl | ⟨1, _⟩ => rfl)
  have e57 : idx_main_v57 (ix2 r q) = ix2 (0 : Fin 1) q :=
    funext fun a => Fin.ext (by match a with | ⟨0, _⟩ => rfl | ⟨1, _⟩ => rfl)
  have e60 : idx_main_v60 (ix2 r q) = ix2 (0 : Fin 1) q :=
    funext fun a => Fin.ext (by match a with | ⟨0, _⟩ => rfl | ⟨1, _⟩ => rfl)
  have e63 : idx_main_v63 (ix2 r q) = ix2 (0 : Fin 1) q :=
    funext fun a => Fin.ext (by match a with | ⟨0, _⟩ => rfl | ⟨1, _⟩ => rfl)
  have e45 : idx_main_v45 (ix2 (0 : Fin 1) q) = ix1 q :=
    funext fun a => Fin.ext (by match a with | ⟨0, _⟩ => rfl)
  have e59 : idx_main_v59 (ix2 (0 : Fin 1) q) = ix1 q :=
    funext fun a => Fin.ext (by match a with | ⟨0, _⟩ => rfl)
  have e62 : idx_main_v62 (ix2 (0 : Fin 1) q) = ix1 q :=
    funext fun a => Fin.ext (by match a with | ⟨0, _⟩ => rfl)
  rw [e47, e57, e60, e63, e45, e59, e62]
  rfl

open Cert.ReferenceIdeal.ReadP in
/-- So a block entry `j` and an array entry `i` in the same column agree as soon as the block's row entry is the linear
    layer's output at `i`, the statistics' blocks are the reference's statistics, and the parameter blocks are the
    parameter vectors as one-row arrays. -/
theorem entry_eq (x0 : Vec Ideal S16000x32 .f32)
    (x6 : (⟨S800000x32, .f32⟩ : BufTy).Contents (Elt Ideal)) (x12 : (⟨S32x32, .f32⟩ : BufTy).Contents (Elt Ideal))
    (x13 x17 x18 x19 : (⟨S32, .f32⟩ : BufTy).Contents (Elt Ideal))
    (j : S16000x32.Idx) (i : S800000x32.Idx) (hi : (i 1).val = (j 1).val)
    (h0 : x0 j = val_main_v40 (F := Ideal) x6 x12 x13 i) :
    k3_pay1 (F := Ideal) x0 (shapeCast S1x32 x19 shapeCasts_S32_S1x32) (val_main_v44 (F := Ideal) x6 x12 x13)
        (val_main_v53 (F := Ideal) x6 x12 x13 x19) (shapeCast S1x32 x17 shapeCasts_S32_S1x32)
        (shapeCast S1x32 x18 shapeCasts_S32_S1x32) j
      = val_main_v64 (F := Ideal) x6 x12 x13 x17 x18 x19 i := by
  obtain ⟨p, q, rfl⟩ : ∃ (p : Fin 16000) (q : Fin 32), j = ix2 p q := ⟨j 0, j 1, eq_ix2 j⟩
  obtain ⟨r, q', rfl⟩ : ∃ (r : Fin 800000) (q' : Fin 32), i = ix2 r q' := ⟨i 0, i 1, eq_ix2 i⟩
  obtain rfl : q' = q := Fin.ext hi
  rw [pay_apply, ref_apply, h0, shapeCast_a_1a_apply, shapeCast_a_1a_apply, shapeCast_a_1a_apply]

/-! ## The arrays region 3 finds -/

/-- The stretch before region 3 computes the statistics and leaves the linear layer's output alone. -/
theorem entry_y (c : Dev nD) :
    W6 m ρ c (Proc.devRef .tc main_v27) =
      Cert.ReferenceIdeal.ReadP.val_main_v40 (F := Ideal) (m ((c : Thread nD τ).loc main_arg6)) (m ((c : Thread nD τ).loc main_arg12)) (m ((c : Thread nD τ).loc main_arg13)) :=
  (StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (y0e m ρ c)

/-- The weight row, written by the first stretch, is untouched until region 3 starts. -/
theorem walk_w (c : Dev nD) :
    W6 m ρ c (Proc.devRef .tc main_v10) = W1 m ρ c (Proc.devRef .tc main_v10) :=
  calc W6 m ρ c (Proc.devRef .tc main_v10)
    _ = W5 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)

/-- The shift row likewise. -/
theorem walk_b (c : Dev nD) :
    W6 m ρ c (Proc.devRef .tc main_v11) = W1 m ρ c (Proc.devRef .tc main_v11) :=
  calc W6 m ρ c (Proc.devRef .tc main_v11)
    _ = W5 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v11) := W5_of_ne m ρ c main_v11 (by decide)
    _ = W3 m ρ c (Proc.devRef .tc main_v11) := W4_of_ne m ρ c main_v11 (by decide)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)

/-- The running-mean weight row likewise. -/
theorem walk_ms (c : Dev nD) :
    W6 m ρ c (Proc.devRef .tc main_v12) = W1 m ρ c (Proc.devRef .tc main_v12) :=
  calc W6 m ρ c (Proc.devRef .tc main_v12)
    _ = W5 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v12) := W5_of_ne m ρ c main_v12 (by decide)
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

/-- The weight row is the weight vector as a one-row array. -/
theorem entry_w (c : Dev nD) :
    (W6 m ρ c (Proc.devRef .tc main_v10) : S1x32.Idx → EReal) = shapeCast S1x32 (m ((c : Thread nD τ).loc main_arg17)) shapeCasts_S32_S1x32 := by
  rw [walk_w]
  show StableHlo.after hostOps0 (W0 m ρ c) (Proc.devRef .tc main_v10) = _
  after_results
  rfl
/-- The shift row is the shift vector as a one-row array. -/
theorem entry_b (c : Dev nD) :
    (W6 m ρ c (Proc.devRef .tc main_v11) : S1x32.Idx → EReal) = shapeCast S1x32 (m ((c : Thread nD τ).loc main_arg18)) shapeCasts_S32_S1x32 := by
  rw [walk_b]
  show StableHlo.after hostOps0 (W0 m ρ c) (Proc.devRef .tc main_v11) = _
  after_results
  rfl
/-- The running-mean weight row is that vector as a one-row array. -/
theorem entry_ms (c : Dev nD) :
    (W6 m ρ c (Proc.devRef .tc main_v12) : S1x32.Idx → EReal) = shapeCast S1x32 (m ((c : Thread nD τ).loc main_arg19)) shapeCasts_S32_S1x32 := by
  rw [walk_ms]
  show StableHlo.after hostOps0 (W0 m ρ c) (Proc.devRef .tc main_v12) = _
  after_results
  rfl

/-! ## What point `t` writes back -/

theorem hz : (![0, 0] : Fin 2 → Nat) = fun _ => 0 := funext fun a => by fin_cases a <;> rfl

/-- The printed index maps, decided over the grid's fifty points: the row windows (input and output) sit at block `t` of
    the rows, every one-row window at its only block. -/
theorem idx_facts : ∀ t : Fin cfg3.N,
    win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The mean window's block is the reference's column means, at every point. -/
theorem blk_mean (c : Dev nD) (t : Fin cfg3.N) :
    (iblk3 (V6 m ρ) c 1 t : S1x32.Idx → EReal) = Cert.ReferenceIdeal.ReadP.val_main_v44 (F := Ideal) (m ((c : Thread nD τ).loc main_arg6)) (m ((c : Thread nD τ).loc main_arg12)) (m ((c : Thread nD τ).loc main_arg13)) := by
  obtain ⟨-, -, -, -, e0, e1, -, -, -, -, -, -, -, -⟩ := idx_facts t
  funext x
  unfold iblk3
  rw [View.read_apply]
  show W6 m ρ c (Proc.devRef .tc main_v31) _ = _
  rw [meane m ρ c]
  refine congrArg _ (funext fun a => Fin.ext ?_)
  match a with
  | ⟨0, _⟩ => show win3_1.index t (0 : Fin 2) * 1 + 1 * (x 0).val = (x 0).val; rw [e0]; omega
  | ⟨1, _⟩ => show win3_1.index t (1 : Fin 2) * 32 + 1 * (x 1).val = (x 1).val; rw [e1]; omega

/-- The variance window's block is the reference's column variances. -/
theorem blk_var (c : Dev nD) (t : Fin cfg3.N) :
    (iblk3 (V6 m ρ) c 2 t : S1x32.Idx → EReal) = Cert.ReferenceIdeal.ReadP.val_main_v53 (F := Ideal) (m ((c : Thread nD τ).loc main_arg6)) (m ((c : Thread nD τ).loc main_arg12)) (m ((c : Thread nD τ).loc main_arg13)) (m ((c : Thread nD τ).loc main_arg19)) := by
  obtain ⟨-, -, -, -, -, -, e0, e1, -, -, -, -, -, -⟩ := idx_facts t
  funext x
  unfold iblk3
  rw [View.read_apply]
  show W6 m ρ c (Proc.devRef .tc main_v39) _ = _
  rw [vare m ρ c]
  refine congrArg _ (funext fun a => Fin.ext ?_)
  match a with
  | ⟨0, _⟩ => show win3_2.index t (0 : Fin 2) * 1 + 1 * (x 0).val = (x 0).val; rw [e0]; omega
  | ⟨1, _⟩ => show win3_2.index t (1 : Fin 2) * 32 + 1 * (x 1).val = (x 1).val; rw [e1]; omega

/-- The weight window's block is the weight vector as one row. -/
theorem blk_w (c : Dev nD) (t : Fin cfg3.N) :
    (iblk3 (V6 m ρ) c 3 t : S1x32.Idx → EReal) = shapeCast S1x32 (m ((c : Thread nD τ).loc main_arg17)) shapeCasts_S32_S1x32 := by
  obtain ⟨-, -, -, -, -, -, -, -, e0, e1, -, -, -, -⟩ := idx_facts t
  funext x
  unfold iblk3
  rw [View.read_apply]
  show W6 m ρ c (Proc.devRef .tc main_v10) _ = _
  rw [entry_w m ρ c]
  refine congrArg _ (funext fun a => Fin.ext ?_)
  match a with
  | ⟨0, _⟩ => show win3_3.index t (0 : Fin 2) * 1 + 1 * (x 0).val = (x 0).val; rw [e0]; omega
  | ⟨1, _⟩ => show win3_3.index t (1 : Fin 2) * 32 + 1 * (x 1).val = (x 1).val; rw [e1]; omega

/-- The shift window's block is the shift vector as one row. -/
theorem blk_b (c : Dev nD) (t : Fin cfg3.N) :
    (iblk3 (V6 m ρ) c 4 t : S1x32.Idx → EReal) = shapeCast S1x32 (m ((c : Thread nD τ).loc main_arg18)) shapeCasts_S32_S1x32 := by
  obtain ⟨-, -, -, -, -, -, -, -, -, -, e0, e1, -, -⟩ := idx_facts t
  funext x
  unfold iblk3
  rw [View.read_apply]
  show W6 m ρ c (Proc.devRef .tc main_v11) _ = _
  rw [entry_b m ρ c]
  refine congrArg _ (funext fun a => Fin.ext ?_)
  match a with
  | ⟨0, _⟩ => show win3_4.index t (0 : Fin 2) * 1 + 1 * (x 0).val = (x 0).val; rw [e0]; omega
  | ⟨1, _⟩ => show win3_4.index t (1 : Fin 2) * 32 + 1 * (x 1).val = (x 1).val; rw [e1]; omega

/-- The running-mean weight window's block is that vector as one row. -/
theorem blk_ms (c : Dev nD) (t : Fin cfg3.N) :
    (iblk3 (V6 m ρ) c 5 t : S1x32.Idx → EReal) = shapeCast S1x32 (m ((c : Thread nD τ).loc main_arg19)) shapeCasts_S32_S1x32 := by
  obtain ⟨-, -, -, -, -, -, -, -, -, -, -, -, e0, e1⟩ := idx_facts t
  funext x
  unfold iblk3
  rw [View.read_apply]
  show W6 m ρ c (Proc.devRef .tc main_v12) _ = _
  rw [entry_ms m ρ c]
  refine congrArg _ (funext fun a => Fin.ext ?_)
  match a with
  | ⟨0, _⟩ => show win3_5.index t (0 : Fin 2) * 1 + 1 * (x 0).val = (x 0).val; rw [e0]; omega
  | ⟨1, _⟩ => show win3_5.index t (1 : Fin 2) * 32 + 1 * (x 1).val = (x 1).val; rw [e1]; omega

/-- The row window's block at point `t` is rows `16000 t … 16000 t + 15999` of the linear layer's output. -/
theorem blk_y (c : Dev nD) (t : Fin cfg3.N) (x : S16000x32.Idx) (k : S800000x32.Idx)
    (hk0 : (k 0).val = t.val * 16000 + (x 0).val) (hk1 : (k 1).val = (x 1).val) :
    (iblk3 (V6 m ρ) c 0 t : S16000x32.Idx → EReal) x
      = Cert.ReferenceIdeal.ReadP.val_main_v40 (F := Ideal) (m ((c : Thread nD τ).loc main_arg6)) (m ((c : Thread nD τ).loc main_arg12)) (m ((c : Thread nD τ).loc main_arg13)) k := by
  obtain ⟨e0, e1, -⟩ := idx_facts t
  unfold iblk3
  rw [View.read_apply]
  show W6 m ρ c (Proc.devRef .tc main_v27) _ = _
  rw [entry_y m ρ c]
  refine congrArg _ (funext fun a => Fin.ext ?_)
  match a with
  | ⟨0, _⟩ => show win3_0.index t (0 : Fin 2) * 16000 + 1 * (x 0).val = (k 0).val; rw [e0, hk0]; omega
  | ⟨1, _⟩ => show win3_0.index t (1 : Fin 2) * 32 + 1 * (x 1).val = (k 1).val; rw [e1, hk1]; omega

/-- WHAT POINT `t` WRITES BACK is block `t` of the reference's normalised array. -/
theorem flushed_eq (c : Dev nD) (t : Fin cfg3.N) :
    (dat3 (V6 m ρ) c).flushed 6 t = ((cfg3.win 6).blk t).view.read (Elt Ideal)
      (Cert.ReferenceIdeal.ReadP.val_main_v64 (F := Ideal) (m ((c : Thread nD τ).loc main_arg6)) (m ((c : Thread nD τ).loc main_arg12)) (m ((c : Thread nD τ).loc main_arg13))
        (m ((c : Thread nD τ).loc main_arg17)) (m ((c : Thread nD τ).loc main_arg18)) (m ((c : Thread nD τ).loc main_arg19))) := by
  show (cfg3.win 6).cut (grid3.coords t) ((dat3 (V6 m ρ) c).after 6 t) = _
  rw [after3_6]
  unfold out3_6
  rw [View.canon_unit_zero hz]
  simp only [View.ld_unit_zero (S := S16000x32) hz, View.ld_unit_zero (S := S1x32) hz]
  rw [blk_mean m ρ c t, blk_var m ρ c t, blk_w m ρ c t, blk_b m ρ c t, blk_ms m ρ c t]
  obtain ⟨-, -, e0, e1, -⟩ := idx_facts t
  funext j
  rw [View.read_apply]
  refine entry_eq (iblk3 (V6 m ρ) c 0 t) (m ((c : Thread nD τ).loc main_arg6)) (m ((c : Thread nD τ).loc main_arg12)) (m ((c : Thread nD τ).loc main_arg13))
        (m ((c : Thread nD τ).loc main_arg17)) (m ((c : Thread nD τ).loc main_arg18)) (m ((c : Thread nD τ).loc main_arg19))
    ((cfg3.win 6).xinj (grid3.coords t) j) (((cfg3.win 6).blk t).view.emb j) ?_ ?_
  · show win3_6.index t (1 : Fin 2) * 32 + 1 * (j 1).val = (j 1).val
    rw [e1]; omega
  · refine blk_y m ρ c t _ _ ?_ ?_
    · show win3_6.index t (0 : Fin 2) * 16000 + 1 * (j 0).val = t.val * 16000 + (j 0).val
      rw [e0]; omega
    · show win3_6.index t (1 : Fin 2) * 32 + 1 * (j 1).val = (j 1).val
      rw [e1]; omega

/-! ## The blocks tile the array -/

/-- An entry of the array is in point `t`'s block iff each coordinate is in the block's range on its axis. -/
theorem mem_blk (t : Fin cfg3.N) (i : S800000x32.Idx) :
    i ∈ ((cfg3.win 6).blk t).view.set ↔ ∀ a : Fin 2, win3_6.index t a * S16000x32.size a ≤ (i a).val ∧ (i a).val < win3_6.index t a * S16000x32.size a + S16000x32.size a := by
  show i ∈ ((View.whole main_v40).slice (win3_6.rect t)).set ↔ _
  rw [View.set_slice_whole, Rect.mem_set_unit]
  exact Iff.rfl

/-- Row `r` is written back by point `r / 16000`. -/
theorem cover (i : S800000x32.Idx) :
    ∃ t : Fin cfg3.N, (cfg3.win 6).flush t = true ∧ i ∈ ((cfg3.win 6).blk t).view.set := by
  have h0 : (i 0).val < 800000 := (i 0).isLt
  have h1 : (i 1).val < 32 := (i 1).isLt
  have ht : (i 0).val / 16000 < 50 := by omega
  obtain ⟨-, -, e0, e1, -⟩ := idx_facts ⟨(i 0).val / 16000, ht⟩
  refine ⟨⟨(i 0).val / 16000, ht⟩, flush3_6 _, ?_⟩
  rw [mem_blk]
  intro a
  match a with
  | ⟨0, _⟩ =>
    show win3_6.index ⟨(i 0).val / 16000, ht⟩ (0 : Fin 2) * 16000 ≤ (i 0).val ∧ (i 0).val < win3_6.index ⟨(i 0).val / 16000, ht⟩ (0 : Fin 2) * 16000 + 16000
    rw [e0]; show (i 0).val / 16000 * 16000 ≤ (i 0).val ∧ (i 0).val < (i 0).val / 16000 * 16000 + 16000; omega
  | ⟨1, _⟩ =>
    show win3_6.index ⟨(i 0).val / 16000, ht⟩ (1 : Fin 2) * 32 ≤ (i 1).val ∧ (i 1).val < win3_6.index ⟨(i 0).val / 16000, ht⟩ (1 : Fin 2) * 32 + 32
    rw [e1]; omega

end Ea

/-! ## The statement -/

/-- The normalised edge features. -/
theorem ea (c : Dev nD) :
    W7 m ρ c (Proc.devRef .tc main_v40) =
      Cert.ReferenceIdeal.ReadP.val_main_v64 (F := Ideal)
        (m ((c : Thread nD τ).loc main_arg6))
        (m ((c : Thread nD τ).loc main_arg12))
        (m ((c : Thread nD τ).loc main_arg13))
        (m ((c : Thread nD τ).loc main_arg17))
        (m ((c : Thread nD τ).loc main_arg18))
        (m ((c : Thread nD τ).loc main_arg19)) :=
  (W7_arr m ρ c 6).trans
    ((dat3 (V6 m ρ) c).arrAt_eq_of_cover 6 _ (fun t _ => Ea.flushed_eq m ρ c t) Ea.cover)

end Cert.KernelIdeal.Stages

end
-- ==== Proof.Stage.TakeLemma.lean ====
/-
  A row lookup with a guard. The kernel program looks rows of a table up at the source row numbers (a negative number
  counting from the end), and then replaces a row by a not-a-number wherever the number read falls outside [0, 49999];
  the reference looks the rows up and keeps them. Where every source row number is at least -50000 and below 50000 the
  number read (the source number, with fifty thousand added if it is negative) is in [0, 49999], the guard (a reduction
  by `and` of two comparisons) is 1 on every row, and the guarded lookup is the plain one, whatever the table. The
  precondition says exactly that of the source row numbers: they are the numbers that name a row of a 50000-row table.
-/
import proofs.«423839_j69329362092378_2_alg».proof.Defs
import proofs.«423839_j69329362092378_2_alg».proof.Proof.Gen.KernelIdeal
import proofs.«423839_j69329362092378_2_alg».proof.Proof.RefRead
import Idealize.ShloMosaic.Lib.ReduceAll
import Idealize.ShloMosaic.Lib.DynamicIndex
import Idealize.ShloMosaic.Lib.ValueIdx
import Idealize.ShloMosaic.Lib.StableHlo.Predicate

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.StableHlo.Predicate (ofBool_eq_one_iff)

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and`, from 1, of an array of ones is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

variable {F : FTy → Type} [FloatOps F]

/-- The column of row numbers a lookup reads at: a negative number counts from the end. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The lookup's guard, one bit per row: the row number read is in [0, 49999]. -/
def guardOf (src : IVec S800000 32) : IVec S800000 1 :=
  Host.reduce IntOp.andi
    (andi (cmpi .sge (wrapIdx src) (broadcastInDim S800000x1 ![] bcast_S_S800000x1 (constantI S_ 32 0#32)))
      (cmpi .sle (wrapIdx src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The row lookup with its guard: a row whose number falls outside [0, 49999] is filled with a not-a-number. -/
def takeRows (x : FVec F S50000x138 .f32) (src : IVec S800000 32) : FVec F S800000x138 .f32 :=
  select (broadcastInDim S800000x138 ![0] bcast_S800000_S800000x138_0 (guardOf src))
    (Host.gather gather_S50000x138_S800000x1_S800000x138_1_0_n_n_0_1_1138 x (wrapIdx src))
    (broadcastInDim S800000x138 ![] bcast_S_S800000x138 (constant S_ .f32 0x7FC00000#32))

/-- Where the index is negative a select on "index below zero" takes its first operand. -/
theorem select_slt_zero_of_neg {s : Shape} {α : Type} {w : Nat} (i : IVec s w) (a b : s.Idx → α) (j : s.Idx) (h : (i j).toInt < 0) :
    select (cmpi .slt i (constantI s w 0#w)) a b j = a j := by
  have hlt : (i j).slt 0#w = true := by
    simp only [BitVec.slt, BitVec.toInt_zero, decide_eq_true_eq]
    exact h
  show (if BitVec.ofBool ((i j).slt 0#w) = 1 then _ else _) = _
  rw [hlt]
  rfl

/-- Adding fifty thousand to a word in [-50000, 0), read signed, lands in [0, 50000): nothing wraps around. -/
theorem toInt_add_of_neg (w : BitVec 32) (hlo : -50000 ≤ w.toInt) (hneg : w.toInt < 0) :
    (w + 50000#32).toInt = w.toInt + 50000 := by
  have e1 : (50000#32 : BitVec 32).toInt = 50000 := by decide
  have e32 : ((2 ^ 32 : Nat) : Int) = 4294967296 := by norm_num
  rw [BitVec.toInt_add, e1]
  unfold Int.bmod
  dsimp only
  rw [e32]
  split <;> omega

/-- A word that is at least -50000 and below 50000, read signed: with fifty thousand added if it is negative, and as it is
    otherwise, it passes both tests of the guard. (The word 4294917296 is -50000 read signed.) -/
theorem wrapped_word (w : BitVec 32) (h0 : IntOp.cmpi .sge w 4294917296#32 = 1#1) (h1 : IntOp.cmpi .slt w 50000#32 = 1#1) :
    (w.toInt < 0 → IntOp.andi (IntOp.cmpi .sge (w + 50000#32) 0#32) (IntOp.cmpi .sle (w + 50000#32) 49999#32) = 1#1)
    ∧ (0 ≤ w.toInt → IntOp.andi (IntOp.cmpi .sge w 0#32) (IntOp.cmpi .sle w 49999#32) = 1#1) := by
  have e0 : (0#32 : BitVec 32).toInt = 0 := by decide
  have em : (4294917296#32 : BitVec 32).toInt = -50000 := by decide
  have e1 : (50000#32 : BitVec 32).toInt = 50000 := by decide
  have e2 : (49999#32 : BitVec 32).toInt = 49999 := by decide
  have alo : -50000 ≤ w.toInt := by
    unfold IntOp.cmpi at h0
    have := (ofBool_eq_one_iff _).1 h0
    simp only [BitVec.sle, decide_eq_true_eq, em] at this
    exact this
  have ahi : w.toInt < 50000 := by
    unfold IntOp.cmpi at h1
    have := (ofBool_eq_one_iff _).1 h1
    simp only [BitVec.slt, decide_eq_true_eq, e1] at this
    exact this
  have both : ∀ v : BitVec 32, 0 ≤ v.toInt → v.toInt ≤ 49999 →
      IntOp.andi (IntOp.cmpi .sge v 0#32) (IntOp.cmpi .sle v 49999#32) = 1#1 := by
    intro v hv0 hv1
    have a : IntOp.cmpi .sge v 0#32 = 1#1 := by
      unfold IntOp.cmpi
      rw [ofBool_eq_one_iff]
      simp only [BitVec.sle, decide_eq_true_eq, e0]
      exact hv0
    have b : IntOp.cmpi .sle v 49999#32 = 1#1 := by
      unfold IntOp.cmpi
      rw [ofBool_eq_one_iff]
      simp only [BitVec.sle, decide_eq_true_eq, e2]
      exact hv1
    rw [a, b]; decide
  refine ⟨fun hneg => ?_, fun hnn => both w hnn (by omega)⟩
  have e := toInt_add_of_neg w alo hneg
  exact both _ (by omega) (by omega)

/-- Where every row number is in [-50000, 50000) the number read at a row, the source number wrapped, passes both tests of the guard. -/
theorem wrapIdx_guard (src : IVec S800000 32) (h0 : ∀ i, IntOp.cmpi .sge (src i) 4294917296#32 = 1#1)
    (h1 : ∀ i, IntOp.cmpi .slt (src i) 50000#32 = 1#1) (k : S800000x1.Idx) :
    IntOp.andi (IntOp.cmpi .sge (wrapIdx src k) 0#32) (IntOp.cmpi .sle (wrapIdx src k) 49999#32) = 1#1 := by
  unfold wrapIdx broadcastInDim
  generalize hj : (fun a => _ : S800000.Idx) = j
  by_cases hneg : (src j).toInt < 0
  · have e : select (cmpi .slt src (broadcastInDim S800000 ![] bcast_S_S800000 (constantI S_ 32 0#32)))
        (addi src (broadcastInDim S800000 ![] bcast_S_S800000 (constantI S_ 32 50000#32))) src j = src j + 50000#32 :=
      select_slt_zero_of_neg src _ _ j hneg
    exact e ▸ (wrapped_word _ (h0 j) (h1 j)).1 hneg
  · have e : select (cmpi .slt src (broadcastInDim S800000 ![] bcast_S_S800000 (constantI S_ 32 0#32)))
        (addi src (broadcastInDim S800000 ![] bcast_S_S800000 (constantI S_ 32 50000#32))) src j = src j :=
      select_slt_zero_of_nonneg src _ _ j (Int.not_lt.mp hneg)
    exact e ▸ (wrapped_word _ (h0 j) (h1 j)).2 (Int.not_lt.mp hneg)

/-- Where every row number is in [-50000, 50000) the guard passes on every row. -/
theorem guardOf_eq_one (src : IVec S800000 32) (h0 : ∀ i, IntOp.cmpi .sge (src i) 4294917296#32 = 1#1)
    (h1 : ∀ i, IntOp.cmpi .slt (src i) 50000#32 = 1#1) (k : S800000.Idx) : guardOf src k = 1#1 := by
  unfold guardOf
  refine reduce_andi_ones _ _ _ _ rfl (fun i => ?_) k
  exact wrapIdx_guard src h0 h1 i

/-- Where every row number is in [-50000, 50000) the guarded lookup is the plain one. -/
theorem takeRows_eq (x : FVec F S50000x138 .f32) (src : IVec S800000 32)
    (h0 : ∀ i, IntOp.cmpi .sge (src i) 4294917296#32 = 1#1) (h1 : ∀ i, IntOp.cmpi .slt (src i) 50000#32 = 1#1) :
    takeRows x src = Host.gather gather_S50000x138_S800000x1_S800000x138_1_0_n_n_0_1_1138 x (wrapIdx src) := by
  funext j
  unfold takeRows
  rw [ValueIdx.select_apply]
  have hj : broadcastInDim S800000x138 ![0] bcast_S800000_S800000x138_0 (guardOf src) j = 1#1 := by
    unfold broadcastInDim
    exact guardOf_eq_one src h0 h1 _
  rw [hj]
  exact ValueIdx.select_one _ _

variable [hPre : Cert.Pre_finite_inputs.Facts]

instance : Subsingleton Cert.Pre_finite_inputs.S_.Idx := ⟨fun a b => funext fun d => d.elim0⟩

/-- Under the precondition every source row number, read signed, is at least -50000 and below 50000. -/
theorem src_range (m : (ℓ : Loc nD τ sig) → Buf (Elt Ideal) ℓ) (hpre : Cert.Pre_KernelIdeal m) (c : Dev nD) (i : S800000.Idx) :
    IntOp.cmpi .sge (Cert.ReferenceIdeal.ReadP.val_main_v1 (F := Ideal) (m ((c : Thread nD τ).loc main_arg2)) i) 4294917296#32 = 1#1
    ∧ IntOp.cmpi .slt (Cert.ReferenceIdeal.ReadP.val_main_v1 (F := Ideal) (m ((c : Thread nD τ).loc main_arg2)) i) 50000#32 = 1#1 := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at e
  obtain ⟨e', e134⟩ := IntOp.andi_eq_one.1 e
  obtain ⟨-, e128⟩ := IntOp.andi_eq_one.1 e'
  exact ⟨Host.reduce_andi_all _ _ _ _ _ e128 i, Host.reduce_andi_all _ _ _ _ _ e134 i⟩

/-- Under the precondition the guarded lookup of ANY table at the source row numbers is the plain lookup. -/
theorem take_of_pre (m : (ℓ : Loc nD τ sig) → Buf (Elt Ideal) ℓ) (hpre : Cert.Pre_KernelIdeal m) (c : Dev nD)
    (x : FVec Ideal S50000x138 .f32) :
    takeRows x (Cert.ReferenceIdeal.ReadP.val_main_v1 (F := Ideal) (m ((c : Thread nD τ).loc main_arg2)))
      = Host.gather gather_S50000x138_S800000x1_S800000x138_1_0_n_n_0_1_1138 x
          (wrapIdx (Cert.ReferenceIdeal.ReadP.val_main_v1 (F := Ideal) (m ((c : Thread nD τ).loc main_arg2)))) :=
  takeRows_eq x _ (fun i => (src_range m hpre c i).1) (fun i => (src_range m hpre c i).2)

/-- The column read is the reference's own index column of its first lookup. -/
theorem wrapIdx_ref (x2 : IVec S2x800000 32) :
    wrapIdx (Cert.ReferenceIdeal.ReadP.val_main_v1 (F := Ideal) x2) = Cert.ReferenceIdeal.ReadP.val_main_v71 (F := Ideal) x2 := rfl

end Cert.KernelIdeal.Stages

end
-- ==== Proof.Stage.Msg1.lean ====
/-
  Layer 1. Where every source index names a node row the masked row lookup is the plain one; a row of [h_src, e] times W is the row of h_src times W's upper 138 rows plus the row of e times its lower 32 rows, a sum over 170 terms split in two; the messages are then summed at their destinations and cut at zero, the same operations on both sides.
-/
import proofs.«423839_j69329362092378_2_alg».proof.Defs
import proofs.«423839_j69329362092378_2_alg».proof.Proof.Stage.X1
import proofs.«423839_j69329362092378_2_alg».proof.Proof.Stage.Ea
import proofs.«423839_j69329362092378_2_alg».proof.Proof.Stage.TakeLemma
import Mathlib.Algebra.BigOperators.Fin
import Idealize.ShloMosaic.Lib.ValueIdx
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

variable [hPre : Cert.Pre_finite_inputs.Facts]

namespace Msg

/-! ## The message kernel's two products, each read at an index -/

theorem lhsH_0 (i : S8000x10.Idx) (q : dot_S8000x138_S138x10_S8000x10_1_0_0_1_n_n.contr.Idx) :
    (dot_S8000x138_S138x10_S8000x10_1_0_0_1_n_n.lhsIdx i q 0).val = (i 0).val := by
  unfold DotDims.lhsIdx
  rw [dif_neg (show ¬(0 : Fin S8000x138.rank) ∈ dot_S8000x138_S138x10_S8000x10_1_0_0_1_n_n.lhsBatch by decide), dif_pos (show (0 : Fin S8000x138.rank) ∈ dot_S8000x138_S138x10_S8000x10_1_0_0_1_n_n.lhsNonContracting by decide)]
  rfl
theorem lhsH_1 (i : S8000x10.Idx) (q : dot_S8000x138_S138x10_S8000x10_1_0_0_1_n_n.contr.Idx) :
    (dot_S8000x138_S138x10_S8000x10_1_0_0_1_n_n.lhsIdx i q 1).val = (q ⟨0, by decide⟩).val :=
  dot_S8000x138_S138x10_S8000x10_1_0_0_1_n_n.lhsIdx_val_of_single rfl i q
theorem rhsH_0 (i : S8000x10.Idx) (q : dot_S8000x138_S138x10_S8000x10_1_0_0_1_n_n.contr.Idx) :
    (dot_S8000x138_S138x10_S8000x10_1_0_0_1_n_n.rhsIdx i q 0).val = (q ⟨0, by decide⟩).val :=
  dot_S8000x138_S138x10_S8000x10_1_0_0_1_n_n.rhsIdx_val_of_single rfl i q
theorem rhsH_1 (i : S8000x10.Idx) (q : dot_S8000x138_S138x10_S8000x10_1_0_0_1_n_n.contr.Idx) :
    (dot_S8000x138_S138x10_S8000x10_1_0_0_1_n_n.rhsIdx i q 1).val = (i 1).val := by
  unfold DotDims.rhsIdx
  rw [dif_neg (show ¬(1 : Fin S138x10.rank) ∈ dot_S8000x138_S138x10_S8000x10_1_0_0_1_n_n.rhsBatch by decide), dif_pos (show (1 : Fin S138x10.rank) ∈ dot_S8000x138_S138x10_S8000x10_1_0_0_1_n_n.rhsNonContracting by decide)]
  rfl

theorem lhsE_0 (i : S8000x10.Idx) (q : dot_S8000x32_S32x10_S8000x10_1_0_0_1_n_n.contr.Idx) :
    (dot_S8000x32_S32x10_S8000x10_1_0_0_1_n_n.lhsIdx i q 0).val = (i 0).val := by
  unfold DotDims.lhsIdx
  rw [dif_neg (show ¬(0 : Fin S8000x32.rank) ∈ dot_S8000x32_S32x10_S8000x10_1_0_0_1_n_n.lhsBatch by decide), dif_pos (show (0 : Fin S8000x32.rank) ∈ dot_S8000x32_S32x10_S8000x10_1_0_0_1_n_n.lhsNonContracting by decide)]
  rfl
theorem lhsE_1 (i : S8000x10.Idx) (q : dot_S8000x32_S32x10_S8000x10_1_0_0_1_n_n.contr.Idx) :
    (dot_S8000x32_S32x10_S8000x10_1_0_0_1_n_n.lhsIdx i q 1).val = (q ⟨0, by decide⟩).val :=
  dot_S8000x32_S32x10_S8000x10_1_0_0_1_n_n.lhsIdx_val_of_single rfl i q
theorem rhsE_0 (i : S8000x10.Idx) (q : dot_S8000x32_S32x10_S8000x10_1_0_0_1_n_n.contr.Idx) :
    (dot_S8000x32_S32x10_S8000x10_1_0_0_1_n_n.rhsIdx i q 0).val = (q ⟨0, by decide⟩).val :=
  dot_S8000x32_S32x10_S8000x10_1_0_0_1_n_n.rhsIdx_val_of_single rfl i q
theorem rhsE_1 (i : S8000x10.Idx) (q : dot_S8000x32_S32x10_S8000x10_1_0_0_1_n_n.contr.Idx) :
    (dot_S8000x32_S32x10_S8000x10_1_0_0_1_n_n.rhsIdx i q 1).val = (i 1).val := by
  unfold DotDims.rhsIdx
  rw [dif_neg (show ¬(1 : Fin S32x10.rank) ∈ dot_S8000x32_S32x10_S8000x10_1_0_0_1_n_n.rhsBatch by decide), dif_pos (show (1 : Fin S32x10.rank) ∈ dot_S8000x32_S32x10_S8000x10_1_0_0_1_n_n.rhsNonContracting by decide)]
  rfl

/-- The node half of a block's product: row p of the looked-up rows times column q of the upper weights. -/
theorem matH_apply (a : FVec Ideal S8000x138 .bf16) (w : FVec Ideal S138x10 .bf16) (p : Fin 8000) (q : Fin 10) :
    matmul dot_S8000x138_S138x10_S8000x10_1_0_0_1_n_n none a w (constant S8000x10 .f32 0x00000000#32) (ValueIdx.ix2 p q)
      = ∑ k : Fin 138, a (ValueIdx.ix2 p k) * w (ValueIdx.ix2 k q) := by
  refine (Ideal.matmul_constant_zero_apply dot_S8000x138_S138x10_S8000x10_1_0_0_1_n_n none a w (ValueIdx.ix2 p q)).trans ?_
  rw [← Equiv.sum_comp (ValueIdx.contrEquiv1 dot_S8000x138_S138x10_S8000x10_1_0_0_1_n_n 138 rfl rfl).symm]
  refine Finset.sum_congr rfl fun k _ => ?_
  have hk := ValueIdx.contrEquiv1_symm_val dot_S8000x138_S138x10_S8000x10_1_0_0_1_n_n 138 rfl rfl k
  have el : dot_S8000x138_S138x10_S8000x10_1_0_0_1_n_n.lhsIdx (ValueIdx.ix2 p q) ((ValueIdx.contrEquiv1 dot_S8000x138_S138x10_S8000x10_1_0_0_1_n_n 138 rfl rfl).symm k) = ValueIdx.ix2 p k := funext fun a => Fin.ext (by
    match a with
    | ⟨0, _⟩ => exact lhsH_0 _ _
    | ⟨1, _⟩ => exact (lhsH_1 _ _).trans hk)
  have er : dot_S8000x138_S138x10_S8000x10_1_0_0_1_n_n.rhsIdx (ValueIdx.ix2 p q) ((ValueIdx.contrEquiv1 dot_S8000x138_S138x10_S8000x10_1_0_0_1_n_n 138 rfl rfl).symm k) = ValueIdx.ix2 k q := funext fun a => Fin.ext (by
    match a with
    | ⟨0, _⟩ => exact (rhsH_0 _ _).trans hk
    | ⟨1, _⟩ => exact rhsH_1 _ _)
  rw [el, er]

/-- The edge half: row p of the edge features times column q of the lower weights. -/
theorem matE_apply (a : FVec Ideal S8000x32 .bf16) (w : FVec Ideal S32x10 .bf16) (p : Fin 8000) (q : Fin 10) :
    matmul dot_S8000x32_S32x10_S8000x10_1_0_0_1_n_n none a w (constant S8000x10 .f32 0x00000000#32) (ValueIdx.ix2 p q)
      = ∑ k : Fin 32, a (ValueIdx.ix2 p k) * w (ValueIdx.ix2 k q) := by
  refine (Ideal.matmul_constant_zero_apply dot_S8000x32_S32x10_S8000x10_1_0_0_1_n_n none a w (ValueIdx.ix2 p q)).trans ?_
  rw [← Equiv.sum_comp (ValueIdx.contrEquiv1 dot_S8000x32_S32x10_S8000x10_1_0_0_1_n_n 32 rfl rfl).symm]
  refine Finset.sum_congr rfl fun k _ => ?_
  have hk := ValueIdx.contrEquiv1_symm_val dot_S8000x32_S32x10_S8000x10_1_0_0_1_n_n 32 rfl rfl k
  have el : dot_S8000x32_S32x10_S8000x10_1_0_0_1_n_n.lhsIdx (ValueIdx.ix2 p q) ((ValueIdx.contrEquiv1 dot_S8000x32_S32x10_S8000x10_1_0_0_1_n_n 32 rfl rfl).symm k) = ValueIdx.ix2 p k := funext fun a => Fin.ext (by
    match a with
    | ⟨0, _⟩ => exact lhsE_0 _ _
    | ⟨1, _⟩ => exact (lhsE_1 _ _).trans hk)
  have er : dot_S8000x32_S32x10_S8000x10_1_0_0_1_n_n.rhsIdx (ValueIdx.ix2 p q) ((ValueIdx.contrEquiv1 dot_S8000x32_S32x10_S8000x10_1_0_0_1_n_n 32 rfl rfl).symm k) = ValueIdx.ix2 k q := funext fun a => Fin.ext (by
    match a with
    | ⟨0, _⟩ => exact (rhsE_0 _ _).trans hk
    | ⟨1, _⟩ => exact rhsE_1 _ _)
  rw [el, er]

/-- The bias row spread over a block's rows, read at an index. -/
theorem biasRow_apply (b : FVec Ideal S1x10 .f32) (p : Fin 8000) (q : Fin 10) :
    broadcastTo S8000x10 b broadcasts_S1x10_S8000x10 (ValueIdx.ix2 p q) = b (ValueIdx.ix2 (0 : Fin 1) q) :=
  broadcastTo_apply b broadcasts_S1x10_S8000x10 (ValueIdx.ix2 p q) (ValueIdx.ix2 (0 : Fin 1) q) (fun a => by
    match a with
    | ⟨0, _⟩ => rfl
    | ⟨1, _⟩ => rfl)

/-- One block's messages at an index: the node half plus the edge half plus the bias. -/
theorem pay4_apply (h : Vec Ideal S8000x138 .f32) (wh : Vec Ideal S138x10 .f32) (e : Vec Ideal S8000x32 .f32)
    (we : Vec Ideal S32x10 .f32) (b : Vec Ideal S1x10 .f32) (p : Fin 8000) (q : Fin 10) :
    (k4_pay1 (F := Ideal) h wh e we b) (ValueIdx.ix2 p q)
      = (∑ k : Fin 138, h (ValueIdx.ix2 p k) * wh (ValueIdx.ix2 k q)) + (∑ k : Fin 32, e (ValueIdx.ix2 p k) * we (ValueIdx.ix2 k q))
        + b (ValueIdx.ix2 (0 : Fin 1) q) := by
  unfold k4_pay1
  simp only [shapeCast_self]
  refine (ValueIdx.addf_apply _ _ _).trans ?_
  refine congrArg₂ (· + ·) ((ValueIdx.addf_apply _ _ _).trans (congrArg₂ (· + ·) ?_ ?_)) (biasRow_apply b p q)
  · exact matH_apply _ _ p q
  · exact matE_apply _ _ p q

/-! ## The messages as one function of the five arrays the message kernel reads -/

/-- One edge's message in one channel: its looked-up row times the upper weights' column, plus its feature row times
    the lower weights' column, plus the bias. -/
def msgAt (A : FVec Ideal S800000x138 .f32) (E : FVec Ideal S800000x32 .f32) (Wh : FVec Ideal S138x10 .f32)
    (We : FVec Ideal S32x10 .f32) (B : FVec Ideal S1x10 .f32) (P : Fin 800000) (q : Fin 10) : Ideal .f32 :=
  (∑ k : Fin 138, A (ValueIdx.ix2 P k) * Wh (ValueIdx.ix2 k q)) + (∑ k : Fin 32, E (ValueIdx.ix2 P k) * We (ValueIdx.ix2 k q))
    + B (ValueIdx.ix2 (0 : Fin 1) q)

/-- All the messages. -/
def msgRows (A : FVec Ideal S800000x138 .f32) (E : FVec Ideal S800000x32 .f32) (Wh : FVec Ideal S138x10 .f32)
    (We : FVec Ideal S32x10 .f32) (B : FVec Ideal S1x10 .f32) : FVec Ideal S800000x10 .f32 :=
  fun i => msgAt A E Wh We B (i 0) (i 1)

/-! ## The same messages as the reference writes them -/

/-- The reference's messages from four arrays: [A, E] joined along the columns, times W, plus the bias spread over the rows. -/
def refMsg (A : FVec Ideal Cert.ReferenceIdeal.S800000x138 .f32) (E : FVec Ideal Cert.ReferenceIdeal.S800000x32 .f32)
    (W : FVec Ideal Cert.ReferenceIdeal.S170x10 .f32) (b : FVec Ideal Cert.ReferenceIdeal.S10 .f32) :
    FVec Ideal Cert.ReferenceIdeal.S800000x10 .f32 :=
  addf (Host.dotGeneral Cert.ReferenceIdeal.dot_S800000x170_S170x10_S800000x10_1_0_0_1_n_n none
      (concatenate Cert.ReferenceIdeal.S800000x170 1 [⟨Cert.ReferenceIdeal.S800000x138, A⟩, ⟨Cert.ReferenceIdeal.S800000x32, E⟩]
        Cert.ReferenceIdeal.Gen.concatenates_S800000x138_S800000x32_S800000x170_d1) W)
    (broadcastInDim Cert.ReferenceIdeal.S800000x10 ![0, 1] Cert.ReferenceIdeal.Gen.bcast_S1x10_S800000x10_0_1
      (broadcastInDim Cert.ReferenceIdeal.S1x10 ![1] Cert.ReferenceIdeal.Gen.bcast_S10_S1x10_1 b))

/-- The joined array's product with W at an index: a sum over the 170 joined columns. -/
theorem refDot_apply (Y : FVec Ideal Cert.ReferenceIdeal.S800000x170 .f32) (W : FVec Ideal Cert.ReferenceIdeal.S170x10 .f32)
    (P : Fin 800000) (q : Fin 10) :
    Host.dotGeneral Cert.ReferenceIdeal.dot_S800000x170_S170x10_S800000x10_1_0_0_1_n_n none Y W (ValueIdx.ix2 P q)
      = ∑ k : Fin 170, Y (ValueIdx.ix2 P k) * W (ValueIdx.ix2 k q) := by
  simp only [Host.dotGeneral]
  rw [Ideal.dotGeneral_apply, ← Equiv.sum_comp (ValueIdx.contrEquiv1 Cert.ReferenceIdeal.dot_S800000x170_S170x10_S800000x10_1_0_0_1_n_n 170 rfl rfl).symm]
  refine Finset.sum_congr rfl fun k _ => ?_
  have hk := ValueIdx.contrEquiv1_symm_val Cert.ReferenceIdeal.dot_S800000x170_S170x10_S800000x10_1_0_0_1_n_n 170 rfl rfl k
  have el : Cert.ReferenceIdeal.dot_S800000x170_S170x10_S800000x10_1_0_0_1_n_n.lhsIdx (ValueIdx.ix2 P q) ((ValueIdx.contrEquiv1 Cert.ReferenceIdeal.dot_S800000x170_S170x10_S800000x10_1_0_0_1_n_n 170 rfl rfl).symm k) = ValueIdx.ix2 P k := funext fun a => Fin.ext (by
    match a with
    | ⟨0, _⟩ => exact Cert.ReferenceIdeal.ReadP.lhs_main_v74_0 _ _
    | ⟨1, _⟩ => exact (Cert.ReferenceIdeal.ReadP.lhs_main_v74_1 _ _).trans hk)
  have er : Cert.ReferenceIdeal.dot_S800000x170_S170x10_S800000x10_1_0_0_1_n_n.rhsIdx (ValueIdx.ix2 P q) ((ValueIdx.contrEquiv1 Cert.ReferenceIdeal.dot_S800000x170_S170x10_S800000x10_1_0_0_1_n_n 170 rfl rfl).symm k) = ValueIdx.ix2 k q := funext fun a => Fin.ext (by
    match a with
    | ⟨0, _⟩ => exact (Cert.ReferenceIdeal.ReadP.rhs_main_v74_0 _ _).trans hk
    | ⟨1, _⟩ => exact Cert.ReferenceIdeal.ReadP.rhs_main_v74_1 _ _)
  rw [el, er]

/-- The joined array read in its first 138 columns is A. -/
theorem joined_left (A : FVec Ideal Cert.ReferenceIdeal.S800000x138 .f32) (E : FVec Ideal Cert.ReferenceIdeal.S800000x32 .f32)
    (P : Fin 800000) (k : Fin 138) :
    concatenate Cert.ReferenceIdeal.S800000x170 1 [⟨Cert.ReferenceIdeal.S800000x138, A⟩, ⟨Cert.ReferenceIdeal.S800000x32, E⟩]
        Cert.ReferenceIdeal.Gen.concatenates_S800000x138_S800000x32_S800000x170_d1 (ValueIdx.ix2 P (Fin.castAdd 32 k : Fin 170))
      = A (ValueIdx.ix2 P k) :=
  concatenate_pair_apply_left (t := Cert.ReferenceIdeal.S800000x170) (s₁ := Cert.ReferenceIdeal.S800000x138) (s₂ := Cert.ReferenceIdeal.S800000x32) 1 A E
    Cert.ReferenceIdeal.Gen.concatenates_S800000x138_S800000x32_S800000x170_d1 (ValueIdx.ix2 P (Fin.castAdd 32 k : Fin 170)) rfl (ValueIdx.ix2 P k) (fun b => by
    match b with
    | ⟨0, _⟩ => rfl
    | ⟨1, _⟩ => rfl)

/-- The joined array read in its last 32 columns is E. -/
theorem joined_right (A : FVec Ideal Cert.ReferenceIdeal.S800000x138 .f32) (E : FVec Ideal Cert.ReferenceIdeal.S800000x32 .f32)
    (P : Fin 800000) (k : Fin 32) :
    concatenate Cert.ReferenceIdeal.S800000x170 1 [⟨Cert.ReferenceIdeal.S800000x138, A⟩, ⟨Cert.ReferenceIdeal.S800000x32, E⟩]
        Cert.ReferenceIdeal.Gen.concatenates_S800000x138_S800000x32_S800000x170_d1 (ValueIdx.ix2 P (Fin.natAdd 138 k : Fin 170))
      = E (ValueIdx.ix2 P k) :=
  concatenate_pair_apply_right (t := Cert.ReferenceIdeal.S800000x170) (s₁ := Cert.ReferenceIdeal.S800000x138) (s₂ := Cert.ReferenceIdeal.S800000x32) 1 A E
    Cert.ReferenceIdeal.Gen.concatenates_S800000x138_S800000x32_S800000x170_d1 (ValueIdx.ix2 P (Fin.natAdd 138 k : Fin 170)) rfl rfl (ValueIdx.ix2 P k) (fun b hb => by
    match b with
    | ⟨0, _⟩ => rfl
    | ⟨1, _⟩ => exact absurd rfl hb) (by
    show k.val + 138 = 138 + k.val
    omega)

/-- The bias spread over the rows, at an index. -/
theorem refBias_apply (b : FVec Ideal Cert.ReferenceIdeal.S10 .f32) (P : Fin 800000) (q : Fin 10) :
    broadcastInDim Cert.ReferenceIdeal.S800000x10 ![0, 1] Cert.ReferenceIdeal.Gen.bcast_S1x10_S800000x10_0_1
        (broadcastInDim Cert.ReferenceIdeal.S1x10 ![1] Cert.ReferenceIdeal.Gen.bcast_S10_S1x10_1 b) (ValueIdx.ix2 P q)
      = b (ValueIdx.ix1 q) := by
  refine (broadcastInDim_apply _ Cert.ReferenceIdeal.Gen.bcast_S1x10_S800000x10_0_1 _ (ValueIdx.ix2 P q) (ValueIdx.ix2 (0 : Fin 1) q) (fun a => by
    match a with
    | ⟨0, _⟩ => rfl
    | ⟨1, _⟩ => rfl)).trans ?_
  exact broadcastInDim_apply _ Cert.ReferenceIdeal.Gen.bcast_S10_S1x10_1 b (ValueIdx.ix2 (0 : Fin 1) q) (ValueIdx.ix1 q) (fun a => by
    match a with
    | ⟨0, _⟩ => rfl)

/-- The kernel's messages are the reference's: a sum over the 170 joined columns is the sum over the first 138 plus the
    sum over the last 32, where the joined array is A, then E, and W's rows are its upper block, then its lower block. -/
theorem msgRows_eq_ref (A : FVec Ideal S800000x138 .f32) (E : FVec Ideal S800000x32 .f32) (Wh : FVec Ideal S138x10 .f32)
    (We : FVec Ideal S32x10 .f32) (B : FVec Ideal S1x10 .f32) (W : FVec Ideal S170x10 .f32) (b : FVec Ideal S10 .f32)
    (hWh : ∀ (k : Fin 138) (q : Fin 10), Wh (ValueIdx.ix2 k q) = W (ValueIdx.ix2 (Fin.castAdd 32 k : Fin 170) q))
    (hWe : ∀ (k : Fin 32) (q : Fin 10), We (ValueIdx.ix2 k q) = W (ValueIdx.ix2 (Fin.natAdd 138 k : Fin 170) q))
    (hB : ∀ q : Fin 10, B (ValueIdx.ix2 (0 : Fin 1) q) = b (ValueIdx.ix1 q)) :
    msgRows A E Wh We B = refMsg A E W b := by
  funext i
  obtain ⟨P, q, rfl⟩ : ∃ (P : Fin 800000) (q : Fin 10), i = ValueIdx.ix2 P q := ⟨i 0, i 1, ValueIdx.eq_ix2 i⟩
  show msgAt A E Wh We B P q = _
  unfold refMsg
  refine Eq.trans ?_ (ValueIdx.addf_apply _ _ _).symm
  rw [refDot_apply, refBias_apply]
  unfold msgAt
  rw [hB]
  refine congrArg (· + b (ValueIdx.ix1 q)) ?_
  refine Eq.trans ?_ (Fin.sum_univ_add (a := 138) (b := 32) fun k : Fin (138 + 32) =>
    concatenate Cert.ReferenceIdeal.S800000x170 1 [⟨Cert.ReferenceIdeal.S800000x138, A⟩, ⟨Cert.ReferenceIdeal.S800000x32, E⟩]
        Cert.ReferenceIdeal.Gen.concatenates_S800000x138_S800000x32_S800000x170_d1 (ValueIdx.ix2 P (k : Fin 170))
      * W (ValueIdx.ix2 (k : Fin 170) q)).symm
  refine congrArg₂ (· + ·) (Finset.sum_congr rfl fun k _ => ?_) (Finset.sum_congr rfl fun k _ => ?_)
  · rw [joined_left, hWh]
  · rw [joined_right, hWe]

/-! ## The weights' two blocks and the bias row, read at an index -/

/-- The upper 138 rows of the weights. -/
theorem upper_apply (W : FVec Ideal S170x10 .f32) (k : Fin 138) (q : Fin 10) :
    extractStridedSlice S138x10 ![0, 0] W slices_S170x10_S138x10_0_0 (ValueIdx.ix2 k q)
      = W (ValueIdx.ix2 (Fin.castAdd 32 k : Fin 170) q) :=
  extractStridedSlice_apply ![0, 0] W slices_S170x10_S138x10_0_0 (ValueIdx.ix2 k q) (ValueIdx.ix2 (Fin.castAdd 32 k : Fin 170) q) (fun a => by
    match a with
    | ⟨0, _⟩ => show k.val = 0 + k.val; omega
    | ⟨1, _⟩ => show q.val = 0 + q.val; omega)

/-- The lower 32 rows of the weights. -/
theorem lower_apply (W : FVec Ideal S170x10 .f32) (k : Fin 32) (q : Fin 10) :
    extractStridedSlice S32x10 ![138, 0] W slices_S170x10_S32x10_138_0 (ValueIdx.ix2 k q)
      = W (ValueIdx.ix2 (Fin.natAdd 138 k : Fin 170) q) :=
  extractStridedSlice_apply ![138, 0] W slices_S170x10_S32x10_138_0 (ValueIdx.ix2 k q) (ValueIdx.ix2 (Fin.natAdd 138 k : Fin 170) q) (fun a => by
    match a with
    | ⟨0, _⟩ => show 138 + k.val = 138 + k.val; rfl
    | ⟨1, _⟩ => show q.val = 0 + q.val; omega)

/-- The bias as a one-row array. -/
theorem biasRow_of (b : FVec Ideal S10 .f32) (q : Fin 10) :
    shapeCast S1x10 b shapeCasts_S10_S1x10 (ValueIdx.ix2 (0 : Fin 1) q) = b (ValueIdx.ix1 q) :=
  shapeCast_apply b shapeCasts_S10_S1x10 (ValueIdx.ix2 (0 : Fin 1) q) (ValueIdx.ix1 q) (by
    rewrite [Shape.rowMajor_val_one, Shape.rowMajor_val_two]; show q.val = 0 * 10 + q.val; omega)

/-! ## The two programs' names for the same operations -/

/-- The messages summed at their destinations from zero, then cut at zero: the same operations on both sides. -/
def aggOf (dst : IVec S800000 32) (u : FVec Ideal S800000x10 .f32) : FVec Ideal S50000x10 .f32 :=
  maximumf (Host.scatterAdd scatter_S50000x10_S800000x1_S800000x10_1_0_0_1
      (broadcastInDim S50000x10 ![] bcast_S_S50000x10 (constant S_ .f32 0x00000000#32))
      (broadcastInDim S800000x1 ![0] bcast_S800000_S800000x1_0 dst) u)
    (broadcastInDim S50000x10 ![] bcast_S_S50000x10 (constant S_ .f32 0x00000000#32))

theorem aggOf_names (dst : IVec S800000 32) (u : FVec Ideal S800000x10 .f32) :
    aggOf dst u = maximumf (Host.scatterAdd Cert.ReferenceIdeal.scatter_S50000x10_S800000x1_S800000x10_1_0_0_1
        (broadcastInDim Cert.ReferenceIdeal.S50000x10 ![] Cert.ReferenceIdeal.Gen.bcast_S_S50000x10 (constant Cert.ReferenceIdeal.S_ .f32 0x00000000#32))
        (broadcastInDim Cert.ReferenceIdeal.S800000x1 ![0] Cert.ReferenceIdeal.Gen.bcast_S800000_S800000x1_0 dst) u)
      (broadcastInDim Cert.ReferenceIdeal.S50000x10 ![] Cert.ReferenceIdeal.Gen.bcast_S_S50000x10 (constant Cert.ReferenceIdeal.S_ .f32 0x00000000#32)) := rfl

theorem gather_names (T : FVec Ideal S50000x138 .f32) (ix : IVec S800000x1 32) :
    Host.gather gather_S50000x138_S800000x1_S800000x138_1_0_n_n_0_1_1138 T ix
      = Host.gather Cert.ReferenceIdeal.gather_S50000x138_S800000x1_S800000x138_1_0_n_n_0_1_1138 T ix := rfl

theorem concat_names (x : FVec Ideal S50000x128 .f32) (s : FVec Ideal S50000x10 .f32) :
    concatenate S50000x138 1 [⟨S50000x128, x⟩, ⟨S50000x10, s⟩] concatenates_S50000x128_S50000x10_S50000x138_d1
      = concatenate Cert.ReferenceIdeal.S50000x138 1 [⟨Cert.ReferenceIdeal.S50000x128, x⟩, ⟨Cert.ReferenceIdeal.S50000x10, s⟩] Cert.ReferenceIdeal.Gen.concatenates_S50000x128_S50000x10_S50000x138_d1 := rfl

/-- Writing through a typed reference and reading back is the identity. -/
theorem ofBuf_toBuf {T : BufTy} (x : StableHlo.TRef sig T) (v : T.Contents (Elt Ideal)) : x.ofBuf (x.toBuf v) = v := by
  obtain ⟨r, h, _, _⟩ := x
  subst h
  rfl

end Msg

variable (m : (ℓ : Loc nD τ sig) → Buf (Elt Ideal) ℓ) (ρ : Dev nD → PrngReg)

set_option hygiene false in
/-- A stretch of host operations leaves a buffer it does not write as it was. -/
local macro "skip_host " ops:ident : tactic =>
  `(tactic| refine (StableHlo.after_of_forall_not_mem (b := _) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

namespace L0

/-! ## What the first layer finds at its first boundary -/

/-- The node features, as launched (the first region reads them through a window and leaves them). -/
theorem x (c : Dev nD) : W7 m ρ c (Proc.devRef .tc main_arg0) = m ((c : Thread nD τ).loc main_arg0) := by
  refine (W7_of_ne m ρ c main_arg0 (by decide)).trans ?_
  skip_host hostOps3
  refine (W5_of_ne m ρ c main_arg0 (by decide)).trans ?_
  refine (W4_of_ne m ρ c main_arg0 (by decide)).trans ?_
  skip_host hostOps1
  refine ((W2_arr m ρ c 0).trans (((dat0 (V1 m ρ) c).arrAt_in 0 rfl _).trans (A_eq0 (V1 m ρ) c 0))).trans ?_
  skip_host hostOps0
  rfl

theorem arg20 (c : Dev nD) : W7 m ρ c (Proc.devRef .tc main_arg20) = m ((c : Thread nD τ).loc main_arg20) := by
  refine (W7_of_ne m ρ c main_arg20 (by decide)).trans ?_
  skip_host hostOps3
  refine (W5_of_ne m ρ c main_arg20 (by decide)).trans ?_
  refine (W4_of_ne m ρ c main_arg20 (by decide)).trans ?_
  skip_host hostOps1
  refine (W2_of_ne m ρ c main_arg20 (by decide)).trans ?_
  skip_host hostOps0
  rfl

theorem arg21 (c : Dev nD) : W7 m ρ c (Proc.devRef .tc main_arg21) = m ((c : Thread nD τ).loc main_arg21) := by
  refine (W7_of_ne m ρ c main_arg21 (by decide)).trans ?_
  skip_host hostOps3
  refine (W5_of_ne m ρ c main_arg21 (by decide)).trans ?_
  refine (W4_of_ne m ρ c main_arg21 (by decide)).trans ?_
  skip_host hostOps1
  refine (W2_of_ne m ρ c main_arg21 (by decide)).trans ?_
  skip_host hostOps0
  rfl

theorem arg22 (c : Dev nD) : W7 m ρ c (Proc.devRef .tc main_arg22) = m ((c : Thread nD τ).loc main_arg22) := by
  refine (W7_of_ne m ρ c main_arg22 (by decide)).trans ?_
  skip_host hostOps3
  refine (W5_of_ne m ρ c main_arg22 (by decide)).trans ?_
  refine (W4_of_ne m ρ c main_arg22 (by decide)).trans ?_
  skip_host hostOps1
  refine (W2_of_ne m ρ c main_arg22 (by decide)).trans ?_
  skip_host hostOps0
  rfl

theorem arg23 (c : Dev nD) : W7 m ρ c (Proc.devRef .tc main_arg23) = m ((c : Thread nD τ).loc main_arg23) := by
  refine (W7_of_ne m ρ c main_arg23 (by decide)).trans ?_
  skip_host hostOps3
  refine (W5_of_ne m ρ c main_arg23 (by decide)).trans ?_
  refine (W4_of_ne m ρ c main_arg23 (by decide)).trans ?_
  skip_host hostOps1
  refine (W2_of_ne m ρ c main_arg23 (by decide)).trans ?_
  skip_host hostOps0
  rfl

theorem arg24 (c : Dev nD) : W7 m ρ c (Proc.devRef .tc main_arg24) = m ((c : Thread nD τ).loc main_arg24) := by
  refine (W7_of_ne m ρ c main_arg24 (by decide)).trans ?_
  skip_host hostOps3
  refine (W5_of_ne m ρ c main_arg24 (by decide)).trans ?_
  refine (W4_of_ne m ρ c main_arg24 (by decide)).trans ?_
  skip_host hostOps1
  refine (W2_of_ne m ρ c main_arg24 (by decide)).trans ?_
  skip_host hostOps0
  rfl

theorem arg25 (c : Dev nD) : W7 m ρ c (Proc.devRef .tc main_arg25) = m ((c : Thread nD τ).loc main_arg25) := by
  refine (W7_of_ne m ρ c main_arg25 (by decide)).trans ?_
  skip_host hostOps3
  refine (W5_of_ne m ρ c main_arg25 (by decide)).trans ?_
  refine (W4_of_ne m ρ c main_arg25 (by decide)).trans ?_
  skip_host hostOps1
  refine (W2_of_ne m ρ c main_arg25 (by decide)).trans ?_
  skip_host hostOps0
  rfl

theorem arg26 (c : Dev nD) : W7 m ρ c (Proc.devRef .tc main_arg26) = m ((c : Thread nD τ).loc main_arg26) := by
  refine (W7_of_ne m ρ c main_arg26 (by decide)).trans ?_
  skip_host hostOps3
  refine (W5_of_ne m ρ c main_arg26 (by decide)).trans ?_
  refine (W4_of_ne m ρ c main_arg26 (by decide)).trans ?_
  skip_host hostOps1
  refine (W2_of_ne m ρ c main_arg26 (by decide)).trans ?_
  skip_host hostOps0
  rfl

theorem arg27 (c : Dev nD) : W7 m ρ c (Proc.devRef .tc main_arg27) = m ((c : Thread nD τ).loc main_arg27) := by
  refine (W7_of_ne m ρ c main_arg27 (by decide)).trans ?_
  skip_host hostOps3
  refine (W5_of_ne m ρ c main_arg27 (by decide)).trans ?_
  refine (W4_of_ne m ρ c main_arg27 (by decide)).trans ?_
  skip_host hostOps1
  refine (W2_of_ne m ρ c main_arg27 (by decide)).trans ?_
  skip_host hostOps0
  rfl

/-- The source row numbers: row 0 of the edge index. -/
theorem src (c : Dev nD) :
    W7 m ρ c (Proc.devRef .tc main_v1) = Cert.ReferenceIdeal.ReadP.val_main_v1 (F := Ideal) (m ((c : Thread nD τ).loc main_arg2)) := by
  refine (W7_of_ne m ρ c main_v1 (by decide)).trans ?_
  skip_host hostOps3
  refine (W5_of_ne m ρ c main_v1 (by decide)).trans ?_
  refine (W4_of_ne m ρ c main_v1 (by decide)).trans ?_
  skip_host hostOps1
  refine (W2_of_ne m ρ c main_v1 (by decide)).trans ?_
  show StableHlo.after hostOps0 (W0 m ρ c) (Proc.devRef .tc main_v1) = _
  after_results
  show _ = Cert.ReferenceIdeal.ReadP.val_main_v1 (F := Ideal) (W0 m ρ c (Proc.devRef .tc main_arg2))
  generalize W0 m ρ c (Proc.devRef .tc main_arg2) = x2
  rfl

/-- The destination row numbers: row 1 of the edge index. -/
theorem dst (c : Dev nD) :
    W7 m ρ c (Proc.devRef .tc main_v3) = Cert.ReferenceIdeal.ReadP.val_main_v3 (F := Ideal) (m ((c : Thread nD τ).loc main_arg2)) := by
  refine (W7_of_ne m ρ c main_v3 (by decide)).trans ?_
  skip_host hostOps3
  refine (W5_of_ne m ρ c main_v3 (by decide)).trans ?_
  refine (W4_of_ne m ρ c main_v3 (by decide)).trans ?_
  skip_host hostOps1
  refine (W2_of_ne m ρ c main_v3 (by decide)).trans ?_
  show StableHlo.after hostOps0 (W0 m ρ c) (Proc.devRef .tc main_v3) = _
  after_results
  show _ = Cert.ReferenceIdeal.ReadP.val_main_v3 (F := Ideal) (W0 m ρ c (Proc.devRef .tc main_arg2))
  generalize W0 m ρ c (Proc.devRef .tc main_arg2) = x2
  rfl

/-- The node state the first layer starts from. -/
theorem state (hpre : Cert.Pre_KernelIdeal m) (c : Dev nD) :
    W7 m ρ c (Proc.devRef .tc main_v26) = Cert.ReferenceIdeal.ReadP.val_main_v36 (F := Ideal)
        (m ((c : Thread nD τ).loc main_arg0)) (m ((c : Thread nD τ).loc main_arg8)) (m ((c : Thread nD τ).loc main_arg9))
        (m ((c : Thread nD τ).loc main_arg10)) (m ((c : Thread nD τ).loc main_arg11)) (m ((c : Thread nD τ).loc main_arg14))
        (m ((c : Thread nD τ).loc main_arg15)) (m ((c : Thread nD τ).loc main_arg16)) := by
  refine (W7_of_ne m ρ c main_v26 (by decide)).trans ?_
  skip_host hostOps3
  refine (W5_of_ne m ρ c main_v26 (by decide)).trans ?_
  exact x1 m ρ c

/-- The normalised edge features. -/
theorem ea (c : Dev nD) : W7 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) :=
  Cert.KernelIdeal.Stages.ea m ρ c

end L0

namespace L1
open Msg

/-! ## The message kernel's array when it returns -/
section Region
variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: point t takes rows 8000 t … 8000 t + 7999 of the two edge arrays and of the
    result, and the whole of the two weight blocks and of the bias. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem blk4_0 (c : Dev nD) (t : Fin cfg4.N) (p : Fin 8000) (k : Fin 138) (P : Fin 800000) (hP : P.val = t.val * 8000 + p.val) :
    (iblk4 V c 0 t : Vec Ideal S8000x138 .f32) (ValueIdx.ix2 p k) = (V c main_v42 : FVec Ideal S800000x138 .f32) (ValueIdx.ix2 P k) := by
  obtain ⟨e0, e1, -⟩ := idx_facts4 t
  unfold iblk4
  rw [View.read_apply]
  show V c main_v42 _ = V c main_v42 _
  congr 1
  funext a
  apply Fin.ext
  match a with
  | ⟨0, _⟩ => show win4_0.index t 0 * 8000 + 1 * p.val = P.val; rw [e0, hP]; omega
  | ⟨1, _⟩ => show win4_0.index t 1 * 138 + 1 * k.val = k.val; rw [e1]; omega

theorem blk4_1 (c : Dev nD) (t : Fin cfg4.N) (p : Fin 8000) (k : Fin 32) (P : Fin 800000) (hP : P.val = t.val * 8000 + p.val) :
    (iblk4 V c 1 t : Vec Ideal S8000x32 .f32) (ValueIdx.ix2 p k) = (V c main_v40 : FVec Ideal S800000x32 .f32) (ValueIdx.ix2 P k) := by
  obtain ⟨-, -, e0, e1, -⟩ := idx_facts4 t
  unfold iblk4
  rw [View.read_apply]
  show V c main_v40 _ = V c main_v40 _
  congr 1
  funext a
  apply Fin.ext
  match a with
  | ⟨0, _⟩ => show win4_1.index t 0 * 8000 + 1 * p.val = P.val; rw [e0, hP]; omega
  | ⟨1, _⟩ => show win4_1.index t 1 * 32 + 1 * k.val = k.val; rw [e1]; omega

theorem blk4_2 (c : Dev nD) (t : Fin cfg4.N) (k : Fin 138) (q : Fin 10) :
    (iblk4 V c 2 t : Vec Ideal S138x10 .f32) (ValueIdx.ix2 k q) = (V c main_v43 : FVec Ideal S138x10 .f32) (ValueIdx.ix2 k q) := by
  obtain ⟨-, -, -, -, e0, e1, -⟩ := idx_facts4 t
  unfold iblk4
  rw [View.read_apply]
  show V c main_v43 _ = V c main_v43 _
  congr 1
  funext a
  apply Fin.ext
  match a with
  | ⟨0, _⟩ => show win4_2.index t 0 * 138 + 1 * k.val = k.val; rw [e0]; omega
  | ⟨1, _⟩ => show win4_2.index t 1 * 10 + 1 * q.val = q.val; rw [e1]; omega

theorem blk4_3 (c : Dev nD) (t : Fin cfg4.N) (k : Fin 32) (q : Fin 10) :
    (iblk4 V c 3 t : Vec Ideal S32x10 .f32) (ValueIdx.ix2 k q) = (V c main_v44 : FVec Ideal S32x10 .f32) (ValueIdx.ix2 k q) := by
  obtain ⟨-, -, -, -, -, -, e0, e1, -⟩ := idx_facts4 t
  unfold iblk4
  rw [View.read_apply]
  show V c main_v44 _ = V c main_v44 _
  congr 1
  funext a
  apply Fin.ext
  match a with
  | ⟨0, _⟩ => show win4_3.index t 0 * 32 + 1 * k.val = k.val; rw [e0]; omega
  | ⟨1, _⟩ => show win4_3.index t 1 * 10 + 1 * q.val = q.val; rw [e1]; omega

theorem blk4_4 (c : Dev nD) (t : Fin cfg4.N) (q : Fin 10) :
    (iblk4 V c 4 t : Vec Ideal S1x10 .f32) (ValueIdx.ix2 (0 : Fin 1) q) = (V c main_v45 : FVec Ideal S1x10 .f32) (ValueIdx.ix2 (0 : Fin 1) q) := by
  obtain ⟨-, -, -, -, -, -, -, -, e0, e1, -⟩ := idx_facts4 t
  unfold iblk4
  rw [View.read_apply]
  show V c main_v45 _ = V c main_v45 _
  congr 1
  funext a
  apply Fin.ext
  match a with
  | ⟨0, _⟩ => show win4_4.index t 0 * 1 + 1 * (0 : Fin 1).val = (0 : Fin 1).val; rw [e0]; rfl
  | ⟨1, _⟩ => show win4_4.index t 1 * 10 + 1 * q.val = q.val; rw [e1]; omega

/-- What the body computes at point t, row p, channel q, is the message of edge 8000 t + p in channel q. -/
theorem block_msg (c : Dev nD) (t : Fin cfg4.N) (p : Fin 8000) (q : Fin 10) (P : Fin 800000) (hP : P.val = t.val * 8000 + p.val) :
    k4_pay1 (F := Ideal) (iblk4 V c 0 t) (iblk4 V c 2 t) (iblk4 V c 1 t) (iblk4 V c 3 t) (iblk4 V c 4 t) (ValueIdx.ix2 p q)
      = msgAt (V c main_v42) (V c main_v40) (V c main_v43) (V c main_v44) (V c main_v45) P q := by
  refine (Msg.pay4_apply (iblk4 V c 0 t) (iblk4 V c 2 t) (iblk4 V c 1 t) (iblk4 V c 3 t) (iblk4 V c 4 t) p q).trans ?_
  unfold msgAt
  refine congrArg₂ (· + ·) (congrArg₂ (· + ·) (Finset.sum_congr rfl fun k _ => ?_) (Finset.sum_congr rfl fun k _ => ?_)) (blk4_4 V c t q)
  · exact congrArg₂ (· * ·) (blk4_0 V c t p k P hP) (blk4_2 V c t k q)
  · exact congrArg₂ (· * ·) (blk4_1 V c t p k P hP) (blk4_3 V c t k q)
end Region

section RegionArr
variable (V : (c : Dev nD) → (b : Ref sig .tc) → Buf (Elt Ideal) ((c : Thread nD τ).loc b))

/-- What point t writes back is block t of the messages. -/
theorem flushed4 (c : Dev nD) (t : Fin cfg4.N) :
    (dat4 V c).flushed 5 t = ((cfg4.win 5).blk t).view.read (Elt Ideal)
      (msgRows (V c main_v42) (V c main_v40) (V c main_v43) (V c main_v44) (V c main_v45)) := by
  show (cfg4.win 5).cut (grid4.coords t) ((dat4 V c).after 5 t) = _
  rw [after4_5]
  unfold out4_5
  rw [View.canon_unit_zero hz4]
  simp only [View.ld_unit_zero (S := S8000x138) hz4, View.ld_unit_zero (S := S8000x32) hz4, View.ld_unit_zero (S := S138x10) hz4,
    View.ld_unit_zero (S := S32x10) hz4, View.ld_unit_zero (S := S1x10) hz4]
  obtain ⟨-, -, -, -, -, -, -, -, -, -, e0, e1⟩ := idx_facts4 t
  funext j
  show k4_pay1 (F := Ideal) (iblk4 V c 0 t) (iblk4 V c 2 t) (iblk4 V c 1 t) (iblk4 V c 3 t) (iblk4 V c 4 t) ((win4 5).xinj (grid4.coords t) j)
    = msgRows (V c main_v42) (V c main_v40) (V c main_v43) (V c main_v44) (V c main_v45) (((cfg4.win 5).blk t).view.emb j)
  have hp : (j 0).val < 8000 := (j 0).isLt
  have hq : (j 1).val < 10 := (j 1).isLt
  have hN : cfg4.N = 100 := N_4
  have hlt : t.val * 8000 + (j 0).val < 800000 := by have := t.isLt; omega
  have hx : (win4 5).xinj (grid4.coords t) j = ValueIdx.ix2 (⟨(j 0).val, hp⟩ : Fin 8000) (⟨(j 1).val, hq⟩ : Fin 10) :=
    funext fun a => Fin.ext (by match a with | ⟨0, _⟩ => rfl | ⟨1, _⟩ => rfl)
  rw [hx]
  refine (block_msg V c t ⟨(j 0).val, hp⟩ ⟨(j 1).val, hq⟩ ⟨t.val * 8000 + (j 0).val, hlt⟩ rfl).trans ?_
  have h0 : (⟨t.val * 8000 + (j 0).val, hlt⟩ : Fin 800000) = ((((cfg4.win 5).blk t).view.emb j) 0 : Fin 800000) := Fin.ext (by
    show t.val * 8000 + (j 0).val = win4_5.index t 0 * 8000 + 1 * (j 0).val
    rw [e0]; omega)
  have h1 : (⟨(j 1).val, hq⟩ : Fin 10) = ((((cfg4.win 5).blk t).view.emb j) 1 : Fin 10) := Fin.ext (by
    show (j 1).val = win4_5.index t 1 * 10 + 1 * (j 1).val
    rw [e1]; omega)
  exact congrArg₂ (msgAt (V c main_v42) (V c main_v40) (V c main_v43) (V c main_v44) (V c main_v45)) h0 h1

/-- An index of the messages' array is in point t's block iff each coordinate is in the block's range on its axis. -/
theorem mem_blk4 (t : Fin cfg4.N) (i : S800000x10.Idx) :
    i ∈ ((cfg4.win 5).blk t).view.set ↔ ∀ a : Fin 2, win4_5.index t a * S8000x10.size a ≤ (i a).val ∧ (i a).val < win4_5.index t a * S8000x10.size a + S8000x10.size a := by
  show i ∈ ((View.whole main_v46).slice (win4_5.rect t)).set ↔ _
  rw [View.set_slice_whole, Rect.mem_set_unit]
  exact Iff.rfl

/-- Every edge row is in some point's block: row r in point r / 8000's. -/
theorem cover4 (i : S800000x10.Idx) : ∃ t : Fin cfg4.N, (cfg4.win 5).flush t = true ∧ i ∈ ((cfg4.win 5).blk t).view.set := by
  have hi0 : (i 0).val < 800000 := (i 0).isLt
  have hi1 : (i 1).val < 10 := (i 1).isLt
  have hN : cfg4.N = 100 := N_4
  have ht : (i 0).val / 8000 < cfg4.N := by omega
  obtain ⟨-, -, -, -, -, -, -, -, -, -, e0, e1⟩ := idx_facts4 ⟨(i 0).val / 8000, ht⟩
  refine ⟨⟨(i 0).val / 8000, ht⟩, flush4_5 _, ?_⟩
  rw [mem_blk4]
  intro a
  match a with
  | ⟨0, _⟩ =>
    show win4_5.index ⟨(i 0).val / 8000, ht⟩ 0 * 8000 ≤ (i 0).val ∧ (i 0).val < win4_5.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win4_5.index ⟨(i 0).val / 8000, ht⟩ 1 * 10 ≤ (i 1).val ∧ (i 1).val < win4_5.index ⟨(i 0).val / 8000, ht⟩ 1 * 10 + 10
    rw [e1]; omega

/-- The messages' array when the message kernel returns. -/
theorem msg_arr (c : Dev nD) :
    (dat4 V c).arrAt 5 cfg4.N = msgRows (V c main_v42) (V c main_v40) (V c main_v43) (V c main_v44) (V c main_v45) :=
  (dat4 V c).arrAt_eq_of_cover 5 _ (fun t _ => flushed4 V c t) cover4
end RegionArr

/-! ## The guarded lookup and the cut at zero, read at their written buffers -/

set_option maxHeartbeats 2000000 in
theorem take_key (V : Valuation τ sig (Elt Ideal)) :
    (StableHlo.TRef.of main_v42 : StableHlo.TRef sig ⟨S800000x138, .f32⟩).ofBuf (StableHlo.after hostOps4_1 V (Proc.devRef .tc main_v42))
      = takeRows (F := Ideal)
          ((StableHlo.TRef.of main_v41 : StableHlo.TRef sig ⟨S50000x138, .f32⟩).ofBuf (V (Proc.devRef .tc main_v41)))
          ((StableHlo.TRef.of main_v1 : StableHlo.TRef sig ⟨S800000, .i32⟩).ofBuf (V (Proc.devRef .tc main_v1))) := by
  after_results_simp
  simp only [Msg.ofBuf_toBuf]
  unfold takeRows guardOf wrapIdx
  rfl

/-- The looked-up rows are the guarded lookup of the joined table at the source row numbers. -/
theorem rows_take (c : Dev nD) :
    W9 m ρ c (Proc.devRef .tc main_v42)
      = takeRows (F := Ideal) (W8 m ρ c (Proc.devRef .tc main_v41)) (W8 m ρ c (Proc.devRef .tc main_v1)) := by
  have key := take_key (W8 m ρ c)
  show StableHlo.after hostOps4_1 (W8 m ρ c) (Proc.devRef .tc main_v42) = _
  generalize StableHlo.after hostOps4_1 (W8 m ρ c) (Proc.devRef .tc main_v42) = L at key ⊢
  generalize W8 m ρ c (Proc.devRef .tc main_v41) = a at key ⊢
  generalize W8 m ρ c (Proc.devRef .tc main_v1) = b at key ⊢
  exact key

theorem relu_key (V : Valuation τ sig (Elt Ideal)) :
    (StableHlo.TRef.of main_v50 : StableHlo.TRef sig ⟨S50000x10, .f32⟩).ofBuf (StableHlo.after hostOps5_1 V (Proc.devRef .tc main_v50))
      = maximumf (F := Ideal) ((StableHlo.TRef.of main_v49 : StableHlo.TRef sig ⟨S50000x10, .f32⟩).ofBuf (V (Proc.devRef .tc main_v49)))
          (broadcastInDim S50000x10 ![] bcast_S_S50000x10 (constant S_ .f32 0x00000000#32)) := by
  after_results_simp
  simp only [Msg.ofBuf_toBuf]

/-- The layer's result is the summed messages cut at zero. -/
theorem out_relu (c : Dev nD) :
    W13 m ρ c (Proc.devRef .tc main_v50)
      = maximumf (F := Ideal) (W12 m ρ c (Proc.devRef .tc main_v49)) (broadcastInDim S50000x10 ![] bcast_S_S50000x10 (constant S_ .f32 0x00000000#32)) := by
  have key := relu_key (W12 m ρ c)
  show StableHlo.after hostOps5_1 (W12 m ρ c) (Proc.devRef .tc main_v50) = _
  generalize StableHlo.after hostOps5_1 (W12 m ρ c) (Proc.devRef .tc main_v50) = L at key ⊢
  generalize W12 m ρ c (Proc.devRef .tc main_v49) = a at key ⊢
  exact key

/-! ## The layer, boundary by boundary -/

/-- The joined node table [x, state]. -/
theorem tbl (hpre : Cert.Pre_KernelIdeal m) (c : Dev nD) : W8 m ρ c (Proc.devRef .tc main_v41) = Cert.ReferenceIdeal.ReadP.val_main_v65 (F := Ideal) (m ((c : Thread nD τ).loc main_arg0)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) := by
  have e0 := L0.x m ρ c
  have e1 := L0.state m ρ hpre c
  show StableHlo.after hostOps4 (W7 m ρ c) (Proc.devRef .tc main_v41) = _
  generalize W7 m ρ c = V at e0 e1 ⊢
  after_results
  rw [e0, e1]
  unfold Cert.ReferenceIdeal.ReadP.val_main_v65
  exact Msg.concat_names _ _

theorem src1 (c : Dev nD) : W8 m ρ c (Proc.devRef .tc main_v1) = Cert.ReferenceIdeal.ReadP.val_main_v1 (F := Ideal) (m ((c : Thread nD τ).loc main_arg2)) := by
  skip_host hostOps4
  exact L0.src m ρ c

/-- The reference's index column of this layer's lookup is the column read. -/
theorem idx_ref (x2 : IVec S2x800000 32) : wrapIdx (Cert.ReferenceIdeal.ReadP.val_main_v1 (F := Ideal) x2) = Cert.ReferenceIdeal.ReadP.val_main_v71 (F := Ideal) x2 := rfl

/-- The looked-up rows. -/
theorem rows (hpre : Cert.Pre_KernelIdeal m) (c : Dev nD) : W9 m ρ c (Proc.devRef .tc main_v42) = Cert.ReferenceIdeal.ReadP.val_main_v72 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) := by
  rw [rows_take m ρ c, tbl m ρ hpre c, src1 m ρ c, take_of_pre m hpre c, idx_ref]
  unfold Cert.ReferenceIdeal.ReadP.val_main_v72
  exact Msg.gather_names _ _

theorem rows3 (hpre : Cert.Pre_KernelIdeal m) (c : Dev nD) : W10 m ρ c (Proc.devRef .tc main_v42) = Cert.ReferenceIdeal.ReadP.val_main_v72 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) := by
  skip_host hostOps4_2
  exact rows m ρ hpre c

theorem ea3 (c : Dev nD) : W10 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps4_2
  skip_host hostOps4_1
  skip_host hostOps4
  exact L0.ea m ρ c

theorem argW2 (c : Dev nD) : W9 m ρ c (Proc.devRef .tc main_arg20) = (m ((c : Thread nD τ).loc main_arg20)) := by
  skip_host hostOps4_1
  skip_host hostOps4
  exact L0.arg20 m ρ c

theorem argB2 (c : Dev nD) : W9 m ρ c (Proc.devRef .tc main_arg21) = (m ((c : Thread nD τ).loc main_arg21)) := by
  skip_host hostOps4_1
  skip_host hostOps4
  exact L0.arg21 m ρ c

theorem wh3 (c : Dev nD) : W10 m ρ c (Proc.devRef .tc main_v43) = extractStridedSlice S138x10 ![0, 0] (m ((c : Thread nD τ).loc main_arg20)) slices_S170x10_S138x10_0_0 := by
  have e := argW2 m ρ c
  show StableHlo.after hostOps4_2 (W9 m ρ c) (Proc.devRef .tc main_v43) = _
  generalize W9 m ρ c = V at e ⊢
  after_results
  rw [e]

theorem we3 (c : Dev nD) : W10 m ρ c (Proc.devRef .tc main_v44) = extractStridedSlice S32x10 ![138, 0] (m ((c : Thread nD τ).loc main_arg20)) slices_S170x10_S32x10_138_0 := by
  have e := argW2 m ρ c
  show StableHlo.after hostOps4_2 (W9 m ρ c) (Proc.devRef .tc main_v44) = _
  generalize W9 m ρ c = V at e ⊢
  after_results
  rw [e]

theorem br3 (c : Dev nD) : W10 m ρ c (Proc.devRef .tc main_v45) = shapeCast S1x10 (m ((c : Thread nD τ).loc main_arg21)) shapeCasts_S10_S1x10 := by
  have e := argB2 m ρ c
  show StableHlo.after hostOps4_2 (W9 m ρ c) (Proc.devRef .tc main_v45) = _
  generalize W9 m ρ c = V at e ⊢
  after_results
  rw [e]
  rfl

/-- The reference's messages, its stages unfolded one level each. -/
theorem ref_msg (c : Dev nD) : Cert.ReferenceIdeal.ReadP.val_main_v77 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) = Msg.refMsg (Cert.ReferenceIdeal.ReadP.val_main_v72 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))) (Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19))) (m ((c : Thread nD τ).loc main_arg20)) (m ((c : Thread nD τ).loc main_arg21)) := by
  unfold Cert.ReferenceIdeal.ReadP.val_main_v77 Cert.ReferenceIdeal.ReadP.val_main_v74 Cert.ReferenceIdeal.ReadP.val_main_v73 Cert.ReferenceIdeal.ReadP.val_main_v76 Cert.ReferenceIdeal.ReadP.val_main_v75 Msg.refMsg
  rfl

/-- The layer's messages, one row per edge. -/
theorem msg (hpre : Cert.Pre_KernelIdeal m) (c : Dev nD) : W11 m ρ c (Proc.devRef .tc main_v46) = Cert.ReferenceIdeal.ReadP.val_main_v77 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W11_arr m ρ c 5).trans ?_
  rw [msg_arr (V10 m ρ) c]
  show Msg.msgRows (W10 m ρ c (Proc.devRef .tc main_v42)) (W10 m ρ c (Proc.devRef .tc main_v40)) (W10 m ρ c (Proc.devRef .tc main_v43))
    (W10 m ρ c (Proc.devRef .tc main_v44)) (W10 m ρ c (Proc.devRef .tc main_v45)) = _
  rw [rows3 m ρ hpre c, ea3 m ρ c, wh3 m ρ c, we3 m ρ c, br3 m ρ c, ref_msg m c]
  exact Msg.msgRows_eq_ref _ _ _ _ _ (m ((c : Thread nD τ).loc main_arg20)) (m ((c : Thread nD τ).loc main_arg21)) (Msg.upper_apply _) (Msg.lower_apply _) (Msg.biasRow_of _)

theorem dst4 (c : Dev nD) : W11 m ρ c (Proc.devRef .tc main_v3) = Cert.ReferenceIdeal.ReadP.val_main_v3 (F := Ideal) (m ((c : Thread nD τ).loc main_arg2)) := by
  refine (W11_of_ne m ρ c main_v3 (by decide)).trans ?_
  skip_host hostOps4_2
  skip_host hostOps4_1
  skip_host hostOps4
  exact L0.dst m ρ c

/-- The messages summed at their destinations. -/
theorem agg (hpre : Cert.Pre_KernelIdeal m) (c : Dev nD) :
    maximumf (F := Ideal) (W12 m ρ c (Proc.devRef .tc main_v49)) (broadcastInDim S50000x10 ![] bcast_S_S50000x10 (constant S_ .f32 0x00000000#32))
      = Msg.aggOf (Cert.ReferenceIdeal.ReadP.val_main_v3 (F := Ideal) (m ((c : Thread nD τ).loc main_arg2))) (Cert.ReferenceIdeal.ReadP.val_main_v77 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  have e0 := dst4 m ρ c
  have e1 := msg m ρ hpre c
  unfold Msg.aggOf
  refine congrArg (maximumf · _) ?_
  show StableHlo.after hostOps5 (W11 m ρ c) (Proc.devRef .tc main_v49) = _
  generalize W11 m ρ c = V at e0 e1 ⊢
  after_results
  rw [e0, e1]

/-- The reference's node state, its stages unfolded one level each. -/
theorem ref_out (c : Dev nD) : Cert.ReferenceIdeal.ReadP.val_main_v81 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) = Msg.aggOf (Cert.ReferenceIdeal.ReadP.val_main_v3 (F := Ideal) (m ((c : Thread nD τ).loc main_arg2))) (Cert.ReferenceIdeal.ReadP.val_main_v77 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  rw [Msg.aggOf_names]
  unfold Cert.ReferenceIdeal.ReadP.val_main_v81 Cert.ReferenceIdeal.ReadP.val_main_v80 Cert.ReferenceIdeal.ReadP.val_main_v78 Cert.ReferenceIdeal.ReadP.val_main_cst_10 Cert.ReferenceIdeal.ReadP.val_main_v79 Cert.ReferenceIdeal.ReadP.val_main_call1_v0 Cert.ReferenceIdeal.ReadP.val_main_call1_cst
  rfl

/-- The layer's node state. -/
theorem state (hpre : Cert.Pre_KernelIdeal m) (c : Dev nD) : W13 m ρ c (Proc.devRef .tc main_v50) = Cert.ReferenceIdeal.ReadP.val_main_v81 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [out_relu m ρ c, agg m ρ hpre c, ref_out m c]

/-! ## What the next layer finds at its first boundary: the carried arrays, untouched by this layer -/

theorem x (c : Dev nD) : W13 m ρ c (Proc.devRef .tc main_arg0) = m ((c : Thread nD τ).loc main_arg0) := by
  skip_host hostOps5_1
  skip_host hostOps5
  refine (W11_of_ne m ρ c main_arg0 (by decide)).trans ?_
  skip_host hostOps4_2
  skip_host hostOps4_1
  skip_host hostOps4
  exact L0.x m ρ c

theorem src (c : Dev nD) : W13 m ρ c (Proc.devRef .tc main_v1) = Cert.ReferenceIdeal.ReadP.val_main_v1 (F := Ideal) (m ((c : Thread nD τ).loc main_arg2)) := by
  skip_host hostOps5_1
  skip_host hostOps5
  refine (W11_of_ne m ρ c main_v1 (by decide)).trans ?_
  skip_host hostOps4_2
  skip_host hostOps4_1
  skip_host hostOps4
  exact L0.src m ρ c

theorem dst (c : Dev nD) : W13 m ρ c (Proc.devRef .tc main_v3) = Cert.ReferenceIdeal.ReadP.val_main_v3 (F := Ideal) (m ((c : Thread nD τ).loc main_arg2)) := by
  skip_host hostOps5_1
  skip_host hostOps5
  refine (W11_of_ne m ρ c main_v3 (by decide)).trans ?_
  skip_host hostOps4_2
  skip_host hostOps4_1
  skip_host hostOps4
  exact L0.dst m ρ c

/-- The edge features: the message kernel reads them through a window and leaves them. -/
theorem ea (c : Dev nD) : W13 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps5_1
  skip_host hostOps5
  refine ((W11_arr m ρ c 1).trans (((dat4 (V10 m ρ) c).arrAt_in 1 rfl _).trans (A_eq4 (V10 m ρ) c 1))).trans ?_
  exact ea3 m ρ c

theorem arg20 (c : Dev nD) : W13 m ρ c (Proc.devRef .tc main_arg20) = m ((c : Thread nD τ).loc main_arg20) := by
  skip_host hostOps5_1
  skip_host hostOps5
  refine (W11_of_ne m ρ c main_arg20 (by decide)).trans ?_
  skip_host hostOps4_2
  skip_host hostOps4_1
  skip_host hostOps4
  exact L0.arg20 m ρ c

theorem arg21 (c : Dev nD) : W13 m ρ c (Proc.devRef .tc main_arg21) = m ((c : Thread nD τ).loc main_arg21) := by
  skip_host hostOps5_1
  skip_host hostOps5
  refine (W11_of_ne m ρ c main_arg21 (by decide)).trans ?_
  skip_host hostOps4_2
  skip_host hostOps4_1
  skip_host hostOps4
  exact L0.arg21 m ρ c

theorem arg22 (c : Dev nD) : W13 m ρ c (Proc.devRef .tc main_arg22) = m ((c : Thread nD τ).loc main_arg22) := by
  skip_host hostOps5_1
  skip_host hostOps5
  refine (W11_of_ne m ρ c main_arg22 (by decide)).trans ?_
  skip_host hostOps4_2
  skip_host hostOps4_1
  skip_host hostOps4
  exact L0.arg22 m ρ c

theorem arg23 (c : Dev nD) : W13 m ρ c (Proc.devRef .tc main_arg23) = m ((c : Thread nD τ).loc main_arg23) := by
  skip_host hostOps5_1
  skip_host hostOps5
  refine (W11_of_ne m ρ c main_arg23 (by decide)).trans ?_
  skip_host hostOps4_2
  skip_host hostOps4_1
  skip_host hostOps4
  exact L0.arg23 m ρ c

theorem arg24 (c : Dev nD) : W13 m ρ c (Proc.devRef .tc main_arg24) = m ((c : Thread nD τ).loc main_arg24) := by
  skip_host hostOps5_1
  skip_host hostOps5
  refine (W11_of_ne m ρ c main_arg24 (by decide)).trans ?_
  skip_host hostOps4_2
  skip_host hostOps4_1
  skip_host hostOps4
  exact L0.arg24 m ρ c

theorem arg25 (c : Dev nD) : W13 m ρ c (Proc.devRef .tc main_arg25) = m ((c : Thread nD τ).loc main_arg25) := by
  skip_host hostOps5_1
  skip_host hostOps5
  refine (W11_of_ne m ρ c main_arg25 (by decide)).trans ?_
  skip_host hostOps4_2
  skip_host hostOps4_1
  skip_host hostOps4
  exact L0.arg25 m ρ c

theorem arg26 (c : Dev nD) : W13 m ρ c (Proc.devRef .tc main_arg26) = m ((c : Thread nD τ).loc main_arg26) := by
  skip_host hostOps5_1
  skip_host hostOps5
  refine (W11_of_ne m ρ c main_arg26 (by decide)).trans ?_
  skip_host hostOps4_2
  skip_host hostOps4_1
  skip_host hostOps4
  exact L0.arg26 m ρ c

theorem arg27 (c : Dev nD) : W13 m ρ c (Proc.devRef .tc main_arg27) = m ((c : Thread nD τ).loc main_arg27) := by
  skip_host hostOps5_1
  skip_host hostOps5
  refine (W11_of_ne m ρ c main_arg27 (by decide)).trans ?_
  skip_host hostOps4_2
  skip_host hostOps4_1
  skip_host hostOps4
  exact L0.arg27 m ρ c

end L1

/-- Layer 1's messages, one row per edge. -/
theorem msg1 (hpre : Cert.Pre_KernelIdeal m) (c : Dev nD) :
    W11 m ρ c (Proc.devRef .tc main_v46) =
      Cert.ReferenceIdeal.ReadP.val_main_v77 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21)) :=
  L1.msg m ρ hpre c

/-- Layer 1's node state: the messages summed at their destinations, positive part. -/
theorem h1 (hpre : Cert.Pre_KernelIdeal m) (c : Dev nD) :
    W13 m ρ c (Proc.devRef .tc main_v50) =
      Cert.ReferenceIdeal.ReadP.val_main_v81 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21)) :=
  L1.state m ρ hpre c

end Cert.KernelIdeal.Stages

end
-- ==== Proof.Stage.Msg2.lean ====
/-
  Layer 2: as layer 1, from layer 1's node state.
-/
import proofs.«423839_j69329362092378_2_alg».proof.Defs
import proofs.«423839_j69329362092378_2_alg».proof.Proof.Stage.Msg1
import Mathlib.Algebra.BigOperators.Fin
import Idealize.ShloMosaic.Lib.ValueIdx
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

variable [hPre : Cert.Pre_finite_inputs.Facts]
variable (m : (ℓ : Loc nD τ sig) → Buf (Elt Ideal) ℓ) (ρ : Dev nD → PrngReg)

set_option hygiene false in
/-- A stretch of host operations leaves a buffer it does not write as it was. -/
local macro "skip_host " ops:ident : tactic =>
  `(tactic| refine (StableHlo.after_of_forall_not_mem (b := _) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

namespace L2
open Msg

/-! ## The message kernel's array when it returns -/
section Region
variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: point t takes rows 8000 t … 8000 t + 7999 of the two edge arrays and of the
    result, and the whole of the two weight blocks and of the bias. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem blk5_0 (c : Dev nD) (t : Fin cfg5.N) (p : Fin 8000) (k : Fin 138) (P : Fin 800000) (hP : P.val = t.val * 8000 + p.val) :
    (iblk5 V c 0 t : Vec Ideal S8000x138 .f32) (ValueIdx.ix2 p k) = (V c main_v52 : FVec Ideal S800000x138 .f32) (ValueIdx.ix2 P k) := by
  obtain ⟨e0, e1, -⟩ := idx_facts5 t
  unfold iblk5
  rw [View.read_apply]
  show V c main_v52 _ = V c main_v52 _
  congr 1
  funext a
  apply Fin.ext
  match a with
  | ⟨0, _⟩ => show win5_0.index t 0 * 8000 + 1 * p.val = P.val; rw [e0, hP]; omega
  | ⟨1, _⟩ => show win5_0.index t 1 * 138 + 1 * k.val = k.val; rw [e1]; omega

theorem blk5_1 (c : Dev nD) (t : Fin cfg5.N) (p : Fin 8000) (k : Fin 32) (P : Fin 800000) (hP : P.val = t.val * 8000 + p.val) :
    (iblk5 V c 1 t : Vec Ideal S8000x32 .f32) (ValueIdx.ix2 p k) = (V c main_v40 : FVec Ideal S800000x32 .f32) (ValueIdx.ix2 P k) := by
  obtain ⟨-, -, e0, e1, -⟩ := idx_facts5 t
  unfold iblk5
  rw [View.read_apply]
  show V c main_v40 _ = V c main_v40 _
  congr 1
  funext a
  apply Fin.ext
  match a with
  | ⟨0, _⟩ => show win5_1.index t 0 * 8000 + 1 * p.val = P.val; rw [e0, hP]; omega
  | ⟨1, _⟩ => show win5_1.index t 1 * 32 + 1 * k.val = k.val; rw [e1]; omega

theorem blk5_2 (c : Dev nD) (t : Fin cfg5.N) (k : Fin 138) (q : Fin 10) :
    (iblk5 V c 2 t : Vec Ideal S138x10 .f32) (ValueIdx.ix2 k q) = (V c main_v53 : FVec Ideal S138x10 .f32) (ValueIdx.ix2 k q) := by
  obtain ⟨-, -, -, -, e0, e1, -⟩ := idx_facts5 t
  unfold iblk5
  rw [View.read_apply]
  show V c main_v53 _ = V c main_v53 _
  congr 1
  funext a
  apply Fin.ext
  match a with
  | ⟨0, _⟩ => show win5_2.index t 0 * 138 + 1 * k.val = k.val; rw [e0]; omega
  | ⟨1, _⟩ => show win5_2.index t 1 * 10 + 1 * q.val = q.val; rw [e1]; omega

theorem blk5_3 (c : Dev nD) (t : Fin cfg5.N) (k : Fin 32) (q : Fin 10) :
    (iblk5 V c 3 t : Vec Ideal S32x10 .f32) (ValueIdx.ix2 k q) = (V c main_v54 : FVec Ideal S32x10 .f32) (ValueIdx.ix2 k q) := by
  obtain ⟨-, -, -, -, -, -, e0, e1, -⟩ := idx_facts5 t
  unfold iblk5
  rw [View.read_apply]
  show V c main_v54 _ = V c main_v54 _
  congr 1
  funext a
  apply Fin.ext
  match a with
  | ⟨0, _⟩ => show win5_3.index t 0 * 32 + 1 * k.val = k.val; rw [e0]; omega
  | ⟨1, _⟩ => show win5_3.index t 1 * 10 + 1 * q.val = q.val; rw [e1]; omega

theorem blk5_4 (c : Dev nD) (t : Fin cfg5.N) (q : Fin 10) :
    (iblk5 V c 4 t : Vec Ideal S1x10 .f32) (ValueIdx.ix2 (0 : Fin 1) q) = (V c main_v55 : FVec Ideal S1x10 .f32) (ValueIdx.ix2 (0 : Fin 1) q) := by
  obtain ⟨-, -, -, -, -, -, -, -, e0, e1, -⟩ := idx_facts5 t
  unfold iblk5
  rw [View.read_apply]
  show V c main_v55 _ = V c main_v55 _
  congr 1
  funext a
  apply Fin.ext
  match a with
  | ⟨0, _⟩ => show win5_4.index t 0 * 1 + 1 * (0 : Fin 1).val = (0 : Fin 1).val; rw [e0]; rfl
  | ⟨1, _⟩ => show win5_4.index t 1 * 10 + 1 * q.val = q.val; rw [e1]; omega

/-- What the body computes at point t, row p, channel q, is the message of edge 8000 t + p in channel q. -/
theorem block_msg (c : Dev nD) (t : Fin cfg5.N) (p : Fin 8000) (q : Fin 10) (P : Fin 800000) (hP : P.val = t.val * 8000 + p.val) :
    k5_pay1 (F := Ideal) (iblk5 V c 0 t) (iblk5 V c 2 t) (iblk5 V c 1 t) (iblk5 V c 3 t) (iblk5 V c 4 t) (ValueIdx.ix2 p q)
      = msgAt (V c main_v52) (V c main_v40) (V c main_v53) (V c main_v54) (V c main_v55) P q := by
  refine (Msg.pay4_apply (iblk5 V c 0 t) (iblk5 V c 2 t) (iblk5 V c 1 t) (iblk5 V c 3 t) (iblk5 V c 4 t) p q).trans ?_
  unfold msgAt
  refine congrArg₂ (· + ·) (congrArg₂ (· + ·) (Finset.sum_congr rfl fun k _ => ?_) (Finset.sum_congr rfl fun k _ => ?_)) (blk5_4 V c t q)
  · exact congrArg₂ (· * ·) (blk5_0 V c t p k P hP) (blk5_2 V c t k q)
  · exact congrArg₂ (· * ·) (blk5_1 V c t p k P hP) (blk5_3 V c t k q)
end Region

section RegionArr
variable (V : (c : Dev nD) → (b : Ref sig .tc) → Buf (Elt Ideal) ((c : Thread nD τ).loc b))

/-- What point t writes back is block t of the messages. -/
theorem flushed5 (c : Dev nD) (t : Fin cfg5.N) :
    (dat5 V c).flushed 5 t = ((cfg5.win 5).blk t).view.read (Elt Ideal)
      (msgRows (V c main_v52) (V c main_v40) (V c main_v53) (V c main_v54) (V c main_v55)) := by
  show (cfg5.win 5).cut (grid5.coords t) ((dat5 V c).after 5 t) = _
  rw [after5_5]
  unfold out5_5
  rw [View.canon_unit_zero hz5]
  simp only [View.ld_unit_zero (S := S8000x138) hz5, View.ld_unit_zero (S := S8000x32) hz5, View.ld_unit_zero (S := S138x10) hz5,
    View.ld_unit_zero (S := S32x10) hz5, View.ld_unit_zero (S := S1x10) hz5]
  obtain ⟨-, -, -, -, -, -, -, -, -, -, e0, e1⟩ := idx_facts5 t
  funext j
  show k5_pay1 (F := Ideal) (iblk5 V c 0 t) (iblk5 V c 2 t) (iblk5 V c 1 t) (iblk5 V c 3 t) (iblk5 V c 4 t) ((win5 5).xinj (grid5.coords t) j)
    = msgRows (V c main_v52) (V c main_v40) (V c main_v53) (V c main_v54) (V c main_v55) (((cfg5.win 5).blk t).view.emb j)
  have hp : (j 0).val < 8000 := (j 0).isLt
  have hq : (j 1).val < 10 := (j 1).isLt
  have hN : cfg5.N = 100 := N_5
  have hlt : t.val * 8000 + (j 0).val < 800000 := by have := t.isLt; omega
  have hx : (win5 5).xinj (grid5.coords t) j = ValueIdx.ix2 (⟨(j 0).val, hp⟩ : Fin 8000) (⟨(j 1).val, hq⟩ : Fin 10) :=
    funext fun a => Fin.ext (by match a with | ⟨0, _⟩ => rfl | ⟨1, _⟩ => rfl)
  rw [hx]
  refine (block_msg V c t ⟨(j 0).val, hp⟩ ⟨(j 1).val, hq⟩ ⟨t.val * 8000 + (j 0).val, hlt⟩ rfl).trans ?_
  have h0 : (⟨t.val * 8000 + (j 0).val, hlt⟩ : Fin 800000) = ((((cfg5.win 5).blk t).view.emb j) 0 : Fin 800000) := Fin.ext (by
    show t.val * 8000 + (j 0).val = win5_5.index t 0 * 8000 + 1 * (j 0).val
    rw [e0]; omega)
  have h1 : (⟨(j 1).val, hq⟩ : Fin 10) = ((((cfg5.win 5).blk t).view.emb j) 1 : Fin 10) := Fin.ext (by
    show (j 1).val = win5_5.index t 1 * 10 + 1 * (j 1).val
    rw [e1]; omega)
  exact congrArg₂ (msgAt (V c main_v52) (V c main_v40) (V c main_v53) (V c main_v54) (V c main_v55)) h0 h1

/-- An index of the messages' array is in point t's block iff each coordinate is in the block's range on its axis. -/
theorem mem_blk5 (t : Fin cfg5.N) (i : S800000x10.Idx) :
    i ∈ ((cfg5.win 5).blk t).view.set ↔ ∀ a : Fin 2, win5_5.index t a * S8000x10.size a ≤ (i a).val ∧ (i a).val < win5_5.index t a * S8000x10.size a + S8000x10.size a := by
  show i ∈ ((View.whole main_v56).slice (win5_5.rect t)).set ↔ _
  rw [View.set_slice_whole, Rect.mem_set_unit]
  exact Iff.rfl

/-- Every edge row is in some point's block: row r in point r / 8000's. -/
theorem cover5 (i : S800000x10.Idx) : ∃ t : Fin cfg5.N, (cfg5.win 5).flush t = true ∧ i ∈ ((cfg5.win 5).blk t).view.set := by
  have hi0 : (i 0).val < 800000 := (i 0).isLt
  have hi1 : (i 1).val < 10 := (i 1).isLt
  have hN : cfg5.N = 100 := N_5
  have ht : (i 0).val / 8000 < cfg5.N := by omega
  obtain ⟨-, -, -, -, -, -, -, -, -, -, e0, e1⟩ := idx_facts5 ⟨(i 0).val / 8000, ht⟩
  refine ⟨⟨(i 0).val / 8000, ht⟩, flush5_5 _, ?_⟩
  rw [mem_blk5]
  intro a
  match a with
  | ⟨0, _⟩ =>
    show win5_5.index ⟨(i 0).val / 8000, ht⟩ 0 * 8000 ≤ (i 0).val ∧ (i 0).val < win5_5.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win5_5.index ⟨(i 0).val / 8000, ht⟩ 1 * 10 ≤ (i 1).val ∧ (i 1).val < win5_5.index ⟨(i 0).val / 8000, ht⟩ 1 * 10 + 10
    rw [e1]; omega

/-- The messages' array when the message kernel returns. -/
theorem msg_arr (c : Dev nD) :
    (dat5 V c).arrAt 5 cfg5.N = msgRows (V c main_v52) (V c main_v40) (V c main_v53) (V c main_v54) (V c main_v55) :=
  (dat5 V c).arrAt_eq_of_cover 5 _ (fun t _ => flushed5 V c t) cover5
end RegionArr

/-! ## The guarded lookup and the cut at zero, read at their written buffers -/

set_option maxHeartbeats 2000000 in
theorem take_key (V : Valuation τ sig (Elt Ideal)) :
    (StableHlo.TRef.of main_v52 : StableHlo.TRef sig ⟨S800000x138, .f32⟩).ofBuf (StableHlo.after hostOps5_3 V (Proc.devRef .tc main_v52))
      = takeRows (F := Ideal)
          ((StableHlo.TRef.of main_v51 : StableHlo.TRef sig ⟨S50000x138, .f32⟩).ofBuf (V (Proc.devRef .tc main_v51)))
          ((StableHlo.TRef.of main_v1 : StableHlo.TRef sig ⟨S800000, .i32⟩).ofBuf (V (Proc.devRef .tc main_v1))) := by
  after_results_simp
  simp only [Msg.ofBuf_toBuf]
  unfold takeRows guardOf wrapIdx
  rfl

/-- The looked-up rows are the guarded lookup of the joined table at the source row numbers. -/
theorem rows_take (c : Dev nD) :
    W15 m ρ c (Proc.devRef .tc main_v52)
      = takeRows (F := Ideal) (W14 m ρ c (Proc.devRef .tc main_v51)) (W14 m ρ c (Proc.devRef .tc main_v1)) := by
  have key := take_key (W14 m ρ c)
  show StableHlo.after hostOps5_3 (W14 m ρ c) (Proc.devRef .tc main_v52) = _
  generalize StableHlo.after hostOps5_3 (W14 m ρ c) (Proc.devRef .tc main_v52) = L at key ⊢
  generalize W14 m ρ c (Proc.devRef .tc main_v51) = a at key ⊢
  generalize W14 m ρ c (Proc.devRef .tc main_v1) = b at key ⊢
  exact key

theorem relu_key (V : Valuation τ sig (Elt Ideal)) :
    (StableHlo.TRef.of main_v60 : StableHlo.TRef sig ⟨S50000x10, .f32⟩).ofBuf (StableHlo.after hostOps6_1 V (Proc.devRef .tc main_v60))
      = maximumf (F := Ideal) ((StableHlo.TRef.of main_v59 : StableHlo.TRef sig ⟨S50000x10, .f32⟩).ofBuf (V (Proc.devRef .tc main_v59)))
          (broadcastInDim S50000x10 ![] bcast_S_S50000x10 (constant S_ .f32 0x00000000#32)) := by
  after_results_simp
  simp only [Msg.ofBuf_toBuf]

/-- The layer's result is the summed messages cut at zero. -/
theorem out_relu (c : Dev nD) :
    W19 m ρ c (Proc.devRef .tc main_v60)
      = maximumf (F := Ideal) (W18 m ρ c (Proc.devRef .tc main_v59)) (broadcastInDim S50000x10 ![] bcast_S_S50000x10 (constant S_ .f32 0x00000000#32)) := by
  have key := relu_key (W18 m ρ c)
  show StableHlo.after hostOps6_1 (W18 m ρ c) (Proc.devRef .tc main_v60) = _
  generalize StableHlo.after hostOps6_1 (W18 m ρ c) (Proc.devRef .tc main_v60) = L at key ⊢
  generalize W18 m ρ c (Proc.devRef .tc main_v59) = a at key ⊢
  exact key

/-! ## The layer, boundary by boundary -/

/-- The joined node table [x, state]. -/
theorem tbl (hpre : Cert.Pre_KernelIdeal m) (c : Dev nD) : W14 m ρ c (Proc.devRef .tc main_v51) = Cert.ReferenceIdeal.ReadP.val_main_v82 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e0 := L1.x m ρ c
  have e1 := L1.state m ρ hpre c
  show StableHlo.after hostOps5_2 (W13 m ρ c) (Proc.devRef .tc main_v51) = _
  generalize W13 m ρ c = V at e0 e1 ⊢
  after_results
  rw [e0, e1]
  unfold Cert.ReferenceIdeal.ReadP.val_main_v82
  exact Msg.concat_names _ _

theorem src1 (c : Dev nD) : W14 m ρ c (Proc.devRef .tc main_v1) = Cert.ReferenceIdeal.ReadP.val_main_v1 (F := Ideal) (m ((c : Thread nD τ).loc main_arg2)) := by
  skip_host hostOps5_2
  exact L1.src m ρ c

/-- The reference's index column of this layer's lookup is the column read. -/
theorem idx_ref (x2 : IVec S2x800000 32) : wrapIdx (Cert.ReferenceIdeal.ReadP.val_main_v1 (F := Ideal) x2) = Cert.ReferenceIdeal.ReadP.val_main_v88 (F := Ideal) x2 := rfl

/-- The looked-up rows. -/
theorem rows (hpre : Cert.Pre_KernelIdeal m) (c : Dev nD) : W15 m ρ c (Proc.devRef .tc main_v52) = Cert.ReferenceIdeal.ReadP.val_main_v89 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [rows_take m ρ c, tbl m ρ hpre c, src1 m ρ c, take_of_pre m hpre c, idx_ref]
  unfold Cert.ReferenceIdeal.ReadP.val_main_v89
  exact Msg.gather_names _ _

theorem rows3 (hpre : Cert.Pre_KernelIdeal m) (c : Dev nD) : W16 m ρ c (Proc.devRef .tc main_v52) = Cert.ReferenceIdeal.ReadP.val_main_v89 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  skip_host hostOps5_4
  exact rows m ρ hpre c

theorem ea3 (c : Dev nD) : W16 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps5_4
  skip_host hostOps5_3
  skip_host hostOps5_2
  exact L1.ea m ρ c

theorem argW2 (c : Dev nD) : W15 m ρ c (Proc.devRef .tc main_arg22) = (m ((c : Thread nD τ).loc main_arg22)) := by
  skip_host hostOps5_3
  skip_host hostOps5_2
  exact L1.arg22 m ρ c

theorem argB2 (c : Dev nD) : W15 m ρ c (Proc.devRef .tc main_arg23) = (m ((c : Thread nD τ).loc main_arg23)) := by
  skip_host hostOps5_3
  skip_host hostOps5_2
  exact L1.arg23 m ρ c

theorem wh3 (c : Dev nD) : W16 m ρ c (Proc.devRef .tc main_v53) = extractStridedSlice S138x10 ![0, 0] (m ((c : Thread nD τ).loc main_arg22)) slices_S170x10_S138x10_0_0 := by
  have e := argW2 m ρ c
  show StableHlo.after hostOps5_4 (W15 m ρ c) (Proc.devRef .tc main_v53) = _
  generalize W15 m ρ c = V at e ⊢
  after_results
  rw [e]

theorem we3 (c : Dev nD) : W16 m ρ c (Proc.devRef .tc main_v54) = extractStridedSlice S32x10 ![138, 0] (m ((c : Thread nD τ).loc main_arg22)) slices_S170x10_S32x10_138_0 := by
  have e := argW2 m ρ c
  show StableHlo.after hostOps5_4 (W15 m ρ c) (Proc.devRef .tc main_v54) = _
  generalize W15 m ρ c = V at e ⊢
  after_results
  rw [e]

theorem br3 (c : Dev nD) : W16 m ρ c (Proc.devRef .tc main_v55) = shapeCast S1x10 (m ((c : Thread nD τ).loc main_arg23)) shapeCasts_S10_S1x10 := by
  have e := argB2 m ρ c
  show StableHlo.after hostOps5_4 (W15 m ρ c) (Proc.devRef .tc main_v55) = _
  generalize W15 m ρ c = V at e ⊢
  after_results
  rw [e]
  rfl

/-- The reference's messages, its stages unfolded one level each. -/
theorem ref_msg (c : Dev nD) : Cert.ReferenceIdeal.ReadP.val_main_v94 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) = Msg.refMsg (Cert.ReferenceIdeal.ReadP.val_main_v89 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) (Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19))) (m ((c : Thread nD τ).loc main_arg22)) (m ((c : Thread nD τ).loc main_arg23)) := by
  unfold Cert.ReferenceIdeal.ReadP.val_main_v94 Cert.ReferenceIdeal.ReadP.val_main_v91 Cert.ReferenceIdeal.ReadP.val_main_v90 Cert.ReferenceIdeal.ReadP.val_main_v93 Cert.ReferenceIdeal.ReadP.val_main_v92 Msg.refMsg
  rfl

/-- The layer's messages, one row per edge. -/
theorem msg (hpre : Cert.Pre_KernelIdeal m) (c : Dev nD) : W17 m ρ c (Proc.devRef .tc main_v56) = Cert.ReferenceIdeal.ReadP.val_main_v94 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W17_arr m ρ c 5).trans ?_
  rw [msg_arr (V16 m ρ) c]
  show Msg.msgRows (W16 m ρ c (Proc.devRef .tc main_v52)) (W16 m ρ c (Proc.devRef .tc main_v40)) (W16 m ρ c (Proc.devRef .tc main_v53))
    (W16 m ρ c (Proc.devRef .tc main_v54)) (W16 m ρ c (Proc.devRef .tc main_v55)) = _
  rw [rows3 m ρ hpre c, ea3 m ρ c, wh3 m ρ c, we3 m ρ c, br3 m ρ c, ref_msg m c]
  exact Msg.msgRows_eq_ref _ _ _ _ _ (m ((c : Thread nD τ).loc main_arg22)) (m ((c : Thread nD τ).loc main_arg23)) (Msg.upper_apply _) (Msg.lower_apply _) (Msg.biasRow_of _)

theorem dst4 (c : Dev nD) : W17 m ρ c (Proc.devRef .tc main_v3) = Cert.ReferenceIdeal.ReadP.val_main_v3 (F := Ideal) (m ((c : Thread nD τ).loc main_arg2)) := by
  refine (W17_of_ne m ρ c main_v3 (by decide)).trans ?_
  skip_host hostOps5_4
  skip_host hostOps5_3
  skip_host hostOps5_2
  exact L1.dst m ρ c

/-- The messages summed at their destinations. -/
theorem agg (hpre : Cert.Pre_KernelIdeal m) (c : Dev nD) :
    maximumf (F := Ideal) (W18 m ρ c (Proc.devRef .tc main_v59)) (broadcastInDim S50000x10 ![] bcast_S_S50000x10 (constant S_ .f32 0x00000000#32))
      = Msg.aggOf (Cert.ReferenceIdeal.ReadP.val_main_v3 (F := Ideal) (m ((c : Thread nD τ).loc main_arg2))) (Cert.ReferenceIdeal.ReadP.val_main_v94 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  have e0 := dst4 m ρ c
  have e1 := msg m ρ hpre c
  unfold Msg.aggOf
  refine congrArg (maximumf · _) ?_
  show StableHlo.after hostOps6 (W17 m ρ c) (Proc.devRef .tc main_v59) = _
  generalize W17 m ρ c = V at e0 e1 ⊢
  after_results
  rw [e0, e1]

/-- The reference's node state, its stages unfolded one level each. -/
theorem ref_out (c : Dev nD) : Cert.ReferenceIdeal.ReadP.val_main_v98 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) = Msg.aggOf (Cert.ReferenceIdeal.ReadP.val_main_v3 (F := Ideal) (m ((c : Thread nD τ).loc main_arg2))) (Cert.ReferenceIdeal.ReadP.val_main_v94 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  rw [Msg.aggOf_names]
  unfold Cert.ReferenceIdeal.ReadP.val_main_v98 Cert.ReferenceIdeal.ReadP.val_main_v97 Cert.ReferenceIdeal.ReadP.val_main_v95 Cert.ReferenceIdeal.ReadP.val_main_cst_13 Cert.ReferenceIdeal.ReadP.val_main_v96 Cert.ReferenceIdeal.ReadP.val_main_call2_v0 Cert.ReferenceIdeal.ReadP.val_main_call2_cst
  rfl

/-- The layer's node state. -/
theorem state (hpre : Cert.Pre_KernelIdeal m) (c : Dev nD) : W19 m ρ c (Proc.devRef .tc main_v60) = Cert.ReferenceIdeal.ReadP.val_main_v98 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [out_relu m ρ c, agg m ρ hpre c, ref_out m c]

/-! ## What the next layer finds at its first boundary: the carried arrays, untouched by this layer -/

theorem x (c : Dev nD) : W19 m ρ c (Proc.devRef .tc main_arg0) = m ((c : Thread nD τ).loc main_arg0) := by
  skip_host hostOps6_1
  skip_host hostOps6
  refine (W17_of_ne m ρ c main_arg0 (by decide)).trans ?_
  skip_host hostOps5_4
  skip_host hostOps5_3
  skip_host hostOps5_2
  exact L1.x m ρ c

theorem src (c : Dev nD) : W19 m ρ c (Proc.devRef .tc main_v1) = Cert.ReferenceIdeal.ReadP.val_main_v1 (F := Ideal) (m ((c : Thread nD τ).loc main_arg2)) := by
  skip_host hostOps6_1
  skip_host hostOps6
  refine (W17_of_ne m ρ c main_v1 (by decide)).trans ?_
  skip_host hostOps5_4
  skip_host hostOps5_3
  skip_host hostOps5_2
  exact L1.src m ρ c

theorem dst (c : Dev nD) : W19 m ρ c (Proc.devRef .tc main_v3) = Cert.ReferenceIdeal.ReadP.val_main_v3 (F := Ideal) (m ((c : Thread nD τ).loc main_arg2)) := by
  skip_host hostOps6_1
  skip_host hostOps6
  refine (W17_of_ne m ρ c main_v3 (by decide)).trans ?_
  skip_host hostOps5_4
  skip_host hostOps5_3
  skip_host hostOps5_2
  exact L1.dst m ρ c

/-- The edge features: the message kernel reads them through a window and leaves them. -/
theorem ea (c : Dev nD) : W19 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps6_1
  skip_host hostOps6
  refine ((W17_arr m ρ c 1).trans (((dat5 (V16 m ρ) c).arrAt_in 1 rfl _).trans (A_eq5 (V16 m ρ) c 1))).trans ?_
  exact ea3 m ρ c

theorem arg20 (c : Dev nD) : W19 m ρ c (Proc.devRef .tc main_arg20) = m ((c : Thread nD τ).loc main_arg20) := by
  skip_host hostOps6_1
  skip_host hostOps6
  refine (W17_of_ne m ρ c main_arg20 (by decide)).trans ?_
  skip_host hostOps5_4
  skip_host hostOps5_3
  skip_host hostOps5_2
  exact L1.arg20 m ρ c

theorem arg21 (c : Dev nD) : W19 m ρ c (Proc.devRef .tc main_arg21) = m ((c : Thread nD τ).loc main_arg21) := by
  skip_host hostOps6_1
  skip_host hostOps6
  refine (W17_of_ne m ρ c main_arg21 (by decide)).trans ?_
  skip_host hostOps5_4
  skip_host hostOps5_3
  skip_host hostOps5_2
  exact L1.arg21 m ρ c

theorem arg22 (c : Dev nD) : W19 m ρ c (Proc.devRef .tc main_arg22) = m ((c : Thread nD τ).loc main_arg22) := by
  skip_host hostOps6_1
  skip_host hostOps6
  refine (W17_of_ne m ρ c main_arg22 (by decide)).trans ?_
  skip_host hostOps5_4
  skip_host hostOps5_3
  skip_host hostOps5_2
  exact L1.arg22 m ρ c

theorem arg23 (c : Dev nD) : W19 m ρ c (Proc.devRef .tc main_arg23) = m ((c : Thread nD τ).loc main_arg23) := by
  skip_host hostOps6_1
  skip_host hostOps6
  refine (W17_of_ne m ρ c main_arg23 (by decide)).trans ?_
  skip_host hostOps5_4
  skip_host hostOps5_3
  skip_host hostOps5_2
  exact L1.arg23 m ρ c

theorem arg24 (c : Dev nD) : W19 m ρ c (Proc.devRef .tc main_arg24) = m ((c : Thread nD τ).loc main_arg24) := by
  skip_host hostOps6_1
  skip_host hostOps6
  refine (W17_of_ne m ρ c main_arg24 (by decide)).trans ?_
  skip_host hostOps5_4
  skip_host hostOps5_3
  skip_host hostOps5_2
  exact L1.arg24 m ρ c

theorem arg25 (c : Dev nD) : W19 m ρ c (Proc.devRef .tc main_arg25) = m ((c : Thread nD τ).loc main_arg25) := by
  skip_host hostOps6_1
  skip_host hostOps6
  refine (W17_of_ne m ρ c main_arg25 (by decide)).trans ?_
  skip_host hostOps5_4
  skip_host hostOps5_3
  skip_host hostOps5_2
  exact L1.arg25 m ρ c

theorem arg26 (c : Dev nD) : W19 m ρ c (Proc.devRef .tc main_arg26) = m ((c : Thread nD τ).loc main_arg26) := by
  skip_host hostOps6_1
  skip_host hostOps6
  refine (W17_of_ne m ρ c main_arg26 (by decide)).trans ?_
  skip_host hostOps5_4
  skip_host hostOps5_3
  skip_host hostOps5_2
  exact L1.arg26 m ρ c

theorem arg27 (c : Dev nD) : W19 m ρ c (Proc.devRef .tc main_arg27) = m ((c : Thread nD τ).loc main_arg27) := by
  skip_host hostOps6_1
  skip_host hostOps6
  refine (W17_of_ne m ρ c main_arg27 (by decide)).trans ?_
  skip_host hostOps5_4
  skip_host hostOps5_3
  skip_host hostOps5_2
  exact L1.arg27 m ρ c

end L2

/-- Layer 2's messages. -/
theorem msg2 (hpre : Cert.Pre_KernelIdeal m) (c : Dev nD) :
    W17 m ρ c (Proc.devRef .tc main_v56) =
      Cert.ReferenceIdeal.ReadP.val_main_v94 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23)) :=
  L2.msg m ρ hpre c

/-- Layer 2's node state. -/
theorem h2 (hpre : Cert.Pre_KernelIdeal m) (c : Dev nD) :
    W19 m ρ c (Proc.devRef .tc main_v60) =
      Cert.ReferenceIdeal.ReadP.val_main_v98 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23)) :=
  L2.state m ρ hpre c

end Cert.KernelIdeal.Stages

end
-- ==== Proof.Stage.Msg3.lean ====
/-
  Layer 3: as layer 1, from layer 2's node state.
-/
import proofs.«423839_j69329362092378_2_alg».proof.Defs
import proofs.«423839_j69329362092378_2_alg».proof.Proof.Stage.Msg2
import Mathlib.Algebra.BigOperators.Fin
import Idealize.ShloMosaic.Lib.ValueIdx
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

variable [hPre : Cert.Pre_finite_inputs.Facts]
variable (m : (ℓ : Loc nD τ sig) → Buf (Elt Ideal) ℓ) (ρ : Dev nD → PrngReg)

set_option hygiene false in
/-- A stretch of host operations leaves a buffer it does not write as it was. -/
local macro "skip_host " ops:ident : tactic =>
  `(tactic| refine (StableHlo.after_of_forall_not_mem (b := _) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

namespace L3
open Msg

/-! ## The message kernel's array when it returns -/
section Region
variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: point t takes rows 8000 t … 8000 t + 7999 of the two edge arrays and of the
    result, and the whole of the two weight blocks and of the bias. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem blk6_0 (c : Dev nD) (t : Fin cfg6.N) (p : Fin 8000) (k : Fin 138) (P : Fin 800000) (hP : P.val = t.val * 8000 + p.val) :
    (iblk6 V c 0 t : Vec Ideal S8000x138 .f32) (ValueIdx.ix2 p k) = (V c main_v62 : FVec Ideal S800000x138 .f32) (ValueIdx.ix2 P k) := by
  obtain ⟨e0, e1, -⟩ := idx_facts6 t
  unfold iblk6
  rw [View.read_apply]
  show V c main_v62 _ = V c main_v62 _
  congr 1
  funext a
  apply Fin.ext
  match a with
  | ⟨0, _⟩ => show win6_0.index t 0 * 8000 + 1 * p.val = P.val; rw [e0, hP]; omega
  | ⟨1, _⟩ => show win6_0.index t 1 * 138 + 1 * k.val = k.val; rw [e1]; omega

theorem blk6_1 (c : Dev nD) (t : Fin cfg6.N) (p : Fin 8000) (k : Fin 32) (P : Fin 800000) (hP : P.val = t.val * 8000 + p.val) :
    (iblk6 V c 1 t : Vec Ideal S8000x32 .f32) (ValueIdx.ix2 p k) = (V c main_v40 : FVec Ideal S800000x32 .f32) (ValueIdx.ix2 P k) := by
  obtain ⟨-, -, e0, e1, -⟩ := idx_facts6 t
  unfold iblk6
  rw [View.read_apply]
  show V c main_v40 _ = V c main_v40 _
  congr 1
  funext a
  apply Fin.ext
  match a with
  | ⟨0, _⟩ => show win6_1.index t 0 * 8000 + 1 * p.val = P.val; rw [e0, hP]; omega
  | ⟨1, _⟩ => show win6_1.index t 1 * 32 + 1 * k.val = k.val; rw [e1]; omega

theorem blk6_2 (c : Dev nD) (t : Fin cfg6.N) (k : Fin 138) (q : Fin 10) :
    (iblk6 V c 2 t : Vec Ideal S138x10 .f32) (ValueIdx.ix2 k q) = (V c main_v63 : FVec Ideal S138x10 .f32) (ValueIdx.ix2 k q) := by
  obtain ⟨-, -, -, -, e0, e1, -⟩ := idx_facts6 t
  unfold iblk6
  rw [View.read_apply]
  show V c main_v63 _ = V c main_v63 _
  congr 1
  funext a
  apply Fin.ext
  match a with
  | ⟨0, _⟩ => show win6_2.index t 0 * 138 + 1 * k.val = k.val; rw [e0]; omega
  | ⟨1, _⟩ => show win6_2.index t 1 * 10 + 1 * q.val = q.val; rw [e1]; omega

theorem blk6_3 (c : Dev nD) (t : Fin cfg6.N) (k : Fin 32) (q : Fin 10) :
    (iblk6 V c 3 t : Vec Ideal S32x10 .f32) (ValueIdx.ix2 k q) = (V c main_v64 : FVec Ideal S32x10 .f32) (ValueIdx.ix2 k q) := by
  obtain ⟨-, -, -, -, -, -, e0, e1, -⟩ := idx_facts6 t
  unfold iblk6
  rw [View.read_apply]
  show V c main_v64 _ = V c main_v64 _
  congr 1
  funext a
  apply Fin.ext
  match a with
  | ⟨0, _⟩ => show win6_3.index t 0 * 32 + 1 * k.val = k.val; rw [e0]; omega
  | ⟨1, _⟩ => show win6_3.index t 1 * 10 + 1 * q.val = q.val; rw [e1]; omega

theorem blk6_4 (c : Dev nD) (t : Fin cfg6.N) (q : Fin 10) :
    (iblk6 V c 4 t : Vec Ideal S1x10 .f32) (ValueIdx.ix2 (0 : Fin 1) q) = (V c main_v65 : FVec Ideal S1x10 .f32) (ValueIdx.ix2 (0 : Fin 1) q) := by
  obtain ⟨-, -, -, -, -, -, -, -, e0, e1, -⟩ := idx_facts6 t
  unfold iblk6
  rw [View.read_apply]
  show V c main_v65 _ = V c main_v65 _
  congr 1
  funext a
  apply Fin.ext
  match a with
  | ⟨0, _⟩ => show win6_4.index t 0 * 1 + 1 * (0 : Fin 1).val = (0 : Fin 1).val; rw [e0]; rfl
  | ⟨1, _⟩ => show win6_4.index t 1 * 10 + 1 * q.val = q.val; rw [e1]; omega

/-- What the body computes at point t, row p, channel q, is the message of edge 8000 t + p in channel q. -/
theorem block_msg (c : Dev nD) (t : Fin cfg6.N) (p : Fin 8000) (q : Fin 10) (P : Fin 800000) (hP : P.val = t.val * 8000 + p.val) :
    k6_pay1 (F := Ideal) (iblk6 V c 0 t) (iblk6 V c 2 t) (iblk6 V c 1 t) (iblk6 V c 3 t) (iblk6 V c 4 t) (ValueIdx.ix2 p q)
      = msgAt (V c main_v62) (V c main_v40) (V c main_v63) (V c main_v64) (V c main_v65) P q := by
  refine (Msg.pay4_apply (iblk6 V c 0 t) (iblk6 V c 2 t) (iblk6 V c 1 t) (iblk6 V c 3 t) (iblk6 V c 4 t) p q).trans ?_
  unfold msgAt
  refine congrArg₂ (· + ·) (congrArg₂ (· + ·) (Finset.sum_congr rfl fun k _ => ?_) (Finset.sum_congr rfl fun k _ => ?_)) (blk6_4 V c t q)
  · exact congrArg₂ (· * ·) (blk6_0 V c t p k P hP) (blk6_2 V c t k q)
  · exact congrArg₂ (· * ·) (blk6_1 V c t p k P hP) (blk6_3 V c t k q)
end Region

section RegionArr
variable (V : (c : Dev nD) → (b : Ref sig .tc) → Buf (Elt Ideal) ((c : Thread nD τ).loc b))

/-- What point t writes back is block t of the messages. -/
theorem flushed6 (c : Dev nD) (t : Fin cfg6.N) :
    (dat6 V c).flushed 5 t = ((cfg6.win 5).blk t).view.read (Elt Ideal)
      (msgRows (V c main_v62) (V c main_v40) (V c main_v63) (V c main_v64) (V c main_v65)) := by
  show (cfg6.win 5).cut (grid6.coords t) ((dat6 V c).after 5 t) = _
  rw [after6_5]
  unfold out6_5
  rw [View.canon_unit_zero hz6]
  simp only [View.ld_unit_zero (S := S8000x138) hz6, View.ld_unit_zero (S := S8000x32) hz6, View.ld_unit_zero (S := S138x10) hz6,
    View.ld_unit_zero (S := S32x10) hz6, View.ld_unit_zero (S := S1x10) hz6]
  obtain ⟨-, -, -, -, -, -, -, -, -, -, e0, e1⟩ := idx_facts6 t
  funext j
  show k6_pay1 (F := Ideal) (iblk6 V c 0 t) (iblk6 V c 2 t) (iblk6 V c 1 t) (iblk6 V c 3 t) (iblk6 V c 4 t) ((win6 5).xinj (grid6.coords t) j)
    = msgRows (V c main_v62) (V c main_v40) (V c main_v63) (V c main_v64) (V c main_v65) (((cfg6.win 5).blk t).view.emb j)
  have hp : (j 0).val < 8000 := (j 0).isLt
  have hq : (j 1).val < 10 := (j 1).isLt
  have hN : cfg6.N = 100 := N_6
  have hlt : t.val * 8000 + (j 0).val < 800000 := by have := t.isLt; omega
  have hx : (win6 5).xinj (grid6.coords t) j = ValueIdx.ix2 (⟨(j 0).val, hp⟩ : Fin 8000) (⟨(j 1).val, hq⟩ : Fin 10) :=
    funext fun a => Fin.ext (by match a with | ⟨0, _⟩ => rfl | ⟨1, _⟩ => rfl)
  rw [hx]
  refine (block_msg V c t ⟨(j 0).val, hp⟩ ⟨(j 1).val, hq⟩ ⟨t.val * 8000 + (j 0).val, hlt⟩ rfl).trans ?_
  have h0 : (⟨t.val * 8000 + (j 0).val, hlt⟩ : Fin 800000) = ((((cfg6.win 5).blk t).view.emb j) 0 : Fin 800000) := Fin.ext (by
    show t.val * 8000 + (j 0).val = win6_5.index t 0 * 8000 + 1 * (j 0).val
    rw [e0]; omega)
  have h1 : (⟨(j 1).val, hq⟩ : Fin 10) = ((((cfg6.win 5).blk t).view.emb j) 1 : Fin 10) := Fin.ext (by
    show (j 1).val = win6_5.index t 1 * 10 + 1 * (j 1).val
    rw [e1]; omega)
  exact congrArg₂ (msgAt (V c main_v62) (V c main_v40) (V c main_v63) (V c main_v64) (V c main_v65)) h0 h1

/-- An index of the messages' array is in point t's block iff each coordinate is in the block's range on its axis. -/
theorem mem_blk6 (t : Fin cfg6.N) (i : S800000x10.Idx) :
    i ∈ ((cfg6.win 5).blk t).view.set ↔ ∀ a : Fin 2, win6_5.index t a * S8000x10.size a ≤ (i a).val ∧ (i a).val < win6_5.index t a * S8000x10.size a + S8000x10.size a := by
  show i ∈ ((View.whole main_v66).slice (win6_5.rect t)).set ↔ _
  rw [View.set_slice_whole, Rect.mem_set_unit]
  exact Iff.rfl

/-- Every edge row is in some point's block: row r in point r / 8000's. -/
theorem cover6 (i : S800000x10.Idx) : ∃ t : Fin cfg6.N, (cfg6.win 5).flush t = true ∧ i ∈ ((cfg6.win 5).blk t).view.set := by
  have hi0 : (i 0).val < 800000 := (i 0).isLt
  have hi1 : (i 1).val < 10 := (i 1).isLt
  have hN : cfg6.N = 100 := N_6
  have ht : (i 0).val / 8000 < cfg6.N := by omega
  obtain ⟨-, -, -, -, -, -, -, -, -, -, e0, e1⟩ := idx_facts6 ⟨(i 0).val / 8000, ht⟩
  refine ⟨⟨(i 0).val / 8000, ht⟩, flush6_5 _, ?_⟩
  rw [mem_blk6]
  intro a
  match a with
  | ⟨0, _⟩ =>
    show win6_5.index ⟨(i 0).val / 8000, ht⟩ 0 * 8000 ≤ (i 0).val ∧ (i 0).val < win6_5.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win6_5.index ⟨(i 0).val / 8000, ht⟩ 1 * 10 ≤ (i 1).val ∧ (i 1).val < win6_5.index ⟨(i 0).val / 8000, ht⟩ 1 * 10 + 10
    rw [e1]; omega

/-- The messages' array when the message kernel returns. -/
theorem msg_arr (c : Dev nD) :
    (dat6 V c).arrAt 5 cfg6.N = msgRows (V c main_v62) (V c main_v40) (V c main_v63) (V c main_v64) (V c main_v65) :=
  (dat6 V c).arrAt_eq_of_cover 5 _ (fun t _ => flushed6 V c t) cover6
end RegionArr

/-! ## The guarded lookup and the cut at zero, read at their written buffers -/

set_option maxHeartbeats 2000000 in
theorem take_key (V : Valuation τ sig (Elt Ideal)) :
    (StableHlo.TRef.of main_v62 : StableHlo.TRef sig ⟨S800000x138, .f32⟩).ofBuf (StableHlo.after hostOps6_3 V (Proc.devRef .tc main_v62))
      = takeRows (F := Ideal)
          ((StableHlo.TRef.of main_v61 : StableHlo.TRef sig ⟨S50000x138, .f32⟩).ofBuf (V (Proc.devRef .tc main_v61)))
          ((StableHlo.TRef.of main_v1 : StableHlo.TRef sig ⟨S800000, .i32⟩).ofBuf (V (Proc.devRef .tc main_v1))) := by
  after_results_simp
  simp only [Msg.ofBuf_toBuf]
  unfold takeRows guardOf wrapIdx
  rfl

/-- The looked-up rows are the guarded lookup of the joined table at the source row numbers. -/
theorem rows_take (c : Dev nD) :
    W21 m ρ c (Proc.devRef .tc main_v62)
      = takeRows (F := Ideal) (W20 m ρ c (Proc.devRef .tc main_v61)) (W20 m ρ c (Proc.devRef .tc main_v1)) := by
  have key := take_key (W20 m ρ c)
  show StableHlo.after hostOps6_3 (W20 m ρ c) (Proc.devRef .tc main_v62) = _
  generalize StableHlo.after hostOps6_3 (W20 m ρ c) (Proc.devRef .tc main_v62) = L at key ⊢
  generalize W20 m ρ c (Proc.devRef .tc main_v61) = a at key ⊢
  generalize W20 m ρ c (Proc.devRef .tc main_v1) = b at key ⊢
  exact key

theorem relu_key (V : Valuation τ sig (Elt Ideal)) :
    (StableHlo.TRef.of main_v70 : StableHlo.TRef sig ⟨S50000x10, .f32⟩).ofBuf (StableHlo.after hostOps7_1 V (Proc.devRef .tc main_v70))
      = maximumf (F := Ideal) ((StableHlo.TRef.of main_v69 : StableHlo.TRef sig ⟨S50000x10, .f32⟩).ofBuf (V (Proc.devRef .tc main_v69)))
          (broadcastInDim S50000x10 ![] bcast_S_S50000x10 (constant S_ .f32 0x00000000#32)) := by
  after_results_simp
  simp only [Msg.ofBuf_toBuf]

/-- The layer's result is the summed messages cut at zero. -/
theorem out_relu (c : Dev nD) :
    W25 m ρ c (Proc.devRef .tc main_v70)
      = maximumf (F := Ideal) (W24 m ρ c (Proc.devRef .tc main_v69)) (broadcastInDim S50000x10 ![] bcast_S_S50000x10 (constant S_ .f32 0x00000000#32)) := by
  have key := relu_key (W24 m ρ c)
  show StableHlo.after hostOps7_1 (W24 m ρ c) (Proc.devRef .tc main_v70) = _
  generalize StableHlo.after hostOps7_1 (W24 m ρ c) (Proc.devRef .tc main_v70) = L at key ⊢
  generalize W24 m ρ c (Proc.devRef .tc main_v69) = a at key ⊢
  exact key

/-! ## The layer, boundary by boundary -/

/-- The joined node table [x, state]. -/
theorem tbl (hpre : Cert.Pre_KernelIdeal m) (c : Dev nD) : W20 m ρ c (Proc.devRef .tc main_v61) = Cert.ReferenceIdeal.ReadP.val_main_v99 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e0 := L2.x m ρ c
  have e1 := L2.state m ρ hpre c
  show StableHlo.after hostOps6_2 (W19 m ρ c) (Proc.devRef .tc main_v61) = _
  generalize W19 m ρ c = V at e0 e1 ⊢
  after_results
  rw [e0, e1]
  unfold Cert.ReferenceIdeal.ReadP.val_main_v99
  exact Msg.concat_names _ _

theorem src1 (c : Dev nD) : W20 m ρ c (Proc.devRef .tc main_v1) = Cert.ReferenceIdeal.ReadP.val_main_v1 (F := Ideal) (m ((c : Thread nD τ).loc main_arg2)) := by
  skip_host hostOps6_2
  exact L2.src m ρ c

/-- The reference's index column of this layer's lookup is the column read. -/
theorem idx_ref (x2 : IVec S2x800000 32) : wrapIdx (Cert.ReferenceIdeal.ReadP.val_main_v1 (F := Ideal) x2) = Cert.ReferenceIdeal.ReadP.val_main_v105 (F := Ideal) x2 := rfl

/-- The looked-up rows. -/
theorem rows (hpre : Cert.Pre_KernelIdeal m) (c : Dev nD) : W21 m ρ c (Proc.devRef .tc main_v62) = Cert.ReferenceIdeal.ReadP.val_main_v106 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [rows_take m ρ c, tbl m ρ hpre c, src1 m ρ c, take_of_pre m hpre c, idx_ref]
  unfold Cert.ReferenceIdeal.ReadP.val_main_v106
  exact Msg.gather_names _ _

theorem rows3 (hpre : Cert.Pre_KernelIdeal m) (c : Dev nD) : W22 m ρ c (Proc.devRef .tc main_v62) = Cert.ReferenceIdeal.ReadP.val_main_v106 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  skip_host hostOps6_4
  exact rows m ρ hpre c

theorem ea3 (c : Dev nD) : W22 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps6_4
  skip_host hostOps6_3
  skip_host hostOps6_2
  exact L2.ea m ρ c

theorem argW2 (c : Dev nD) : W21 m ρ c (Proc.devRef .tc main_arg24) = (m ((c : Thread nD τ).loc main_arg24)) := by
  skip_host hostOps6_3
  skip_host hostOps6_2
  exact L2.arg24 m ρ c

theorem argB2 (c : Dev nD) : W21 m ρ c (Proc.devRef .tc main_arg25) = (m ((c : Thread nD τ).loc main_arg25)) := by
  skip_host hostOps6_3
  skip_host hostOps6_2
  exact L2.arg25 m ρ c

theorem wh3 (c : Dev nD) : W22 m ρ c (Proc.devRef .tc main_v63) = extractStridedSlice S138x10 ![0, 0] (m ((c : Thread nD τ).loc main_arg24)) slices_S170x10_S138x10_0_0 := by
  have e := argW2 m ρ c
  show StableHlo.after hostOps6_4 (W21 m ρ c) (Proc.devRef .tc main_v63) = _
  generalize W21 m ρ c = V at e ⊢
  after_results
  rw [e]

theorem we3 (c : Dev nD) : W22 m ρ c (Proc.devRef .tc main_v64) = extractStridedSlice S32x10 ![138, 0] (m ((c : Thread nD τ).loc main_arg24)) slices_S170x10_S32x10_138_0 := by
  have e := argW2 m ρ c
  show StableHlo.after hostOps6_4 (W21 m ρ c) (Proc.devRef .tc main_v64) = _
  generalize W21 m ρ c = V at e ⊢
  after_results
  rw [e]

theorem br3 (c : Dev nD) : W22 m ρ c (Proc.devRef .tc main_v65) = shapeCast S1x10 (m ((c : Thread nD τ).loc main_arg25)) shapeCasts_S10_S1x10 := by
  have e := argB2 m ρ c
  show StableHlo.after hostOps6_4 (W21 m ρ c) (Proc.devRef .tc main_v65) = _
  generalize W21 m ρ c = V at e ⊢
  after_results
  rw [e]
  rfl

/-- The reference's messages, its stages unfolded one level each. -/
theorem ref_msg (c : Dev nD) : Cert.ReferenceIdeal.ReadP.val_main_v111 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) = Msg.refMsg (Cert.ReferenceIdeal.ReadP.val_main_v106 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19))) (m ((c : Thread nD τ).loc main_arg24)) (m ((c : Thread nD τ).loc main_arg25)) := by
  unfold Cert.ReferenceIdeal.ReadP.val_main_v111 Cert.ReferenceIdeal.ReadP.val_main_v108 Cert.ReferenceIdeal.ReadP.val_main_v107 Cert.ReferenceIdeal.ReadP.val_main_v110 Cert.ReferenceIdeal.ReadP.val_main_v109 Msg.refMsg
  rfl

/-- The layer's messages, one row per edge. -/
theorem msg (hpre : Cert.Pre_KernelIdeal m) (c : Dev nD) : W23 m ρ c (Proc.devRef .tc main_v66) = Cert.ReferenceIdeal.ReadP.val_main_v111 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  refine (W23_arr m ρ c 5).trans ?_
  rw [msg_arr (V22 m ρ) c]
  show Msg.msgRows (W22 m ρ c (Proc.devRef .tc main_v62)) (W22 m ρ c (Proc.devRef .tc main_v40)) (W22 m ρ c (Proc.devRef .tc main_v63))
    (W22 m ρ c (Proc.devRef .tc main_v64)) (W22 m ρ c (Proc.devRef .tc main_v65)) = _
  rw [rows3 m ρ hpre c, ea3 m ρ c, wh3 m ρ c, we3 m ρ c, br3 m ρ c, ref_msg m c]
  exact Msg.msgRows_eq_ref _ _ _ _ _ (m ((c : Thread nD τ).loc main_arg24)) (m ((c : Thread nD τ).loc main_arg25)) (Msg.upper_apply _) (Msg.lower_apply _) (Msg.biasRow_of _)

theorem dst4 (c : Dev nD) : W23 m ρ c (Proc.devRef .tc main_v3) = Cert.ReferenceIdeal.ReadP.val_main_v3 (F := Ideal) (m ((c : Thread nD τ).loc main_arg2)) := by
  refine (W23_of_ne m ρ c main_v3 (by decide)).trans ?_
  skip_host hostOps6_4
  skip_host hostOps6_3
  skip_host hostOps6_2
  exact L2.dst m ρ c

/-- The messages summed at their destinations. -/
theorem agg (hpre : Cert.Pre_KernelIdeal m) (c : Dev nD) :
    maximumf (F := Ideal) (W24 m ρ c (Proc.devRef .tc main_v69)) (broadcastInDim S50000x10 ![] bcast_S_S50000x10 (constant S_ .f32 0x00000000#32))
      = Msg.aggOf (Cert.ReferenceIdeal.ReadP.val_main_v3 (F := Ideal) (m ((c : Thread nD τ).loc main_arg2))) (Cert.ReferenceIdeal.ReadP.val_main_v111 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  have e0 := dst4 m ρ c
  have e1 := msg m ρ hpre c
  unfold Msg.aggOf
  refine congrArg (maximumf · _) ?_
  show StableHlo.after hostOps7 (W23 m ρ c) (Proc.devRef .tc main_v69) = _
  generalize W23 m ρ c = V at e0 e1 ⊢
  after_results
  rw [e0, e1]

/-- The reference's node state, its stages unfolded one level each. -/
theorem ref_out (c : Dev nD) : Cert.ReferenceIdeal.ReadP.val_main_v115 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) = Msg.aggOf (Cert.ReferenceIdeal.ReadP.val_main_v3 (F := Ideal) (m ((c : Thread nD τ).loc main_arg2))) (Cert.ReferenceIdeal.ReadP.val_main_v111 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [Msg.aggOf_names]
  unfold Cert.ReferenceIdeal.ReadP.val_main_v115 Cert.ReferenceIdeal.ReadP.val_main_v114 Cert.ReferenceIdeal.ReadP.val_main_v112 Cert.ReferenceIdeal.ReadP.val_main_cst_16 Cert.ReferenceIdeal.ReadP.val_main_v113 Cert.ReferenceIdeal.ReadP.val_main_call3_v0 Cert.ReferenceIdeal.ReadP.val_main_call3_cst
  rfl

/-- The layer's node state. -/
theorem state (hpre : Cert.Pre_KernelIdeal m) (c : Dev nD) : W25 m ρ c (Proc.devRef .tc main_v70) = Cert.ReferenceIdeal.ReadP.val_main_v115 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  rw [out_relu m ρ c, agg m ρ hpre c, ref_out m c]

/-! ## What the next layer finds at its first boundary: the carried arrays, untouched by this layer -/

theorem x (c : Dev nD) : W25 m ρ c (Proc.devRef .tc main_arg0) = m ((c : Thread nD τ).loc main_arg0) := by
  skip_host hostOps7_1
  skip_host hostOps7
  refine (W23_of_ne m ρ c main_arg0 (by decide)).trans ?_
  skip_host hostOps6_4
  skip_host hostOps6_3
  skip_host hostOps6_2
  exact L2.x m ρ c

theorem src (c : Dev nD) : W25 m ρ c (Proc.devRef .tc main_v1) = Cert.ReferenceIdeal.ReadP.val_main_v1 (F := Ideal) (m ((c : Thread nD τ).loc main_arg2)) := by
  skip_host hostOps7_1
  skip_host hostOps7
  refine (W23_of_ne m ρ c main_v1 (by decide)).trans ?_
  skip_host hostOps6_4
  skip_host hostOps6_3
  skip_host hostOps6_2
  exact L2.src m ρ c

theorem dst (c : Dev nD) : W25 m ρ c (Proc.devRef .tc main_v3) = Cert.ReferenceIdeal.ReadP.val_main_v3 (F := Ideal) (m ((c : Thread nD τ).loc main_arg2)) := by
  skip_host hostOps7_1
  skip_host hostOps7
  refine (W23_of_ne m ρ c main_v3 (by decide)).trans ?_
  skip_host hostOps6_4
  skip_host hostOps6_3
  skip_host hostOps6_2
  exact L2.dst m ρ c

/-- The edge features: the message kernel reads them through a window and leaves them. -/
theorem ea (c : Dev nD) : W25 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps7_1
  skip_host hostOps7
  refine ((W23_arr m ρ c 1).trans (((dat6 (V22 m ρ) c).arrAt_in 1 rfl _).trans (A_eq6 (V22 m ρ) c 1))).trans ?_
  exact ea3 m ρ c

theorem arg20 (c : Dev nD) : W25 m ρ c (Proc.devRef .tc main_arg20) = m ((c : Thread nD τ).loc main_arg20) := by
  skip_host hostOps7_1
  skip_host hostOps7
  refine (W23_of_ne m ρ c main_arg20 (by decide)).trans ?_
  skip_host hostOps6_4
  skip_host hostOps6_3
  skip_host hostOps6_2
  exact L2.arg20 m ρ c

theorem arg21 (c : Dev nD) : W25 m ρ c (Proc.devRef .tc main_arg21) = m ((c : Thread nD τ).loc main_arg21) := by
  skip_host hostOps7_1
  skip_host hostOps7
  refine (W23_of_ne m ρ c main_arg21 (by decide)).trans ?_
  skip_host hostOps6_4
  skip_host hostOps6_3
  skip_host hostOps6_2
  exact L2.arg21 m ρ c

theorem arg22 (c : Dev nD) : W25 m ρ c (Proc.devRef .tc main_arg22) = m ((c : Thread nD τ).loc main_arg22) := by
  skip_host hostOps7_1
  skip_host hostOps7
  refine (W23_of_ne m ρ c main_arg22 (by decide)).trans ?_
  skip_host hostOps6_4
  skip_host hostOps6_3
  skip_host hostOps6_2
  exact L2.arg22 m ρ c

theorem arg23 (c : Dev nD) : W25 m ρ c (Proc.devRef .tc main_arg23) = m ((c : Thread nD τ).loc main_arg23) := by
  skip_host hostOps7_1
  skip_host hostOps7
  refine (W23_of_ne m ρ c main_arg23 (by decide)).trans ?_
  skip_host hostOps6_4
  skip_host hostOps6_3
  skip_host hostOps6_2
  exact L2.arg23 m ρ c

theorem arg24 (c : Dev nD) : W25 m ρ c (Proc.devRef .tc main_arg24) = m ((c : Thread nD τ).loc main_arg24) := by
  skip_host hostOps7_1
  skip_host hostOps7
  refine (W23_of_ne m ρ c main_arg24 (by decide)).trans ?_
  skip_host hostOps6_4
  skip_host hostOps6_3
  skip_host hostOps6_2
  exact L2.arg24 m ρ c

theorem arg25 (c : Dev nD) : W25 m ρ c (Proc.devRef .tc main_arg25) = m ((c : Thread nD τ).loc main_arg25) := by
  skip_host hostOps7_1
  skip_host hostOps7
  refine (W23_of_ne m ρ c main_arg25 (by decide)).trans ?_
  skip_host hostOps6_4
  skip_host hostOps6_3
  skip_host hostOps6_2
  exact L2.arg25 m ρ c

theorem arg26 (c : Dev nD) : W25 m ρ c (Proc.devRef .tc main_arg26) = m ((c : Thread nD τ).loc main_arg26) := by
  skip_host hostOps7_1
  skip_host hostOps7
  refine (W23_of_ne m ρ c main_arg26 (by decide)).trans ?_
  skip_host hostOps6_4
  skip_host hostOps6_3
  skip_host hostOps6_2
  exact L2.arg26 m ρ c

theorem arg27 (c : Dev nD) : W25 m ρ c (Proc.devRef .tc main_arg27) = m ((c : Thread nD τ).loc main_arg27) := by
  skip_host hostOps7_1
  skip_host hostOps7
  refine (W23_of_ne m ρ c main_arg27 (by decide)).trans ?_
  skip_host hostOps6_4
  skip_host hostOps6_3
  skip_host hostOps6_2
  exact L2.arg27 m ρ c

end L3

/-- Layer 3's messages. -/
theorem msg3 (hpre : Cert.Pre_KernelIdeal m) (c : Dev nD) :
    W23 m ρ c (Proc.devRef .tc main_v66) =
      Cert.ReferenceIdeal.ReadP.val_main_v111 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25)) :=
  L3.msg m ρ hpre c

/-- Layer 3's node state. -/
theorem h3 (hpre : Cert.Pre_KernelIdeal m) (c : Dev nD) :
    W25 m ρ c (Proc.devRef .tc main_v70) =
      Cert.ReferenceIdeal.ReadP.val_main_v115 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25)) :=
  L3.state m ρ hpre c

end Cert.KernelIdeal.Stages

end
-- ==== Proof.Stage.Msg4.lean ====
/-
  Layer 4: as layer 1, from layer 3's node state.
-/
import proofs.«423839_j69329362092378_2_alg».proof.Defs
import proofs.«423839_j69329362092378_2_alg».proof.Proof.Stage.Msg3
import Mathlib.Algebra.BigOperators.Fin
import Idealize.ShloMosaic.Lib.ValueIdx
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

variable [hPre : Cert.Pre_finite_inputs.Facts]
variable (m : (ℓ : Loc nD τ sig) → Buf (Elt Ideal) ℓ) (ρ : Dev nD → PrngReg)

set_option hygiene false in
/-- A stretch of host operations leaves a buffer it does not write as it was. -/
local macro "skip_host " ops:ident : tactic =>
  `(tactic| refine (StableHlo.after_of_forall_not_mem (b := _) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

namespace L4
open Msg

/-! ## The message kernel's array when it returns -/
section Region
variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: point t takes rows 8000 t … 8000 t + 7999 of the two edge arrays and of the
    result, and the whole of the two weight blocks and of the bias. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem blk7_0 (c : Dev nD) (t : Fin cfg7.N) (p : Fin 8000) (k : Fin 138) (P : Fin 800000) (hP : P.val = t.val * 8000 + p.val) :
    (iblk7 V c 0 t : Vec Ideal S8000x138 .f32) (ValueIdx.ix2 p k) = (V c main_v72 : FVec Ideal S800000x138 .f32) (ValueIdx.ix2 P k) := by
  obtain ⟨e0, e1, -⟩ := idx_facts7 t
  unfold iblk7
  rw [View.read_apply]
  show V c main_v72 _ = V c main_v72 _
  congr 1
  funext a
  apply Fin.ext
  match a with
  | ⟨0, _⟩ => show win7_0.index t 0 * 8000 + 1 * p.val = P.val; rw [e0, hP]; omega
  | ⟨1, _⟩ => show win7_0.index t 1 * 138 + 1 * k.val = k.val; rw [e1]; omega

theorem blk7_1 (c : Dev nD) (t : Fin cfg7.N) (p : Fin 8000) (k : Fin 32) (P : Fin 800000) (hP : P.val = t.val * 8000 + p.val) :
    (iblk7 V c 1 t : Vec Ideal S8000x32 .f32) (ValueIdx.ix2 p k) = (V c main_v40 : FVec Ideal S800000x32 .f32) (ValueIdx.ix2 P k) := by
  obtain ⟨-, -, e0, e1, -⟩ := idx_facts7 t
  unfold iblk7
  rw [View.read_apply]
  show V c main_v40 _ = V c main_v40 _
  congr 1
  funext a
  apply Fin.ext
  match a with
  | ⟨0, _⟩ => show win7_1.index t 0 * 8000 + 1 * p.val = P.val; rw [e0, hP]; omega
  | ⟨1, _⟩ => show win7_1.index t 1 * 32 + 1 * k.val = k.val; rw [e1]; omega

theorem blk7_2 (c : Dev nD) (t : Fin cfg7.N) (k : Fin 138) (q : Fin 10) :
    (iblk7 V c 2 t : Vec Ideal S138x10 .f32) (ValueIdx.ix2 k q) = (V c main_v73 : FVec Ideal S138x10 .f32) (ValueIdx.ix2 k q) := by
  obtain ⟨-, -, -, -, e0, e1, -⟩ := idx_facts7 t
  unfold iblk7
  rw [View.read_apply]
  show V c main_v73 _ = V c main_v73 _
  congr 1
  funext a
  apply Fin.ext
  match a with
  | ⟨0, _⟩ => show win7_2.index t 0 * 138 + 1 * k.val = k.val; rw [e0]; omega
  | ⟨1, _⟩ => show win7_2.index t 1 * 10 + 1 * q.val = q.val; rw [e1]; omega

theorem blk7_3 (c : Dev nD) (t : Fin cfg7.N) (k : Fin 32) (q : Fin 10) :
    (iblk7 V c 3 t : Vec Ideal S32x10 .f32) (ValueIdx.ix2 k q) = (V c main_v74 : FVec Ideal S32x10 .f32) (ValueIdx.ix2 k q) := by
  obtain ⟨-, -, -, -, -, -, e0, e1, -⟩ := idx_facts7 t
  unfold iblk7
  rw [View.read_apply]
  show V c main_v74 _ = V c main_v74 _
  congr 1
  funext a
  apply Fin.ext
  match a with
  | ⟨0, _⟩ => show win7_3.index t 0 * 32 + 1 * k.val = k.val; rw [e0]; omega
  | ⟨1, _⟩ => show win7_3.index t 1 * 10 + 1 * q.val = q.val; rw [e1]; omega

theorem blk7_4 (c : Dev nD) (t : Fin cfg7.N) (q : Fin 10) :
    (iblk7 V c 4 t : Vec Ideal S1x10 .f32) (ValueIdx.ix2 (0 : Fin 1) q) = (V c main_v75 : FVec Ideal S1x10 .f32) (ValueIdx.ix2 (0 : Fin 1) q) := by
  obtain ⟨-, -, -, -, -, -, -, -, e0, e1, -⟩ := idx_facts7 t
  unfold iblk7
  rw [View.read_apply]
  show V c main_v75 _ = V c main_v75 _
  congr 1
  funext a
  apply Fin.ext
  match a with
  | ⟨0, _⟩ => show win7_4.index t 0 * 1 + 1 * (0 : Fin 1).val = (0 : Fin 1).val; rw [e0]; rfl
  | ⟨1, _⟩ => show win7_4.index t 1 * 10 + 1 * q.val = q.val; rw [e1]; omega

/-- What the body computes at point t, row p, channel q, is the message of edge 8000 t + p in channel q. -/
theorem block_msg (c : Dev nD) (t : Fin cfg7.N) (p : Fin 8000) (q : Fin 10) (P : Fin 800000) (hP : P.val = t.val * 8000 + p.val) :
    k7_pay1 (F := Ideal) (iblk7 V c 0 t) (iblk7 V c 2 t) (iblk7 V c 1 t) (iblk7 V c 3 t) (iblk7 V c 4 t) (ValueIdx.ix2 p q)
      = msgAt (V c main_v72) (V c main_v40) (V c main_v73) (V c main_v74) (V c main_v75) P q := by
  refine (Msg.pay4_apply (iblk7 V c 0 t) (iblk7 V c 2 t) (iblk7 V c 1 t) (iblk7 V c 3 t) (iblk7 V c 4 t) p q).trans ?_
  unfold msgAt
  refine congrArg₂ (· + ·) (congrArg₂ (· + ·) (Finset.sum_congr rfl fun k _ => ?_) (Finset.sum_congr rfl fun k _ => ?_)) (blk7_4 V c t q)
  · exact congrArg₂ (· * ·) (blk7_0 V c t p k P hP) (blk7_2 V c t k q)
  · exact congrArg₂ (· * ·) (blk7_1 V c t p k P hP) (blk7_3 V c t k q)
end Region

section RegionArr
variable (V : (c : Dev nD) → (b : Ref sig .tc) → Buf (Elt Ideal) ((c : Thread nD τ).loc b))

/-- What point t writes back is block t of the messages. -/
theorem flushed7 (c : Dev nD) (t : Fin cfg7.N) :
    (dat7 V c).flushed 5 t = ((cfg7.win 5).blk t).view.read (Elt Ideal)
      (msgRows (V c main_v72) (V c main_v40) (V c main_v73) (V c main_v74) (V c main_v75)) := by
  show (cfg7.win 5).cut (grid7.coords t) ((dat7 V c).after 5 t) = _
  rw [after7_5]
  unfold out7_5
  rw [View.canon_unit_zero hz7]
  simp only [View.ld_unit_zero (S := S8000x138) hz7, View.ld_unit_zero (S := S8000x32) hz7, View.ld_unit_zero (S := S138x10) hz7,
    View.ld_unit_zero (S := S32x10) hz7, View.ld_unit_zero (S := S1x10) hz7]
  obtain ⟨-, -, -, -, -, -, -, -, -, -, e0, e1⟩ := idx_facts7 t
  funext j
  show k7_pay1 (F := Ideal) (iblk7 V c 0 t) (iblk7 V c 2 t) (iblk7 V c 1 t) (iblk7 V c 3 t) (iblk7 V c 4 t) ((win7 5).xinj (grid7.coords t) j)
    = msgRows (V c main_v72) (V c main_v40) (V c main_v73) (V c main_v74) (V c main_v75) (((cfg7.win 5).blk t).view.emb j)
  have hp : (j 0).val < 8000 := (j 0).isLt
  have hq : (j 1).val < 10 := (j 1).isLt
  have hN : cfg7.N = 100 := N_7
  have hlt : t.val * 8000 + (j 0).val < 800000 := by have := t.isLt; omega
  have hx : (win7 5).xinj (grid7.coords t) j = ValueIdx.ix2 (⟨(j 0).val, hp⟩ : Fin 8000) (⟨(j 1).val, hq⟩ : Fin 10) :=
    funext fun a => Fin.ext (by match a with | ⟨0, _⟩ => rfl | ⟨1, _⟩ => rfl)
  rw [hx]
  refine (block_msg V c t ⟨(j 0).val, hp⟩ ⟨(j 1).val, hq⟩ ⟨t.val * 8000 + (j 0).val, hlt⟩ rfl).trans ?_
  have h0 : (⟨t.val * 8000 + (j 0).val, hlt⟩ : Fin 800000) = ((((cfg7.win 5).blk t).view.emb j) 0 : Fin 800000) := Fin.ext (by
    show t.val * 8000 + (j 0).val = win7_5.index t 0 * 8000 + 1 * (j 0).val
    rw [e0]; omega)
  have h1 : (⟨(j 1).val, hq⟩ : Fin 10) = ((((cfg7.win 5).blk t).view.emb j) 1 : Fin 10) := Fin.ext (by
    show (j 1).val = win7_5.index t 1 * 10 + 1 * (j 1).val
    rw [e1]; omega)
  exact congrArg₂ (msgAt (V c main_v72) (V c main_v40) (V c main_v73) (V c main_v74) (V c main_v75)) h0 h1

/-- An index of the messages' array is in point t's block iff each coordinate is in the block's range on its axis. -/
theorem mem_blk7 (t : Fin cfg7.N) (i : S800000x10.Idx) :
    i ∈ ((cfg7.win 5).blk t).view.set ↔ ∀ a : Fin 2, win7_5.index t a * S8000x10.size a ≤ (i a).val ∧ (i a).val < win7_5.index t a * S8000x10.size a + S8000x10.size a := by
  show i ∈ ((View.whole main_v76).slice (win7_5.rect t)).set ↔ _
  rw [View.set_slice_whole, Rect.mem_set_unit]
  exact Iff.rfl

/-- Every edge row is in some point's block: row r in point r / 8000's. -/
theorem cover7 (i : S800000x10.Idx) : ∃ t : Fin cfg7.N, (cfg7.win 5).flush t = true ∧ i ∈ ((cfg7.win 5).blk t).view.set := by
  have hi0 : (i 0).val < 800000 := (i 0).isLt
  have hi1 : (i 1).val < 10 := (i 1).isLt
  have hN : cfg7.N = 100 := N_7
  have ht : (i 0).val / 8000 < cfg7.N := by omega
  obtain ⟨-, -, -, -, -, -, -, -, -, -, e0, e1⟩ := idx_facts7 ⟨(i 0).val / 8000, ht⟩
  refine ⟨⟨(i 0).val / 8000, ht⟩, flush7_5 _, ?_⟩
  rw [mem_blk7]
  intro a
  match a with
  | ⟨0, _⟩ =>
    show win7_5.index ⟨(i 0).val / 8000, ht⟩ 0 * 8000 ≤ (i 0).val ∧ (i 0).val < win7_5.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win7_5.index ⟨(i 0).val / 8000, ht⟩ 1 * 10 ≤ (i 1).val ∧ (i 1).val < win7_5.index ⟨(i 0).val / 8000, ht⟩ 1 * 10 + 10
    rw [e1]; omega

/-- The messages' array when the message kernel returns. -/
theorem msg_arr (c : Dev nD) :
    (dat7 V c).arrAt 5 cfg7.N = msgRows (V c main_v72) (V c main_v40) (V c main_v73) (V c main_v74) (V c main_v75) :=
  (dat7 V c).arrAt_eq_of_cover 5 _ (fun t _ => flushed7 V c t) cover7
end RegionArr

/-! ## The guarded lookup and the cut at zero, read at their written buffers -/

set_option maxHeartbeats 2000000 in
theorem take_key (V : Valuation τ sig (Elt Ideal)) :
    (StableHlo.TRef.of main_v72 : StableHlo.TRef sig ⟨S800000x138, .f32⟩).ofBuf (StableHlo.after hostOps7_3 V (Proc.devRef .tc main_v72))
      = takeRows (F := Ideal)
          ((StableHlo.TRef.of main_v71 : StableHlo.TRef sig ⟨S50000x138, .f32⟩).ofBuf (V (Proc.devRef .tc main_v71)))
          ((StableHlo.TRef.of main_v1 : StableHlo.TRef sig ⟨S800000, .i32⟩).ofBuf (V (Proc.devRef .tc main_v1))) := by
  after_results_simp
  simp only [Msg.ofBuf_toBuf]
  unfold takeRows guardOf wrapIdx
  rfl

/-- The looked-up rows are the guarded lookup of the joined table at the source row numbers. -/
theorem rows_take (c : Dev nD) :
    W27 m ρ c (Proc.devRef .tc main_v72)
      = takeRows (F := Ideal) (W26 m ρ c (Proc.devRef .tc main_v71)) (W26 m ρ c (Proc.devRef .tc main_v1)) := by
  have key := take_key (W26 m ρ c)
  show StableHlo.after hostOps7_3 (W26 m ρ c) (Proc.devRef .tc main_v72) = _
  generalize StableHlo.after hostOps7_3 (W26 m ρ c) (Proc.devRef .tc main_v72) = L at key ⊢
  generalize W26 m ρ c (Proc.devRef .tc main_v71) = a at key ⊢
  generalize W26 m ρ c (Proc.devRef .tc main_v1) = b at key ⊢
  exact key

theorem relu_key (V : Valuation τ sig (Elt Ideal)) :
    (StableHlo.TRef.of main_v80 : StableHlo.TRef sig ⟨S50000x10, .f32⟩).ofBuf (StableHlo.after hostOps8_1 V (Proc.devRef .tc main_v80))
      = maximumf (F := Ideal) ((StableHlo.TRef.of main_v79 : StableHlo.TRef sig ⟨S50000x10, .f32⟩).ofBuf (V (Proc.devRef .tc main_v79)))
          (broadcastInDim S50000x10 ![] bcast_S_S50000x10 (constant S_ .f32 0x00000000#32)) := by
  after_results_simp
  simp only [Msg.ofBuf_toBuf]

/-- The layer's result is the summed messages cut at zero. -/
theorem out_relu (c : Dev nD) :
    W31 m ρ c (Proc.devRef .tc main_v80)
      = maximumf (F := Ideal) (W30 m ρ c (Proc.devRef .tc main_v79)) (broadcastInDim S50000x10 ![] bcast_S_S50000x10 (constant S_ .f32 0x00000000#32)) := by
  have key := relu_key (W30 m ρ c)
  show StableHlo.after hostOps8_1 (W30 m ρ c) (Proc.devRef .tc main_v80) = _
  generalize StableHlo.after hostOps8_1 (W30 m ρ c) (Proc.devRef .tc main_v80) = L at key ⊢
  generalize W30 m ρ c (Proc.devRef .tc main_v79) = a at key ⊢
  exact key

/-! ## The layer, boundary by boundary -/

/-- The joined node table [x, state]. -/
theorem tbl (hpre : Cert.Pre_KernelIdeal m) (c : Dev nD) : W26 m ρ c (Proc.devRef .tc main_v71) = Cert.ReferenceIdeal.ReadP.val_main_v116 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  have e0 := L3.x m ρ c
  have e1 := L3.state m ρ hpre c
  show StableHlo.after hostOps7_2 (W25 m ρ c) (Proc.devRef .tc main_v71) = _
  generalize W25 m ρ c = V at e0 e1 ⊢
  after_results
  rw [e0, e1]
  unfold Cert.ReferenceIdeal.ReadP.val_main_v116
  exact Msg.concat_names _ _

theorem src1 (c : Dev nD) : W26 m ρ c (Proc.devRef .tc main_v1) = Cert.ReferenceIdeal.ReadP.val_main_v1 (F := Ideal) (m ((c : Thread nD τ).loc main_arg2)) := by
  skip_host hostOps7_2
  exact L3.src m ρ c

/-- The reference's index column of this layer's lookup is the column read. -/
theorem idx_ref (x2 : IVec S2x800000 32) : wrapIdx (Cert.ReferenceIdeal.ReadP.val_main_v1 (F := Ideal) x2) = Cert.ReferenceIdeal.ReadP.val_main_v122 (F := Ideal) x2 := rfl

/-- The looked-up rows. -/
theorem rows (hpre : Cert.Pre_KernelIdeal m) (c : Dev nD) : W27 m ρ c (Proc.devRef .tc main_v72) = Cert.ReferenceIdeal.ReadP.val_main_v123 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  rw [rows_take m ρ c, tbl m ρ hpre c, src1 m ρ c, take_of_pre m hpre c, idx_ref]
  unfold Cert.ReferenceIdeal.ReadP.val_main_v123
  exact Msg.gather_names _ _

theorem rows3 (hpre : Cert.Pre_KernelIdeal m) (c : Dev nD) : W28 m ρ c (Proc.devRef .tc main_v72) = Cert.ReferenceIdeal.ReadP.val_main_v123 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  skip_host hostOps7_4
  exact rows m ρ hpre c

theorem ea3 (c : Dev nD) : W28 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps7_4
  skip_host hostOps7_3
  skip_host hostOps7_2
  exact L3.ea m ρ c

theorem argW2 (c : Dev nD) : W27 m ρ c (Proc.devRef .tc main_arg26) = (m ((c : Thread nD τ).loc main_arg26)) := by
  skip_host hostOps7_3
  skip_host hostOps7_2
  exact L3.arg26 m ρ c

theorem argB2 (c : Dev nD) : W27 m ρ c (Proc.devRef .tc main_arg27) = (m ((c : Thread nD τ).loc main_arg27)) := by
  skip_host hostOps7_3
  skip_host hostOps7_2
  exact L3.arg27 m ρ c

theorem wh3 (c : Dev nD) : W28 m ρ c (Proc.devRef .tc main_v73) = extractStridedSlice S138x10 ![0, 0] (m ((c : Thread nD τ).loc main_arg26)) slices_S170x10_S138x10_0_0 := by
  have e := argW2 m ρ c
  show StableHlo.after hostOps7_4 (W27 m ρ c) (Proc.devRef .tc main_v73) = _
  generalize W27 m ρ c = V at e ⊢
  after_results
  rw [e]

theorem we3 (c : Dev nD) : W28 m ρ c (Proc.devRef .tc main_v74) = extractStridedSlice S32x10 ![138, 0] (m ((c : Thread nD τ).loc main_arg26)) slices_S170x10_S32x10_138_0 := by
  have e := argW2 m ρ c
  show StableHlo.after hostOps7_4 (W27 m ρ c) (Proc.devRef .tc main_v74) = _
  generalize W27 m ρ c = V at e ⊢
  after_results
  rw [e]

theorem br3 (c : Dev nD) : W28 m ρ c (Proc.devRef .tc main_v75) = shapeCast S1x10 (m ((c : Thread nD τ).loc main_arg27)) shapeCasts_S10_S1x10 := by
  have e := argB2 m ρ c
  show StableHlo.after hostOps7_4 (W27 m ρ c) (Proc.devRef .tc main_v75) = _
  generalize W27 m ρ c = V at e ⊢
  after_results
  rw [e]
  rfl

/-- The reference's messages, its stages unfolded one level each. -/
theorem ref_msg (c : Dev nD) : Cert.ReferenceIdeal.ReadP.val_main_v128 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = Msg.refMsg (Cert.ReferenceIdeal.ReadP.val_main_v123 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19))) (m ((c : Thread nD τ).loc main_arg26)) (m ((c : Thread nD τ).loc main_arg27)) := by
  unfold Cert.ReferenceIdeal.ReadP.val_main_v128 Cert.ReferenceIdeal.ReadP.val_main_v125 Cert.ReferenceIdeal.ReadP.val_main_v124 Cert.ReferenceIdeal.ReadP.val_main_v127 Cert.ReferenceIdeal.ReadP.val_main_v126 Msg.refMsg
  rfl

/-- The layer's messages, one row per edge. -/
theorem msg (hpre : Cert.Pre_KernelIdeal m) (c : Dev nD) : W29 m ρ c (Proc.devRef .tc main_v76) = Cert.ReferenceIdeal.ReadP.val_main_v128 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine (W29_arr m ρ c 5).trans ?_
  rw [msg_arr (V28 m ρ) c]
  show Msg.msgRows (W28 m ρ c (Proc.devRef .tc main_v72)) (W28 m ρ c (Proc.devRef .tc main_v40)) (W28 m ρ c (Proc.devRef .tc main_v73))
    (W28 m ρ c (Proc.devRef .tc main_v74)) (W28 m ρ c (Proc.devRef .tc main_v75)) = _
  rw [rows3 m ρ hpre c, ea3 m ρ c, wh3 m ρ c, we3 m ρ c, br3 m ρ c, ref_msg m c]
  exact Msg.msgRows_eq_ref _ _ _ _ _ (m ((c : Thread nD τ).loc main_arg26)) (m ((c : Thread nD τ).loc main_arg27)) (Msg.upper_apply _) (Msg.lower_apply _) (Msg.biasRow_of _)

theorem dst4 (c : Dev nD) : W29 m ρ c (Proc.devRef .tc main_v3) = Cert.ReferenceIdeal.ReadP.val_main_v3 (F := Ideal) (m ((c : Thread nD τ).loc main_arg2)) := by
  refine (W29_of_ne m ρ c main_v3 (by decide)).trans ?_
  skip_host hostOps7_4
  skip_host hostOps7_3
  skip_host hostOps7_2
  exact L3.dst m ρ c

/-- The messages summed at their destinations. -/
theorem agg (hpre : Cert.Pre_KernelIdeal m) (c : Dev nD) :
    maximumf (F := Ideal) (W30 m ρ c (Proc.devRef .tc main_v79)) (broadcastInDim S50000x10 ![] bcast_S_S50000x10 (constant S_ .f32 0x00000000#32))
      = Msg.aggOf (Cert.ReferenceIdeal.ReadP.val_main_v3 (F := Ideal) (m ((c : Thread nD τ).loc main_arg2))) (Cert.ReferenceIdeal.ReadP.val_main_v128 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) := by
  have e0 := dst4 m ρ c
  have e1 := msg m ρ hpre c
  unfold Msg.aggOf
  refine congrArg (maximumf · _) ?_
  show StableHlo.after hostOps8 (W29 m ρ c) (Proc.devRef .tc main_v79) = _
  generalize W29 m ρ c = V at e0 e1 ⊢
  after_results
  rw [e0, e1]

/-- The reference's node state, its stages unfolded one level each. -/
theorem ref_out (c : Dev nD) : Cert.ReferenceIdeal.ReadP.val_main_v132 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = Msg.aggOf (Cert.ReferenceIdeal.ReadP.val_main_v3 (F := Ideal) (m ((c : Thread nD τ).loc main_arg2))) (Cert.ReferenceIdeal.ReadP.val_main_v128 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))) := by
  rw [Msg.aggOf_names]
  unfold Cert.ReferenceIdeal.ReadP.val_main_v132 Cert.ReferenceIdeal.ReadP.val_main_v131 Cert.ReferenceIdeal.ReadP.val_main_v129 Cert.ReferenceIdeal.ReadP.val_main_cst_19 Cert.ReferenceIdeal.ReadP.val_main_v130 Cert.ReferenceIdeal.ReadP.val_main_call4_v0 Cert.ReferenceIdeal.ReadP.val_main_call4_cst
  rfl

/-- The layer's node state. -/
theorem state (hpre : Cert.Pre_KernelIdeal m) (c : Dev nD) : W31 m ρ c (Proc.devRef .tc main_v80) = Cert.ReferenceIdeal.ReadP.val_main_v132 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  rw [out_relu m ρ c, agg m ρ hpre c, ref_out m c]

/-! ## What the next layer finds at its first boundary: the carried arrays, untouched by this layer -/

theorem x (c : Dev nD) : W31 m ρ c (Proc.devRef .tc main_arg0) = m ((c : Thread nD τ).loc main_arg0) := by
  skip_host hostOps8_1
  skip_host hostOps8
  refine (W29_of_ne m ρ c main_arg0 (by decide)).trans ?_
  skip_host hostOps7_4
  skip_host hostOps7_3
  skip_host hostOps7_2
  exact L3.x m ρ c

theorem src (c : Dev nD) : W31 m ρ c (Proc.devRef .tc main_v1) = Cert.ReferenceIdeal.ReadP.val_main_v1 (F := Ideal) (m ((c : Thread nD τ).loc main_arg2)) := by
  skip_host hostOps8_1
  skip_host hostOps8
  refine (W29_of_ne m ρ c main_v1 (by decide)).trans ?_
  skip_host hostOps7_4
  skip_host hostOps7_3
  skip_host hostOps7_2
  exact L3.src m ρ c

theorem dst (c : Dev nD) : W31 m ρ c (Proc.devRef .tc main_v3) = Cert.ReferenceIdeal.ReadP.val_main_v3 (F := Ideal) (m ((c : Thread nD τ).loc main_arg2)) := by
  skip_host hostOps8_1
  skip_host hostOps8
  refine (W29_of_ne m ρ c main_v3 (by decide)).trans ?_
  skip_host hostOps7_4
  skip_host hostOps7_3
  skip_host hostOps7_2
  exact L3.dst m ρ c

/-- The edge features: the message kernel reads them through a window and leaves them. -/
theorem ea (c : Dev nD) : W31 m ρ c (Proc.devRef .tc main_v40) = Cert.ReferenceIdeal.ReadP.val_main_v64 (F := Ideal) (m ((c : Thread nD τ).loc main_arg6)) (m ((c : Thread nD τ).loc main_arg12)) (m ((c : Thread nD τ).loc main_arg13)) (m ((c : Thread nD τ).loc main_arg17)) (m ((c : Thread nD τ).loc main_arg18)) (m ((c : Thread nD τ).loc main_arg19)) := by
  skip_host hostOps8_1
  skip_host hostOps8
  refine ((W29_arr m ρ c 1).trans (((dat7 (V28 m ρ) c).arrAt_in 1 rfl _).trans (A_eq7 (V28 m ρ) c 1))).trans ?_
  exact ea3 m ρ c

theorem arg20 (c : Dev nD) : W31 m ρ c (Proc.devRef .tc main_arg20) = m ((c : Thread nD τ).loc main_arg20) := by
  skip_host hostOps8_1
  skip_host hostOps8
  refine (W29_of_ne m ρ c main_arg20 (by decide)).trans ?_
  skip_host hostOps7_4
  skip_host hostOps7_3
  skip_host hostOps7_2
  exact L3.arg20 m ρ c

theorem arg21 (c : Dev nD) : W31 m ρ c (Proc.devRef .tc main_arg21) = m ((c : Thread nD τ).loc main_arg21) := by
  skip_host hostOps8_1
  skip_host hostOps8
  refine (W29_of_ne m ρ c main_arg21 (by decide)).trans ?_
  skip_host hostOps7_4
  skip_host hostOps7_3
  skip_host hostOps7_2
  exact L3.arg21 m ρ c

theorem arg22 (c : Dev nD) : W31 m ρ c (Proc.devRef .tc main_arg22) = m ((c : Thread nD τ).loc main_arg22) := by
  skip_host hostOps8_1
  skip_host hostOps8
  refine (W29_of_ne m ρ c main_arg22 (by decide)).trans ?_
  skip_host hostOps7_4
  skip_host hostOps7_3
  skip_host hostOps7_2
  exact L3.arg22 m ρ c

theorem arg23 (c : Dev nD) : W31 m ρ c (Proc.devRef .tc main_arg23) = m ((c : Thread nD τ).loc main_arg23) := by
  skip_host hostOps8_1
  skip_host hostOps8
  refine (W29_of_ne m ρ c main_arg23 (by decide)).trans ?_
  skip_host hostOps7_4
  skip_host hostOps7_3
  skip_host hostOps7_2
  exact L3.arg23 m ρ c

theorem arg24 (c : Dev nD) : W31 m ρ c (Proc.devRef .tc main_arg24) = m ((c : Thread nD τ).loc main_arg24) := by
  skip_host hostOps8_1
  skip_host hostOps8
  refine (W29_of_ne m ρ c main_arg24 (by decide)).trans ?_
  skip_host hostOps7_4
  skip_host hostOps7_3
  skip_host hostOps7_2
  exact L3.arg24 m ρ c

theorem arg25 (c : Dev nD) : W31 m ρ c (Proc.devRef .tc main_arg25) = m ((c : Thread nD τ).loc main_arg25) := by
  skip_host hostOps8_1
  skip_host hostOps8
  refine (W29_of_ne m ρ c main_arg25 (by decide)).trans ?_
  skip_host hostOps7_4
  skip_host hostOps7_3
  skip_host hostOps7_2
  exact L3.arg25 m ρ c

theorem arg26 (c : Dev nD) : W31 m ρ c (Proc.devRef .tc main_arg26) = m ((c : Thread nD τ).loc main_arg26) := by
  skip_host hostOps8_1
  skip_host hostOps8
  refine (W29_of_ne m ρ c main_arg26 (by decide)).trans ?_
  skip_host hostOps7_4
  skip_host hostOps7_3
  skip_host hostOps7_2
  exact L3.arg26 m ρ c

theorem arg27 (c : Dev nD) : W31 m ρ c (Proc.devRef .tc main_arg27) = m ((c : Thread nD τ).loc main_arg27) := by
  skip_host hostOps8_1
  skip_host hostOps8
  refine (W29_of_ne m ρ c main_arg27 (by decide)).trans ?_
  skip_host hostOps7_4
  skip_host hostOps7_3
  skip_host hostOps7_2
  exact L3.arg27 m ρ c

end L4

/-- Layer 4's messages. -/
theorem msg4 (hpre : Cert.Pre_KernelIdeal m) (c : Dev nD) :
    W29 m ρ c (Proc.devRef .tc main_v76) =
      Cert.ReferenceIdeal.ReadP.val_main_v128 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25))
        (m ((c : Thread nD τ).loc main_arg26))
        (m ((c : Thread nD τ).loc main_arg27)) :=
  L4.msg m ρ hpre c

/-- Layer 4's node state. -/
theorem h4 (hpre : Cert.Pre_KernelIdeal m) (c : Dev nD) :
    W31 m ρ c (Proc.devRef .tc main_v80) =
      Cert.ReferenceIdeal.ReadP.val_main_v132 (F := Ideal)
        (m ((c : Thread nD τ).loc main_arg0))
        (m ((c : Thread nD τ).loc main_arg2))
        (m ((c : Thread nD τ).loc main_arg6))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25))
        (m ((c : Thread nD τ).loc main_arg26))
        (m ((c : Thread nD τ).loc main_arg27)) :=
  L4.state m ρ hpre c

end Cert.KernelIdeal.Stages

end
-- ==== Proof.Stage.Result.lean ====
/-
  The last linear layer, the lookup of the picked rows and the softmax over the two classes are the same operations on both sides, applied to equal node states.
-/
import proofs.«423839_j69329362092378_2_alg».proof.Defs
import proofs.«423839_j69329362092378_2_alg».proof.Proof.Stage.Msg4

set_option maxRecDepth 16384

noncomputable section

namespace Cert.KernelIdeal.Stages

open Cert.KernelIdeal Cert.KernelIdeal.Gen
open Idealize.ShloMosaic Idealize.ShloMosaic.TcCoe Idealize.SL.Sem

variable [hPre : Cert.Pre_finite_inputs.Facts]
variable (m : (ℓ : Loc nD τ sig) → Buf (Elt Ideal) ℓ) (ρ : Dev nD → PrngReg)

/-- The vector of picked node indices is written by no operation of the last host stretch, and holds at the return what the launch
    held; so at the entry of that stretch it still holds the launch contents. -/
theorem entry_main_arg7 (c : Dev nD) :
    W31 m ρ c (Proc.devRef .tc main_arg7) = m ((c : Thread nD τ).loc main_arg7) :=
  (StableHlo.after_of_forall_not_mem (b := Proc.devRef .tc main_arg7) (hostOps8_2 (F := Ideal)) (W31 m ρ c) (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W32_main_arg7 m ρ c)

/-- The last layer's weight matrix is written by no operation of the last host stretch, and holds at the return what the launch
    held; so at the entry of that stretch it still holds the launch contents. -/
theorem entry_main_arg28 (c : Dev nD) :
    W31 m ρ c (Proc.devRef .tc main_arg28) = m ((c : Thread nD τ).loc main_arg28) :=
  (StableHlo.after_of_forall_not_mem (b := Proc.devRef .tc main_arg28) (hostOps8_2 (F := Ideal)) (W31 m ρ c) (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W32_main_arg28 m ρ c)

/-- The last layer's bias is written by no operation of the last host stretch, and holds at the return what the launch
    held; so at the entry of that stretch it still holds the launch contents. -/
theorem entry_main_arg29 (c : Dev nD) :
    W31 m ρ c (Proc.devRef .tc main_arg29) = m ((c : Thread nD τ).loc main_arg29) :=
  (StableHlo.after_of_forall_not_mem (b := Proc.devRef .tc main_arg29) (hostOps8_2 (F := Ideal)) (W31 m ρ c) (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W32_main_arg29 m ρ c)

/-- The class probabilities of the picked nodes. -/
theorem result (hpre : Cert.Pre_KernelIdeal m) (c : Dev nD) :
    W32 m ρ c (Proc.devRef .tc main_v102) =
      Cert.ReferenceIdeal.ReadP.val_main_v154 (F := Ideal)
        (m ((c : Thread nD τ).loc main_arg0))
        (m ((c : Thread nD τ).loc main_arg2))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24))
        (m ((c : Thread nD τ).loc main_arg25))
        (m ((c : Thread nD τ).loc main_arg26))
        (m ((c : Thread nD τ).loc main_arg27))
        (m ((c : Thread nD τ).loc main_arg28))
        (m ((c : Thread nD τ).loc main_arg29)) := by
  -- What the last stretch reads: layer 4's node state h, the picked indices p, the weight w and the bias b.
  have h80 := h4 m ρ hpre c
  have a7 := entry_main_arg7 m ρ c
  have a28 := entry_main_arg28 m ρ c
  have a29 := entry_main_arg29 m ρ c
  show StableHlo.after hostOps8_2 (W31 m ρ c) (Proc.devRef .tc main_v102) = _
  generalize W31 m ρ c = V at h80 a7 a28 a29 ⊢
  -- The result buffer holds e / (e summed over the two classes), where e = exp (z − max z over the two classes),
  -- z = the rows of h · w + b picked by p, a negative index counted from the end (p + 50000).
  after_results_simp
  rw [h80, a7, a28, a29]
  -- The reference's stages 133 to 154 are the same operations in the same order on the same four operands.
  unfold Cert.ReferenceIdeal.ReadP.val_main_v154 Cert.ReferenceIdeal.ReadP.val_main_v153 Cert.ReferenceIdeal.ReadP.val_main_v152 Cert.ReferenceIdeal.ReadP.val_main_v151 Cert.ReferenceIdeal.ReadP.val_main_v150 Cert.ReferenceIdeal.ReadP.val_main_v149 Cert.ReferenceIdeal.ReadP.val_main_v148 Cert.ReferenceIdeal.ReadP.val_main_v147 Cert.ReferenceIdeal.ReadP.val_main_v146 Cert.ReferenceIdeal.ReadP.val_main_v145 Cert.ReferenceIdeal.ReadP.val_main_v144 Cert.ReferenceIdeal.ReadP.val_main_v143 Cert.ReferenceIdeal.ReadP.val_main_v142 Cert.ReferenceIdeal.ReadP.val_main_v141 Cert.ReferenceIdeal.ReadP.val_main_v140 Cert.ReferenceIdeal.ReadP.val_main_v139 Cert.ReferenceIdeal.ReadP.val_main_v138 Cert.ReferenceIdeal.ReadP.val_main_v137 Cert.ReferenceIdeal.ReadP.val_main_v136 Cert.ReferenceIdeal.ReadP.val_main_v135 Cert.ReferenceIdeal.ReadP.val_main_v134 Cert.ReferenceIdeal.ReadP.val_main_v133 Cert.ReferenceIdeal.ReadP.val_main_cst_24 Cert.ReferenceIdeal.ReadP.val_main_cst_23 Cert.ReferenceIdeal.ReadP.val_main_cst_22 Cert.ReferenceIdeal.ReadP.val_main_c_21 Cert.ReferenceIdeal.ReadP.val_main_c_20
  generalize Cert.ReferenceIdeal.ReadP.val_main_v132 (F := Ideal) (m ((c : Thread nD τ).loc main_arg0)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = y
  generalize m ((c : Thread nD τ).loc main_arg7) = p
  generalize m ((c : Thread nD τ).loc main_arg28) = w
  generalize m ((c : Thread nD τ).loc main_arg29) = b
  -- Over the four operands as variables the two sides differ only in each program's own name for the same
  -- shapes and dimension records.
  rfl

end Cert.KernelIdeal.Stages

end
-- ==== Proof.lean ====
/-
  The kernel computes, on a graph of 50000 nodes and 800000 edges, a linear layer and a graph normalisation of the
  node features, the same of the edge features, four rounds of message passing (a row lookup at each edge's source,
  a linear map of the looked-up row joined with the edge's features, a sum at each edge's destination, a cut at
  zero), a last linear layer, and a softmax over two classes at the picked nodes. The reference computes the same
  with whole-array operations. Over the extended reals the two agree wherever every source index names a node row:
  the kernel's row lookup fills rows of an out-of-range index, the reference's clamps the index, so outside that
  range the two differ, and the precondition states the range.
  The three frames: the two kernel programs' are generated; the reference's is its run with the result dropped.
  The idealization ledger is empty. The value claim: both runs end at the last stage of the reference's chain as a
  function of the arguments; the kernel's run reaches it segment by segment (the modules under Stage/), the
  reference's by its own operations (RefRun), and the arguments agree by hypothesis.
-/
import proofs.«423839_j69329362092378_2_alg».proof.Defs
import proofs.«423839_j69329362092378_2_alg».proof.Proof.Gen.Kernel
import proofs.«423839_j69329362092378_2_alg».proof.Proof.Gen.Kernel.Skeleton
import proofs.«423839_j69329362092378_2_alg».proof.Proof.Gen.Kernel.Launch
import proofs.«423839_j69329362092378_2_alg».proof.Proof.Gen.Kernel.Points
import proofs.«423839_j69329362092378_2_alg».proof.Proof.Gen.Kernel.Frame
import proofs.«423839_j69329362092378_2_alg».proof.Proof.Gen.KernelIdeal
import proofs.«423839_j69329362092378_2_alg».proof.Proof.Gen.KernelIdeal.Skeleton
import proofs.«423839_j69329362092378_2_alg».proof.Proof.Gen.KernelIdeal.Launch
import proofs.«423839_j69329362092378_2_alg».proof.Proof.Gen.KernelIdeal.Points
import proofs.«423839_j69329362092378_2_alg».proof.Proof.Gen.KernelIdeal.Frame
import proofs.«423839_j69329362092378_2_alg».proof.Proof.Gen.ReferenceIdeal
import proofs.«423839_j69329362092378_2_alg».proof.Proof.Gen.Pre_finite_inputs
import proofs.«423839_j69329362092378_2_alg».proof.Proof.KRun
import proofs.«423839_j69329362092378_2_alg».proof.Proof.RefRun
import proofs.«423839_j69329362092378_2_alg».proof.Proof.Stage.Result
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both idealized programs end with the result array at the last stage of the reference's chain, a function of
    the argument arrays, which agree. -/
theorem algebraic : Cert.algebraic_KernelIdeal_ReferenceIdeal := by
  intro m ρ m' ρ' hpre hagree
  refine ⟨fun c => Cert.ReferenceIdeal.ReadP.val_main_v154 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29)), ?_, ?_⟩
  · exact (θ_run Cert.KernelIdeal.defs _ _).mono
      (fun r h c => ⟨(h c).1.trans (Cert.KernelIdeal.Stages.result m ρ hpre c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7, e8, e9, e10, e11, e12, e13, e14, e15, e16, e17, e18, e19, e20, e21, e22, e23, e24, e25, e26, e27, e28, e29⟩ := hagree c
    rw [e0, e2, e6, e7, e8, e9, e10, e11, e12, e13, e14, e15, e16, e17, e18, e19, e20, e21, e22, e23, e24, e25, e26, e27, e28, e29]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
